-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S12x2048 : Shape := ⟨2, ![12, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S12x2048 : S_.BroadcastsInDim S12x2048 (![] : Fin 0 → Fin S12x2048.rank)
  reducesTo_S12x2048_S_d0_1 : S12x2048.ReducesTo [0, 1] S_

variable [Facts]

def fn {F : FTy → Type} [FloatOps F] (main_arg0 : FVec F S4096x4096 .f32) (main_arg1 : FVec F S12x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S12x2048 .f32 := Host.absf main_arg1
  let main_cst_0 : FVec F S_ .f32 := constant S_ .f32 0x7F800000#32
  let main_v5 : FVec F S12x2048 .f32 := broadcastInDim S12x2048 ![] bcast_S_S12x2048 main_cst_0
  let main_v6 : IVec S12x2048 1 := cmpf .olt main_v4 main_v5
  let main_c_1 : IVec S_ 1 := constantI S_ 1 1#1
  let main_v7 : IVec S_ 1 := (fun x v => Host.reduce IntOp.andi x v reducesTo_S12x2048_S_d0_1 h_S_) main_v6 main_c_1
  let main_v8 : IVec S_ 1 := andi main_v3 main_v7
  main_v8
-- ==== Kernel.lean ====
abbrev S4096x4096 : Shape := ⟨2, ![4096, 4096]⟩
abbrev S12x2048 : Shape := ⟨2, ![12, 2048]⟩
abbrev S7x2048 : Shape := ⟨2, ![7, 2048]⟩
abbrev S5x2048 : Shape := ⟨2, ![5, 2048]⟩
abbrev S7x32x64 : Shape := ⟨3, ![7, 32, 64]⟩
abbrev S32x7x64 : Shape := ⟨3, ![32, 7, 64]⟩
abbrev S128x128 : Shape := ⟨2, ![128, 128]⟩
abbrev S_ : Shape := ⟨0, ![]⟩
abbrev S128x64x2x1 : Shape := ⟨4, ![128, 64, 2, 1]⟩
abbrev S32x1x64 : Shape := ⟨3, ![32, 1, 64]⟩
abbrev S32x64 : Shape := ⟨2, ![32, 64]⟩
abbrev S32x64x1 : Shape := ⟨3, ![32, 64, 1]⟩
abbrev S128x64x1x1 : Shape := ⟨4, ![128, 64, 1, 1]⟩
abbrev S128x64x1 : Shape := ⟨3, ![128, 64, 1]⟩
abbrev S32x1x64x1 : Shape := ⟨4, ![32, 1, 64, 1]⟩
abbrev S1x128x64x1 : Shape := ⟨4, ![1, 128, 64, 1]⟩
abbrev S32x128x64x1 : Shape := ⟨4, ![32, 128, 64, 1]⟩
abbrev S32x128x64x1x1 : Shape := ⟨5, ![32, 128, 64, 1, 1]⟩
abbrev S32x128x64x2x1 : Shape := ⟨5, ![32, 128, 64, 2, 1]⟩
abbrev S32x128x128 : Shape := ⟨3, ![32, 128, 128]⟩
abbrev S32x128x32x2x2 : Shape := ⟨5, ![32, 128, 32, 2, 2]⟩
abbrev S32x32x2 : Shape := ⟨3, ![32, 32, 2]⟩
abbrev S32x128x32x1x2 : Shape := ⟨5, ![32, 128, 32, 1, 2]⟩
abbrev S32x128x32x2 : Shape := ⟨4, ![32, 128, 32, 2]⟩
abbrev S32x1x32x2 : Shape := ⟨4, ![32, 1, 32, 2]⟩
abbrev S32x128x16x2x4 : Shape := ⟨5, ![32, 128, 16, 2, 4]⟩
abbrev S32x16x4 : Shape := ⟨3, ![32, 16, 4]⟩
abbrev S32x128x16x1x4 : Shape := ⟨5, ![32, 128, 16, 1, 4]⟩
abbrev S32x128x16x4 : Shape := ⟨4, ![32, 128, 16, 4]⟩
abbrev S32x1x16x4 : Shape := ⟨4, ![32, 1, 16, 4]⟩
abbrev S32x128x8x2x8 : Shape := ⟨5, ![32, 128, 8, 2, 8]⟩
abbrev S32x8x8 : Shape := ⟨3, ![32, 8, 8]⟩
abbrev S32x128x8x1x8 : Shape := ⟨5, ![32, 128, 8, 1, 8]⟩
abbrev S32x128x8x8 : Shape := ⟨4, ![32, 128, 8, 8]⟩
abbrev S32x1x8x8 : Shape := ⟨4, ![32, 1, 8, 8]⟩
abbrev S32x128x4x2x16 : Shape := ⟨5, ![32, 128, 4, 2, 16]⟩
abbrev S32x4x16 : Shape := ⟨3, ![32, 4, 16]⟩
abbrev S32x128x4x1x16 : Shape := ⟨5, ![32, 128, 4, 1, 16]⟩
abbrev S32x128x4x16 : Shape := ⟨4, ![32, 128, 4, 16]⟩
abbrev S32x1x4x16 : Shape := ⟨4, ![32, 1, 4, 16]⟩
abbrev S32x128x2x2x32 : Shape := ⟨5, ![32, 128, 2, 2, 32]⟩
abbrev S32x2x32 : Shape := ⟨3, ![32, 2, 32]⟩
abbrev S32x128x2x1x32 : Shape := ⟨5, ![32, 128, 2, 1, 32]⟩
abbrev S32x128x2x32 : Shape := ⟨4, ![32, 128, 2, 32]⟩
abbrev S32x1x2x32 : Shape := ⟨4, ![32, 1, 2, 32]⟩
abbrev S32x128x1x2x64 : Shape := ⟨5, ![32, 128, 1, 2, 64]⟩
abbrev S32x128x1x1x64 : Shape := ⟨5, ![32, 128, 1, 1, 64]⟩
abbrev S32x128x1x64 : Shape := ⟨4, ![32, 128, 1, 64]⟩
abbrev S32x1x1x64 : Shape := ⟨4, ![32, 1, 1, 64]⟩
abbrev S256x4096 : Shape := ⟨2, ![256, 4096]⟩
abbrev S256x128 : Shape := ⟨2, ![256, 128]⟩
abbrev S1x128x128 : Shape := ⟨3, ![1, 128, 128]⟩
abbrev S1x2048 : Shape := ⟨2, ![1, 2048]⟩
abbrev S2048 : Shape := ⟨1, ![2048]⟩
abbrev S16x128 : Shape := ⟨2, ![16, 128]⟩
abbrev S1x128 : Shape := ⟨2, ![1, 128]⟩
abbrev S128 : Shape := ⟨1, ![128]⟩
abbrev S8x256 : Shape := ⟨2, ![8, 256]⟩
abbrev S256x256 : Shape := ⟨2, ![256, 256]⟩
abbrev S1x256 : Shape := ⟨2, ![1, 256]⟩
abbrev S256 : Shape := ⟨1, ![256]⟩
abbrev S4x512 : Shape := ⟨2, ![4, 512]⟩
abbrev S256x512 : Shape := ⟨2, ![256, 512]⟩
abbrev S1x512 : Shape := ⟨2, ![1, 512]⟩
abbrev S512 : Shape := ⟨1, ![512]⟩
abbrev S2x1024 : Shape := ⟨2, ![2, 1024]⟩
abbrev S256x1024 : Shape := ⟨2, ![256, 1024]⟩
abbrev S1x1024 : Shape := ⟨2, ![1, 1024]⟩
abbrev S1024 : Shape := ⟨1, ![1024]⟩
abbrev S256x2048 : Shape := ⟨2, ![256, 2048]⟩

abbrev nBuf : Space → Nat
  | .hbm => 218
  | .vmem => 6
  | .smem => 0
  | _ => 0

abbrev hbmTy0_0 (i : Nat) : BufTy := match i % 128 with
  | 0 => ⟨S4096x4096, .f32⟩
  | 1 => ⟨S12x2048, .f32⟩
  | 2 => ⟨S7x2048, .f32⟩
  | 3 => ⟨S5x2048, .f32⟩
  | 4 => ⟨S7x32x64, .f32⟩
  | 5 => ⟨S32x7x64, .f32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .i1⟩
  | 12 => ⟨S128x128, .f32⟩
  | 13 => ⟨S128x64x2x1, .f32⟩
  | 14 => ⟨S32x1x64, .f32⟩
  | 15 => ⟨S32x64, .f32⟩
  | 16 => ⟨S32x64x1, .f32⟩
  | 17 => ⟨S32x64x1, .f32⟩
  | 18 => ⟨S32x64x1, .f32⟩
  | 19 => ⟨S128x64x1x1, .f32⟩
  | 20 => ⟨S128x64x1, .f32⟩
  | 21 => ⟨S128x64x1x1, .f32⟩
  | 22 => ⟨S128x64x1, .f32⟩
  | 23 => ⟨S32x1x64x1, .f32⟩
  | 24 => ⟨S1x128x64x1, .f32⟩
  | 25 => ⟨S32x128x64x1, .f32⟩
  | 26 => ⟨S32x128x64x1, .f32⟩
  | 27 => ⟨S32x128x64x1, .f32⟩
  | 28 => ⟨S32x1x64x1, .f32⟩
  | 29 => ⟨S1x128x64x1, .f32⟩
  | 30 => ⟨S32x128x64x1, .f32⟩
  | 31 => ⟨S32x128x64x1, .f32⟩
  | 32 => ⟨S32x128x64x1, .f32⟩
  | 33 => ⟨S32x128x64x1, .f32⟩
  | 34 => ⟨S32x1x64x1, .f32⟩
  | 35 => ⟨S1x128x64x1, .f32⟩
  | 36 => ⟨S32x128x64x1, .f32⟩
  | 37 => ⟨S32x128x64x1, .f32⟩
  | 38 => ⟨S32x128x64x1, .f32⟩
  | 39 => ⟨S32x1x64x1, .f32⟩
  | 40 => ⟨S1x128x64x1, .f32⟩
  | 41 => ⟨S32x128x64x1, .f32⟩
  | 42 => ⟨S32x128x64x1, .f32⟩
  | 43 => ⟨S32x128x64x1, .f32⟩
  | 44 => ⟨S32x128x64x1, .f32⟩
  | 45 => ⟨S32x128x64x1x1, .f32⟩
  | 46 => ⟨S32x128x64x1x1, .f32⟩
  | 47 => ⟨S32x128x64x2x1, .f32⟩
  | 48 => ⟨S32x128x128, .f32⟩
  | 49 => ⟨S32x128x32x2x2, .f32⟩
  | 50 => ⟨S32x1x64, .f32⟩
  | 51 => ⟨S32x64, .f32⟩
  | 52 => ⟨S32x32x2, .f32⟩
  | 53 => ⟨S32x32x2, .f32⟩
  | 54 => ⟨S32x32x2, .f32⟩
  | 55 => ⟨S32x128x32x1x2, .f32⟩
  | 56 => ⟨S32x128x32x2, .f32⟩
  | 57 => ⟨S32x128x32x1x2, .f32⟩
  | 58 => ⟨S32x128x32x2, .f32⟩
  | 59 => ⟨S32x1x32x2, .f32⟩
  | 60 => ⟨S32x128x32x2, .f32⟩
  | 61 => ⟨S32x128x32x2, .f32⟩
  | 62 => ⟨S32x1x32x2, .f32⟩
  | 63 => ⟨S32x128x32x2, .f32⟩
  | 64 => ⟨S32x128x32x2, .f32⟩
  | 65 => ⟨S32x128x32x2, .f32⟩
  | 66 => ⟨S32x1x32x2, .f32⟩
  | 67 => ⟨S32x128x32x2, .f32⟩
  | 68 => ⟨S32x128x32x2, .f32⟩
  | 69 => ⟨S32x1x32x2, .f32⟩
  | 70 => ⟨S32x128x32x2, .f32⟩
  | 71 => ⟨S32x128x32x2, .f32⟩
  | 72 => ⟨S32x128x32x2, .f32⟩
  | 73 => ⟨S32x128x32x1x2, .f32⟩
  | 74 => ⟨S32x128x32x1x2, .f32⟩
  | 75 => ⟨S32x128x32x2x2, .f32⟩
  | 76 => ⟨S32x128x128, .f32⟩
  | 77 => ⟨S32x128x16x2x4, .f32⟩
  | 78 => ⟨S32x1x64, .f32⟩
  | 79 => ⟨S32x64, .f32⟩
  | 80 => ⟨S32x16x4, .f32⟩
  | 81 => ⟨S32x16x4, .f32⟩
  | 82 => ⟨S32x16x4, .f32⟩
  | 83 => ⟨S32x128x16x1x4, .f32⟩
  | 84 => ⟨S32x128x16x4, .f32⟩
  | 85 => ⟨S32x128x16x1x4, .f32⟩
  | 86 => ⟨S32x128x16x4, .f32⟩
  | 87 => ⟨S32x1x16x4, .f32⟩
  | 88 => ⟨S32x128x16x4, .f32⟩
  | 89 => ⟨S32x128x16x4, .f32⟩
  | 90 => ⟨S32x1x16x4, .f32⟩
  | 91 => ⟨S32x128x16x4, .f32⟩
  | 92 => ⟨S32x128x16x4, .f32⟩
  | 93 => ⟨S32x128x16x4, .f32⟩
  | 94 => ⟨S32x1x16x4, .f32⟩
  | 95 => ⟨S32x128x16x4, .f32⟩
  | 96 => ⟨S32x128x16x4, .f32⟩
  | 97 => ⟨S32x1x16x4, .f32⟩
  | 98 => ⟨S32x128x16x4, .f32⟩
  | 99 => ⟨S32x128x16x4, .f32⟩
  | 100 => ⟨S32x128x16x4, .f32⟩
  | 101 => ⟨S32x128x16x1x4, .f32⟩
  | 102 => ⟨S32x128x16x1x4, .f32⟩
  | 103 => ⟨S32x128x16x2x4, .f32⟩
  | 104 => ⟨S32x128x128, .f32⟩
  | 105 => ⟨S32x128x8x2x8, .f32⟩
  | 106 => ⟨S32x1x64, .f32⟩
  | 107 => ⟨S32x64, .f32⟩
  | 108 => ⟨S32x8x8, .f32⟩
  | 109 => ⟨S32x8x8, .f32⟩
  | 110 => ⟨S32x8x8, .f32⟩
  | 111 => ⟨S32x128x8x1x8, .f32⟩
  | 112 => ⟨S32x128x8x8, .f32⟩
  | 113 => ⟨S32x128x8x1x8, .f32⟩
  | 114 => ⟨S32x128x8x8, .f32⟩
  | 115 => ⟨S32x1x8x8, .f32⟩
  | 116 => ⟨S32x128x8x8, .f32⟩
  | 117 => ⟨S32x128x8x8, .f32⟩
  | 118 => ⟨S32x1x8x8, .f32⟩
  | 119 => ⟨S32x128x8x8, .f32⟩
  | 120 => ⟨S32x128x8x8, .f32⟩
  | 121 => ⟨S32x128x8x8, .f32⟩
  | 122 => ⟨S32x1x8x8, .f32⟩
  | 123 => ⟨S32x128x8x8, .f32⟩
  | 124 => ⟨S32x128x8x8, .f32⟩
  | 125 => ⟨S32x1x8x8, .f32⟩
  | 126 => ⟨S32x128x8x8, .f32⟩
  | 127 => ⟨S32x128x8x8, .f32⟩
  | _ => ⟨S4096x4096, .f32⟩

abbrev hbmTy0_1 (i : Nat) : BufTy := match i % 128 with
  | 0 => ⟨S32x128x8x8, .f32⟩
  | 1 => ⟨S32x128x8x1x8, .f32⟩
  | 2 => ⟨S32x128x8x1x8, .f32⟩
  | 3 => ⟨S32x128x8x2x8, .f32⟩
  | 4 => ⟨S32x128x128, .f32⟩
  | 5 => ⟨S32x128x4x2x16, .f32⟩
  | 6 => ⟨S32x1x64, .f32⟩
  | 7 => ⟨S32x64, .f32⟩
  | 8 => ⟨S32x4x16, .f32⟩
  | 9 => ⟨S32x4x16, .f32⟩
  | 10 => ⟨S32x4x16, .f32⟩
  | 11 => ⟨S32x128x4x1x16, .f32⟩
  | 12 => ⟨S32x128x4x16, .f32⟩
  | 13 => ⟨S32x128x4x1x16, .f32⟩
  | 14 => ⟨S32x128x4x16, .f32⟩
  | 15 => ⟨S32x1x4x16, .f32⟩
  | 16 => ⟨S32x128x4x16, .f32⟩
  | 17 => ⟨S32x128x4x16, .f32⟩
  | 18 => ⟨S32x1x4x16, .f32⟩
  | 19 => ⟨S32x128x4x16, .f32⟩
  | 20 => ⟨S32x128x4x16, .f32⟩
  | 21 => ⟨S32x128x4x16, .f32⟩
  | 22 => ⟨S32x1x4x16, .f32⟩
  | 23 => ⟨S32x128x4x16, .f32⟩
  | 24 => ⟨S32x128x4x16, .f32⟩
  | 25 => ⟨S32x1x4x16, .f32⟩
  | 26 => ⟨S32x128x4x16, .f32⟩
  | 27 => ⟨S32x128x4x16, .f32⟩
  | 28 => ⟨S32x128x4x16, .f32⟩
  | 29 => ⟨S32x128x4x1x16, .f32⟩
  | 30 => ⟨S32x128x4x1x16, .f32⟩
  | 31 => ⟨S32x128x4x2x16, .f32⟩
  | 32 => ⟨S32x128x128, .f32⟩
  | 33 => ⟨S32x128x2x2x32, .f32⟩
  | 34 => ⟨S32x1x64, .f32⟩
  | 35 => ⟨S32x64, .f32⟩
  | 36 => ⟨S32x2x32, .f32⟩
  | 37 => ⟨S32x2x32, .f32⟩
  | 38 => ⟨S32x2x32, .f32⟩
  | 39 => ⟨S32x128x2x1x32, .f32⟩
  | 40 => ⟨S32x128x2x32, .f32⟩
  | 41 => ⟨S32x128x2x1x32, .f32⟩
  | 42 => ⟨S32x128x2x32, .f32⟩
  | 43 => ⟨S32x1x2x32, .f32⟩
  | 44 => ⟨S32x128x2x32, .f32⟩
  | 45 => ⟨S32x128x2x32, .f32⟩
  | 46 => ⟨S32x1x2x32, .f32⟩
  | 47 => ⟨S32x128x2x32, .f32⟩
  | 48 => ⟨S32x128x2x32, .f32⟩
  | 49 => ⟨S32x128x2x32, .f32⟩
  | 50 => ⟨S32x1x2x32, .f32⟩
  | 51 => ⟨S32x128x2x32, .f32⟩
  | 52 => ⟨S32x128x2x32, .f32⟩
  | 53 => ⟨S32x1x2x32, .f32⟩
  | 54 => ⟨S32x128x2x32, .f32⟩
  | 55 => ⟨S32x128x2x32, .f32⟩
  | 56 => ⟨S32x128x2x32, .f32⟩
  | 57 => ⟨S32x128x2x1x32, .f32⟩
  | 58 => ⟨S32x128x2x1x32, .f32⟩
  | 59 => ⟨S32x128x2x2x32, .f32⟩
  | 60 => ⟨S32x128x128, .f32⟩
  | 61 => ⟨S32x128x1x2x64, .f32⟩
  | 62 => ⟨S32x1x64, .f32⟩
  | 63 => ⟨S32x64, .f32⟩
  | 64 => ⟨S32x1x64, .f32⟩
  | 65 => ⟨S32x1x64, .f32⟩
  | 66 => ⟨S32x1x64, .f32⟩
  | 67 => ⟨S32x128x1x1x64, .f32⟩
  | 68 => ⟨S32x128x1x64, .f32⟩
  | 69 => ⟨S32x128x1x1x64, .f32⟩
  | 70 => ⟨S32x128x1x64, .f32⟩
  | 71 => ⟨S32x1x1x64, .f32⟩
  | 72 => ⟨S32x128x1x64, .f32⟩
  | 73 => ⟨S32x128x1x64, .f32⟩
  | 74 => ⟨S32x1x1x64, .f32⟩
  | 75 => ⟨S32x128x1x64, .f32⟩
  | 76 => ⟨S32x128x1x64, .f32⟩
  | 77 => ⟨S32x128x1x64, .f32⟩
  | 78 => ⟨S32x1x1x64, .f32⟩
  | 79 => ⟨S32x128x1x64, .f32⟩
  | 80 => ⟨S32x128x1x64, .f32⟩
  | 81 => ⟨S32x1x1x64, .f32⟩
  | 82 => ⟨S32x128x1x64, .f32⟩
  | 83 => ⟨S32x128x1x64, .f32⟩
  | 84 => ⟨S32x128x1x64, .f32⟩
  | 85 => ⟨S32x128x1x1x64, .f32⟩
  | 86 => ⟨S32x128x1x1x64, .f32⟩
  | 87 => ⟨S32x128x1x2x64, .f32⟩
  | 88 => ⟨S32x128x128, .f32⟩
  | 89 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S256x4096, .f32⟩
  | .local _ .vmem, ⟨1, _⟩ => ⟨S256x4096, .f32⟩
  | .local _ .vmem, ⟨2, _⟩ => ⟨S32x128x128, .f32⟩
  | .local _ .vmem, ⟨3, _⟩ => ⟨S5x2048, .f32⟩
  | .local _ .vmem, ⟨4, _⟩ => ⟨S256x4096, .f32⟩
  | .local _ .vmem, ⟨5, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩
abbrev main_v130 : Ref sig .tc := ⟨.hbm, 133, rfl⟩
abbrev main_v131 : Ref sig .tc := ⟨.hbm, 134, rfl⟩
abbrev main_v132 : Ref sig .tc := ⟨.hbm, 135, rfl⟩
abbrev main_v133 : Ref sig .tc := ⟨.hbm, 136, rfl⟩
abbrev main_v134 : Ref sig .tc := ⟨.hbm, 137, rfl⟩
abbrev main_v135 : Ref sig .tc := ⟨.hbm, 138, rfl⟩
abbrev main_v136 : Ref sig .tc := ⟨.hbm, 139, rfl⟩
abbrev main_v137 : Ref sig .tc := ⟨.hbm, 140, rfl⟩
abbrev main_v138 : Ref sig .tc := ⟨.hbm, 141, rfl⟩
abbrev main_v139 : Ref sig .tc := ⟨.hbm, 142, rfl⟩
abbrev main_v140 : Ref sig .tc := ⟨.hbm, 143, rfl⟩
abbrev main_v141 : Ref sig .tc := ⟨.hbm, 144, rfl⟩
abbrev main_v142 : Ref sig .tc := ⟨.hbm, 145, rfl⟩
abbrev main_v143 : Ref sig .tc := ⟨.hbm, 146, rfl⟩
abbrev main_v144 : Ref sig .tc := ⟨.hbm, 147, rfl⟩
abbrev main_v145 : Ref sig .tc := ⟨.hbm, 148, rfl⟩
abbrev main_v146 : Ref sig .tc := ⟨.hbm, 149, rfl⟩
abbrev main_v147 : Ref sig .tc := ⟨.hbm, 150, rfl⟩
abbrev main_v148 : Ref sig .tc := ⟨.hbm, 151, rfl⟩
abbrev main_v149 : Ref sig .tc := ⟨.hbm, 152, rfl⟩
abbrev main_v150 : Ref sig .tc := ⟨.hbm, 153, rfl⟩
abbrev main_v151 : Ref sig .tc := ⟨.hbm, 154, rfl⟩
abbrev main_v152 : Ref sig .tc := ⟨.hbm, 155, rfl⟩
abbrev main_v153 : Ref sig .tc := ⟨.hbm, 156, rfl⟩
abbrev main_v154 : Ref sig .tc := ⟨.hbm, 157, rfl⟩
abbrev main_v155 : Ref sig .tc := ⟨.hbm, 158, rfl⟩
abbrev main_v156 : Ref sig .tc := ⟨.hbm, 159, rfl⟩
abbrev main_v157 : Ref sig .tc := ⟨.hbm, 160, rfl⟩
abbrev main_v158 : Ref sig .tc := ⟨.hbm, 161, rfl⟩
abbrev main_v159 : Ref sig .tc := ⟨.hbm, 162, rfl⟩
abbrev main_v160 : Ref sig .tc := ⟨.hbm, 163, rfl⟩
abbrev main_v161 : Ref sig .tc := ⟨.hbm, 164, rfl⟩
abbrev main_v162 : Ref sig .tc := ⟨.hbm, 165, rfl⟩
abbrev main_v163 : Ref sig .tc := ⟨.hbm, 166, rfl⟩
abbrev main_v164 : Ref sig .tc := ⟨.hbm, 167, rfl⟩
abbrev main_v165 : Ref sig .tc := ⟨.hbm, 168, rfl⟩
abbrev main_v166 : Ref sig .tc := ⟨.hbm, 169, rfl⟩
abbrev main_v167 : Ref sig .tc := ⟨.hbm, 170, rfl⟩
abbrev main_v168 : Ref sig .tc := ⟨.hbm, 171, rfl⟩
abbrev main_v169 : Ref sig .tc := ⟨.hbm, 172, rfl⟩
abbrev main_v170 : Ref sig .tc := ⟨.hbm, 173, rfl⟩
abbrev main_v171 : Ref sig .tc := ⟨.hbm, 174, rfl⟩
abbrev main_v172 : Ref sig .tc := ⟨.hbm, 175, rfl⟩
abbrev main_v173 : Ref sig .tc := ⟨.hbm, 176, rfl⟩
abbrev main_v174 : Ref sig .tc := ⟨.hbm, 177, rfl⟩
abbrev main_v175 : Ref sig .tc := ⟨.hbm, 178, rfl⟩
abbrev main_v176 : Ref sig .tc := ⟨.hbm, 179, rfl⟩
abbrev main_v177 : Ref sig .tc := ⟨.hbm, 180, rfl⟩
abbrev main_v178 : Ref sig .tc := ⟨.hbm, 181, rfl⟩
abbrev main_v179 : Ref sig .tc := ⟨.hbm, 182, rfl⟩
abbrev main_v180 : Ref sig .tc := ⟨.hbm, 183, rfl⟩
abbrev main_v181 : Ref sig .tc := ⟨.hbm, 184, rfl⟩
abbrev main_v182 : Ref sig .tc := ⟨.hbm, 185, rfl⟩
abbrev main_v183 : Ref sig .tc := ⟨.hbm, 186, rfl⟩
abbrev main_v184 : Ref sig .tc := ⟨.hbm, 187, rfl⟩
abbrev main_v185 : Ref sig .tc := ⟨.hbm, 188, rfl⟩
abbrev main_v186 : Ref sig .tc := ⟨.hbm, 189, rfl⟩
abbrev main_v187 : Ref sig .tc := ⟨.hbm, 190, rfl⟩
abbrev main_v188 : Ref sig .tc := ⟨.hbm, 191, rfl⟩
abbrev main_v189 : Ref sig .tc := ⟨.hbm, 192, rfl⟩
abbrev main_v190 : Ref sig .tc := ⟨.hbm, 193, rfl⟩
abbrev main_v191 : Ref sig .tc := ⟨.hbm, 194, rfl⟩
abbrev main_v192 : Ref sig .tc := ⟨.hbm, 195, rfl⟩
abbrev main_v193 : Ref sig .tc := ⟨.hbm, 196, rfl⟩
abbrev main_v194 : Ref sig .tc := ⟨.hbm, 197, rfl⟩
abbrev main_v195 : Ref sig .tc := ⟨.hbm, 198, rfl⟩
abbrev main_v196 : Ref sig .tc := ⟨.hbm, 199, rfl⟩
abbrev main_v197 : Ref sig .tc := ⟨.hbm, 200, rfl⟩
abbrev main_v198 : Ref sig .tc := ⟨.hbm, 201, rfl⟩
abbrev main_v199 : Ref sig .tc := ⟨.hbm, 202, rfl⟩
abbrev main_v200 : Ref sig .tc := ⟨.hbm, 203, rfl⟩
abbrev main_v201 : Ref sig .tc := ⟨.hbm, 204, rfl⟩
abbrev main_v202 : Ref sig .tc := ⟨.hbm, 205, rfl⟩
abbrev main_v203 : Ref sig .tc := ⟨.hbm, 206, rfl⟩
abbrev main_v204 : Ref sig .tc := ⟨.hbm, 207, rfl⟩
abbrev main_v205 : Ref sig .tc := ⟨.hbm, 208, rfl⟩
abbrev main_v206 : Ref sig .tc := ⟨.hbm, 209, rfl⟩
abbrev main_v207 : Ref sig .tc := ⟨.hbm, 210, rfl⟩
abbrev main_v208 : Ref sig .tc := ⟨.hbm, 211, rfl⟩
abbrev main_v209 : Ref sig .tc := ⟨.hbm, 212, rfl⟩
abbrev main_v210 : Ref sig .tc := ⟨.hbm, 213, rfl⟩
abbrev main_v211 : Ref sig .tc := ⟨.hbm, 214, rfl⟩
abbrev main_v212 : Ref sig .tc := ⟨.hbm, 215, rfl⟩
abbrev main_v213 : Ref sig .tc := ⟨.hbm, 216, rfl⟩
abbrev main_v214 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S12x2048_S7x2048_0_0 : S12x2048.Slices ![0, 0] S7x2048
  slices_S12x2048_S5x2048_7_0 : S12x2048.Slices ![7, 0] S5x2048
  shapeCasts_S7x2048_S7x32x64 : S7x2048.ShapeCasts S7x32x64
  transposes_S7x32x64_S32x7x64_1_0_2 : S7x32x64.Transposes [1, 0, 2] S32x7x64
  bcast_S_S128x128 : S_.BroadcastsInDim S128x128 (![] : Fin 0 → Fin S128x128.rank)
  shapeCasts_S128x128_S128x64x2x1 : S128x128.ShapeCasts S128x64x2x1
  slices_S32x7x64_S32x1x64_0_0_0 : S32x7x64.Slices ![0, 0, 0] S32x1x64
  shapeCasts_S32x1x64_S32x64 : S32x1x64.ShapeCasts S32x64
  shapeCasts_S32x64_S32x64x1 : S32x64.ShapeCasts S32x64x1
  slices_S128x64x2x1_S128x64x1x1_0_0_0_0 : S128x64x2x1.Slices ![0, 0, 0, 0] S128x64x1x1
  shapeCasts_S128x64x1x1_S128x64x1 : S128x64x1x1.ShapeCasts S128x64x1
  slices_S128x64x2x1_S128x64x1x1_0_0_1_0 : S128x64x2x1.Slices ![0, 0, 1, 0] S128x64x1x1
  bcast_S32x64x1_S32x1x64x1_0_2_3 : S32x64x1.BroadcastsInDim S32x1x64x1 (![0, 2, 3] : Fin 3 → Fin S32x1x64x1.rank)
  bcast_S128x64x1_S1x128x64x1_1_2_3 : S128x64x1.BroadcastsInDim S1x128x64x1 (![1, 2, 3] : Fin 3 → Fin S1x128x64x1.rank)
  bcast_S32x1x64x1_S32x128x64x1_0_1_2_3 : S32x1x64x1.BroadcastsInDim S32x128x64x1 (![0, 1, 2, 3] : Fin 4 → Fin S32x128x64x1.rank)
  bcast_S1x128x64x1_S32x128x64x1_0_1_2_3 : S1x128x64x1.BroadcastsInDim S32x128x64x1 (![0, 1, 2, 3] : Fin 4 → Fin S32x128x64x1.rank)
  bcast_S32x128x64x1_S32x128x64x1x1_0_1_2_4 : S32x128x64x1.BroadcastsInDim S32x128x64x1x1 (![0, 1, 2, 4] : Fin 4 → Fin S32x128x64x1x1.rank)
  concatenates_S32x128x64x1x1_S32x128x64x1x1_S32x128x64x2x1_d3 : Shape.Concatenates [S32x128x64x1x1, S32x128x64x1x1] S32x128x64x2x1 3
  shapeCasts_S32x128x64x2x1_S32x128x128 : S32x128x64x2x1.ShapeCasts S32x128x128
  shapeCasts_S32x128x128_S32x128x32x2x2 : S32x128x128.ShapeCasts S32x128x32x2x2
  slices_S32x7x64_S32x1x64_0_1_0 : S32x7x64.Slices ![0, 1, 0] S32x1x64
  shapeCasts_S32x64_S32x32x2 : S32x64.ShapeCasts S32x32x2
  slices_S32x128x32x2x2_S32x128x32x1x2_0_0_0_0_0 : S32x128x32x2x2.Slices ![0, 0, 0, 0, 0] S32x128x32x1x2
  shapeCasts_S32x128x32x1x2_S32x128x32x2 : S32x128x32x1x2.ShapeCasts S32x128x32x2
  slices_S32x128x32x2x2_S32x128x32x1x2_0_0_0_1_0 : S32x128x32x2x2.Slices ![0, 0, 0, 1, 0] S32x128x32x1x2
  bcast_S32x32x2_S32x1x32x2_0_2_3 : S32x32x2.BroadcastsInDim S32x1x32x2 (![0, 2, 3] : Fin 3 → Fin S32x1x32x2.rank)
  bcast_S32x1x32x2_S32x128x32x2_0_1_2_3 : S32x1x32x2.BroadcastsInDim S32x128x32x2 (![0, 1, 2, 3] : Fin 4 → Fin S32x128x32x2.rank)
  bcast_S32x128x32x2_S32x128x32x1x2_0_1_2_4 : S32x128x32x2.BroadcastsInDim S32x128x32x1x2 (![0, 1, 2, 4] : Fin 4 → Fin S32x128x32x1x2.rank)
  concatenates_S32x128x32x1x2_S32x128x32x1x2_S32x128x32x2x2_d3 : Shape.Concatenates [S32x128x32x1x2, S32x128x32x1x2] S32x128x32x2x2 3
  shapeCasts_S32x128x32x2x2_S32x128x128 : S32x128x32x2x2.ShapeCasts S32x128x128
  shapeCasts_S32x128x128_S32x128x16x2x4 : S32x128x128.ShapeCasts S32x128x16x2x4
  slices_S32x7x64_S32x1x64_0_2_0 : S32x7x64.Slices ![0, 2, 0] S32x1x64
  shapeCasts_S32x64_S32x16x4 : S32x64.ShapeCasts S32x16x4
  slices_S32x128x16x2x4_S32x128x16x1x4_0_0_0_0_0 : S32x128x16x2x4.Slices ![0, 0, 0, 0, 0] S32x128x16x1x4
  shapeCasts_S32x128x16x1x4_S32x128x16x4 : S32x128x16x1x4.ShapeCasts S32x128x16x4
  slices_S32x128x16x2x4_S32x128x16x1x4_0_0_0_1_0 : S32x128x16x2x4.Slices ![0, 0, 0, 1, 0] S32x128x16x1x4
  bcast_S32x16x4_S32x1x16x4_0_2_3 : S32x16x4.BroadcastsInDim S32x1x16x4 (![0, 2, 3] : Fin 3 → Fin S32x1x16x4.rank)
  bcast_S32x1x16x4_S32x128x16x4_0_1_2_3 : S32x1x16x4.BroadcastsInDim S32x128x16x4 (![0, 1, 2, 3] : Fin 4 → Fin S32x128x16x4.rank)
  bcast_S32x128x16x4_S32x128x16x1x4_0_1_2_4 : S32x128x16x4.BroadcastsInDim S32x128x16x1x4 (![0, 1, 2, 4] : Fin 4 → Fin S32x128x16x1x4.rank)
  concatenates_S32x128x16x1x4_S32x128x16x1x4_S32x128x16x2x4_d3 : Shape.Concatenates [S32x128x16x1x4, S32x128x16x1x4] S32x128x16x2x4 3
  shapeCasts_S32x128x16x2x4_S32x128x128 : S32x128x16x2x4.ShapeCasts S32x128x128
  shapeCasts_S32x128x128_S32x128x8x2x8 : S32x128x128.ShapeCasts S32x128x8x2x8
  slices_S32x7x64_S32x1x64_0_3_0 : S32x7x64.Slices ![0, 3, 0] S32x1x64
  shapeCasts_S32x64_S32x8x8 : S32x64.ShapeCasts S32x8x8
  slices_S32x128x8x2x8_S32x128x8x1x8_0_0_0_0_0 : S32x128x8x2x8.Slices ![0, 0, 0, 0, 0] S32x128x8x1x8
  shapeCasts_S32x128x8x1x8_S32x128x8x8 : S32x128x8x1x8.ShapeCasts S32x128x8x8
  slices_S32x128x8x2x8_S32x128x8x1x8_0_0_0_1_0 : S32x128x8x2x8.Slices ![0, 0, 0, 1, 0] S32x128x8x1x8
  bcast_S32x8x8_S32x1x8x8_0_2_3 : S32x8x8.BroadcastsInDim S32x1x8x8 (![0, 2, 3] : Fin 3 → Fin S32x1x8x8.rank)
  bcast_S32x1x8x8_S32x128x8x8_0_1_2_3 : S32x1x8x8.BroadcastsInDim S32x128x8x8 (![0, 1, 2, 3] : Fin 4 → Fin S32x128x8x8.rank)
  bcast_S32x128x8x8_S32x128x8x1x8_0_1_2_4 : S32x128x8x8.BroadcastsInDim S32x128x8x1x8 (![0, 1, 2, 4] : Fin 4 → Fin S32x128x8x1x8.rank)
  concatenates_S32x128x8x1x8_S32x128x8x1x8_S32x128x8x2x8_d3 : Shape.Concatenates [S32x128x8x1x8, S32x128x8x1x8] S32x128x8x2x8 3
  shapeCasts_S32x128x8x2x8_S32x128x128 : S32x128x8x2x8.ShapeCasts S32x128x128
  shapeCasts_S32x128x128_S32x128x4x2x16 : S32x128x128.ShapeCasts S32x128x4x2x16
  slices_S32x7x64_S32x1x64_0_4_0 : S32x7x64.Slices ![0, 4, 0] S32x1x64
  shapeCasts_S32x64_S32x4x16 : S32x64.ShapeCasts S32x4x16
  slices_S32x128x4x2x16_S32x128x4x1x16_0_0_0_0_0 : S32x128x4x2x16.Slices ![0, 0, 0, 0, 0] S32x128x4x1x16
  shapeCasts_S32x128x4x1x16_S32x128x4x16 : S32x128x4x1x16.ShapeCasts S32x128x4x16
  slices_S32x128x4x2x16_S32x128x4x1x16_0_0_0_1_0 : S32x128x4x2x16.Slices ![0, 0, 0, 1, 0] S32x128x4x1x16
  bcast_S32x4x16_S32x1x4x16_0_2_3 : S32x4x16.BroadcastsInDim S32x1x4x16 (![0, 2, 3] : Fin 3 → Fin S32x1x4x16.rank)
  bcast_S32x1x4x16_S32x128x4x16_0_1_2_3 : S32x1x4x16.BroadcastsInDim S32x128x4x16 (![0, 1, 2, 3] : Fin 4 → Fin S32x128x4x16.rank)
  bcast_S32x128x4x16_S32x128x4x1x16_0_1_2_4 : S32x128x4x16.BroadcastsInDim S32x128x4x1x16 (![0, 1, 2, 4] : Fin 4 → Fin S32x128x4x1x16.rank)
  concatenates_S32x128x4x1x16_S32x128x4x1x16_S32x128x4x2x16_d3 : Shape.Concatenates [S32x128x4x1x16, S32x128x4x1x16] S32x128x4x2x16 3
  shapeCasts_S32x128x4x2x16_S32x128x128 : S32x128x4x2x16.ShapeCasts S32x128x128
  shapeCasts_S32x128x128_S32x128x2x2x32 : S32x128x128.ShapeCasts S32x128x2x2x32
  slices_S32x7x64_S32x1x64_0_5_0 : S32x7x64.Slices ![0, 5, 0] S32x1x64
  shapeCasts_S32x64_S32x2x32 : S32x64.ShapeCasts S32x2x32
  slices_S32x128x2x2x32_S32x128x2x1x32_0_0_0_0_0 : S32x128x2x2x32.Slices ![0, 0, 0, 0, 0] S32x128x2x1x32
  shapeCasts_S32x128x2x1x32_S32x128x2x32 : S32x128x2x1x32.ShapeCasts S32x128x2x32
  slices_S32x128x2x2x32_S32x128x2x1x32_0_0_0_1_0 : S32x128x2x2x32.Slices ![0, 0, 0, 1, 0] S32x128x2x1x32
  bcast_S32x2x32_S32x1x2x32_0_2_3 : S32x2x32.BroadcastsInDim S32x1x2x32 (![0, 2, 3] : Fin 3 → Fin S32x1x2x32.rank)
  bcast_S32x1x2x32_S32x128x2x32_0_1_2_3 : S32x1x2x32.BroadcastsInDim S32x128x2x32 (![0, 1, 2, 3] : Fin 4 → Fin S32x128x2x32.rank)
  bcast_S32x128x2x32_S32x128x2x1x32_0_1_2_4 : S32x128x2x32.BroadcastsInDim S32x128x2x1x32 (![0, 1, 2, 4] : Fin 4 → Fin S32x128x2x1x32.rank)
  concatenates_S32x128x2x1x32_S32x128x2x1x32_S32x128x2x2x32_d3 : Shape.Concatenates [S32x128x2x1x32, S32x128x2x1x32] S32x128x2x2x32 3
  shapeCasts_S32x128x2x2x32_S32x128x128 : S32x128x2x2x32.ShapeCasts S32x128x128
  shapeCasts_S32x128x128_S32x128x1x2x64 : S32x128x128.ShapeCasts S32x128x1x2x64
  slices_S32x7x64_S32x1x64_0_6_0 : S32x7x64.Slices ![0, 6, 0] S32x1x64
  shapeCasts_S32x64_S32x1x64 : S32x64.ShapeCasts S32x1x64
  slices_S32x128x1x2x64_S32x128x1x1x64_0_0_0_0_0 : S32x128x1x2x64.Slices ![0, 0, 0, 0, 0] S32x128x1x1x64
  shapeCasts_S32x128x1x1x64_S32x128x1x64 : S32x128x1x1x64.ShapeCasts S32x128x1x64
  slices_S32x128x1x2x64_S32x128x1x1x64_0_0_0_1_0 : S32x128x1x2x64.Slices ![0, 0, 0, 1, 0] S32x128x1x1x64
  bcast_S32x1x64_S32x1x1x64_0_2_3 : S32x1x64.BroadcastsInDim S32x1x1x64 (![0, 2, 3] : Fin 3 → Fin S32x1x1x64.rank)
  bcast_S32x1x1x64_S32x128x1x64_0_1_2_3 : S32x1x1x64.BroadcastsInDim S32x128x1x64 (![0, 1, 2, 3] : Fin 4 → Fin S32x128x1x64.rank)
  bcast_S32x128x1x64_S32x128x1x1x64_0_1_2_4 : S32x128x1x64.BroadcastsInDim S32x128x1x1x64 (![0, 1, 2, 4] : Fin 4 → Fin S32x128x1x1x64.rank)
  concatenates_S32x128x1x1x64_S32x128x1x1x64_S32x128x1x2x64_d3 : Shape.Concatenates [S32x128x1x1x64, S32x128x1x1x64] S32x128x1x2x64 3
  shapeCasts_S32x128x1x2x64_S32x128x128 : S32x128x1x2x64.ShapeCasts S32x128x128
  inb_S256x4096_S256x4096_0_0 : ∀ a, (![0, 0] : Fin 2 → Nat) a + S256x4096.size a ≤ S256x4096.size a
  h_S256x4096 : 0 < S256x4096.numel
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  bitsLt_bf16_f32 : FTy.bits .bf16 < FTy.bits .f32
  slices_S256x4096_o0_0_S256x128 : S256x4096.Slices ![0, 0] S256x128
  slices_S32x128x128_o0_0_0_S1x128x128 : S32x128x128.Slices ![0, 0, 0] S1x128x128
  shapeCasts_S1x128x128_S128x128 : S1x128x128.ShapeCasts S128x128
  slices_S256x4096_o0_128_S256x128 : S256x4096.Slices ![0, 128] S256x128
  slices_S32x128x128_o1_0_0_S1x128x128 : S32x128x128.Slices ![1, 0, 0] S1x128x128
  slices_S256x4096_o0_256_S256x128 : S256x4096.Slices ![0, 256] S256x128
  slices_S32x128x128_o2_0_0_S1x128x128 : S32x128x128.Slices ![2, 0, 0] S1x128x128
  slices_S256x4096_o0_384_S256x128 : S256x4096.Slices ![0, 384] S256x128
  slices_S32x128x128_o3_0_0_S1x128x128 : S32x128x128.Slices ![3, 0, 0] S1x128x128
  slices_S256x4096_o0_512_S256x128 : S256x4096.Slices ![0, 512] S256x128
  slices_S32x128x128_o4_0_0_S1x128x128 : S32x128x128.Slices ![4, 0, 0] S1x128x128
  slices_S256x4096_o0_640_S256x128 : S256x4096.Slices ![0, 640] S256x128
  slices_S32x128x128_o5_0_0_S1x128x128 : S32x128x128.Slices ![5, 0, 0] S1x128x128
  slices_S256x4096_o0_768_S256x128 : S256x4096.Slices ![0, 768] S256x128
  slices_S32x128x128_o6_0_0_S1x128x128 : S32x128x128.Slices ![6, 0, 0] S1x128x128
  slices_S256x4096_o0_896_S256x128 : S256x4096.Slices ![0, 896] S256x128
  slices_S32x128x128_o7_0_0_S1x128x128 : S32x128x128.Slices ![7, 0, 0] S1x128x128
  slices_S256x4096_o0_1024_S256x128 : S256x4096.Slices ![0, 1024] S256x128
  slices_S32x128x128_o8_0_0_S1x128x128 : S32x128x128.Slices ![8, 0, 0] S1x128x128
  slices_S256x4096_o0_1152_S256x128 : S256x4096.Slices ![0, 1152] S256x128
  slices_S32x128x128_o9_0_0_S1x128x128 : S32x128x128.Slices ![9, 0, 0] S1x128x128
  slices_S256x4096_o0_1280_S256x128 : S256x4096.Slices ![0, 1280] S256x128
  slices_S32x128x128_o10_0_0_S1x128x128 : S32x128x128.Slices ![10, 0, 0] S1x128x128
  slices_S256x4096_o0_1408_S256x128 : S256x4096.Slices ![0, 1408] S256x128
  slices_S32x128x128_o11_0_0_S1x128x128 : S32x128x128.Slices ![11, 0, 0] S1x128x128
  slices_S256x4096_o0_1536_S256x128 : S256x4096.Slices ![0, 1536] S256x128
  slices_S32x128x128_o12_0_0_S1x128x128 : S32x128x128.Slices ![12, 0, 0] S1x128x128
  slices_S256x4096_o0_1664_S256x128 : S256x4096.Slices ![0, 1664] S256x128
  slices_S32x128x128_o13_0_0_S1x128x128 : S32x128x128.Slices ![13, 0, 0] S1x128x128
  slices_S256x4096_o0_1792_S256x128 : S256x4096.Slices ![0, 1792] S256x128
  slices_S32x128x128_o14_0_0_S1x128x128 : S32x128x128.Slices ![14, 0, 0] S1x128x128
  slices_S256x4096_o0_1920_S256x128 : S256x4096.Slices ![0, 1920] S256x128
  slices_S32x128x128_o15_0_0_S1x128x128 : S32x128x128.Slices ![15, 0, 0] S1x128x128
  slices_S256x4096_o0_2048_S256x128 : S256x4096.Slices ![0, 2048] S256x128
  slices_S32x128x128_o16_0_0_S1x128x128 : S32x128x128.Slices ![16, 0, 0] S1x128x128
  slices_S256x4096_o0_2176_S256x128 : S256x4096.Slices ![0, 2176] S256x128
  slices_S32x128x128_o17_0_0_S1x128x128 : S32x128x128.Slices ![17, 0, 0] S1x128x128
  slices_S256x4096_o0_2304_S256x128 : S256x4096.Slices ![0, 2304] S256x128
  slices_S32x128x128_o18_0_0_S1x128x128 : S32x128x128.Slices ![18, 0, 0] S1x128x128
  slices_S256x4096_o0_2432_S256x128 : S256x4096.Slices ![0, 2432] S256x128
  slices_S32x128x128_o19_0_0_S1x128x128 : S32x128x128.Slices ![19, 0, 0] S1x128x128
  slices_S256x4096_o0_2560_S256x128 : S256x4096.Slices ![0, 2560] S256x128
  slices_S32x128x128_o20_0_0_S1x128x128 : S32x128x128.Slices ![20, 0, 0] S1x128x128
  slices_S256x4096_o0_2688_S256x128 : S256x4096.Slices ![0, 2688] S256x128
  slices_S32x128x128_o21_0_0_S1x128x128 : S32x128x128.Slices ![21, 0, 0] S1x128x128
  slices_S256x4096_o0_2816_S256x128 : S256x4096.Slices ![0, 2816] S256x128
  slices_S32x128x128_o22_0_0_S1x128x128 : S32x128x128.Slices ![22, 0, 0] S1x128x128
  slices_S256x4096_o0_2944_S256x128 : S256x4096.Slices ![0, 2944] S256x128
  slices_S32x128x128_o23_0_0_S1x128x128 : S32x128x128.Slices ![23, 0, 0] S1x128x128
  slices_S256x4096_o0_3072_S256x128 : S256x4096.Slices ![0, 3072] S256x128
  slices_S32x128x128_o24_0_0_S1x128x128 : S32x128x128.Slices ![24, 0, 0] S1x128x128
  slices_S256x4096_o0_3200_S256x128 : S256x4096.Slices ![0, 3200] S256x128
  slices_S32x128x128_o25_0_0_S1x128x128 : S32x128x128.Slices ![25, 0, 0] S1x128x128
  slices_S256x4096_o0_3328_S256x128 : S256x4096.Slices ![0, 3328] S256x128
  slices_S32x128x128_o26_0_0_S1x128x128 : S32x128x128.Slices ![26, 0, 0] S1x128x128
  slices_S256x4096_o0_3456_S256x128 : S256x4096.Slices ![0, 3456] S256x128
  slices_S32x128x128_o27_0_0_S1x128x128 : S32x128x128.Slices ![27, 0, 0] S1x128x128
  slices_S256x4096_o0_3584_S256x128 : S256x4096.Slices ![0, 3584] S256x128
  slices_S32x128x128_o28_0_0_S1x128x128 : S32x128x128.Slices ![28, 0, 0] S1x128x128
  slices_S256x4096_o0_3712_S256x128 : S256x4096.Slices ![0, 3712] S256x128
  slices_S32x128x128_o29_0_0_S1x128x128 : S32x128x128.Slices ![29, 0, 0] S1x128x128
  slices_S256x4096_o0_3840_S256x128 : S256x4096.Slices ![0, 3840] S256x128
  slices_S32x128x128_o30_0_0_S1x128x128 : S32x128x128.Slices ![30, 0, 0] S1x128x128
  slices_S256x4096_o0_3968_S256x128 : S256x4096.Slices ![0, 3968] S256x128
  slices_S32x128x128_o31_0_0_S1x128x128 : S32x128x128.Slices ![31, 0, 0] S1x128x128
  concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x4096_d1 : Shape.Concatenates [S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128, S256x128] S256x4096 1
  inb_S5x2048_S1x2048_0_0 : ∀ a, (![0, 0] : Fin 2 → Nat) a + S1x2048.size a ≤ S5x2048.size a
  h_S1x2048 : 0 < S1x2048.numel
  shapeCasts_S1x2048_S2048 : S1x2048.ShapeCasts S2048
  shapeCasts_S2048_S16x128 : S2048.ShapeCasts S16x128
  slices_S16x128_o0_0_S1x128 : S16x128.Slices ![0, 0] S1x128
  shapeCasts_S1x128_S128 : S1x128.ShapeCasts S128
  shapeCasts_S128_S1x128 : S128.ShapeCasts S1x128
  broadcasts_S1x128_S256x128 : S1x128.Broadcasts S256x128
  slices_S16x128_o1_0_S1x128 : S16x128.Slices ![1, 0] S1x128
  slices_S16x128_o2_0_S1x128 : S16x128.Slices ![2, 0] S1x128
  slices_S16x128_o3_0_S1x128 : S16x128.Slices ![3, 0] S1x128
  slices_S16x128_o4_0_S1x128 : S16x128.Slices ![4, 0] S1x128
  slices_S16x128_o5_0_S1x128 : S16x128.Slices ![5, 0] S1x128
  slices_S16x128_o6_0_S1x128 : S16x128.Slices ![6, 0] S1x128
  slices_S16x128_o7_0_S1x128 : S16x128.Slices ![7, 0] S1x128
  slices_S16x128_o8_0_S1x128 : S16x128.Slices ![8, 0] S1x128
  slices_S16x128_o9_0_S1x128 : S16x128.Slices ![9, 0] S1x128
  slices_S16x128_o10_0_S1x128 : S16x128.Slices ![10, 0] S1x128
  slices_S16x128_o11_0_S1x128 : S16x128.Slices ![11, 0] S1x128
  slices_S16x128_o12_0_S1x128 : S16x128.Slices ![12, 0] S1x128
  slices_S16x128_o13_0_S1x128 : S16x128.Slices ![13, 0] S1x128
  slices_S16x128_o14_0_S1x128 : S16x128.Slices ![14, 0] S1x128
  slices_S16x128_o15_0_S1x128 : S16x128.Slices ![15, 0] S1x128
  inb_S5x2048_S1x2048_1_0 : ∀ a, (![1, 0] : Fin 2 → Nat) a + S1x2048.size a ≤ S5x2048.size a
  shapeCasts_S2048_S8x256 : S2048.ShapeCasts S8x256
  slices_S256x4096_o0_0_S256x256 : S256x4096.Slices ![0, 0] S256x256
  slices_S256x4096_o0_256_S256x256 : S256x4096.Slices ![0, 256] S256x256
  slices_S8x256_o0_0_S1x256 : S8x256.Slices ![0, 0] S1x256
  shapeCasts_S1x256_S256 : S1x256.ShapeCasts S256
  shapeCasts_S256_S1x256 : S256.ShapeCasts S1x256
  broadcasts_S1x256_S256x256 : S1x256.Broadcasts S256x256
  slices_S256x4096_o0_512_S256x256 : S256x4096.Slices ![0, 512] S256x256
  slices_S256x4096_o0_768_S256x256 : S256x4096.Slices ![0, 768] S256x256
  slices_S8x256_o1_0_S1x256 : S8x256.Slices ![1, 0] S1x256
  slices_S256x4096_o0_1024_S256x256 : S256x4096.Slices ![0, 1024] S256x256
  slices_S256x4096_o0_1280_S256x256 : S256x4096.Slices ![0, 1280] S256x256
  slices_S8x256_o2_0_S1x256 : S8x256.Slices ![2, 0] S1x256
  slices_S256x4096_o0_1536_S256x256 : S256x4096.Slices ![0, 1536] S256x256
  slices_S256x4096_o0_1792_S256x256 : S256x4096.Slices ![0, 1792] S256x256
  slices_S8x256_o3_0_S1x256 : S8x256.Slices ![3, 0] S1x256
  slices_S256x4096_o0_2048_S256x256 : S256x4096.Slices ![0, 2048] S256x256
  slices_S256x4096_o0_2304_S256x256 : S256x4096.Slices ![0, 2304] S256x256
  slices_S8x256_o4_0_S1x256 : S8x256.Slices ![4, 0] S1x256
  slices_S256x4096_o0_2560_S256x256 : S256x4096.Slices ![0, 2560] S256x256
  slices_S256x4096_o0_2816_S256x256 : S256x4096.Slices ![0, 2816] S256x256
  slices_S8x256_o5_0_S1x256 : S8x256.Slices ![5, 0] S1x256
  slices_S256x4096_o0_3072_S256x256 : S256x4096.Slices ![0, 3072] S256x256
  slices_S256x4096_o0_3328_S256x256 : S256x4096.Slices ![0, 3328] S256x256
  slices_S8x256_o6_0_S1x256 : S8x256.Slices ![6, 0] S1x256
  slices_S256x4096_o0_3584_S256x256 : S256x4096.Slices ![0, 3584] S256x256
  slices_S256x4096_o0_3840_S256x256 : S256x4096.Slices ![0, 3840] S256x256
  slices_S8x256_o7_0_S1x256 : S8x256.Slices ![7, 0] S1x256
  concatenates_S256x256_S256x256_S256x256_S256x256_S256x256_S256x256_S256x256_S256x256_S256x256_S256x256_S256x256_S256x256_S256x256_S256x256_S256x256_S256x256_S256x4096_d1 : Shape.Concatenates [S256x256, S256x256, S256x256, S256x256, S256x256, S256x256, S256x256, S256x256, S256x256, S256x256, S256x256, S256x256, S256x256, S256x256, S256x256, S256x256] S256x4096 1
  inb_S5x2048_S1x2048_2_0 : ∀ a, (![2, 0] : Fin 2 → Nat) a + S1x2048.size a ≤ S5x2048.size a
  shapeCasts_S2048_S4x512 : S2048.ShapeCasts S4x512
  slices_S256x4096_o0_0_S256x512 : S256x4096.Slices ![0, 0] S256x512
  slices_S256x4096_o0_512_S256x512 : S256x4096.Slices ![0, 512] S256x512
  slices_S4x512_o0_0_S1x512 : S4x512.Slices ![0, 0] S1x512
  shapeCasts_S1x512_S512 : S1x512.ShapeCasts S512
  shapeCasts_S512_S1x512 : S512.ShapeCasts S1x512
  broadcasts_S1x512_S256x512 : S1x512.Broadcasts S256x512
  slices_S256x4096_o0_1024_S256x512 : S256x4096.Slices ![0, 1024] S256x512
  slices_S256x4096_o0_1536_S256x512 : S256x4096.Slices ![0, 1536] S256x512
  slices_S4x512_o1_0_S1x512 : S4x512.Slices ![1, 0] S1x512
  slices_S256x4096_o0_2048_S256x512 : S256x4096.Slices ![0, 2048] S256x512
  slices_S256x4096_o0_2560_S256x512 : S256x4096.Slices ![0, 2560] S256x512
  slices_S4x512_o2_0_S1x512 : S4x512.Slices ![2, 0] S1x512
  slices_S256x4096_o0_3072_S256x512 : S256x4096.Slices ![0, 3072] S256x512
  slices_S256x4096_o0_3584_S256x512 : S256x4096.Slices ![0, 3584] S256x512
  slices_S4x512_o3_0_S1x512 : S4x512.Slices ![3, 0] S1x512
  concatenates_S256x512_S256x512_S256x512_S256x512_S256x512_S256x512_S256x512_S256x512_S256x4096_d1 : Shape.Concatenates [S256x512, S256x512, S256x512, S256x512, S256x512, S256x512, S256x512, S256x512] S256x4096 1
  inb_S5x2048_S1x2048_3_0 : ∀ a, (![3, 0] : Fin 2 → Nat) a + S1x2048.size a ≤ S5x2048.size a
  shapeCasts_S2048_S2x1024 : S2048.ShapeCasts S2x1024
  slices_S256x4096_o0_0_S256x1024 : S256x4096.Slices ![0, 0] S256x1024
  slices_S256x4096_o0_1024_S256x1024 : S256x4096.Slices ![0, 1024] S256x1024
  slices_S2x1024_o0_0_S1x1024 : S2x1024.Slices ![0, 0] S1x1024
  shapeCasts_S1x1024_S1024 : S1x1024.ShapeCasts S1024
  shapeCasts_S1024_S1x1024 : S1024.ShapeCasts S1x1024
  broadcasts_S1x1024_S256x1024 : S1x1024.Broadcasts S256x1024
  slices_S256x4096_o0_2048_S256x1024 : S256x4096.Slices ![0, 2048] S256x1024
  slices_S256x4096_o0_3072_S256x1024 : S256x4096.Slices ![0, 3072] S256x1024
  slices_S2x1024_o1_0_S1x1024 : S2x1024.Slices ![1, 0] S1x1024
  concatenates_S256x1024_S256x1024_S256x1024_S256x1024_S256x4096_d1 : Shape.Concatenates [S256x1024, S256x1024, S256x1024, S256x1024] S256x4096 1
  inb_S5x2048_S1x2048_4_0 : ∀ a, (![4, 0] : Fin 2 → Nat) a + S1x2048.size a ≤ S5x2048.size a
  shapeCasts_S2048_S1x2048 : S2048.ShapeCasts S1x2048
  slices_S256x4096_o0_0_S256x2048 : S256x4096.Slices ![0, 0] S256x2048
  slices_S256x4096_o0_2048_S256x2048 : S256x4096.Slices ![0, 2048] S256x2048
  broadcasts_S1x2048_S256x2048 : S1x2048.Broadcasts S256x2048
  concatenates_S256x2048_S256x2048_S256x4096_d1 : Shape.Concatenates [S256x2048, S256x2048] S256x4096 1
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S32x128x128.size a
  hwx0_1 : ∀ i : grid0.Coords, EltTy.bits .f32 = 32 ∨ (Rect.block (s := S32x128x128) S32x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x2048.size a ≤ S5x2048.size a
  hwx0_2 : ∀ i : grid0.Coords, EltTy.bits .f32 = 32 ∨ (Rect.block (s := S5x2048) S5x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v213) S32x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v214) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S12x2048 : Shape := ⟨2, ![12, 2048]⟩
abbrev S4096x2048x2x1 : Shape := ⟨4, ![4096, 2048, 2, 1]⟩
abbrev S1x2048 : Shape := ⟨2, ![1, 2048]⟩
abbrev S2048 : Shape := ⟨1, ![2048]⟩
abbrev S2048x1 : Shape := ⟨2, ![2048, 1]⟩
abbrev S4096x2048x1x1 : Shape := ⟨4, ![4096, 2048, 1, 1]⟩
abbrev S4096x2048x1 : Shape := ⟨3, ![4096, 2048, 1]⟩
abbrev S1x2048x1 : Shape := ⟨3, ![1, 2048, 1]⟩
abbrev S4096x1024x2x2 : Shape := ⟨4, ![4096, 1024, 2, 2]⟩
abbrev S1024x2 : Shape := ⟨2, ![1024, 2]⟩
abbrev S4096x1024x1x2 : Shape := ⟨4, ![4096, 1024, 1, 2]⟩
abbrev S4096x1024x2 : Shape := ⟨3, ![4096, 1024, 2]⟩
abbrev S1x1024x2 : Shape := ⟨3, ![1, 1024, 2]⟩
abbrev S4096x512x2x4 : Shape := ⟨4, ![4096, 512, 2, 4]⟩
abbrev S512x4 : Shape := ⟨2, ![512, 4]⟩
abbrev S4096x512x1x4 : Shape := ⟨4, ![4096, 512, 1, 4]⟩
abbrev S4096x512x4 : Shape := ⟨3, ![4096, 512, 4]⟩
abbrev S1x512x4 : Shape := ⟨3, ![1, 512, 4]⟩
abbrev S4096x256x2x8 : Shape := ⟨4, ![4096, 256, 2, 8]⟩
abbrev S256x8 : Shape := ⟨2, ![256, 8]⟩
abbrev S4096x256x1x8 : Shape := ⟨4, ![4096, 256, 1, 8]⟩
abbrev S4096x256x8 : Shape := ⟨3, ![4096, 256, 8]⟩
abbrev S1x256x8 : Shape := ⟨3, ![1, 256, 8]⟩
abbrev S4096x128x2x16 : Shape := ⟨4, ![4096, 128, 2, 16]⟩
abbrev S128x16 : Shape := ⟨2, ![128, 16]⟩
abbrev S4096x128x1x16 : Shape := ⟨4, ![4096, 128, 1, 16]⟩
abbrev S4096x128x16 : Shape := ⟨3, ![4096, 128, 16]⟩
abbrev S1x128x16 : Shape := ⟨3, ![1, 128, 16]⟩
abbrev S4096x64x2x32 : Shape := ⟨4, ![4096, 64, 2, 32]⟩
abbrev S64x32 : Shape := ⟨2, ![64, 32]⟩
abbrev S4096x64x1x32 : Shape := ⟨4, ![4096, 64, 1, 32]⟩
abbrev S4096x64x32 : Shape := ⟨3, ![4096, 64, 32]⟩
abbrev S1x64x32 : Shape := ⟨3, ![1, 64, 32]⟩
abbrev S4096x32x2x64 : Shape := ⟨4, ![4096, 32, 2, 64]⟩
abbrev S32x64 : Shape := ⟨2, ![32, 64]⟩
abbrev S4096x32x1x64 : Shape := ⟨4, ![4096, 32, 1, 64]⟩
abbrev S4096x32x64 : Shape := ⟨3, ![4096, 32, 64]⟩
abbrev S1x32x64 : Shape := ⟨3, ![1, 32, 64]⟩
abbrev S4096x16x2x128 : Shape := ⟨4, ![4096, 16, 2, 128]⟩
abbrev S16x128 : Shape := ⟨2, ![16, 128]⟩
abbrev S4096x16x1x128 : Shape := ⟨4, ![4096, 16, 1, 128]⟩
abbrev S4096x16x128 : Shape := ⟨3, ![4096, 16, 128]⟩
abbrev S1x16x128 : Shape := ⟨3, ![1, 16, 128]⟩
abbrev S4096x8x2x256 : Shape := ⟨4, ![4096, 8, 2, 256]⟩
abbrev S8x256 : Shape := ⟨2, ![8, 256]⟩
abbrev S4096x8x1x256 : Shape := ⟨4, ![4096, 8, 1, 256]⟩
abbrev S4096x8x256 : Shape := ⟨3, ![4096, 8, 256]⟩
abbrev S1x8x256 : Shape := ⟨3, ![1, 8, 256]⟩
abbrev S4096x4x2x512 : Shape := ⟨4, ![4096, 4, 2, 512]⟩
abbrev S4x512 : Shape := ⟨2, ![4, 512]⟩
abbrev S4096x4x1x512 : Shape := ⟨4, ![4096, 4, 1, 512]⟩
abbrev S4096x4x512 : Shape := ⟨3, ![4096, 4, 512]⟩
abbrev S1x4x512 : Shape := ⟨3, ![1, 4, 512]⟩
abbrev S4096x2x2x1024 : Shape := ⟨4, ![4096, 2, 2, 1024]⟩
abbrev S2x1024 : Shape := ⟨2, ![2, 1024]⟩
abbrev S4096x2x1x1024 : Shape := ⟨4, ![4096, 2, 1, 1024]⟩
abbrev S4096x2x1024 : Shape := ⟨3, ![4096, 2, 1024]⟩
abbrev S1x2x1024 : Shape := ⟨3, ![1, 2, 1024]⟩
abbrev S4096x1x2x2048 : Shape := ⟨4, ![4096, 1, 2, 2048]⟩
abbrev S4096x1x1x2048 : Shape := ⟨4, ![4096, 1, 1, 2048]⟩
abbrev S4096x1x2048 : Shape := ⟨3, ![4096, 1, 2048]⟩
abbrev S1x1x2048 : Shape := ⟨3, ![1, 1, 2048]⟩

abbrev nBuf : Space → Nat
  | .hbm => 338
  | .vmem => 0
  | .smem => 0
  | _ => 0

abbrev hbmTy0_0 (i : Nat) : BufTy := match i % 128 with
  | 0 => ⟨S4096x4096, .f32⟩
  | 1 => ⟨S12x2048, .f32⟩
  | 2 => ⟨S4096x2048x2x1, .f32⟩
  | 3 => ⟨S1x2048, .f32⟩
  | 4 => ⟨S2048, .f32⟩
  | 5 => ⟨S2048x1, .f32⟩
  | 6 => ⟨S2048x1, .f32⟩
  | 7 => ⟨S2048x1, .f32⟩
  | 8 => ⟨S4096x2048x1x1, .f32⟩
  | 9 => ⟨S4096x2048x1, .f32⟩
  | 10 => ⟨S4096x2048x1x1, .f32⟩
  | 11 => ⟨S4096x2048x1, .f32⟩
  | 12 => ⟨S1x2048x1, .f32⟩
  | 13 => ⟨S4096x2048x1, .f32⟩
  | 14 => ⟨S4096x2048x1, .f32⟩
  | 15 => ⟨S1x2048x1, .f32⟩
  | 16 => ⟨S4096x2048x1, .f32⟩
  | 17 => ⟨S4096x2048x1, .f32⟩
  | 18 => ⟨S4096x2048x1, .f32⟩
  | 19 => ⟨S1x2048x1, .f32⟩
  | 20 => ⟨S4096x2048x1, .f32⟩
  | 21 => ⟨S4096x2048x1, .f32⟩
  | 22 => ⟨S1x2048x1, .f32⟩
  | 23 => ⟨S4096x2048x1, .f32⟩
  | 24 => ⟨S4096x2048x1, .f32⟩
  | 25 => ⟨S4096x2048x1, .f32⟩
  | 26 => ⟨S4096x2048x1x1, .f32⟩
  | 27 => ⟨S4096x2048x1x1, .f32⟩
  | 28 => ⟨S4096x2048x2x1, .f32⟩
  | 29 => ⟨S4096x4096, .f32⟩
  | 30 => ⟨S4096x1024x2x2, .f32⟩
  | 31 => ⟨S1x2048, .f32⟩
  | 32 => ⟨S2048, .f32⟩
  | 33 => ⟨S1024x2, .f32⟩
  | 34 => ⟨S1024x2, .f32⟩
  | 35 => ⟨S1024x2, .f32⟩
  | 36 => ⟨S4096x1024x1x2, .f32⟩
  | 37 => ⟨S4096x1024x2, .f32⟩
  | 38 => ⟨S4096x1024x1x2, .f32⟩
  | 39 => ⟨S4096x1024x2, .f32⟩
  | 40 => ⟨S1x1024x2, .f32⟩
  | 41 => ⟨S4096x1024x2, .f32⟩
  | 42 => ⟨S4096x1024x2, .f32⟩
  | 43 => ⟨S1x1024x2, .f32⟩
  | 44 => ⟨S4096x1024x2, .f32⟩
  | 45 => ⟨S4096x1024x2, .f32⟩
  | 46 => ⟨S4096x1024x2, .f32⟩
  | 47 => ⟨S1x1024x2, .f32⟩
  | 48 => ⟨S4096x1024x2, .f32⟩
  | 49 => ⟨S4096x1024x2, .f32⟩
  | 50 => ⟨S1x1024x2, .f32⟩
  | 51 => ⟨S4096x1024x2, .f32⟩
  | 52 => ⟨S4096x1024x2, .f32⟩
  | 53 => ⟨S4096x1024x2, .f32⟩
  | 54 => ⟨S4096x1024x1x2, .f32⟩
  | 55 => ⟨S4096x1024x1x2, .f32⟩
  | 56 => ⟨S4096x1024x2x2, .f32⟩
  | 57 => ⟨S4096x4096, .f32⟩
  | 58 => ⟨S4096x512x2x4, .f32⟩
  | 59 => ⟨S1x2048, .f32⟩
  | 60 => ⟨S2048, .f32⟩
  | 61 => ⟨S512x4, .f32⟩
  | 62 => ⟨S512x4, .f32⟩
  | 63 => ⟨S512x4, .f32⟩
  | 64 => ⟨S4096x512x1x4, .f32⟩
  | 65 => ⟨S4096x512x4, .f32⟩
  | 66 => ⟨S4096x512x1x4, .f32⟩
  | 67 => ⟨S4096x512x4, .f32⟩
  | 68 => ⟨S1x512x4, .f32⟩
  | 69 => ⟨S4096x512x4, .f32⟩
  | 70 => ⟨S4096x512x4, .f32⟩
  | 71 => ⟨S1x512x4, .f32⟩
  | 72 => ⟨S4096x512x4, .f32⟩
  | 73 => ⟨S4096x512x4, .f32⟩
  | 74 => ⟨S4096x512x4, .f32⟩
  | 75 => ⟨S1x512x4, .f32⟩
  | 76 => ⟨S4096x512x4, .f32⟩
  | 77 => ⟨S4096x512x4, .f32⟩
  | 78 => ⟨S1x512x4, .f32⟩
  | 79 => ⟨S4096x512x4, .f32⟩
  | 80 => ⟨S4096x512x4, .f32⟩
  | 81 => ⟨S4096x512x4, .f32⟩
  | 82 => ⟨S4096x512x1x4, .f32⟩
  | 83 => ⟨S4096x512x1x4, .f32⟩
  | 84 => ⟨S4096x512x2x4, .f32⟩
  | 85 => ⟨S4096x4096, .f32⟩
  | 86 => ⟨S4096x256x2x8, .f32⟩
  | 87 => ⟨S1x2048, .f32⟩
  | 88 => ⟨S2048, .f32⟩
  | 89 => ⟨S256x8, .f32⟩
  | 90 => ⟨S256x8, .f32⟩
  | 91 => ⟨S256x8, .f32⟩
  | 92 => ⟨S4096x256x1x8, .f32⟩
  | 93 => ⟨S4096x256x8, .f32⟩
  | 94 => ⟨S4096x256x1x8, .f32⟩
  | 95 => ⟨S4096x256x8, .f32⟩
  | 96 => ⟨S1x256x8, .f32⟩
  | 97 => ⟨S4096x256x8, .f32⟩
  | 98 => ⟨S4096x256x8, .f32⟩
  | 99 => ⟨S1x256x8, .f32⟩
  | 100 => ⟨S4096x256x8, .f32⟩
  | 101 => ⟨S4096x256x8, .f32⟩
  | 102 => ⟨S4096x256x8, .f32⟩
  | 103 => ⟨S1x256x8, .f32⟩
  | 104 => ⟨S4096x256x8, .f32⟩
  | 105 => ⟨S4096x256x8, .f32⟩
  | 106 => ⟨S1x256x8, .f32⟩
  | 107 => ⟨S4096x256x8, .f32⟩
  | 108 => ⟨S4096x256x8, .f32⟩
  | 109 => ⟨S4096x256x8, .f32⟩
  | 110 => ⟨S4096x256x1x8, .f32⟩
  | 111 => ⟨S4096x256x1x8, .f32⟩
  | 112 => ⟨S4096x256x2x8, .f32⟩
  | 113 => ⟨S4096x4096, .f32⟩
  | 114 => ⟨S4096x128x2x16, .f32⟩
  | 115 => ⟨S1x2048, .f32⟩
  | 116 => ⟨S2048, .f32⟩
  | 117 => ⟨S128x16, .f32⟩
  | 118 => ⟨S128x16, .f32⟩
  | 119 => ⟨S128x16, .f32⟩
  | 120 => ⟨S4096x128x1x16, .f32⟩
  | 121 => ⟨S4096x128x16, .f32⟩
  | 122 => ⟨S4096x128x1x16, .f32⟩
  | 123 => ⟨S4096x128x16, .f32⟩
  | 124 => ⟨S1x128x16, .f32⟩
  | 125 => ⟨S4096x128x16, .f32⟩
  | 126 => ⟨S4096x128x16, .f32⟩
  | 127 => ⟨S1x128x16, .f32⟩
  | _ => ⟨S4096x4096, .f32⟩

abbrev hbmTy0_1 (i : Nat) : BufTy := match i % 128 with
  | 0 => ⟨S4096x128x16, .f32⟩
  | 1 => ⟨S4096x128x16, .f32⟩
  | 2 => ⟨S4096x128x16, .f32⟩
  | 3 => ⟨S1x128x16, .f32⟩
  | 4 => ⟨S4096x128x16, .f32⟩
  | 5 => ⟨S4096x128x16, .f32⟩
  | 6 => ⟨S1x128x16, .f32⟩
  | 7 => ⟨S4096x128x16, .f32⟩
  | 8 => ⟨S4096x128x16, .f32⟩
  | 9 => ⟨S4096x128x16, .f32⟩
  | 10 => ⟨S4096x128x1x16, .f32⟩
  | 11 => ⟨S4096x128x1x16, .f32⟩
  | 12 => ⟨S4096x128x2x16, .f32⟩
  | 13 => ⟨S4096x4096, .f32⟩
  | 14 => ⟨S4096x64x2x32, .f32⟩
  | 15 => ⟨S1x2048, .f32⟩
  | 16 => ⟨S2048, .f32⟩
  | 17 => ⟨S64x32, .f32⟩
  | 18 => ⟨S64x32, .f32⟩
  | 19 => ⟨S64x32, .f32⟩
  | 20 => ⟨S4096x64x1x32, .f32⟩
  | 21 => ⟨S4096x64x32, .f32⟩
  | 22 => ⟨S4096x64x1x32, .f32⟩
  | 23 => ⟨S4096x64x32, .f32⟩
  | 24 => ⟨S1x64x32, .f32⟩
  | 25 => ⟨S4096x64x32, .f32⟩
  | 26 => ⟨S4096x64x32, .f32⟩
  | 27 => ⟨S1x64x32, .f32⟩
  | 28 => ⟨S4096x64x32, .f32⟩
  | 29 => ⟨S4096x64x32, .f32⟩
  | 30 => ⟨S4096x64x32, .f32⟩
  | 31 => ⟨S1x64x32, .f32⟩
  | 32 => ⟨S4096x64x32, .f32⟩
  | 33 => ⟨S4096x64x32, .f32⟩
  | 34 => ⟨S1x64x32, .f32⟩
  | 35 => ⟨S4096x64x32, .f32⟩
  | 36 => ⟨S4096x64x32, .f32⟩
  | 37 => ⟨S4096x64x32, .f32⟩
  | 38 => ⟨S4096x64x1x32, .f32⟩
  | 39 => ⟨S4096x64x1x32, .f32⟩
  | 40 => ⟨S4096x64x2x32, .f32⟩
  | 41 => ⟨S4096x4096, .f32⟩
  | 42 => ⟨S4096x32x2x64, .f32⟩
  | 43 => ⟨S1x2048, .f32⟩
  | 44 => ⟨S2048, .f32⟩
  | 45 => ⟨S32x64, .f32⟩
  | 46 => ⟨S32x64, .f32⟩
  | 47 => ⟨S32x64, .f32⟩
  | 48 => ⟨S4096x32x1x64, .f32⟩
  | 49 => ⟨S4096x32x64, .f32⟩
  | 50 => ⟨S4096x32x1x64, .f32⟩
  | 51 => ⟨S4096x32x64, .f32⟩
  | 52 => ⟨S1x32x64, .f32⟩
  | 53 => ⟨S4096x32x64, .f32⟩
  | 54 => ⟨S4096x32x64, .f32⟩
  | 55 => ⟨S1x32x64, .f32⟩
  | 56 => ⟨S4096x32x64, .f32⟩
  | 57 => ⟨S4096x32x64, .f32⟩
  | 58 => ⟨S4096x32x64, .f32⟩
  | 59 => ⟨S1x32x64, .f32⟩
  | 60 => ⟨S4096x32x64, .f32⟩
  | 61 => ⟨S4096x32x64, .f32⟩
  | 62 => ⟨S1x32x64, .f32⟩
  | 63 => ⟨S4096x32x64, .f32⟩
  | 64 => ⟨S4096x32x64, .f32⟩
  | 65 => ⟨S4096x32x64, .f32⟩
  | 66 => ⟨S4096x32x1x64, .f32⟩
  | 67 => ⟨S4096x32x1x64, .f32⟩
  | 68 => ⟨S4096x32x2x64, .f32⟩
  | 69 => ⟨S4096x4096, .f32⟩
  | 70 => ⟨S4096x16x2x128, .f32⟩
  | 71 => ⟨S1x2048, .f32⟩
  | 72 => ⟨S2048, .f32⟩
  | 73 => ⟨S16x128, .f32⟩
  | 74 => ⟨S16x128, .f32⟩
  | 75 => ⟨S16x128, .f32⟩
  | 76 => ⟨S4096x16x1x128, .f32⟩
  | 77 => ⟨S4096x16x128, .f32⟩
  | 78 => ⟨S4096x16x1x128, .f32⟩
  | 79 => ⟨S4096x16x128, .f32⟩
  | 80 => ⟨S1x16x128, .f32⟩
  | 81 => ⟨S4096x16x128, .f32⟩
  | 82 => ⟨S4096x16x128, .f32⟩
  | 83 => ⟨S1x16x128, .f32⟩
  | 84 => ⟨S4096x16x128, .f32⟩
  | 85 => ⟨S4096x16x128, .f32⟩
  | 86 => ⟨S4096x16x128, .f32⟩
  | 87 => ⟨S1x16x128, .f32⟩
  | 88 => ⟨S4096x16x128, .f32⟩
  | 89 => ⟨S4096x16x128, .f32⟩
  | 90 => ⟨S1x16x128, .f32⟩
  | 91 => ⟨S4096x16x128, .f32⟩
  | 92 => ⟨S4096x16x128, .f32⟩
  | 93 => ⟨S4096x16x128, .f32⟩
  | 94 => ⟨S4096x16x1x128, .f32⟩
  | 95 => ⟨S4096x16x1x128, .f32⟩
  | 96 => ⟨S4096x16x2x128, .f32⟩
  | 97 => ⟨S4096x4096, .f32⟩
  | 98 => ⟨S4096x8x2x256, .f32⟩
  | 99 => ⟨S1x2048, .f32⟩
  | 100 => ⟨S2048, .f32⟩
  | 101 => ⟨S8x256, .f32⟩
  | 102 => ⟨S8x256, .f32⟩
  | 103 => ⟨S8x256, .f32⟩
  | 104 => ⟨S4096x8x1x256, .f32⟩
  | 105 => ⟨S4096x8x256, .f32⟩
  | 106 => ⟨S4096x8x1x256, .f32⟩
  | 107 => ⟨S4096x8x256, .f32⟩
  | 108 => ⟨S1x8x256, .f32⟩
  | 109 => ⟨S4096x8x256, .f32⟩
  | 110 => ⟨S4096x8x256, .f32⟩
  | 111 => ⟨S1x8x256, .f32⟩
  | 112 => ⟨S4096x8x256, .f32⟩
  | 113 => ⟨S4096x8x256, .f32⟩
  | 114 => ⟨S4096x8x256, .f32⟩
  | 115 => ⟨S1x8x256, .f32⟩
  | 116 => ⟨S4096x8x256, .f32⟩
  | 117 => ⟨S4096x8x256, .f32⟩
  | 118 => ⟨S1x8x256, .f32⟩
  | 119 => ⟨S4096x8x256, .f32⟩
  | 120 => ⟨S4096x8x256, .f32⟩
  | 121 => ⟨S4096x8x256, .f32⟩
  | 122 => ⟨S4096x8x1x256, .f32⟩
  | 123 => ⟨S4096x8x1x256, .f32⟩
  | 124 => ⟨S4096x8x2x256, .f32⟩
  | 125 => ⟨S4096x4096, .f32⟩
  | 126 => ⟨S4096x4x2x512, .f32⟩
  | 127 => ⟨S1x2048, .f32⟩
  | _ => ⟨S4096x4096, .f32⟩

abbrev hbmTy0_2 (i : Nat) : BufTy := match i % 128 with
  | 0 => ⟨S2048, .f32⟩
  | 1 => ⟨S4x512, .f32⟩
  | 2 => ⟨S4x512, .f32⟩
  | 3 => ⟨S4x512, .f32⟩
  | 4 => ⟨S4096x4x1x512, .f32⟩
  | 5 => ⟨S4096x4x512, .f32⟩
  | 6 => ⟨S4096x4x1x512, .f32⟩
  | 7 => ⟨S4096x4x512, .f32⟩
  | 8 => ⟨S1x4x512, .f32⟩
  | 9 => ⟨S4096x4x512, .f32⟩
  | 10 => ⟨S4096x4x512, .f32⟩
  | 11 => ⟨S1x4x512, .f32⟩
  | 12 => ⟨S4096x4x512, .f32⟩
  | 13 => ⟨S4096x4x512, .f32⟩
  | 14 => ⟨S4096x4x512, .f32⟩
  | 15 => ⟨S1x4x512, .f32⟩
  | 16 => ⟨S4096x4x512, .f32⟩
  | 17 => ⟨S4096x4x512, .f32⟩
  | 18 => ⟨S1x4x512, .f32⟩
  | 19 => ⟨S4096x4x512, .f32⟩
  | 20 => ⟨S4096x4x512, .f32⟩
  | 21 => ⟨S4096x4x512, .f32⟩
  | 22 => ⟨S4096x4x1x512, .f32⟩
  | 23 => ⟨S4096x4x1x512, .f32⟩
  | 24 => ⟨S4096x4x2x512, .f32⟩
  | 25 => ⟨S4096x4096, .f32⟩
  | 26 => ⟨S4096x2x2x1024, .f32⟩
  | 27 => ⟨S1x2048, .f32⟩
  | 28 => ⟨S2048, .f32⟩
  | 29 => ⟨S2x1024, .f32⟩
  | 30 => ⟨S2x1024, .f32⟩
  | 31 => ⟨S2x1024, .f32⟩
  | 32 => ⟨S4096x2x1x1024, .f32⟩
  | 33 => ⟨S4096x2x1024, .f32⟩
  | 34 => ⟨S4096x2x1x1024, .f32⟩
  | 35 => ⟨S4096x2x1024, .f32⟩
  | 36 => ⟨S1x2x1024, .f32⟩
  | 37 => ⟨S4096x2x1024, .f32⟩
  | 38 => ⟨S4096x2x1024, .f32⟩
  | 39 => ⟨S1x2x1024, .f32⟩
  | 40 => ⟨S4096x2x1024, .f32⟩
  | 41 => ⟨S4096x2x1024, .f32⟩
  | 42 => ⟨S4096x2x1024, .f32⟩
  | 43 => ⟨S1x2x1024, .f32⟩
  | 44 => ⟨S4096x2x1024, .f32⟩
  | 45 => ⟨S4096x2x1024, .f32⟩
  | 46 => ⟨S1x2x1024, .f32⟩
  | 47 => ⟨S4096x2x1024, .f32⟩
  | 48 => ⟨S4096x2x1024, .f32⟩
  | 49 => ⟨S4096x2x1024, .f32⟩
  | 50 => ⟨S4096x2x1x1024, .f32⟩
  | 51 => ⟨S4096x2x1x1024, .f32⟩
  | 52 => ⟨S4096x2x2x1024, .f32⟩
  | 53 => ⟨S4096x4096, .f32⟩
  | 54 => ⟨S4096x1x2x2048, .f32⟩
  | 55 => ⟨S1x2048, .f32⟩
  | 56 => ⟨S2048, .f32⟩
  | 57 => ⟨S1x2048, .f32⟩
  | 58 => ⟨S1x2048, .f32⟩
  | 59 => ⟨S1x2048, .f32⟩
  | 60 => ⟨S4096x1x1x2048, .f32⟩
  | 61 => ⟨S4096x1x2048, .f32⟩
  | 62 => ⟨S4096x1x1x2048, .f32⟩
  | 63 => ⟨S4096x1x2048, .f32⟩
  | 64 => ⟨S1x1x2048, .f32⟩
  | 65 => ⟨S4096x1x2048, .f32⟩
  | 66 => ⟨S4096x1x2048, .f32⟩
  | 67 => ⟨S1x1x2048, .f32⟩
  | 68 => ⟨S4096x1x2048, .f32⟩
  | 69 => ⟨S4096x1x2048, .f32⟩
  | 70 => ⟨S4096x1x2048, .f32⟩
  | 71 => ⟨S1x1x2048, .f32⟩
  | 72 => ⟨S4096x1x2048, .f32⟩
  | 73 => ⟨S4096x1x2048, .f32⟩
  | 74 => ⟨S1x1x2048, .f32⟩
  | 75 => ⟨S4096x1x2048, .f32⟩
  | 76 => ⟨S4096x1x2048, .f32⟩
  | 77 => ⟨S4096x1x2048, .f32⟩
  | 78 => ⟨S4096x1x1x2048, .f32⟩
  | 79 => ⟨S4096x1x1x2048, .f32⟩
  | 80 => ⟨S4096x1x2x2048, .f32⟩
  | 81 => ⟨S4096x4096, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_v195 : Ref sig .tc := ⟨.hbm, 197, rfl⟩
abbrev main_v196 : Ref sig .tc := ⟨.hbm, 198, rfl⟩
abbrev main_v197 : Ref sig .tc := ⟨.hbm, 199, rfl⟩
abbrev main_v198 : Ref sig .tc := ⟨.hbm, 200, rfl⟩
abbrev main_v199 : Ref sig .tc := ⟨.hbm, 201, rfl⟩
abbrev main_v200 : Ref sig .tc := ⟨.hbm, 202, rfl⟩
abbrev main_v201 : Ref sig .tc := ⟨.hbm, 203, rfl⟩
abbrev main_v202 : Ref sig .tc := ⟨.hbm, 204, rfl⟩
abbrev main_v203 : Ref sig .tc := ⟨.hbm, 205, rfl⟩
abbrev main_v204 : Ref sig .tc := ⟨.hbm, 206, rfl⟩
abbrev main_v205 : Ref sig .tc := ⟨.hbm, 207, rfl⟩
abbrev main_v206 : Ref sig .tc := ⟨.hbm, 208, rfl⟩
abbrev main_v207 : Ref sig .tc := ⟨.hbm, 209, rfl⟩
abbrev main_v208 : Ref sig .tc := ⟨.hbm, 210, rfl⟩
abbrev main_v209 : Ref sig .tc := ⟨.hbm, 211, rfl⟩
abbrev main_v210 : Ref sig .tc := ⟨.hbm, 212, rfl⟩
abbrev main_v211 : Ref sig .tc := ⟨.hbm, 213, rfl⟩
abbrev main_v212 : Ref sig .tc := ⟨.hbm, 214, rfl⟩
abbrev main_v213 : Ref sig .tc := ⟨.hbm, 215, rfl⟩
abbrev main_v214 : Ref sig .tc := ⟨.hbm, 216, rfl⟩
abbrev main_v215 : Ref sig .tc := ⟨.hbm, 217, rfl⟩
abbrev main_v216 : Ref sig .tc := ⟨.hbm, 218, rfl⟩
abbrev main_v217 : Ref sig .tc := ⟨.hbm, 219, rfl⟩
abbrev main_v218 : Ref sig .tc := ⟨.hbm, 220, rfl⟩
abbrev main_v219 : Ref sig .tc := ⟨.hbm, 221, rfl⟩
abbrev main_v220 : Ref sig .tc := ⟨.hbm, 222, rfl⟩
abbrev main_v221 : Ref sig .tc := ⟨.hbm, 223, rfl⟩
abbrev main_v222 : Ref sig .tc := ⟨.hbm, 224, rfl⟩
abbrev main_v223 : Ref sig .tc := ⟨.hbm, 225, rfl⟩
abbrev main_v224 : Ref sig .tc := ⟨.hbm, 226, rfl⟩
abbrev main_v225 : Ref sig .tc := ⟨.hbm, 227, rfl⟩
abbrev main_v226 : Ref sig .tc := ⟨.hbm, 228, rfl⟩
abbrev main_v227 : Ref sig .tc := ⟨.hbm, 229, rfl⟩
abbrev main_v228 : Ref sig .tc := ⟨.hbm, 230, rfl⟩
abbrev main_v229 : Ref sig .tc := ⟨.hbm, 231, rfl⟩
abbrev main_v230 : Ref sig .tc := ⟨.hbm, 232, rfl⟩
abbrev main_v231 : Ref sig .tc := ⟨.hbm, 233, rfl⟩
abbrev main_v232 : Ref sig .tc := ⟨.hbm, 234, rfl⟩
abbrev main_v233 : Ref sig .tc := ⟨.hbm, 235, rfl⟩
abbrev main_v234 : Ref sig .tc := ⟨.hbm, 236, rfl⟩
abbrev main_v235 : Ref sig .tc := ⟨.hbm, 237, rfl⟩
abbrev main_v236 : Ref sig .tc := ⟨.hbm, 238, rfl⟩
abbrev main_v237 : Ref sig .tc := ⟨.hbm, 239, rfl⟩
abbrev main_v238 : Ref sig .tc := ⟨.hbm, 240, rfl⟩
abbrev main_v239 : Ref sig .tc := ⟨.hbm, 241, rfl⟩
abbrev main_v240 : Ref sig .tc := ⟨.hbm, 242, rfl⟩
abbrev main_v241 : Ref sig .tc := ⟨.hbm, 243, rfl⟩
abbrev main_v242 : Ref sig .tc := ⟨.hbm, 244, rfl⟩
abbrev main_v243 : Ref sig .tc := ⟨.hbm, 245, rfl⟩
abbrev main_v244 : Ref sig .tc := ⟨.hbm, 246, rfl⟩
abbrev main_v245 : Ref sig .tc := ⟨.hbm, 247, rfl⟩
abbrev main_v246 : Ref sig .tc := ⟨.hbm, 248, rfl⟩
abbrev main_v247 : Ref sig .tc := ⟨.hbm, 249, rfl⟩
abbrev main_v248 : Ref sig .tc := ⟨.hbm, 250, rfl⟩
abbrev main_v249 : Ref sig .tc := ⟨.hbm, 251, rfl⟩
abbrev main_v250 : Ref sig .tc := ⟨.hbm, 252, rfl⟩
abbrev main_v251 : Ref sig .tc := ⟨.hbm, 253, rfl⟩
abbrev main_v252 : Ref sig .tc := ⟨.hbm, 254, rfl⟩
abbrev main_v253 : Ref sig .tc := ⟨.hbm, 255, rfl⟩
abbrev main_v254 : Ref sig .tc := ⟨.hbm, 256, rfl⟩
abbrev main_v255 : Ref sig .tc := ⟨.hbm, 257, rfl⟩
abbrev main_v256 : Ref sig .tc := ⟨.hbm, 258, rfl⟩
abbrev main_v257 : Ref sig .tc := ⟨.hbm, 259, rfl⟩
abbrev main_v258 : Ref sig .tc := ⟨.hbm, 260, rfl⟩
abbrev main_v259 : Ref sig .tc := ⟨.hbm, 261, rfl⟩
abbrev main_v260 : Ref sig .tc := ⟨.hbm, 262, rfl⟩
abbrev main_v261 : Ref sig .tc := ⟨.hbm, 263, rfl⟩
abbrev main_v262 : Ref sig .tc := ⟨.hbm, 264, rfl⟩
abbrev main_v263 : Ref sig .tc := ⟨.hbm, 265, rfl⟩
abbrev main_v264 : Ref sig .tc := ⟨.hbm, 266, rfl⟩
abbrev main_v265 : Ref sig .tc := ⟨.hbm, 267, rfl⟩
abbrev main_v266 : Ref sig .tc := ⟨.hbm, 268, rfl⟩
abbrev main_v267 : Ref sig .tc := ⟨.hbm, 269, rfl⟩
abbrev main_v268 : Ref sig .tc := ⟨.hbm, 270, rfl⟩
abbrev main_v269 : Ref sig .tc := ⟨.hbm, 271, rfl⟩
abbrev main_v270 : Ref sig .tc := ⟨.hbm, 272, rfl⟩
abbrev main_v271 : Ref sig .tc := ⟨.hbm, 273, rfl⟩
abbrev main_v272 : Ref sig .tc := ⟨.hbm, 274, rfl⟩
abbrev main_v273 : Ref sig .tc := ⟨.hbm, 275, rfl⟩
abbrev main_v274 : Ref sig .tc := ⟨.hbm, 276, rfl⟩
abbrev main_v275 : Ref sig .tc := ⟨.hbm, 277, rfl⟩
abbrev main_v276 : Ref sig .tc := ⟨.hbm, 278, rfl⟩
abbrev main_v277 : Ref sig .tc := ⟨.hbm, 279, rfl⟩
abbrev main_v278 : Ref sig .tc := ⟨.hbm, 280, rfl⟩
abbrev main_v279 : Ref sig .tc := ⟨.hbm, 281, rfl⟩
abbrev main_v280 : Ref sig .tc := ⟨.hbm, 282, rfl⟩
abbrev main_v281 : Ref sig .tc := ⟨.hbm, 283, rfl⟩
abbrev main_v282 : Ref sig .tc := ⟨.hbm, 284, rfl⟩
abbrev main_v283 : Ref sig .tc := ⟨.hbm, 285, rfl⟩
abbrev main_v284 : Ref sig .tc := ⟨.hbm, 286, rfl⟩
abbrev main_v285 : Ref sig .tc := ⟨.hbm, 287, rfl⟩
abbrev main_v286 : Ref sig .tc := ⟨.hbm, 288, rfl⟩
abbrev main_v287 : Ref sig .tc := ⟨.hbm, 289, rfl⟩
abbrev main_v288 : Ref sig .tc := ⟨.hbm, 290, rfl⟩
abbrev main_v289 : Ref sig .tc := ⟨.hbm, 291, rfl⟩
abbrev main_v290 : Ref sig .tc := ⟨.hbm, 292, rfl⟩
abbrev main_v291 : Ref sig .tc := ⟨.hbm, 293, rfl⟩
abbrev main_v292 : Ref sig .tc := ⟨.hbm, 294, rfl⟩
abbrev main_v293 : Ref sig .tc := ⟨.hbm, 295, rfl⟩
abbrev main_v294 : Ref sig .tc := ⟨.hbm, 296, rfl⟩
abbrev main_v295 : Ref sig .tc := ⟨.hbm, 297, rfl⟩
abbrev main_v296 : Ref sig .tc := ⟨.hbm, 298, rfl⟩
abbrev main_v297 : Ref sig .tc := ⟨.hbm, 299, rfl⟩
abbrev main_v298 : Ref sig .tc := ⟨.hbm, 300, rfl⟩
abbrev main_v299 : Ref sig .tc := ⟨.hbm, 301, rfl⟩
abbrev main_v300 : Ref sig .tc := ⟨.hbm, 302, rfl⟩
abbrev main_v301 : Ref sig .tc := ⟨.hbm, 303, rfl⟩
abbrev main_v302 : Ref sig .tc := ⟨.hbm, 304, rfl⟩
abbrev main_v303 : Ref sig .tc := ⟨.hbm, 305, rfl⟩
abbrev main_v304 : Ref sig .tc := ⟨.hbm, 306, rfl⟩
abbrev main_v305 : Ref sig .tc := ⟨.hbm, 307, rfl⟩
abbrev main_v306 : Ref sig .tc := ⟨.hbm, 308, rfl⟩
abbrev main_v307 : Ref sig .tc := ⟨.hbm, 309, rfl⟩
abbrev main_v308 : Ref sig .tc := ⟨.hbm, 310, rfl⟩
abbrev main_v309 : Ref sig .tc := ⟨.hbm, 311, rfl⟩
abbrev main_v310 : Ref sig .tc := ⟨.hbm, 312, rfl⟩
abbrev main_v311 : Ref sig .tc := ⟨.hbm, 313, rfl⟩
abbrev main_v312 : Ref sig .tc := ⟨.hbm, 314, rfl⟩
abbrev main_v313 : Ref sig .tc := ⟨.hbm, 315, rfl⟩
abbrev main_v314 : Ref sig .tc := ⟨.hbm, 316, rfl⟩
abbrev main_v315 : Ref sig .tc := ⟨.hbm, 317, rfl⟩
abbrev main_v316 : Ref sig .tc := ⟨.hbm, 318, rfl⟩
abbrev main_v317 : Ref sig .tc := ⟨.hbm, 319, rfl⟩
abbrev main_v318 : Ref sig .tc := ⟨.hbm, 320, rfl⟩
abbrev main_v319 : Ref sig .tc := ⟨.hbm, 321, rfl⟩
abbrev main_v320 : Ref sig .tc := ⟨.hbm, 322, rfl⟩
abbrev main_v321 : Ref sig .tc := ⟨.hbm, 323, rfl⟩
abbrev main_v322 : Ref sig .tc := ⟨.hbm, 324, rfl⟩
abbrev main_v323 : Ref sig .tc := ⟨.hbm, 325, rfl⟩
abbrev main_v324 : Ref sig .tc := ⟨.hbm, 326, rfl⟩
abbrev main_v325 : Ref sig .tc := ⟨.hbm, 327, rfl⟩
abbrev main_v326 : Ref sig .tc := ⟨.hbm, 328, rfl⟩
abbrev main_v327 : Ref sig .tc := ⟨.hbm, 329, rfl⟩
abbrev main_v328 : Ref sig .tc := ⟨.hbm, 330, rfl⟩
abbrev main_v329 : Ref sig .tc := ⟨.hbm, 331, rfl⟩
abbrev main_v330 : Ref sig .tc := ⟨.hbm, 332, rfl⟩
abbrev main_v331 : Ref sig .tc := ⟨.hbm, 333, rfl⟩
abbrev main_v332 : Ref sig .tc := ⟨.hbm, 334, rfl⟩
abbrev main_v333 : Ref sig .tc := ⟨.hbm, 335, rfl⟩
abbrev main_v334 : Ref sig .tc := ⟨.hbm, 336, rfl⟩
abbrev main_v335 : Ref sig .tc := ⟨.hbm, 337, rfl⟩

abbrev nD : Nat := 1
abbrev τ : Topo := Topo.v7x

variable {F : FTy → Type} [FloatOps F]

class Facts₀ : Prop where
  shapeCasts_S4096x4096_S4096x2048x2x1 : S4096x4096.ShapeCasts S4096x2048x2x1
  slices_S12x2048_S1x2048_0_0 : S12x2048.Slices ![0, 0] S1x2048
  shapeCasts_S1x2048_S2048 : S1x2048.ShapeCasts S2048
  shapeCasts_S2048_S2048x1 : S2048.ShapeCasts S2048x1
  slices_S4096x2048x2x1_S4096x2048x1x1_0_0_0_0 : S4096x2048x2x1.Slices ![0, 0, 0, 0] S4096x2048x1x1
  shapeCasts_S4096x2048x1x1_S4096x2048x1 : S4096x2048x1x1.ShapeCasts S4096x2048x1
  slices_S4096x2048x2x1_S4096x2048x1x1_0_0_1_0 : S4096x2048x2x1.Slices ![0, 0, 1, 0] S4096x2048x1x1
  bcast_S2048x1_S1x2048x1_1_2 : S2048x1.BroadcastsInDim S1x2048x1 (![1, 2] : Fin 2 → Fin S1x2048x1.rank)
  bcast_S1x2048x1_S4096x2048x1_0_1_2 : S1x2048x1.BroadcastsInDim S4096x2048x1 (![0, 1, 2] : Fin 3 → Fin S4096x2048x1.rank)
  bcast_S4096x2048x1_S4096x2048x1x1_0_1_3 : S4096x2048x1.BroadcastsInDim S4096x2048x1x1 (![0, 1, 3] : Fin 3 → Fin S4096x2048x1x1.rank)
  concatenates_S4096x2048x1x1_S4096x2048x1x1_S4096x2048x2x1_d2 : Shape.Concatenates [S4096x2048x1x1, S4096x2048x1x1] S4096x2048x2x1 2
  shapeCasts_S4096x2048x2x1_S4096x4096 : S4096x2048x2x1.ShapeCasts S4096x4096
  shapeCasts_S4096x4096_S4096x1024x2x2 : S4096x4096.ShapeCasts S4096x1024x2x2
  slices_S12x2048_S1x2048_1_0 : S12x2048.Slices ![1, 0] S1x2048
  shapeCasts_S2048_S1024x2 : S2048.ShapeCasts S1024x2
  slices_S4096x1024x2x2_S4096x1024x1x2_0_0_0_0 : S4096x1024x2x2.Slices ![0, 0, 0, 0] S4096x1024x1x2
  shapeCasts_S4096x1024x1x2_S4096x1024x2 : S4096x1024x1x2.ShapeCasts S4096x1024x2
  slices_S4096x1024x2x2_S4096x1024x1x2_0_0_1_0 : S4096x1024x2x2.Slices ![0, 0, 1, 0] S4096x1024x1x2
  bcast_S1024x2_S1x1024x2_1_2 : S1024x2.BroadcastsInDim S1x1024x2 (![1, 2] : Fin 2 → Fin S1x1024x2.rank)
  bcast_S1x1024x2_S4096x1024x2_0_1_2 : S1x1024x2.BroadcastsInDim S4096x1024x2 (![0, 1, 2] : Fin 3 → Fin S4096x1024x2.rank)
  bcast_S4096x1024x2_S4096x1024x1x2_0_1_3 : S4096x1024x2.BroadcastsInDim S4096x1024x1x2 (![0, 1, 3] : Fin 3 → Fin S4096x1024x1x2.rank)
  concatenates_S4096x1024x1x2_S4096x1024x1x2_S4096x1024x2x2_d2 : Shape.Concatenates [S4096x1024x1x2, S4096x1024x1x2] S4096x1024x2x2 2
  shapeCasts_S4096x1024x2x2_S4096x4096 : S4096x1024x2x2.ShapeCasts S4096x4096
  shapeCasts_S4096x4096_S4096x512x2x4 : S4096x4096.ShapeCasts S4096x512x2x4
  slices_S12x2048_S1x2048_2_0 : S12x2048.Slices ![2, 0] S1x2048
  shapeCasts_S2048_S512x4 : S2048.ShapeCasts S512x4
  slices_S4096x512x2x4_S4096x512x1x4_0_0_0_0 : S4096x512x2x4.Slices ![0, 0, 0, 0] S4096x512x1x4
  shapeCasts_S4096x512x1x4_S4096x512x4 : S4096x512x1x4.ShapeCasts S4096x512x4
  slices_S4096x512x2x4_S4096x512x1x4_0_0_1_0 : S4096x512x2x4.Slices ![0, 0, 1, 0] S4096x512x1x4
  bcast_S512x4_S1x512x4_1_2 : S512x4.BroadcastsInDim S1x512x4 (![1, 2] : Fin 2 → Fin S1x512x4.rank)
  bcast_S1x512x4_S4096x512x4_0_1_2 : S1x512x4.BroadcastsInDim S4096x512x4 (![0, 1, 2] : Fin 3 → Fin S4096x512x4.rank)
  bcast_S4096x512x4_S4096x512x1x4_0_1_3 : S4096x512x4.BroadcastsInDim S4096x512x1x4 (![0, 1, 3] : Fin 3 → Fin S4096x512x1x4.rank)
  concatenates_S4096x512x1x4_S4096x512x1x4_S4096x512x2x4_d2 : Shape.Concatenates [S4096x512x1x4, S4096x512x1x4] S4096x512x2x4 2
  shapeCasts_S4096x512x2x4_S4096x4096 : S4096x512x2x4.ShapeCasts S4096x4096
  shapeCasts_S4096x4096_S4096x256x2x8 : S4096x4096.ShapeCasts S4096x256x2x8
  slices_S12x2048_S1x2048_3_0 : S12x2048.Slices ![3, 0] S1x2048
  shapeCasts_S2048_S256x8 : S2048.ShapeCasts S256x8
  slices_S4096x256x2x8_S4096x256x1x8_0_0_0_0 : S4096x256x2x8.Slices ![0, 0, 0, 0] S4096x256x1x8
  shapeCasts_S4096x256x1x8_S4096x256x8 : S4096x256x1x8.ShapeCasts S4096x256x8
  slices_S4096x256x2x8_S4096x256x1x8_0_0_1_0 : S4096x256x2x8.Slices ![0, 0, 1, 0] S4096x256x1x8
  bcast_S256x8_S1x256x8_1_2 : S256x8.BroadcastsInDim S1x256x8 (![1, 2] : Fin 2 → Fin S1x256x8.rank)
  bcast_S1x256x8_S4096x256x8_0_1_2 : S1x256x8.BroadcastsInDim S4096x256x8 (![0, 1, 2] : Fin 3 → Fin S4096x256x8.rank)
  bcast_S4096x256x8_S4096x256x1x8_0_1_3 : S4096x256x8.BroadcastsInDim S4096x256x1x8 (![0, 1, 3] : Fin 3 → Fin S4096x256x1x8.rank)
  concatenates_S4096x256x1x8_S4096x256x1x8_S4096x256x2x8_d2 : Shape.Concatenates [S4096x256x1x8, S4096x256x1x8] S4096x256x2x8 2
  shapeCasts_S4096x256x2x8_S4096x4096 : S4096x256x2x8.ShapeCasts S4096x4096
  shapeCasts_S4096x4096_S4096x128x2x16 : S4096x4096.ShapeCasts S4096x128x2x16
  slices_S12x2048_S1x2048_4_0 : S12x2048.Slices ![4, 0] S1x2048
  shapeCasts_S2048_S128x16 : S2048.ShapeCasts S128x16
  slices_S4096x128x2x16_S4096x128x1x16_0_0_0_0 : S4096x128x2x16.Slices ![0, 0, 0, 0] S4096x128x1x16
  shapeCasts_S4096x128x1x16_S4096x128x16 : S4096x128x1x16.ShapeCasts S4096x128x16
  slices_S4096x128x2x16_S4096x128x1x16_0_0_1_0 : S4096x128x2x16.Slices ![0, 0, 1, 0] S4096x128x1x16
  bcast_S128x16_S1x128x16_1_2 : S128x16.BroadcastsInDim S1x128x16 (![1, 2] : Fin 2 → Fin S1x128x16.rank)
  bcast_S1x128x16_S4096x128x16_0_1_2 : S1x128x16.BroadcastsInDim S4096x128x16 (![0, 1, 2] : Fin 3 → Fin S4096x128x16.rank)
  bcast_S4096x128x16_S4096x128x1x16_0_1_3 : S4096x128x16.BroadcastsInDim S4096x128x1x16 (![0, 1, 3] : Fin 3 → Fin S4096x128x1x16.rank)
  concatenates_S4096x128x1x16_S4096x128x1x16_S4096x128x2x16_d2 : Shape.Concatenates [S4096x128x1x16, S4096x128x1x16] S4096x128x2x16 2
  shapeCasts_S4096x128x2x16_S4096x4096 : S4096x128x2x16.ShapeCasts S4096x4096
  shapeCasts_S4096x4096_S4096x64x2x32 : S4096x4096.ShapeCasts S4096x64x2x32
  slices_S12x2048_S1x2048_5_0 : S12x2048.Slices ![5, 0] S1x2048
  shapeCasts_S2048_S64x32 : S2048.ShapeCasts S64x32
  slices_S4096x64x2x32_S4096x64x1x32_0_0_0_0 : S4096x64x2x32.Slices ![0, 0, 0, 0] S4096x64x1x32
  shapeCasts_S4096x64x1x32_S4096x64x32 : S4096x64x1x32.ShapeCasts S4096x64x32
  slices_S4096x64x2x32_S4096x64x1x32_0_0_1_0 : S4096x64x2x32.Slices ![0, 0, 1, 0] S4096x64x1x32
  bcast_S64x32_S1x64x32_1_2 : S64x32.BroadcastsInDim S1x64x32 (![1, 2] : Fin 2 → Fin S1x64x32.rank)
  bcast_S1x64x32_S4096x64x32_0_1_2 : S1x64x32.BroadcastsInDim S4096x64x32 (![0, 1, 2] : Fin 3 → Fin S4096x64x32.rank)
  bcast_S4096x64x32_S4096x64x1x32_0_1_3 : S4096x64x32.BroadcastsInDim S4096x64x1x32 (![0, 1, 3] : Fin 3 → Fin S4096x64x1x32.rank)
  concatenates_S4096x64x1x32_S4096x64x1x32_S4096x64x2x32_d2 : Shape.Concatenates [S4096x64x1x32, S4096x64x1x32] S4096x64x2x32 2
  shapeCasts_S4096x64x2x32_S4096x4096 : S4096x64x2x32.ShapeCasts S4096x4096
  shapeCasts_S4096x4096_S4096x32x2x64 : S4096x4096.ShapeCasts S4096x32x2x64
  slices_S12x2048_S1x2048_6_0 : S12x2048.Slices ![6, 0] S1x2048
  shapeCasts_S2048_S32x64 : S2048.ShapeCasts S32x64
  slices_S4096x32x2x64_S4096x32x1x64_0_0_0_0 : S4096x32x2x64.Slices ![0, 0, 0, 0] S4096x32x1x64
  shapeCasts_S4096x32x1x64_S4096x32x64 : S4096x32x1x64.ShapeCasts S4096x32x64
  slices_S4096x32x2x64_S4096x32x1x64_0_0_1_0 : S4096x32x2x64.Slices ![0, 0, 1, 0] S4096x32x1x64
  bcast_S32x64_S1x32x64_1_2 : S32x64.BroadcastsInDim S1x32x64 (![1, 2] : Fin 2 → Fin S1x32x64.rank)
  bcast_S1x32x64_S4096x32x64_0_1_2 : S1x32x64.BroadcastsInDim S4096x32x64 (![0, 1, 2] : Fin 3 → Fin S4096x32x64.rank)
  bcast_S4096x32x64_S4096x32x1x64_0_1_3 : S4096x32x64.BroadcastsInDim S4096x32x1x64 (![0, 1, 3] : Fin 3 → Fin S4096x32x1x64.rank)
  concatenates_S4096x32x1x64_S4096x32x1x64_S4096x32x2x64_d2 : Shape.Concatenates [S4096x32x1x64, S4096x32x1x64] S4096x32x2x64 2
  shapeCasts_S4096x32x2x64_S4096x4096 : S4096x32x2x64.ShapeCasts S4096x4096
  shapeCasts_S4096x4096_S4096x16x2x128 : S4096x4096.ShapeCasts S4096x16x2x128
  slices_S12x2048_S1x2048_7_0 : S12x2048.Slices ![7, 0] S1x2048
  shapeCasts_S2048_S16x128 : S2048.ShapeCasts S16x128
  slices_S4096x16x2x128_S4096x16x1x128_0_0_0_0 : S4096x16x2x128.Slices ![0, 0, 0, 0] S4096x16x1x128
  shapeCasts_S4096x16x1x128_S4096x16x128 : S4096x16x1x128.ShapeCasts S4096x16x128
  slices_S4096x16x2x128_S4096x16x1x128_0_0_1_0 : S4096x16x2x128.Slices ![0, 0, 1, 0] S4096x16x1x128
  bcast_S16x128_S1x16x128_1_2 : S16x128.BroadcastsInDim S1x16x128 (![1, 2] : Fin 2 → Fin S1x16x128.rank)
  bcast_S1x16x128_S4096x16x128_0_1_2 : S1x16x128.BroadcastsInDim S4096x16x128 (![0, 1, 2] : Fin 3 → Fin S4096x16x128.rank)
  bcast_S4096x16x128_S4096x16x1x128_0_1_3 : S4096x16x128.BroadcastsInDim S4096x16x1x128 (![0, 1, 3] : Fin 3 → Fin S4096x16x1x128.rank)
  concatenates_S4096x16x1x128_S4096x16x1x128_S4096x16x2x128_d2 : Shape.Concatenates [S4096x16x1x128, S4096x16x1x128] S4096x16x2x128 2
  shapeCasts_S4096x16x2x128_S4096x4096 : S4096x16x2x128.ShapeCasts S4096x4096
  shapeCasts_S4096x4096_S4096x8x2x256 : S4096x4096.ShapeCasts S4096x8x2x256
  slices_S12x2048_S1x2048_8_0 : S12x2048.Slices ![8, 0] S1x2048
  shapeCasts_S2048_S8x256 : S2048.ShapeCasts S8x256
  slices_S4096x8x2x256_S4096x8x1x256_0_0_0_0 : S4096x8x2x256.Slices ![0, 0, 0, 0] S4096x8x1x256
  shapeCasts_S4096x8x1x256_S4096x8x256 : S4096x8x1x256.ShapeCasts S4096x8x256
  slices_S4096x8x2x256_S4096x8x1x256_0_0_1_0 : S4096x8x2x256.Slices ![0, 0, 1, 0] S4096x8x1x256
  bcast_S8x256_S1x8x256_1_2 : S8x256.BroadcastsInDim S1x8x256 (![1, 2] : Fin 2 → Fin S1x8x256.rank)
  bcast_S1x8x256_S4096x8x256_0_1_2 : S1x8x256.BroadcastsInDim S4096x8x256 (![0, 1, 2] : Fin 3 → Fin S4096x8x256.rank)
  bcast_S4096x8x256_S4096x8x1x256_0_1_3 : S4096x8x256.BroadcastsInDim S4096x8x1x256 (![0, 1, 3] : Fin 3 → Fin S4096x8x1x256.rank)
  concatenates_S4096x8x1x256_S4096x8x1x256_S4096x8x2x256_d2 : Shape.Concatenates [S4096x8x1x256, S4096x8x1x256] S4096x8x2x256 2
  shapeCasts_S4096x8x2x256_S4096x4096 : S4096x8x2x256.ShapeCasts S4096x4096
  shapeCasts_S4096x4096_S4096x4x2x512 : S4096x4096.ShapeCasts S4096x4x2x512
  slices_S12x2048_S1x2048_9_0 : S12x2048.Slices ![9, 0] S1x2048
  shapeCasts_S2048_S4x512 : S2048.ShapeCasts S4x512
  slices_S4096x4x2x512_S4096x4x1x512_0_0_0_0 : S4096x4x2x512.Slices ![0, 0, 0, 0] S4096x4x1x512
  shapeCasts_S4096x4x1x512_S4096x4x512 : S4096x4x1x512.ShapeCasts S4096x4x512
  slices_S4096x4x2x512_S4096x4x1x512_0_0_1_0 : S4096x4x2x512.Slices ![0, 0, 1, 0] S4096x4x1x512
  bcast_S4x512_S1x4x512_1_2 : S4x512.BroadcastsInDim S1x4x512 (![1, 2] : Fin 2 → Fin S1x4x512.rank)
  bcast_S1x4x512_S4096x4x512_0_1_2 : S1x4x512.BroadcastsInDim S4096x4x512 (![0, 1, 2] : Fin 3 → Fin S4096x4x512.rank)
  bcast_S4096x4x512_S4096x4x1x512_0_1_3 : S4096x4x512.BroadcastsInDim S4096x4x1x512 (![0, 1, 3] : Fin 3 → Fin S4096x4x1x512.rank)
  concatenates_S4096x4x1x512_S4096x4x1x512_S4096x4x2x512_d2 : Shape.Concatenates [S4096x4x1x512, S4096x4x1x512] S4096x4x2x512 2
  shapeCasts_S4096x4x2x512_S4096x4096 : S4096x4x2x512.ShapeCasts S4096x4096
  shapeCasts_S4096x4096_S4096x2x2x1024 : S4096x4096.ShapeCasts S4096x2x2x1024
  slices_S12x2048_S1x2048_10_0 : S12x2048.Slices ![10, 0] S1x2048
  shapeCasts_S2048_S2x1024 : S2048.ShapeCasts S2x1024
  slices_S4096x2x2x1024_S4096x2x1x1024_0_0_0_0 : S4096x2x2x1024.Slices ![0, 0, 0, 0] S4096x2x1x1024
  shapeCasts_S4096x2x1x1024_S4096x2x1024 : S4096x2x1x1024.ShapeCasts S4096x2x1024
  slices_S4096x2x2x1024_S4096x2x1x1024_0_0_1_0 : S4096x2x2x1024.Slices ![0, 0, 1, 0] S4096x2x1x1024
  bcast_S2x1024_S1x2x1024_1_2 : S2x1024.BroadcastsInDim S1x2x1024 (![1, 2] : Fin 2 → Fin S1x2x1024.rank)
  bcast_S1x2x1024_S4096x2x1024_0_1_2 : S1x2x1024.BroadcastsInDim S4096x2x1024 (![0, 1, 2] : Fin 3 → Fin S4096x2x1024.rank)
  bcast_S4096x2x1024_S4096x2x1x1024_0_1_3 : S4096x2x1024.BroadcastsInDim S4096x2x1x1024 (![0, 1, 3] : Fin 3 → Fin S4096x2x1x1024.rank)
  concatenates_S4096x2x1x1024_S4096x2x1x1024_S4096x2x2x1024_d2 : Shape.Concatenates [S4096x2x1x1024, S4096x2x1x1024] S4096x2x2x1024 2
  shapeCasts_S4096x2x2x1024_S4096x4096 : S4096x2x2x1024.ShapeCasts S4096x4096
  shapeCasts_S4096x4096_S4096x1x2x2048 : S4096x4096.ShapeCasts S4096x1x2x2048
  slices_S12x2048_S1x2048_11_0 : S12x2048.Slices ![11, 0] S1x2048
  shapeCasts_S2048_S1x2048 : S2048.ShapeCasts S1x2048
  slices_S4096x1x2x2048_S4096x1x1x2048_0_0_0_0 : S4096x1x2x2048.Slices ![0, 0, 0, 0] S4096x1x1x2048
  shapeCasts_S4096x1x1x2048_S4096x1x2048 : S4096x1x1x2048.ShapeCasts S4096x1x2048
  slices_S4096x1x2x2048_S4096x1x1x2048_0_0_1_0 : S4096x1x2x2048.Slices ![0, 0, 1, 0] S4096x1x1x2048
  bcast_S1x2048_S1x1x2048_1_2 : S1x2048.BroadcastsInDim S1x1x2048 (![1, 2] : Fin 2 → Fin S1x1x2048.rank)
  bcast_S1x1x2048_S4096x1x2048_0_1_2 : S1x1x2048.BroadcastsInDim S4096x1x2048 (![0, 1, 2] : Fin 3 → Fin S4096x1x2048.rank)
  bcast_S4096x1x2048_S4096x1x1x2048_0_1_3 : S4096x1x2048.BroadcastsInDim S4096x1x1x2048 (![0, 1, 3] : Fin 3 → Fin S4096x1x1x2048.rank)
  concatenates_S4096x1x1x2048_S4096x1x1x2048_S4096x1x2x2048_d2 : Shape.Concatenates [S4096x1x1x2048, S4096x1x1x2048] S4096x1x2x2048 2
  shapeCasts_S4096x1x2x2048_S4096x4096 : S4096x1x2x2048.ShapeCasts S4096x4096

variable [Facts₀]

class Facts : Prop extends Facts₀ where

variable [Facts]
-- ==== Proof.Spec.lean ====
/-
  The mathematics both programs compute, stated once over rows indexed by natural numbers.

  One butterfly stage of distance d acts on a row v of length n (2d divides n): the row is cut into groups of
  2d consecutive entries; inside a group, entry j of the low half (j < d) is paired with entry j of the high half,
  and the pair (a, b) is rotated by the angle θ(p), p the pair's number counted along the row:
      low  ↦ cos θ(p) · a − sin θ(p) · b,      high ↦ sin θ(p) · a + cos θ(p) · b.
  The reference applies the twelve stages d = 1, 2, …, 2048 one after the other to every row of x.
  The kernel applies the first seven (d ≤ 64: each acts inside blocks of 128 consecutive entries) to the rows of the
  128 × 128 identity, block by block, multiplies each block of a row of x by its block's matrix, and then applies the
  last five stages directly.  The two agree because the seven stages are linear in the row.
-/
import Idealize.ShloMosaic.Lib.ValueIdx
import Idealize.ShloMosaic.PureOps.Ideal

noncomputable section

open scoped BigOperators

namespace Cert.Bfly

open Idealize.ShloMosaic Idealize.ShloMosaic.ValueIdx

/-- A two-axis array read at natural coordinates; zero outside its extents. -/
def at2 {B n : ℕ} (X : (⟨2, ![B, n]⟩ : Shape).Idx → EReal) (b i : ℕ) : EReal :=
  if h : b < B ∧ i < n then X (ix2 ⟨b, h.1⟩ ⟨i, h.2⟩) else 0

/-- A three-axis array read at natural coordinates; zero outside its extents. -/
def at3 {A B n : ℕ} (X : (⟨3, ![A, B, n]⟩ : Shape).Idx → EReal) (a b i : ℕ) : EReal :=
  if h : a < A ∧ b < B ∧ i < n then X (ix3 ⟨a, h.1⟩ ⟨b, h.2.1⟩ ⟨i, h.2.2⟩) else 0

/-- The number of the pair that position i belongs to at distance d: group i / 2d, offset i % d. -/
def pairIdx (d i : ℕ) : ℕ := i / (2 * d) * d + i % d

/-- The low partner of position i at distance d (i itself when i is in the low half of its group). -/
def loIdx (d i : ℕ) : ℕ := i / (2 * d) * (2 * d) + i % d

/-- One butterfly stage of distance d with angles θ, on a row v. -/
def stage (d : ℕ) (θ : ℕ → EReal) (v : ℕ → EReal) (i : ℕ) : EReal :=
  if i / d % 2 = 0 then
    Ideal.cos (θ (pairIdx d i)) * v (loIdx d i) - Ideal.sin (θ (pairIdx d i)) * v (loIdx d i + d)
  else
    Ideal.sin (θ (pairIdx d i)) * v (loIdx d i) + Ideal.cos (θ (pairIdx d i)) * v (loIdx d i + d)

/-- Stages s0, s0 + 1, …, s0 + k − 1 (distances 2 ^ s0, …) applied in this order; θ s is stage s's row of angles. -/
def stages (θ : ℕ → ℕ → EReal) (s0 : ℕ) : ℕ → (ℕ → EReal) → ℕ → EReal
  | 0, v => v
  | k + 1, v => stage (2 ^ (s0 + k)) (θ (s0 + k)) (stages θ s0 k v)

/-- Row k of the identity. -/
def unitVec (k i : ℕ) : EReal := if k = i then ((1 : ℝ) : EReal) else ((0 : ℝ) : EReal)

/-- The angles block c sees: pair p of block c at a stage of distance at most 64 is pair 64 c + p of the row. -/
def angLoc (θ : ℕ → ℕ → EReal) (c s p : ℕ) : EReal := θ s (64 * c + p)

/-- Block c's matrix: row k is the first seven stages applied to row k of the identity, with block c's angles. -/
def chunkM (θ : ℕ → ℕ → EReal) (c k j : ℕ) : EReal := stages (angLoc θ c) 0 7 (unitVec k) j

/-- A row times the block matrices M: entry i lies in block i / 128, at column i % 128 of it. -/
def mmRow (xrow : ℕ → EReal) (M : ℕ → ℕ → ℕ → EReal) (i : ℕ) : EReal :=
  ∑ k : Fin 128, xrow (128 * (i / 128) + k.val) * M (i / 128) k.val (i % 128)

/-- What the kernel computes on one row: the block products, then stages 7 … 11. -/
def kernelRow (θ : ℕ → ℕ → EReal) (xrow : ℕ → EReal) (M : ℕ → ℕ → ℕ → EReal) : ℕ → EReal :=
  stages θ 7 5 (mmRow xrow M)

/-- What the reference computes on one row: stages 0 … 11. -/
def refRow (θ : ℕ → ℕ → EReal) (xrow : ℕ → EReal) : ℕ → EReal := stages θ 0 12 xrow

/-- The kernel's five rows of angles (stages 7 … 11) as a table indexed by the stage's number. -/
def hiAng (A : (⟨2, ![5, 2048]⟩ : Shape).Idx → EReal) (s p : ℕ) : EReal := at2 A (s - 7) p

/-- One loaded row of angles. -/
def rowAng (a : (⟨2, ![1, 2048]⟩ : Shape).Idx → EReal) (p : ℕ) : EReal := at2 a 0 p

/-- A stage applied to every row of a 256 × 4096 block. -/
def stageArr (d : ℕ) (θrow : ℕ → EReal) (Y : (⟨2, ![256, 4096]⟩ : Shape).Idx → EReal) :
    (⟨2, ![256, 4096]⟩ : Shape).Idx → EReal :=
  fun j => stage d θrow (at2 Y (j 0).val) (j 1).val

/-- Every row of a 256 × 4096 block times the block matrices. -/
def mmArr (x0 : (⟨2, ![256, 4096]⟩ : Shape).Idx → EReal) (x1 : (⟨3, ![32, 128, 128]⟩ : Shape).Idx → EReal) :
    (⟨2, ![256, 4096]⟩ : Shape).Idx → EReal :=
  fun j => mmRow (at2 x0 (j 0).val) (at3 x1) (j 1).val

end Cert.Bfly

end
-- ==== Proof.SpecLemmas.lean ====
/-
  Elementary facts about one butterfly stage: its two formulas at a position written as group, half and offset; that it
  reads the row and the angles only inside the row's length; and that stages compose.
-/
import proofs.«124778_j35845797052976_1_alg».proof.Proof.Spec
import Mathlib.Tactic.Ring
import Mathlib.Tactic.Positivity

noncomputable section

namespace Cert.Bfly

open Idealize.ShloMosaic

/-- Position j of the low half of group G: the pair is rotated into its first component. -/
theorem stage_lo (d : ℕ) (θ v : ℕ → EReal) (G j : ℕ) (hj : j < d) :
    stage d θ v (G * (2 * d) + j)
      = Ideal.cos (θ (G * d + j)) * v (G * (2 * d) + j) - Ideal.sin (θ (G * d + j)) * v (G * (2 * d) + j + d) := by
  have hd : 0 < d := by omega
  -- the position is j past a multiple of d with an even quotient, and j past G groups of 2d
  have e1 : G * (2 * d) + j = j + d * (2 * G) := by ring
  have e2 : G * (2 * d) + j = j + (2 * d) * G := by ring
  have h1 : (G * (2 * d) + j) / d % 2 = 0 := by
    rw [e1, Nat.add_mul_div_left _ _ hd, Nat.div_eq_of_lt hj]; omega
  have h2 : (G * (2 * d) + j) / (2 * d) = G := by
    rw [e2, Nat.add_mul_div_left _ _ (by omega), Nat.div_eq_of_lt (by omega)]; omega
  have h3 : (G * (2 * d) + j) % d = j := by
    rw [e1, Nat.add_mul_mod_self_left, Nat.mod_eq_of_lt hj]
  unfold stage pairIdx loIdx
  rw [if_pos h1, h2, h3]

/-- Position j of the high half of group G: the pair is rotated into its second component. -/
theorem stage_hi (d : ℕ) (θ v : ℕ → EReal) (G j : ℕ) (hj : j < d) :
    stage d θ v (G * (2 * d) + d + j)
      = Ideal.sin (θ (G * d + j)) * v (G * (2 * d) + j) + Ideal.cos (θ (G * d + j)) * v (G * (2 * d) + j + d) := by
  have hd : 0 < d := by omega
  -- the position is j past a multiple of d with an odd quotient, and d + j past G groups of 2d
  have e1 : G * (2 * d) + d + j = j + d * (2 * G + 1) := by ring
  have e2 : G * (2 * d) + d + j = (d + j) + (2 * d) * G := by ring
  have h1 : ¬ (G * (2 * d) + d + j) / d % 2 = 0 := by
    rw [e1, Nat.add_mul_div_left _ _ hd, Nat.div_eq_of_lt hj]; omega
  have h2 : (G * (2 * d) + d + j) / (2 * d) = G := by
    rw [e2, Nat.add_mul_div_left _ _ (by omega), Nat.div_eq_of_lt (by omega)]; omega
  have h3 : (G * (2 * d) + d + j) % d = j := by
    rw [e1, Nat.add_mul_mod_self_left, Nat.mod_eq_of_lt hj]
  unfold stage pairIdx loIdx
  rw [if_neg h1, h2, h3]

/-- On a row of length n that 2d divides, a stage reads only the row's n entries and the n / 2 angles. -/
theorem stage_congr (d n : ℕ) (hd : 0 < d) (hn : 2 * d ∣ n) (θ θ' v v' : ℕ → EReal)
    (hθ : ∀ p, p < n / 2 → θ p = θ' p) (hv : ∀ i, i < n → v i = v' i) (i : ℕ) (hi : i < n) :
    stage d θ v i = stage d θ' v' i := by
  obtain ⟨m, rfl⟩ := hn
  -- i lies in group G < m at offset r < 2d; the group ends before the row does
  have hG : i / (2 * d) < m := Nat.div_lt_of_lt_mul hi
  have hdec : i = i / (2 * d) * (2 * d) + i % (2 * d) := (Nat.div_add_mod' i (2 * d)).symm
  have hr : i % (2 * d) < 2 * d := Nat.mod_lt _ (by omega)
  generalize i / (2 * d) = G at hG hdec
  generalize i % (2 * d) = r at hr hdec
  have hGm : (G + 1) * d ≤ m * d := Nat.mul_le_mul_right d hG
  have e1 : (G + 1) * d = G * d + d := by ring
  have e2 : G * (2 * d) = 2 * (G * d) := by ring
  have e3 : 2 * d * m = 2 * (m * d) := by ring
  by_cases hlt : r < d
  · subst hdec
    rw [stage_lo d θ v G r hlt, stage_lo d θ' v' G r hlt, hθ (G * d + r) (by omega),
      hv (G * (2 * d) + r) (by omega), hv (G * (2 * d) + r + d) (by omega)]
  · obtain ⟨j, rfl⟩ : ∃ j, r = d + j := ⟨r - d, by omega⟩
    have hj : j < d := by omega
    have hi' : i = G * (2 * d) + d + j := by omega
    subst hi'
    rw [stage_hi d θ v G j hj, stage_hi d θ' v' G j hj, hθ (G * d + j) (by omega),
      hv (G * (2 * d) + j) (by omega), hv (G * (2 * d) + j + d) (by omega)]

/-- The same for a run of stages s0, …, s0 + k − 1 on a row whose length 2 ^ (s0 + k) divides. -/
theorem stages_congr (n s0 k : ℕ) (hn : 2 ^ (s0 + k) ∣ n) (θ θ' : ℕ → ℕ → EReal) (v v' : ℕ → EReal)
    (hθ : ∀ s p, s0 ≤ s → s < s0 + k → p < n / 2 → θ s p = θ' s p) (hv : ∀ i, i < n → v i = v' i)
    (i : ℕ) (hi : i < n) :
    stages θ s0 k v i = stages θ' s0 k v' i := by
  induction k generalizing i with
  | zero => exact hv i hi
  | succ k ih =>
    show stage (2 ^ (s0 + k)) (θ (s0 + k)) (stages θ s0 k v) i
      = stage (2 ^ (s0 + k)) (θ' (s0 + k)) (stages θ' s0 k v') i
    have h2 : 2 * 2 ^ (s0 + k) = 2 ^ (s0 + (k + 1)) := by rw [← Nat.add_assoc, pow_succ]; ring
    refine stage_congr (2 ^ (s0 + k)) n (by positivity) (h2 ▸ hn) _ _ _ _ ?_ ?_ i hi
    · intro p hp
      exact hθ (s0 + k) p (by omega) (by omega) hp
    · intro i' hi'
      exact ih (dvd_trans (pow_dvd_pow 2 (by omega)) hn)
        (fun s p h1 h2 h3 => hθ s p h1 (by omega) h3) i' hi'

/-- A run of a + b stages is a run of a stages followed by a run of b. -/
theorem stages_add (θ : ℕ → ℕ → EReal) (s0 a b : ℕ) (v : ℕ → EReal) :
    stages θ s0 (a + b) v = stages θ (s0 + a) b (stages θ s0 a v) := by
  induction b with
  | zero => rfl
  | succ b ih =>
    show stage (2 ^ (s0 + (a + b))) (θ (s0 + (a + b))) (stages θ s0 (a + b) v)
      = stage (2 ^ (s0 + a + b)) (θ (s0 + a + b)) (stages θ (s0 + a) b (stages θ s0 a v))
    rw [ih, Nat.add_assoc]

end Cert.Bfly

end
-- ==== Proof.Algebra.lean ====
/-
  The algebra that joins the two programs: on a finite row with finite angles, the first seven butterfly stages act
  inside blocks of 128 consecutive entries and are linear in the row, so applying them is multiplying each block by
  the matrix whose rows are the seven stages applied to the rows of the identity.  Distributivity fails at the
  infinities of the extended reals, so the argument is carried out over the reals and transported by the coercion.
-/
import Idealize.ShloMosaic.Lib.ValueIdx
import Idealize.ShloMosaic.PureOps.Ideal
import Mathlib.Tactic.Ring
import Mathlib.Tactic.Positivity
import Mathlib.Tactic.IntervalCases
import Mathlib.Data.EReal.Basic
import Mathlib.Algebra.BigOperators.Fin
import proofs.«124778_j35845797052976_1_alg».proof.Proof.Spec
import proofs.«124778_j35845797052976_1_alg».proof.Proof.SpecLemmas

noncomputable section

open scoped BigOperators

namespace Cert.Bfly

open Idealize.ShloMosaic

/-! ### The stages over the reals -/

/-- One butterfly stage on a real row with real angles. -/
def stageR (d : ℕ) (t : ℕ → ℝ) (w : ℕ → ℝ) (i : ℕ) : ℝ :=
  if i / d % 2 = 0 then
    Real.cos (t (pairIdx d i)) * w (loIdx d i) - Real.sin (t (pairIdx d i)) * w (loIdx d i + d)
  else
    Real.sin (t (pairIdx d i)) * w (loIdx d i) + Real.cos (t (pairIdx d i)) * w (loIdx d i + d)

/-- A run of stages on a real row. -/
def stagesR (t : ℕ → ℕ → ℝ) (s0 : ℕ) : ℕ → (ℕ → ℝ) → ℕ → ℝ
  | 0, w => w
  | k + 1, w => stageR (2 ^ (s0 + k)) (t (s0 + k)) (stagesR t s0 k w)

/-- Row k of the real identity. -/
def unitR (k i : ℕ) : ℝ := if k = i then 1 else 0

/-- On finite data a stage is the real stage. -/
theorem stage_coe (d : ℕ) (t w : ℕ → ℝ) (i : ℕ) :
    stage d (fun p => ((t p : ℝ) : EReal)) (fun j => ((w j : ℝ) : EReal)) i = ((stageR d t w i : ℝ) : EReal) := by
  unfold stage stageR
  split_ifs
  · simp only [Ideal.cos_coe, Ideal.sin_coe, EReal.coe_sub, EReal.coe_mul]
  · simp only [Ideal.cos_coe, Ideal.sin_coe, EReal.coe_add, EReal.coe_mul]

/-- On finite data a run of stages is the real run. -/
theorem stages_coe (t : ℕ → ℕ → ℝ) (s0 k : ℕ) (w : ℕ → ℝ) :
    stages (fun s p => ((t s p : ℝ) : EReal)) s0 k (fun j => ((w j : ℝ) : EReal))
      = fun i => ((stagesR t s0 k w i : ℝ) : EReal) := by
  induction k with
  | zero => rfl
  | succ k ih =>
    funext i
    show stage (2 ^ (s0 + k)) (fun p => ((t (s0 + k) p : ℝ) : EReal))
        (stages (fun s p => ((t s p : ℝ) : EReal)) s0 k (fun j => ((w j : ℝ) : EReal))) i = _
    rw [ih]
    exact stage_coe _ _ _ i

/-- A real run of stages reads only the row's n entries when 2 ^ (s0 + k) divides n. -/
theorem stagesR_congr (n s0 k : ℕ) (hn : 2 ^ (s0 + k) ∣ n) (t : ℕ → ℕ → ℝ) (w w' : ℕ → ℝ)
    (hw : ∀ i, i < n → w i = w' i) (i : ℕ) (hi : i < n) :
    stagesR t s0 k w i = stagesR t s0 k w' i := by
  have h := stages_congr n s0 k hn (fun s p => ((t s p : ℝ) : EReal)) (fun s p => ((t s p : ℝ) : EReal))
    (fun j => ((w j : ℝ) : EReal)) (fun j => ((w' j : ℝ) : EReal)) (fun _ _ _ _ _ => rfl)
    (fun j hj => by rw [hw j hj]) i hi
  rw [stages_coe, stages_coe] at h
  exact EReal.coe_injective h

/-! ### Linearity in the row -/

/-- A stage of a combination of 128 rows is the combination of the stages. -/
theorem stageR_linear (d : ℕ) (t : ℕ → ℝ) (a : Fin 128 → ℝ) (u : Fin 128 → ℕ → ℝ) (i : ℕ) :
    stageR d t (fun j => ∑ k : Fin 128, a k * u k j) i = ∑ k : Fin 128, a k * stageR d t (u k) i := by
  unfold stageR
  split_ifs
  · rw [Finset.mul_sum, Finset.mul_sum, ← Finset.sum_sub_distrib]
    exact Finset.sum_congr rfl (fun k _ => by ring)
  · rw [Finset.mul_sum, Finset.mul_sum, ← Finset.sum_add_distrib]
    exact Finset.sum_congr rfl (fun k _ => by ring)

/-- A run of stages of a combination of 128 rows is the combination of the runs. -/
theorem stagesR_linear (t : ℕ → ℕ → ℝ) (s0 n : ℕ) (a : Fin 128 → ℝ) (u : Fin 128 → ℕ → ℝ) :
    stagesR t s0 n (fun j => ∑ k : Fin 128, a k * u k j)
      = fun i => ∑ k : Fin 128, a k * stagesR t s0 n (u k) i := by
  induction n with
  | zero => rfl
  | succ n ih =>
    funext i
    show stageR (2 ^ (s0 + n)) (t (s0 + n)) (stagesR t s0 n (fun j => ∑ k : Fin 128, a k * u k j)) i
      = ∑ k : Fin 128, a k * stageR (2 ^ (s0 + n)) (t (s0 + n)) (stagesR t s0 n (u k)) i
    rw [ih]
    exact stageR_linear _ _ a (fun k => stagesR t s0 n (u k)) i

/-! ### The first seven stages act inside blocks of 128 -/

/-- A stage whose position arithmetic splits off the block number acts on the block alone. -/
theorem stageR_block_of (d : ℕ) (t w : ℕ → ℝ) (c l : ℕ)
    (h1 : (128 * c + l) / d % 2 = l / d % 2)
    (h2 : pairIdx d (128 * c + l) = 64 * c + pairIdx d l)
    (h3 : loIdx d (128 * c + l) = 128 * c + loIdx d l) :
    stageR d t w (128 * c + l) = stageR d (fun p => t (64 * c + p)) (fun j => w (128 * c + j)) l := by
  unfold stageR
  rw [h1, h2, h3]
  simp only [Nat.add_assoc]

/-- A stage of distance 2 ^ s ≤ 64 at position l of block c is that stage on block c, with block c's angles. -/
theorem stageR_block (s : ℕ) (hs : s < 7) (t w : ℕ → ℝ) (c l : ℕ) :
    stageR (2 ^ s) t w (128 * c + l)
      = stageR (2 ^ s) (fun p => t (64 * c + p)) (fun j => w (128 * c + j)) l := by
  apply stageR_block_of
  · interval_cases s <;> simp only [Nat.reducePow] <;> omega
  · unfold pairIdx; interval_cases s <;> simp only [Nat.reducePow] <;> omega
  · unfold loIdx; interval_cases s <;> simp only [Nat.reducePow] <;> omega

/-- The first k ≤ 7 stages at the positions of block c are those stages on block c, with block c's angles. -/
theorem stagesR_block (t : ℕ → ℕ → ℝ) (w : ℕ → ℝ) (c k : ℕ) (hk : k ≤ 7) :
    (fun l => stagesR t 0 k w (128 * c + l))
      = stagesR (fun s p => t s (64 * c + p)) 0 k (fun j => w (128 * c + j)) := by
  induction k with
  | zero => rfl
  | succ k ih =>
    funext l
    show stageR (2 ^ (0 + k)) (t (0 + k)) (stagesR t 0 k w) (128 * c + l)
      = stageR (2 ^ (0 + k)) (fun p => t (0 + k) (64 * c + p))
          (stagesR (fun s p => t s (64 * c + p)) 0 k (fun j => w (128 * c + j))) l
    rw [← ih (by omega), Nat.zero_add]
    exact stageR_block k (by omega) _ _ c l

/-! ### Finite sums of finite numbers -/

/-- The coercion of a finite sum of reals is the sum of the coercions. -/
theorem coe_sum128 (f : Fin 128 → ℝ) :
    ((∑ k : Fin 128, f k : ℝ) : EReal) = ∑ k : Fin 128, ((f k : ℝ) : EReal) := by
  have h : ∀ S : Finset (Fin 128), ((∑ k ∈ S, f k : ℝ) : EReal) = ∑ k ∈ S, ((f k : ℝ) : EReal) := by
    intro S
    induction S using Finset.induction_on with
    | empty => simp
    | insert a S ha ih => rw [Finset.sum_insert ha, Finset.sum_insert ha, EReal.coe_add, ih]
  exact h Finset.univ

/-- A block of a row is the combination of the unit rows with the block's entries as coefficients. -/
theorem sum_unitR (g : ℕ → ℝ) (l : ℕ) (hl : l < 128) :
    ∑ k : Fin 128, g k.val * unitR k.val l = g l := by
  rw [Finset.sum_eq_single (⟨l, hl⟩ : Fin 128)]
  · simp [unitR]
  · intro b _ hb
    have : b.val ≠ l := fun h => hb (Fin.ext h)
    simp [unitR, this]
  · intro h; exact absurd (Finset.mem_univ _) h

/-- Row k of the identity is the coercion of the real one. -/
theorem unitVec_coe (k : ℕ) : unitVec k = fun i => ((unitR k i : ℝ) : EReal) := by
  funext i
  unfold unitVec unitR
  split_ifs <;> rfl

/-! ### The block products are the first seven stages -/

/-- On finite data, the product of a row's blocks with the block matrices is the first seven stages of the row. -/
theorem mmRow_coe (t : ℕ → ℕ → ℝ) (w : ℕ → ℝ) (i : ℕ) :
    mmRow (fun j => ((w j : ℝ) : EReal)) (chunkM (fun s p => ((t s p : ℝ) : EReal))) i
      = stages (fun s p => ((t s p : ℝ) : EReal)) 0 7 (fun j => ((w j : ℝ) : EReal)) i := by
  have hl : i % 128 < 128 := Nat.mod_lt _ (by norm_num)
  -- each entry of a block matrix is real
  have hM : ∀ k : ℕ, chunkM (fun s p => ((t s p : ℝ) : EReal)) (i / 128) k (i % 128)
      = ((stagesR (fun s p => t s (64 * (i / 128) + p)) 0 7 (unitR k) (i % 128) : ℝ) : EReal) := by
    intro k
    unfold chunkM
    rw [unitVec_coe]
    exact congrFun (stages_coe (fun s p => t s (64 * (i / 128) + p)) 0 7 (unitR k)) (i % 128)
  unfold mmRow
  simp only [hM, ← EReal.coe_mul]
  rw [← coe_sum128, stages_coe]
  congr 1
  -- linearity, then the block of the row as a combination of unit rows, then locality
  have h1 := congrFun (stagesR_linear (fun s p => t s (64 * (i / 128) + p)) 0 7
    (fun k : Fin 128 => w (128 * (i / 128) + k.val)) (fun k : Fin 128 => unitR k.val)) (i % 128)
  rw [← h1]
  rw [stagesR_congr 128 0 7 (by norm_num) _ _ (fun j => w (128 * (i / 128) + j))
    (fun j hj => sum_unitR (fun k => w (128 * (i / 128) + k)) j hj) (i % 128) hl]
  have h2 := congrFun (stagesR_block t w (i / 128) 7 le_rfl) (i % 128)
  rw [← h2, Nat.div_add_mod]

/-- The theorem on finite data given as real functions. -/
theorem kernelRow_eq_refRow_coe (t : ℕ → ℕ → ℝ) (w : ℕ → ℝ) (i : ℕ) (hi : i < 4096) :
    kernelRow (fun s p => ((t s p : ℝ) : EReal)) (fun j => ((w j : ℝ) : EReal))
        (chunkM (fun s p => ((t s p : ℝ) : EReal))) i
      = refRow (fun s p => ((t s p : ℝ) : EReal)) (fun j => ((w j : ℝ) : EReal)) i := by
  unfold kernelRow refRow
  rw [stages_congr 4096 7 5 (by norm_num) _ (fun s p => ((t s p : ℝ) : EReal)) _
    (stages (fun s p => ((t s p : ℝ) : EReal)) 0 7 (fun j => ((w j : ℝ) : EReal)))
    (fun _ _ _ _ _ => rfl) (fun j _ => mmRow_coe t w j) i hi]
  exact (congrFun (stages_add (fun s p => ((t s p : ℝ) : EReal)) 0 7 5 (fun j => ((w j : ℝ) : EReal))) i).symm

/-- For a finite row and finite angles, multiplying each block of 128 entries by its block matrix and then applying stages 7 … 11 is applying stages 0 … 11: the first seven stages act inside the blocks and are linear in the row. -/
theorem kernelRow_eq_refRow (θ : ℕ → ℕ → EReal) (xrow : ℕ → EReal)
    (hθ : ∀ s p, s < 12 → p < 2048 → ∃ r : ℝ, θ s p = (r : EReal))
    (hx : ∀ i, i < 4096 → ∃ r : ℝ, xrow i = (r : EReal))
    (i : ℕ) (hi : i < 4096) :
    kernelRow θ xrow (chunkM θ) i = refRow θ xrow i := by
  classical
  -- real angles and a real row that agree with θ and xrow on the ranges the programs read
  let t : ℕ → ℕ → ℝ := fun s p => if h : s < 12 ∧ p < 2048 then Classical.choose (hθ s p h.1 h.2) else 0
  let w : ℕ → ℝ := fun j => if h : j < 4096 then Classical.choose (hx j h) else 0
  have ht : ∀ s p, s < 12 → p < 2048 → θ s p = ((t s p : ℝ) : EReal) := by
    intro s p hs hp
    have : t s p = Classical.choose (hθ s p hs hp) := dif_pos ⟨hs, hp⟩
    rw [this]
    exact Classical.choose_spec (hθ s p hs hp)
  have hw : ∀ j, j < 4096 → xrow j = ((w j : ℝ) : EReal) := by
    intro j hj
    have : w j = Classical.choose (hx j hj) := dif_pos hj
    rw [this]
    exact Classical.choose_spec (hx j hj)
  -- the block matrices read angles of stages below 7 at pairs below 2048
  have hM : ∀ c k j, c < 32 → j < 128 →
      chunkM θ c k j = chunkM (fun s p => ((t s p : ℝ) : EReal)) c k j := by
    intro c k j hc hj
    unfold chunkM
    refine stages_congr 128 0 7 (by norm_num) _ _ _ _ ?_ (fun _ _ => rfl) j hj
    intro s p _ hs hp
    exact ht s (64 * c + p) (by omega) (by omega)
  -- the block products read the row below 4096
  have hmm : ∀ j, j < 4096 →
      mmRow xrow (chunkM θ) j
        = mmRow (fun j => ((w j : ℝ) : EReal)) (chunkM (fun s p => ((t s p : ℝ) : EReal))) j := by
    intro j hj
    unfold mmRow
    refine Finset.sum_congr rfl (fun k _ => ?_)
    have hk := k.isLt
    rw [hw (128 * (j / 128) + k.val) (by omega),
      hM (j / 128) k.val (j % 128) (by omega) (Nat.mod_lt _ (by norm_num))]
  have hL : kernelRow θ xrow (chunkM θ) i
      = kernelRow (fun s p => ((t s p : ℝ) : EReal)) (fun j => ((w j : ℝ) : EReal))
          (chunkM (fun s p => ((t s p : ℝ) : EReal))) i := by
    unfold kernelRow
    exact stages_congr 4096 7 5 (by norm_num) _ _ _ _
      (fun s p _ hs hp => ht s p (by omega) (by omega)) hmm i hi
  have hR : refRow θ xrow i
      = refRow (fun s p => ((t s p : ℝ) : EReal)) (fun j => ((w j : ℝ) : EReal)) i := by
    unfold refRow
    exact stages_congr 4096 0 12 (by norm_num) _ _ _ _
      (fun s p _ hs hp => ht s p (by omega) (by omega)) hw i hi
  rw [hL, hR]
  exact kernelRow_eq_refRow_coe t w i hi

end Cert.Bfly

end
-- ==== Proof.Finite.lean ====
/-
  From the precondition to finiteness: the printed predicate tests, entry by entry, that the absolute value of every entry
  of x and of the angles is below +∞, and takes the conjunction of all the tests.  If it is all ones, no entry is an
  infinity, so every entry is a real number.
-/
import proofs.«124778_j35845797052976_1_alg».proof.Pre_finite_inputs
import Idealize.ShloMosaic.Lib.ReduceAll
import Idealize.ShloMosaic.Lib.ValueIdx
import Idealize.ShloMosaic.PureOps.Ideal
import Mathlib.Data.EReal.Basic

namespace Cert.Proof.Finite

open Idealize.ShloMosaic

/-- The shape without axes has one index. -/
instance : Subsingleton Cert.Pre_finite_inputs.S_.Idx := ⟨fun a b => funext fun d => d.elim0⟩

/-- An extended real whose absolute value max x (−x) is below +∞ is a real: both infinities have absolute value +∞. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- If the printed predicate "every entry of x and of the angles has absolute value below +∞" is all ones, every entry is a real. -/
theorem finite_of_fn [hP : Cert.Pre_finite_inputs.Facts] (x : FVec Ideal Cert.Pre_finite_inputs.S4096x4096 .f32) (a : FVec Ideal Cert.Pre_finite_inputs.S12x2048 .f32)
    (h : Cert.Pre_finite_inputs.fn (F := Ideal) x a = fun _ => 1#1) :
    (∀ j, ∃ r : ℝ, x j = (r : EReal)) ∧ (∀ j, ∃ r : ℝ, a j = (r : EReal)) := by
  have h0 := congrFun h ValueIdx.ix0
  dsimp only [Cert.Pre_finite_inputs.fn] at h0
  -- the conjunction of the two tests is one: each test is one
  obtain ⟨hx, ha⟩ := IntOp.andi_eq_one.1 h0
  refine ⟨fun j => ?_, fun j => ?_⟩
  · -- the test over x is a conjunction over all entries: the entry at j passes
    have hj := Host.reduce_andi_all _ _ _ _ _ hx j
    exact real_of_abs_lt_top (x j) hj
  · have hj := Host.reduce_andi_all _ _ _ _ _ ha j
    exact real_of_abs_lt_top (a j) hj

end Cert.Proof.Finite
-- ==== Proof.RefSide.lean ====
/-
  The reference program read at an index.

  The program applies twelve butterfly stages to every row of x. Before stage s (distance d = 2 ^ s, g = 4096 / 2d groups)
  it views the rows as a four-axis array (row, group, half, offset): entry (b, G, h, j) is entry G · 2d + h · d + j of row b.
  It takes the two halves, rotates each pair by the stage's angle (row s of the angle table viewed as g groups of d, so
  that entry (G, j) is the angle of pair G · d + j), stacks the rotated halves on the half axis and flattens to rows again.
  One lemma over symbolic extents says this is one butterfly stage of the row; it is then applied twelve times, each
  stage's view holding the first s stages of the row.
-/
import proofs.«124778_j35845797052976_1_alg».proof.Proof.Gen.ReferenceIdeal.Run
import Idealize.ShloMosaic.Lib.ValueIdx
import Idealize.ShloMosaic.PureOps.Ideal
import Idealize.ShloMosaic.Lib.Pipeline.Value
import Mathlib.Tactic.Ring
import proofs.«124778_j35845797052976_1_alg».proof.Proof.Spec
import proofs.«124778_j35845797052976_1_alg».proof.Proof.SpecLemmas

noncomputable section

namespace Cert.ReferenceIdeal.RefValue

open Cert.Bfly Idealize.ShloMosaic Idealize.ShloMosaic.ValueIdx

/-- A position i splits by the distance d: group i / 2d, half i / d mod 2, offset i mod d. -/
theorem split_pos (d i : ℕ) : i = i / (2 * d) * (2 * d) + i / d % 2 * d + i % d := by
  have h1 := Nat.div_add_mod i d
  have h2 := Nat.div_add_mod (i / d) 2
  have h3 : i / (2 * d) = i / d / 2 := by rw [Nat.div_div_eq_div_mul, Nat.mul_comm]
  rw [h3]
  calc i = d * (i / d) + i % d := h1.symm
    _ = d * (2 * (i / d / 2) + i / d % 2) + i % d := by rw [h2]
    _ = _ := by ring

/-- The group of a position below g · 2d is below g. -/
theorem split_group_lt (g d i : ℕ) (hi : i < g * (2 * d)) : i / (2 * d) < g := by
  have hd : 0 < 2 * d := by
    rcases Nat.eq_zero_or_pos (2 * d) with h | h
    · rw [h] at hi; simp at hi
    · exact h
  exact (Nat.div_lt_iff_lt_mul hd).2 hi

/-- A row of length g · 2d with an entry has a positive distance. -/
theorem split_pos_d (g d i : ℕ) (hi : i < g * (2 * d)) : 0 < d := by
  rcases Nat.eq_zero_or_pos d with h | h
  · subst h; simp at hi
  · exact h

section Stage
variable {B g d : ℕ}

/-- One half of the view, as the three-axis array the stage multiplies: entry (b, G, j) is the view at (b, G, h, j). -/
theorem half_apply (h : ℕ) (hh : h < 2) (A : FVec Ideal ⟨4, ![B, g, 2, d]⟩ .f32)
    (hs : (⟨4, ![B, g, 2, d]⟩ : Shape).Slices ![0, 0, h, 0] ⟨4, ![B, g, 1, d]⟩)
    (hc : (⟨4, ![B, g, 1, d]⟩ : Shape).ShapeCasts ⟨3, ![B, g, d]⟩)
    (b : Fin B) (G : Fin g) (j : Fin d) :
    shapeCast ⟨3, ![B, g, d]⟩ (extractStridedSlice ⟨4, ![B, g, 1, d]⟩ ![0, 0, h, 0] A hs) hc (ix3 b G j)
      = A (ix4 b G ⟨h, hh⟩ j) := by
  refine (shapeCast_apply _ hc (ix3 b G j) (ix4 b G (0 : Fin 1) j) ?_).trans ?_
  · rw [Shape.rowMajor_val_four, Shape.rowMajor_val_three]
    show ((b.val * g + G.val) * 1 + 0) * d + j.val = (b.val * g + G.val) * d + j.val
    rw [Nat.mul_one, Nat.add_zero]
  · refine extractStridedSlice_apply _ A hs _ (ix4 b G ⟨h, hh⟩ j) fun a => ?_
    match a with
    | ⟨0, _⟩ => show b.val = 0 + b.val; omega
    | ⟨1, _⟩ => show G.val = 0 + G.val; omega
    | ⟨2, _⟩ => show h = h + 0; omega
    | ⟨3, _⟩ => show j.val = 0 + j.val; omega

/-- The angles' two broadcasts read at (b, G, j): the angle array at (G, j). -/
theorem ang_apply (C : FVec Ideal ⟨2, ![g, d]⟩ .f32)
    (hb1 : (⟨2, ![g, d]⟩ : Shape).BroadcastsInDim ⟨3, ![1, g, d]⟩ ![1, 2])
    (hb2 : (⟨3, ![1, g, d]⟩ : Shape).BroadcastsInDim ⟨3, ![B, g, d]⟩ ![0, 1, 2])
    (b : Fin B) (G : Fin g) (j : Fin d) :
    broadcastInDim ⟨3, ![B, g, d]⟩ ![0, 1, 2] hb2 (broadcastInDim ⟨3, ![1, g, d]⟩ ![1, 2] hb1 C) (ix3 b G j)
      = C (ix2 G j) := by
  refine (broadcastInDim_apply _ hb2 _ (ix3 b G j) (ix3 (0 : Fin 1) G j) fun a => ?_).trans ?_
  · match a with
    | ⟨0, _⟩ => show 0 = if (1 : ℕ) = 1 then 0 else b.val; simp
    | ⟨1, _⟩ =>
      show G.val = if g = 1 then 0 else G.val
      split
      · have := G.isLt; omega
      · rfl
    | ⟨2, _⟩ =>
      show j.val = if d = 1 then 0 else j.val
      split
      · have := j.isLt; omega
      · rfl
  · refine broadcastInDim_apply _ hb1 C _ (ix2 G j) fun a => ?_
    match a with
    | ⟨0, _⟩ =>
      show G.val = if g = 1 then 0 else G.val
      split
      · have := G.isLt; omega
      · rfl
    | ⟨1, _⟩ =>
      show j.val = if d = 1 then 0 else j.val
      split
      · have := j.isLt; omega
      · rfl

end Stage

section Stage2
variable {B g d : ℕ}

/-- One stage of the reference on a view: the view (b, G, h, j) ↦ v (G · 2d + h · d + j) of a row v and the angle array
    (G, j) ↦ θ (G · d + j) give, back as a row, the butterfly stage of distance d of v. -/
theorem stage_view {n : ℕ} (hn : n = g * (2 * d))
    (A : FVec Ideal ⟨4, ![B, g, 2, d]⟩ .f32) (Θ : FVec Ideal ⟨2, ![g, d]⟩ .f32)
    (hs0 : (⟨4, ![B, g, 2, d]⟩ : Shape).Slices ![0, 0, 0, 0] ⟨4, ![B, g, 1, d]⟩)
    (hs1 : (⟨4, ![B, g, 2, d]⟩ : Shape).Slices ![0, 0, 1, 0] ⟨4, ![B, g, 1, d]⟩)
    (hc : (⟨4, ![B, g, 1, d]⟩ : Shape).ShapeCasts ⟨3, ![B, g, d]⟩)
    (hb1 : (⟨2, ![g, d]⟩ : Shape).BroadcastsInDim ⟨3, ![1, g, d]⟩ ![1, 2])
    (hb2 : (⟨3, ![1, g, d]⟩ : Shape).BroadcastsInDim ⟨3, ![B, g, d]⟩ ![0, 1, 2])
    (hb3 : (⟨3, ![B, g, d]⟩ : Shape).BroadcastsInDim ⟨4, ![B, g, 1, d]⟩ ![0, 1, 3])
    (hcat : Shape.Concatenates [⟨4, ![B, g, 1, d]⟩, ⟨4, ![B, g, 1, d]⟩] ⟨4, ![B, g, 2, d]⟩ 2)
    (hc2 : (⟨4, ![B, g, 2, d]⟩ : Shape).ShapeCasts ⟨2, ![B, n]⟩)
    (θ v : ℕ → EReal) (b : Fin B)
    (hA : ∀ (G : Fin g) (h : Fin 2) (j : Fin d), A (ix4 b G h j) = v (G.val * (2 * d) + h.val * d + j.val))
    (hΘ : ∀ (G : Fin g) (j : Fin d), Θ (ix2 G j) = θ (G.val * d + j.val))
    (i : Fin n) :
    shapeCast ⟨2, ![B, n]⟩
      (concatenate ⟨4, ![B, g, 2, d]⟩ 2
        [⟨⟨4, ![B, g, 1, d]⟩, broadcastInDim ⟨4, ![B, g, 1, d]⟩ ![0, 1, 3] hb3
            (subf
              (mulf (broadcastInDim ⟨3, ![B, g, d]⟩ ![0, 1, 2] hb2 (broadcastInDim ⟨3, ![1, g, d]⟩ ![1, 2] hb1 (Host.cos Θ)))
                (shapeCast ⟨3, ![B, g, d]⟩ (extractStridedSlice ⟨4, ![B, g, 1, d]⟩ ![0, 0, 0, 0] A hs0) hc))
              (mulf (broadcastInDim ⟨3, ![B, g, d]⟩ ![0, 1, 2] hb2 (broadcastInDim ⟨3, ![1, g, d]⟩ ![1, 2] hb1 (Host.sin Θ)))
                (shapeCast ⟨3, ![B, g, d]⟩ (extractStridedSlice ⟨4, ![B, g, 1, d]⟩ ![0, 0, 1, 0] A hs1) hc)))⟩,
         ⟨⟨4, ![B, g, 1, d]⟩, broadcastInDim ⟨4, ![B, g, 1, d]⟩ ![0, 1, 3] hb3
            (addf
              (mulf (broadcastInDim ⟨3, ![B, g, d]⟩ ![0, 1, 2] hb2 (broadcastInDim ⟨3, ![1, g, d]⟩ ![1, 2] hb1 (Host.sin Θ)))
                (shapeCast ⟨3, ![B, g, d]⟩ (extractStridedSlice ⟨4, ![B, g, 1, d]⟩ ![0, 0, 0, 0] A hs0) hc))
              (mulf (broadcastInDim ⟨3, ![B, g, d]⟩ ![0, 1, 2] hb2 (broadcastInDim ⟨3, ![1, g, d]⟩ ![1, 2] hb1 (Host.cos Θ)))
                (shapeCast ⟨3, ![B, g, d]⟩ (extractStridedSlice ⟨4, ![B, g, 1, d]⟩ ![0, 0, 1, 0] A hs1) hc)))⟩]
        hcat) hc2 (ix2 b i)
      = stage d θ v i.val := by
  subst hn
  have hi' : i.val < g * (2 * d) := i.isLt
  have hd := split_pos_d g d i.val hi'
  have hG := split_group_lt g d i.val hi'
  have hh : i.val / d % 2 < 2 := Nat.mod_lt _ (by norm_num)
  have hj : i.val % d < d := Nat.mod_lt _ hd
  have hsplit := split_pos d i.val
  -- the three-axis reader of a broadcast back to four axes
  have hb3_apply : ∀ (X : FVec Ideal ⟨3, ![B, g, d]⟩ .f32) (G : Fin g) (j : Fin d),
      broadcastInDim ⟨4, ![B, g, 1, d]⟩ ![0, 1, 3] hb3 X (ix4 b G (0 : Fin 1) j) = X (ix3 b G j) := by
    intro X G j
    refine broadcastInDim_apply _ hb3 X _ (ix3 b G j) fun a => ?_
    match a with
    | ⟨0, _⟩ =>
      show b.val = if B = 1 then 0 else b.val
      split
      · have := b.isLt; omega
      · rfl
    | ⟨1, _⟩ =>
      show G.val = if g = 1 then 0 else G.val
      split
      · have := G.isLt; omega
      · rfl
    | ⟨2, _⟩ =>
      show j.val = if d = 1 then 0 else j.val
      split
      · have := j.isLt; omega
      · rfl
  have key : ∀ (G : Fin g) (h : Fin 2) (j : Fin d), i.val = G.val * (2 * d) + h.val * d + j.val →
      concatenate ⟨4, ![B, g, 2, d]⟩ 2
        [⟨⟨4, ![B, g, 1, d]⟩, broadcastInDim ⟨4, ![B, g, 1, d]⟩ ![0, 1, 3] hb3
            (subf
              (mulf (broadcastInDim ⟨3, ![B, g, d]⟩ ![0, 1, 2] hb2 (broadcastInDim ⟨3, ![1, g, d]⟩ ![1, 2] hb1 (Host.cos Θ)))
                (shapeCast ⟨3, ![B, g, d]⟩ (extractStridedSlice ⟨4, ![B, g, 1, d]⟩ ![0, 0, 0, 0] A hs0) hc))
              (mulf (broadcastInDim ⟨3, ![B, g, d]⟩ ![0, 1, 2] hb2 (broadcastInDim ⟨3, ![1, g, d]⟩ ![1, 2] hb1 (Host.sin Θ)))
                (shapeCast ⟨3, ![B, g, d]⟩ (extractStridedSlice ⟨4, ![B, g, 1, d]⟩ ![0, 0, 1, 0] A hs1) hc)))⟩,
         ⟨⟨4, ![B, g, 1, d]⟩, broadcastInDim ⟨4, ![B, g, 1, d]⟩ ![0, 1, 3] hb3
            (addf
              (mulf (broadcastInDim ⟨3, ![B, g, d]⟩ ![0, 1, 2] hb2 (broadcastInDim ⟨3, ![1, g, d]⟩ ![1, 2] hb1 (Host.sin Θ)))
                (shapeCast ⟨3, ![B, g, d]⟩ (extractStridedSlice ⟨4, ![B, g, 1, d]⟩ ![0, 0, 0, 0] A hs0) hc))
              (mulf (broadcastInDim ⟨3, ![B, g, d]⟩ ![0, 1, 2] hb2 (broadcastInDim ⟨3, ![1, g, d]⟩ ![1, 2] hb1 (Host.cos Θ)))
                (shapeCast ⟨3, ![B, g, d]⟩ (extractStridedSlice ⟨4, ![B, g, 1, d]⟩ ![0, 0, 1, 0] A hs1) hc)))⟩]
        hcat (ix4 b G h j) = stage d θ v i.val := by
    intro G h j hv
    have hc0 : Host.cos Θ (ix2 G j) = Ideal.cos (θ (G.val * d + j.val)) := by
      show Ideal.cos (Θ (ix2 G j)) = _
      rw [hΘ]
    have hs0' : Host.sin Θ (ix2 G j) = Ideal.sin (θ (G.val * d + j.val)) := by
      show Ideal.sin (Θ (ix2 G j)) = _
      rw [hΘ]
    have hv0 := (half_apply 0 (by norm_num) A hs0 hc b G j).trans (hA G ⟨0, by norm_num⟩ j)
    have hv1 := (half_apply 1 (by norm_num) A hs1 hc b G j).trans (hA G ⟨1, by norm_num⟩ j)
    match h, hv with
    | ⟨0, _⟩, hv =>
      refine (concatenate_pair_apply_left (t := ⟨4, ![B, g, 2, d]⟩) (s₁ := ⟨4, ![B, g, 1, d]⟩) (s₂ := ⟨4, ![B, g, 1, d]⟩) (2 : Fin 4) _ _ hcat (ix4 b G (0 : Fin 2) j) rfl (ix4 b G (0 : Fin 1) j) fun a => ?_).trans ?_
      · match a with
        | ⟨0, _⟩ => rfl
        | ⟨1, _⟩ => rfl
        | ⟨2, _⟩ => rfl
        | ⟨3, _⟩ => rfl
      · rw [hb3_apply, subf_apply, mulf_apply, mulf_apply, ang_apply, ang_apply, hc0, hs0', hv0, hv1]
        have e : i.val = G.val * (2 * d) + j.val := by
          have : ((⟨0, by norm_num⟩ : Fin 2)).val = 0 := rfl
          simp only [] at hv
          omega
        rw [e, stage_lo d θ v G.val j.val j.isLt]
        show _ - _ * v (G.val * (2 * d) + 1 * d + j.val) = _
        have e2 : G.val * (2 * d) + 0 * d + j.val = G.val * (2 * d) + j.val := by omega
        have e3 : G.val * (2 * d) + 1 * d + j.val = G.val * (2 * d) + j.val + d := by omega
        rw [e3]
        show _ * v (G.val * (2 * d) + 0 * d + j.val) - _ = _
        rw [e2]
    | ⟨1, _⟩, hv =>
      refine (concatenate_pair_apply_right (t := ⟨4, ![B, g, 2, d]⟩) (s₁ := ⟨4, ![B, g, 1, d]⟩) (s₂ := ⟨4, ![B, g, 1, d]⟩) (2 : Fin 4) _ _ hcat (ix4 b G (1 : Fin 2) j) rfl rfl (ix4 b G (0 : Fin 1) j) (fun a ha => ?_) ?_).trans ?_
      · match a, ha with
        | ⟨0, _⟩, _ => rfl
        | ⟨1, _⟩, _ => rfl
        | ⟨2, _⟩, ha => exact absurd rfl ha
        | ⟨3, _⟩, _ => rfl
      · rfl
      · rw [hb3_apply, addf_apply, mulf_apply, mulf_apply, ang_apply, ang_apply, hc0, hs0', hv0, hv1]
        have e : i.val = G.val * (2 * d) + d + j.val := by
          have : ((⟨1, by norm_num⟩ : Fin 2)).val = 1 := rfl
          simp only [] at hv
          omega
        rw [e, stage_hi d θ v G.val j.val j.isLt]
        show _ + _ * v (G.val * (2 * d) + 1 * d + j.val) = _
        have e2 : G.val * (2 * d) + 0 * d + j.val = G.val * (2 * d) + j.val := by omega
        have e3 : G.val * (2 * d) + 1 * d + j.val = G.val * (2 * d) + j.val + d := by omega
        rw [e3]
        show _ * v (G.val * (2 * d) + 0 * d + j.val) + _ = _
        rw [e2]
  refine (shapeCast_apply _ hc2 (ix2 b i) (ix4 b ⟨i.val / (2 * d), hG⟩ ⟨i.val / d % 2, hh⟩ ⟨i.val % d, hj⟩) ?_).trans
    (key ⟨i.val / (2 * d), hG⟩ ⟨i.val / d % 2, hh⟩ ⟨i.val % d, hj⟩ hsplit)
  rw [Shape.rowMajor_val_four, Shape.rowMajor_val_two]
  show ((b.val * g + i.val / (2 * d)) * 2 + i.val / d % 2) * d + i.val % d = b.val * (g * (2 * d)) + i.val
  have e : b.val * (g * (2 * d)) + i.val
      = b.val * (g * (2 * d)) + (i.val / (2 * d) * (2 * d) + i.val / d % 2 * d + i.val % d) :=
    congrArg (b.val * (g * (2 * d)) + ·) hsplit
  rw [e]
  ring

end Stage2

section View
variable {B g d : ℕ}

/-- Position G · 2d + h · d + j of a view's entry (G, h, j) lies in the row. -/
theorem view_lt {n : ℕ} (hn : n = g * (2 * d)) (G : Fin g) (h : Fin 2) (j : Fin d) :
    G.val * (2 * d) + h.val * d + j.val < n := by
  subst hn
  have h1 : h.val * d ≤ 1 * d := Nat.mul_le_mul_right d (by have := h.isLt; omega)
  have h2 : (G.val + 1) * (2 * d) ≤ g * (2 * d) := Nat.mul_le_mul_right (2 * d) G.isLt
  have h3 : (G.val + 1) * (2 * d) = G.val * (2 * d) + 2 * d := by ring
  have := j.isLt
  omega

/-- A row array viewed as groups of two halves: entry (b, G, h, j) of the view is entry G · 2d + h · d + j of row b. -/
theorem view_apply {n : ℕ} (hn : n = g * (2 * d)) (X : FVec Ideal ⟨2, ![B, n]⟩ .f32)
    (hc : (⟨2, ![B, n]⟩ : Shape).ShapeCasts ⟨4, ![B, g, 2, d]⟩) (b : Fin B) (G : Fin g) (h : Fin 2) (j : Fin d) :
    shapeCast ⟨4, ![B, g, 2, d]⟩ X hc (ix4 b G h j) = X (ix2 b ⟨G.val * (2 * d) + h.val * d + j.val, view_lt hn G h j⟩) := by
  refine shapeCast_apply X hc _ _ ?_
  rw [Shape.rowMajor_val_four, Shape.rowMajor_val_two]
  show b.val * n + (G.val * (2 * d) + h.val * d + j.val) = ((b.val * g + G.val) * 2 + h.val) * d + j.val
  rw [hn]
  ring

/-- Row s of the angle table viewed as g groups of d: entry (G, j) is the table at (s, G · d + j). -/
theorem angles_apply {S P : ℕ} (hP : P = g * d) (s : ℕ) (hs : s < S) (ang : FVec Ideal ⟨2, ![S, P]⟩ .f32)
    (hsl : (⟨2, ![S, P]⟩ : Shape).Slices ![s, 0] ⟨2, ![1, P]⟩)
    (hc1 : (⟨2, ![1, P]⟩ : Shape).ShapeCasts ⟨1, ![P]⟩)
    (hc2 : (⟨1, ![P]⟩ : Shape).ShapeCasts ⟨2, ![g, d]⟩)
    (G : Fin g) (j : Fin d) :
    shapeCast ⟨2, ![g, d]⟩ (shapeCast ⟨1, ![P]⟩ (extractStridedSlice ⟨2, ![1, P]⟩ ![s, 0] ang hsl) hc1) hc2 (ix2 G j)
      = at2 ang s (G.val * d + j.val) := by
  have hp : G.val * d + j.val < P := by
    subst hP
    have h2 : (G.val + 1) * d ≤ g * d := Nat.mul_le_mul_right d G.isLt
    have h3 : (G.val + 1) * d = G.val * d + d := by ring
    have := j.isLt
    omega
  refine (shapeCast_apply _ hc2 (ix2 G j) (ix1 ⟨G.val * d + j.val, hp⟩) ?_).trans ?_
  · rw [Shape.rowMajor_val_one, Shape.rowMajor_val_two]
    rfl
  refine (shapeCast_apply _ hc1 (ix1 ⟨G.val * d + j.val, hp⟩) (ix2 (0 : Fin 1) ⟨G.val * d + j.val, hp⟩) ?_).trans ?_
  · rw [Shape.rowMajor_val_one, Shape.rowMajor_val_two]
    show 0 * P + (G.val * d + j.val) = G.val * d + j.val
    omega
  refine (extractStridedSlice_apply _ ang hsl _ (ix2 ⟨s, hs⟩ ⟨G.val * d + j.val, hp⟩) fun a => ?_).trans ?_
  · match a with
    | ⟨0, _⟩ => show s = s + 0; omega
    | ⟨1, _⟩ => show G.val * d + j.val = 0 + (G.val * d + j.val); omega
  · unfold at2
    rw [dif_pos ⟨hs, hp⟩]

end View

section Chain

open Cert.ReferenceIdeal Cert.ReferenceIdeal.Gen Cert.ReferenceIdeal.Value
open Idealize.ShloMosaic.TcCoe Idealize.SL.Sem Idealize.ShloMosaic.StableHlo

/-- The table of angles of a valuation, read at natural coordinates: row s is stage s's angles. -/
abbrev angTab (V0 : Valuation τ sig (Elt Ideal)) : ℕ → ℕ → EReal :=
  at2 (V0 (Proc.devRef .tc main_arg1) : S12x2048.Idx → EReal)

/-- Row b of the input of a valuation, read at natural positions. -/
abbrev xRow (V0 : Valuation τ sig (Elt Ideal)) (b : ℕ) : ℕ → EReal :=
  at2 (V0 (Proc.devRef .tc main_arg0) : S4096x4096.Idx → EReal) b

/-! ### The chain: before stage s the view holds the first s stages of the row -/

theorem view0 (V0 : Valuation τ sig (Elt Ideal)) (b : Fin 4096) (G : Fin 2048) (h : Fin 2) (j : Fin 1) :
    res_main_v0 V0 (ix4 b G h j)
      = stages (angTab V0) 0 0 (xRow V0 b.val) (G.val * (2 * 1) + h.val * 1 + j.val) := by
  unfold res_main_v0
  refine (view_apply (by norm_num) _ _ b G h j).trans ?_
  show _ = at2 (V0 (Proc.devRef .tc main_arg0) : S4096x4096.Idx → EReal) b.val _
  unfold at2
  rw [dif_pos ⟨b.isLt, view_lt (n := 4096) (by norm_num) G h j⟩]

theorem ang0 (V0 : Valuation τ sig (Elt Ideal)) (G : Fin 2048) (j : Fin 1) :
    res_main_v3 V0 (ix2 G j) = angTab V0 0 (G.val * 1 + j.val) := by
  unfold res_main_v3
  exact angles_apply (by norm_num) 0 (by norm_num) _ _ _ _ G j

theorem view1 (V0 : Valuation τ sig (Elt Ideal)) (b : Fin 4096) (G : Fin 1024) (h : Fin 2) (j : Fin 2) :
    res_main_v28 V0 (ix4 b G h j)
      = stages (angTab V0) 0 1 (xRow V0 b.val) (G.val * (2 * 2) + h.val * 2 + j.val) := by
  unfold res_main_v28
  refine (view_apply (by norm_num) _ _ b G h j).trans ?_
  exact stage_view (by norm_num) (res_main_v0 V0) (res_main_v3 V0) _ _ _ _ _ _ _ _ (angTab V0 0)
    (stages (angTab V0) 0 0 (xRow V0 b.val)) b (view0 V0 b) (ang0 V0) _

theorem ang1 (V0 : Valuation τ sig (Elt Ideal)) (G : Fin 1024) (j : Fin 2) :
    res_main_v31 V0 (ix2 G j) = angTab V0 1 (G.val * 2 + j.val) := by
  unfold res_main_v31
  exact angles_apply (by norm_num) 1 (by norm_num) _ _ _ _ G j

theorem view2 (V0 : Valuation τ sig (Elt Ideal)) (b : Fin 4096) (G : Fin 512) (h : Fin 2) (j : Fin 4) :
    res_main_v56 V0 (ix4 b G h j)
      = stages (angTab V0) 0 2 (xRow V0 b.val) (G.val * (2 * 4) + h.val * 4 + j.val) := by
  unfold res_main_v56
  refine (view_apply (by norm_num) _ _ b G h j).trans ?_
  exact stage_view (by norm_num) (res_main_v28 V0) (res_main_v31 V0) _ _ _ _ _ _ _ _ (angTab V0 1)
    (stages (angTab V0) 0 1 (xRow V0 b.val)) b (view1 V0 b) (ang1 V0) _

theorem ang2 (V0 : Valuation τ sig (Elt Ideal)) (G : Fin 512) (j : Fin 4) :
    res_main_v59 V0 (ix2 G j) = angTab V0 2 (G.val * 4 + j.val) := by
  unfold res_main_v59
  exact angles_apply (by norm_num) 2 (by norm_num) _ _ _ _ G j

theorem view3 (V0 : Valuation τ sig (Elt Ideal)) (b : Fin 4096) (G : Fin 256) (h : Fin 2) (j : Fin 8) :
    res_main_v84 V0 (ix4 b G h j)
      = stages (angTab V0) 0 3 (xRow V0 b.val) (G.val * (2 * 8) + h.val * 8 + j.val) := by
  unfold res_main_v84
  refine (view_apply (by norm_num) _ _ b G h j).trans ?_
  exact stage_view (by norm_num) (res_main_v56 V0) (res_main_v59 V0) _ _ _ _ _ _ _ _ (angTab V0 2)
    (stages (angTab V0) 0 2 (xRow V0 b.val)) b (view2 V0 b) (ang2 V0) _

theorem ang3 (V0 : Valuation τ sig (Elt Ideal)) (G : Fin 256) (j : Fin 8) :
    res_main_v87 V0 (ix2 G j) = angTab V0 3 (G.val * 8 + j.val) := by
  unfold res_main_v87
  exact angles_apply (by norm_num) 3 (by norm_num) _ _ _ _ G j

theorem view4 (V0 : Valuation τ sig (Elt Ideal)) (b : Fin 4096) (G : Fin 128) (h : Fin 2) (j : Fin 16) :
    res_main_v112 V0 (ix4 b G h j)
      = stages (angTab V0) 0 4 (xRow V0 b.val) (G.val * (2 * 16) + h.val * 16 + j.val) := by
  unfold res_main_v112
  refine (view_apply (by norm_num) _ _ b G h j).trans ?_
  exact stage_view (by norm_num) (res_main_v84 V0) (res_main_v87 V0) _ _ _ _ _ _ _ _ (angTab V0 3)
    (stages (angTab V0) 0 3 (xRow V0 b.val)) b (view3 V0 b) (ang3 V0) _

theorem ang4 (V0 : Valuation τ sig (Elt Ideal)) (G : Fin 128) (j : Fin 16) :
    res_main_v115 V0 (ix2 G j) = angTab V0 4 (G.val * 16 + j.val) := by
  unfold res_main_v115
  exact angles_apply (by norm_num) 4 (by norm_num) _ _ _ _ G j

theorem view5 (V0 : Valuation τ sig (Elt Ideal)) (b : Fin 4096) (G : Fin 64) (h : Fin 2) (j : Fin 32) :
    res_main_v140 V0 (ix4 b G h j)
      = stages (angTab V0) 0 5 (xRow V0 b.val) (G.val * (2 * 32) + h.val * 32 + j.val) := by
  unfold res_main_v140
  refine (view_apply (by norm_num) _ _ b G h j).trans ?_
  exact stage_view (by norm_num) (res_main_v112 V0) (res_main_v115 V0) _ _ _ _ _ _ _ _ (angTab V0 4)
    (stages (angTab V0) 0 4 (xRow V0 b.val)) b (view4 V0 b) (ang4 V0) _

theorem ang5 (V0 : Valuation τ sig (Elt Ideal)) (G : Fin 64) (j : Fin 32) :
    res_main_v143 V0 (ix2 G j) = angTab V0 5 (G.val * 32 + j.val) := by
  unfold res_main_v143
  exact angles_apply (by norm_num) 5 (by norm_num) _ _ _ _ G j

theorem view6 (V0 : Valuation τ sig (Elt Ideal)) (b : Fin 4096) (G : Fin 32) (h : Fin 2) (j : Fin 64) :
    res_main_v168 V0 (ix4 b G h j)
      = stages (angTab V0) 0 6 (xRow V0 b.val) (G.val * (2 * 64) + h.val * 64 + j.val) := by
  unfold res_main_v168
  refine (view_apply (by norm_num) _ _ b G h j).trans ?_
  exact stage_view (by norm_num) (res_main_v140 V0) (res_main_v143 V0) _ _ _ _ _ _ _ _ (angTab V0 5)
    (stages (angTab V0) 0 5 (xRow V0 b.val)) b (view5 V0 b) (ang5 V0) _

theorem ang6 (V0 : Valuation τ sig (Elt Ideal)) (G : Fin 32) (j : Fin 64) :
    res_main_v171 V0 (ix2 G j) = angTab V0 6 (G.val * 64 + j.val) := by
  unfold res_main_v171
  exact angles_apply (by norm_num) 6 (by norm_num) _ _ _ _ G j

theorem view7 (V0 : Valuation τ sig (Elt Ideal)) (b : Fin 4096) (G : Fin 16) (h : Fin 2) (j : Fin 128) :
    res_main_v196 V0 (ix4 b G h j)
      = stages (angTab V0) 0 7 (xRow V0 b.val) (G.val * (2 * 128) + h.val * 128 + j.val) := by
  unfold res_main_v196
  refine (view_apply (by norm_num) _ _ b G h j).trans ?_
  exact stage_view (by norm_num) (res_main_v168 V0) (res_main_v171 V0) _ _ _ _ _ _ _ _ (angTab V0 6)
    (stages (angTab V0) 0 6 (xRow V0 b.val)) b (view6 V0 b) (ang6 V0) _

theorem ang7 (V0 : Valuation τ sig (Elt Ideal)) (G : Fin 16) (j : Fin 128) :
    res_main_v199 V0 (ix2 G j) = angTab V0 7 (G.val * 128 + j.val) := by
  unfold res_main_v199
  exact angles_apply (by norm_num) 7 (by norm_num) _ _ _ _ G j

theorem view8 (V0 : Valuation τ sig (Elt Ideal)) (b : Fin 4096) (G : Fin 8) (h : Fin 2) (j : Fin 256) :
    res_main_v224 V0 (ix4 b G h j)
      = stages (angTab V0) 0 8 (xRow V0 b.val) (G.val * (2 * 256) + h.val * 256 + j.val) := by
  unfold res_main_v224
  refine (view_apply (by norm_num) _ _ b G h j).trans ?_
  exact stage_view (by norm_num) (res_main_v196 V0) (res_main_v199 V0) _ _ _ _ _ _ _ _ (angTab V0 7)
    (stages (angTab V0) 0 7 (xRow V0 b.val)) b (view7 V0 b) (ang7 V0) _

theorem ang8 (V0 : Valuation τ sig (Elt Ideal)) (G : Fin 8) (j : Fin 256) :
    res_main_v227 V0 (ix2 G j) = angTab V0 8 (G.val * 256 + j.val) := by
  unfold res_main_v227
  exact angles_apply (by norm_num) 8 (by norm_num) _ _ _ _ G j

theorem view9 (V0 : Valuation τ sig (Elt Ideal)) (b : Fin 4096) (G : Fin 4) (h : Fin 2) (j : Fin 512) :
    res_main_v252 V0 (ix4 b G h j)
      = stages (angTab V0) 0 9 (xRow V0 b.val) (G.val * (2 * 512) + h.val * 512 + j.val) := by
  unfold res_main_v252
  refine (view_apply (by norm_num) _ _ b G h j).trans ?_
  exact stage_view (by norm_num) (res_main_v224 V0) (res_main_v227 V0) _ _ _ _ _ _ _ _ (angTab V0 8)
    (stages (angTab V0) 0 8 (xRow V0 b.val)) b (view8 V0 b) (ang8 V0) _

theorem ang9 (V0 : Valuation τ sig (Elt Ideal)) (G : Fin 4) (j : Fin 512) :
    res_main_v255 V0 (ix2 G j) = angTab V0 9 (G.val * 512 + j.val) := by
  unfold res_main_v255
  exact angles_apply (by norm_num) 9 (by norm_num) _ _ _ _ G j

theorem view10 (V0 : Valuation τ sig (Elt Ideal)) (b : Fin 4096) (G : Fin 2) (h : Fin 2) (j : Fin 1024) :
    res_main_v280 V0 (ix4 b G h j)
      = stages (angTab V0) 0 10 (xRow V0 b.val) (G.val * (2 * 1024) + h.val * 1024 + j.val) := by
  unfold res_main_v280
  refine (view_apply (by norm_num) _ _ b G h j).trans ?_
  exact stage_view (by norm_num) (res_main_v252 V0) (res_main_v255 V0) _ _ _ _ _ _ _ _ (angTab V0 9)
    (stages (angTab V0) 0 9 (xRow V0 b.val)) b (view9 V0 b) (ang9 V0) _

theorem ang10 (V0 : Valuation τ sig (Elt Ideal)) (G : Fin 2) (j : Fin 1024) :
    res_main_v283 V0 (ix2 G j) = angTab V0 10 (G.val * 1024 + j.val) := by
  unfold res_main_v283
  exact angles_apply (by norm_num) 10 (by norm_num) _ _ _ _ G j

theorem view11 (V0 : Valuation τ sig (Elt Ideal)) (b : Fin 4096) (G : Fin 1) (h : Fin 2) (j : Fin 2048) :
    res_main_v308 V0 (ix4 b G h j)
      = stages (angTab V0) 0 11 (xRow V0 b.val) (G.val * (2 * 2048) + h.val * 2048 + j.val) := by
  unfold res_main_v308
  refine (view_apply (by norm_num) _ _ b G h j).trans ?_
  exact stage_view (by norm_num) (res_main_v280 V0) (res_main_v283 V0) _ _ _ _ _ _ _ _ (angTab V0 10)
    (stages (angTab V0) 0 10 (xRow V0 b.val)) b (view10 V0 b) (ang10 V0) _

theorem ang11 (V0 : Valuation τ sig (Elt Ideal)) (G : Fin 1) (j : Fin 2048) :
    res_main_v311 V0 (ix2 G j) = angTab V0 11 (G.val * 2048 + j.val) := by
  unfold res_main_v311
  exact angles_apply (by norm_num) 11 (by norm_num) _ _ _ _ G j

/-! ### The result -/

/-- The reference's result as the generated run states it: the last stage's term over the named intermediates. -/
def refOut (V0 : Valuation τ sig (Elt Ideal)) : FVec Ideal S4096x4096 .f32 :=
  shapeCast _ (concatenate S4096x1x2x2048 2 [⟨S4096x1x1x2048, (broadcastInDim S4096x1x1x2048 ![0, 1, 3] bcast_S4096x1x2048_S4096x1x1x2048_0_1_3 (subf (mulf (broadcastInDim S4096x1x2048 ![0, 1, 2] bcast_S1x1x2048_S4096x1x2048_0_1_2 (broadcastInDim S1x1x2048 ![1, 2] bcast_S1x2048_S1x1x2048_1_2 (res_main_v312 V0))) (res_main_v315 V0)) (mulf (broadcastInDim S4096x1x2048 ![0, 1, 2] bcast_S1x1x2048_S4096x1x2048_0_1_2 (broadcastInDim S1x1x2048 ![1, 2] bcast_S1x2048_S1x1x2048_1_2 (res_main_v313 V0))) (res_main_v317 V0))))⟩, ⟨S4096x1x1x2048, (broadcastInDim S4096x1x1x2048 ![0, 1, 3] bcast_S4096x1x2048_S4096x1x1x2048_0_1_3 (addf (mulf (broadcastInDim S4096x1x2048 ![0, 1, 2] bcast_S1x1x2048_S4096x1x2048_0_1_2 (broadcastInDim S1x1x2048 ![1, 2] bcast_S1x2048_S1x1x2048_1_2 (res_main_v313 V0))) (res_main_v315 V0)) (mulf (broadcastInDim S4096x1x2048 ![0, 1, 2] bcast_S1x1x2048_S4096x1x2048_0_1_2 (broadcastInDim S1x1x2048 ![1, 2] bcast_S1x2048_S1x1x2048_1_2 (res_main_v312 V0))) (res_main_v317 V0))))⟩] concatenates_S4096x1x1x2048_S4096x1x1x2048_S4096x1x2x2048_d2) shapeCasts_S4096x1x2x2048_S4096x4096

/-- Index by index the reference is the twelve stages on the row, with row s of the angles at stage s. -/
theorem refOut_apply (V0 : Valuation τ sig (Elt Ideal)) (b i : Fin 4096) :
    refOut V0 (ix2 b i)
      = refRow (at2 (V0 (Proc.devRef .tc main_arg1) : S12x2048.Idx → EReal))
          (at2 (V0 (Proc.devRef .tc main_arg0) : S4096x4096.Idx → EReal) b.val) i.val := by
  unfold refOut
  exact stage_view (by norm_num) (res_main_v308 V0) (res_main_v311 V0) _ _ _ _ _ _ _ _ (angTab V0 11)
    (stages (angTab V0) 0 11 (xRow V0 b.val)) b (view11 V0 b) (ang11 V0) i

/-- At launch a device's valuation reads the first argument's buffer. -/
theorem launch_arg0 (m : (ℓ : Loc nD τ sig) → Buf (Elt Ideal) ℓ) (c : Dev nD) :
    launchContents m c (Proc.devRef .tc main_arg0) = m ((c.tc : Thread nD τ).loc main_arg0) := rfl

/-- At launch a device's valuation reads the second argument's buffer. -/
theorem launch_arg1 (m : (ℓ : Loc nD τ sig) → Buf (Elt Ideal) ℓ) (c : Dev nD) :
    launchContents m c (Proc.devRef .tc main_arg1) = m ((c.tc : Thread nD τ).loc main_arg1) := rfl

/-- The generated run, with its result named. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v335) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Chain

end Cert.ReferenceIdeal.RefValue

end
-- ==== Proof.HostSide.lean ====
import Idealize.ShloMosaic.Lib.ValueIdx
import Idealize.ShloMosaic.PureOps.Ideal
import Idealize.ShloMosaic.Lib.Pipeline.Value
import Idealize.ShloMosaic.Lib.Pipeline.Frame
import Idealize.ShloMosaic.Lib.StableHlo.Run
import Idealize.ShloMosaic.Lib.StableHlo.Predicate
import proofs.«124778_j35845797052976_1_alg».proof.Proof.Gen.KernelIdeal.Launch
import proofs.«124778_j35845797052976_1_alg».proof.Proof.Spec
import proofs.«124778_j35845797052976_1_alg».proof.Proof.SpecLemmas

/-
  What the host operations before the kernel call leave in the two arrays the call reads.

  The 32 block matrices: block c's matrix has as row k the first seven butterfly stages (distances 1, 2, …, 64), with
  block c's angles, applied to row k of the 128 × 128 identity. The program computes all blocks and all rows at once, on
  arrays [32, 128, 128]: each stage views the rows as [32, 128, g, 2, d] (g groups, two halves, d offsets; g · 2d = 128),
  takes the two halves, multiplies them by the cosines and sines of the stage's angles (a [32, g, d] view of row s of
  the angles' table [32, 7, 64], broadcast over the 128 rows), and sets the two rotated halves side by side again.
  Read at an index, one such stage is the stage of the shared definitions on the row; seven of them are the run of
  seven stages. The first stage differs only in that the identity is not yet copied for each block.

  The five rows of angles the kernel applies itself are rows 7 … 11 of the argument.
-/

noncomputable section

namespace Cert.KernelIdeal.HostValue

open Cert.Bfly Idealize.ShloMosaic Idealize.ShloMosaic.ValueIdx

/-! ## One batched stage, read at an index -/

section Generic
variable {B K g d : ℕ}

/-- A position below g · 2d is group G, half h, offset j. -/
theorem pos_decomp (g d i : ℕ) (hd : 0 < d) (hi : i < g * (2 * d)) :
    i / (2 * d) < g ∧ i % (2 * d) / d < 2 ∧ i % d < d ∧ i = i / (2 * d) * (2 * d) + i % (2 * d) / d * d + i % d := by
  have h2d : 0 < 2 * d := by omega
  refine ⟨(Nat.div_lt_iff_lt_mul h2d).2 hi, ?_, Nat.mod_lt _ hd, ?_⟩
  · rw [Nat.div_lt_iff_lt_mul hd]; exact Nat.mod_lt _ h2d
  · have e1 := Nat.div_add_mod i (2 * d)
    have e2 := Nat.div_add_mod (i % (2 * d)) d
    have e3 : i % (2 * d) % d = i % d := Nat.mod_mod_of_dvd i (Dvd.intro_left 2 rfl)
    rw [e3] at e2
    rw [Nat.mul_comm (2 * d) (i / (2 * d))] at e1
    rw [Nat.mul_comm d (i % (2 * d) / d)] at e2
    omega

/-- The two rotated halves, set side by side on the half axis and read as rows of length g · 2d, are the stage. -/
theorem stage_result_apply (hd : 0 < d) {n : ℕ} (hn : n = g * (2 * d))
    (Cb Sb V0h V1h : (⟨4, ![B, K, g, d]⟩ : Shape).Idx → EReal) (θ v : ℕ → EReal) (c : Fin B) (k : Fin K)
    (hC : ∀ (G : Fin g) (j : Fin d), Cb (ix4 c k G j) = Ideal.cos (θ (G.val * d + j.val)))
    (hS : ∀ (G : Fin g) (j : Fin d), Sb (ix4 c k G j) = Ideal.sin (θ (G.val * d + j.val)))
    (hV0 : ∀ (G : Fin g) (j : Fin d), V0h (ix4 c k G j) = v (G.val * (2 * d) + j.val))
    (hV1 : ∀ (G : Fin g) (j : Fin d), V1h (ix4 c k G j) = v (G.val * (2 * d) + j.val + d))
    (hb : (⟨4, ![B, K, g, d]⟩ : Shape).BroadcastsInDim ⟨5, ![B, K, g, 1, d]⟩ ![0, 1, 2, 4])
    (hcat : Shape.Concatenates [(⟨5, ![B, K, g, 1, d]⟩ : Shape), ⟨5, ![B, K, g, 1, d]⟩] ⟨5, ![B, K, g, 2, d]⟩ 3)
    (hsc : (⟨5, ![B, K, g, 2, d]⟩ : Shape).ShapeCasts ⟨3, ![B, K, n]⟩) (i : Fin n) :
    shapeCast ⟨3, ![B, K, n]⟩
      (concatenate ⟨5, ![B, K, g, 2, d]⟩ 3
        [⟨⟨5, ![B, K, g, 1, d]⟩, broadcastInDim ⟨5, ![B, K, g, 1, d]⟩ ![0, 1, 2, 4] hb
            (subf (F := Ideal) (φ := .f32) (mulf (F := Ideal) (φ := .f32) Cb V0h) (mulf (F := Ideal) (φ := .f32) Sb V1h))⟩,
         ⟨⟨5, ![B, K, g, 1, d]⟩, broadcastInDim ⟨5, ![B, K, g, 1, d]⟩ ![0, 1, 2, 4] hb
            (addf (F := Ideal) (φ := .f32) (mulf (F := Ideal) (φ := .f32) Sb V0h) (mulf (F := Ideal) (φ := .f32) Cb V1h))⟩] hcat) hsc
      (ix3 c k i) = stage d θ v i.val := by
  obtain ⟨i, hi⟩ := i
  subst hn
  obtain ⟨hG, hh, hj, hi'⟩ := pos_decomp g d i hd hi
  generalize i / (2 * d) = G at hG hi'
  generalize i % (2 * d) / d = h at hh hi'
  generalize i % d = j at hj hi'
  have hcB := c.isLt
  have hkK := k.isLt
  refine (shapeCast_apply _ hsc _ (ix5 c k ⟨G, hG⟩ ⟨h, hh⟩ ⟨j, hj⟩) ?_).trans ?_
  · rw [Shape.rowMajor_val_five, Shape.rowMajor_val_three]
    show ((((c.val * K + k.val) * g + G) * 2 + h) * d + j) = (c.val * K + k.val) * (g * (2 * d)) + i
    rw [hi']; ring
  · show _ = stage d θ v i
    rcases (by omega : h = 0 ∨ h = 1) with rfl | rfl
    · refine (concatenate_pair_apply_left 3 _ _ hcat _ rfl (ix5 c k ⟨G, hG⟩ ⟨0, Nat.one_pos⟩ ⟨j, hj⟩) (fun b => ?_)).trans ?_
      · match b with
        | ⟨0, _⟩ => rfl
        | ⟨1, _⟩ => rfl
        | ⟨2, _⟩ => rfl
        | ⟨3, _⟩ => rfl
        | ⟨4, _⟩ => rfl
      · refine (broadcastInDim_apply _ hb _ _ (ix4 c k ⟨G, hG⟩ ⟨j, hj⟩) (fun a => ?_)).trans ?_
        · match a with
          | ⟨0, _⟩ => show c.val = if B = 1 then 0 else c.val; split_ifs <;> omega
          | ⟨1, _⟩ => show k.val = if K = 1 then 0 else k.val; split_ifs <;> omega
          | ⟨2, _⟩ => show G = if g = 1 then 0 else G; split_ifs <;> omega
          | ⟨3, _⟩ => show j = if d = 1 then 0 else j; split_ifs <;> omega
        · rw [subf_apply, mulf_apply, mulf_apply, hC, hS, hV0, hV1, hi']
          show _ = stage d θ v (G * (2 * d) + 0 * d + j)
          rw [Nat.zero_mul, Nat.add_zero]
          exact (stage_lo d θ v G j hj).symm
    · refine (concatenate_pair_apply_right 3 _ _ hcat _ rfl rfl (ix5 c k ⟨G, hG⟩ ⟨0, Nat.one_pos⟩ ⟨j, hj⟩) (fun b hb' => ?_) ?_).trans ?_
      · match b with
        | ⟨0, _⟩ => rfl
        | ⟨1, _⟩ => rfl
        | ⟨2, _⟩ => rfl
        | ⟨3, _⟩ => exact absurd rfl hb'
        | ⟨4, _⟩ => rfl
      · rfl
      · refine (broadcastInDim_apply _ hb _ _ (ix4 c k ⟨G, hG⟩ ⟨j, hj⟩) (fun a => ?_)).trans ?_
        · match a with
          | ⟨0, _⟩ => show c.val = if B = 1 then 0 else c.val; split_ifs <;> omega
          | ⟨1, _⟩ => show k.val = if K = 1 then 0 else k.val; split_ifs <;> omega
          | ⟨2, _⟩ => show G = if g = 1 then 0 else G; split_ifs <;> omega
          | ⟨3, _⟩ => show j = if d = 1 then 0 else j; split_ifs <;> omega
        · rw [addf_apply, mulf_apply, mulf_apply, hS, hC, hV0, hV1, hi']
          show _ = stage d θ v (G * (2 * d) + 1 * d + j)
          rw [Nat.one_mul]
          exact (stage_hi d θ v G j hj).symm

end Generic

/-! ## The pieces a stage reads -/

section Pieces
variable {B K g d : ℕ}

/-- Half h of a view [B, K, g, 2, d], as a [B, K, g, d] array. -/
theorem half_apply (A : (⟨5, ![B, K, g, 2, d]⟩ : Shape).Idx → EReal) (h : Fin 2) (off : Fin 5 → ℕ)
    (hoff : off = ![0, 0, 0, h.val, 0])
    (hsl : (⟨5, ![B, K, g, 2, d]⟩ : Shape).Slices off ⟨5, ![B, K, g, 1, d]⟩)
    (hsc : (⟨5, ![B, K, g, 1, d]⟩ : Shape).ShapeCasts ⟨4, ![B, K, g, d]⟩)
    (c : Fin B) (k : Fin K) (G : Fin g) (j : Fin d) :
    shapeCast ⟨4, ![B, K, g, d]⟩ (extractStridedSlice ⟨5, ![B, K, g, 1, d]⟩ off A hsl) hsc (ix4 c k G j)
      = A (ix5 c k G h j) := by
  subst hoff
  refine (shapeCast_apply _ hsc _ (ix5 c k G ⟨0, Nat.one_pos⟩ j) ?_).trans ?_
  · rw [Shape.rowMajor_val_five, Shape.rowMajor_val_four]
    show ((((c.val * K + k.val) * g + G.val) * 1 + 0) * d + j.val) = ((c.val * K + k.val) * g + G.val) * d + j.val
    rw [Nat.mul_one, Nat.add_zero]
  · refine extractStridedSlice_apply _ A hsl _ (ix5 c k G h j) (fun a => ?_)
    match a with
    | ⟨0, _⟩ => show c.val = 0 + c.val; omega
    | ⟨1, _⟩ => show k.val = 0 + k.val; omega
    | ⟨2, _⟩ => show G.val = 0 + G.val; omega
    | ⟨3, _⟩ => show h.val = h.val + 0; omega
    | ⟨4, _⟩ => show j.val = 0 + j.val; omega

/-- A [B, g, d] table broadcast along a new second axis of length K. -/
theorem bcastK_apply (X : (⟨3, ![B, g, d]⟩ : Shape).Idx → EReal)
    (h1 : (⟨3, ![B, g, d]⟩ : Shape).BroadcastsInDim ⟨4, ![B, 1, g, d]⟩ ![0, 2, 3])
    (h2 : (⟨4, ![B, 1, g, d]⟩ : Shape).BroadcastsInDim ⟨4, ![B, K, g, d]⟩ ![0, 1, 2, 3])
    (c : Fin B) (k : Fin K) (G : Fin g) (j : Fin d) :
    broadcastInDim ⟨4, ![B, K, g, d]⟩ ![0, 1, 2, 3] h2 (broadcastInDim ⟨4, ![B, 1, g, d]⟩ ![0, 2, 3] h1 X) (ix4 c k G j)
      = X (ix3 c G j) := by
  have hcB := c.isLt
  have hGg := G.isLt
  have hjd := j.isLt
  refine (broadcastInDim_apply _ h2 _ _ (ix4 c ⟨0, Nat.one_pos⟩ G j) (fun a => ?_)).trans ?_
  · match a with
    | ⟨0, _⟩ => show c.val = if B = 1 then 0 else c.val; split_ifs <;> omega
    | ⟨1, _⟩ => show 0 = if 1 = 1 then 0 else k.val; rfl
    | ⟨2, _⟩ => show G.val = if g = 1 then 0 else G.val; split_ifs <;> omega
    | ⟨3, _⟩ => show j.val = if d = 1 then 0 else j.val; split_ifs <;> omega
  · refine broadcastInDim_apply _ h1 _ _ (ix3 c G j) (fun a => ?_)
    match a with
    | ⟨0, _⟩ => show c.val = if B = 1 then 0 else c.val; split_ifs <;> omega
    | ⟨1, _⟩ => show G.val = if g = 1 then 0 else G.val; split_ifs <;> omega
    | ⟨2, _⟩ => show j.val = if d = 1 then 0 else j.val; split_ifs <;> omega

/-- A [K, g, d] array broadcast along a new leading axis of length B. -/
theorem bcastB_apply (X : (⟨3, ![K, g, d]⟩ : Shape).Idx → EReal)
    (h1 : (⟨3, ![K, g, d]⟩ : Shape).BroadcastsInDim ⟨4, ![1, K, g, d]⟩ ![1, 2, 3])
    (h2 : (⟨4, ![1, K, g, d]⟩ : Shape).BroadcastsInDim ⟨4, ![B, K, g, d]⟩ ![0, 1, 2, 3])
    (c : Fin B) (k : Fin K) (G : Fin g) (j : Fin d) :
    broadcastInDim ⟨4, ![B, K, g, d]⟩ ![0, 1, 2, 3] h2 (broadcastInDim ⟨4, ![1, K, g, d]⟩ ![1, 2, 3] h1 X) (ix4 c k G j)
      = X (ix3 k G j) := by
  have hkK := k.isLt
  have hGg := G.isLt
  have hjd := j.isLt
  refine (broadcastInDim_apply _ h2 _ _ (ix4 ⟨0, Nat.one_pos⟩ k G j) (fun a => ?_)).trans ?_
  · match a with
    | ⟨0, _⟩ => show 0 = if 1 = 1 then 0 else c.val; rfl
    | ⟨1, _⟩ => show k.val = if K = 1 then 0 else k.val; split_ifs <;> omega
    | ⟨2, _⟩ => show G.val = if g = 1 then 0 else G.val; split_ifs <;> omega
    | ⟨3, _⟩ => show j.val = if d = 1 then 0 else j.val; split_ifs <;> omega
  · refine broadcastInDim_apply _ h1 _ _ (ix3 k G j) (fun a => ?_)
    match a with
    | ⟨0, _⟩ => show k.val = if K = 1 then 0 else k.val; split_ifs <;> omega
    | ⟨1, _⟩ => show G.val = if g = 1 then 0 else G.val; split_ifs <;> omega
    | ⟨2, _⟩ => show j.val = if d = 1 then 0 else j.val; split_ifs <;> omega

/-- Half h of an unbatched view [K, g, 2, d], as a [K, g, d] array. -/
theorem half4_apply (A : (⟨4, ![K, g, 2, d]⟩ : Shape).Idx → EReal) (h : Fin 2) (off : Fin 4 → ℕ)
    (hoff : off = ![0, 0, h.val, 0])
    (hsl : (⟨4, ![K, g, 2, d]⟩ : Shape).Slices off ⟨4, ![K, g, 1, d]⟩)
    (hsc : (⟨4, ![K, g, 1, d]⟩ : Shape).ShapeCasts ⟨3, ![K, g, d]⟩)
    (k : Fin K) (G : Fin g) (j : Fin d) :
    shapeCast ⟨3, ![K, g, d]⟩ (extractStridedSlice ⟨4, ![K, g, 1, d]⟩ off A hsl) hsc (ix3 k G j)
      = A (ix4 k G h j) := by
  subst hoff
  refine (shapeCast_apply _ hsc _ (ix4 k G ⟨0, Nat.one_pos⟩ j) ?_).trans ?_
  · rw [Shape.rowMajor_val_four, Shape.rowMajor_val_three]
    show (((k.val * g + G.val) * 1 + 0) * d + j.val) = (k.val * g + G.val) * d + j.val
    rw [Nat.mul_one, Nat.add_zero]
  · refine extractStridedSlice_apply _ A hsl _ (ix4 k G h j) (fun a => ?_)
    match a with
    | ⟨0, _⟩ => show k.val = 0 + k.val; omega
    | ⟨1, _⟩ => show G.val = 0 + G.val; omega
    | ⟨2, _⟩ => show h.val = h.val + 0; omega
    | ⟨3, _⟩ => show j.val = 0 + j.val; omega

/-- Rows of length n viewed as [B, K, g, 2, d] with n = g · 2d: entry (G, h, j) is position G · 2d + h · d + j. -/
theorem view5_apply {n : ℕ} (hn : n = g * (2 * d)) (T : (⟨3, ![B, K, n]⟩ : Shape).Idx → EReal)
    (hsc : (⟨3, ![B, K, n]⟩ : Shape).ShapeCasts ⟨5, ![B, K, g, 2, d]⟩)
    (c : Fin B) (k : Fin K) (G : Fin g) (h : Fin 2) (j : Fin d) (hlt : G.val * (2 * d) + h.val * d + j.val < n) :
    shapeCast ⟨5, ![B, K, g, 2, d]⟩ T hsc (ix5 c k G h j) = T (ix3 c k ⟨G.val * (2 * d) + h.val * d + j.val, hlt⟩) := by
  subst hn
  refine shapeCast_apply _ hsc _ _ ?_
  rw [Shape.rowMajor_val_five, Shape.rowMajor_val_three]
  show (c.val * K + k.val) * (g * (2 * d)) + (G.val * (2 * d) + h.val * d + j.val)
    = ((((c.val * K + k.val) * g + G.val) * 2 + h.val) * d + j.val)
  ring

/-- The position (G, h, j) of a [g, 2, d] view is below g · 2d. -/
theorem view_pos_lt (G : Fin g) (h : Fin 2) (j : Fin d) : G.val * (2 * d) + h.val * d + j.val < g * (2 * d) := by
  have hG := G.isLt
  have hh := h.isLt
  have hj := j.isLt
  have h1 : h.val * d + j.val < 2 * d := by
    rcases (by omega : h.val = 0 ∨ h.val = 1) with e | e <;> rw [e] <;> omega
  calc G.val * (2 * d) + h.val * d + j.val < G.val * (2 * d) + 2 * d := by omega
    _ = (G.val + 1) * (2 * d) := by ring
    _ ≤ g * (2 * d) := Nat.mul_le_mul_right _ hG

/-- Stage s's angles of block c: the slice [0:B, s:s+1, 0:m] of a [B, S, m] table viewed [B, g, d] with m = g · d. -/
theorem angView_apply {S m : ℕ} (hm : m = g * d) (A3 : (⟨3, ![B, S, m]⟩ : Shape).Idx → EReal) (s : Fin S) (off : Fin 3 → ℕ)
    (hoff : off = ![0, s.val, 0])
    (hsl : (⟨3, ![B, S, m]⟩ : Shape).Slices off ⟨3, ![B, 1, m]⟩)
    (h1 : (⟨3, ![B, 1, m]⟩ : Shape).ShapeCasts ⟨2, ![B, m]⟩)
    (h2 : (⟨2, ![B, m]⟩ : Shape).ShapeCasts ⟨3, ![B, g, d]⟩)
    (c : Fin B) (G : Fin g) (j : Fin d) (hlt : G.val * d + j.val < m) :
    shapeCast ⟨3, ![B, g, d]⟩ (shapeCast ⟨2, ![B, m]⟩ (extractStridedSlice ⟨3, ![B, 1, m]⟩ off A3 hsl) h1) h2 (ix3 c G j)
      = A3 (ix3 c s ⟨G.val * d + j.val, hlt⟩) := by
  subst hoff
  subst hm
  refine (shapeCast_apply _ h2 _ (ix2 c ⟨G.val * d + j.val, hlt⟩) ?_).trans ?_
  · rw [Shape.rowMajor_val_two, Shape.rowMajor_val_three]
    show c.val * (g * d) + (G.val * d + j.val) = (c.val * g + G.val) * d + j.val
    ring
  · refine (shapeCast_apply _ h1 _ (ix3 c ⟨0, Nat.one_pos⟩ ⟨G.val * d + j.val, hlt⟩) ?_).trans ?_
    · rw [Shape.rowMajor_val_three, Shape.rowMajor_val_two]
      show (c.val * 1 + 0) * (g * d) + (G.val * d + j.val) = c.val * (g * d) + (G.val * d + j.val)
      rw [Nat.mul_one, Nat.add_zero]
    · refine extractStridedSlice_apply _ A3 hsl _ (ix3 c s ⟨G.val * d + j.val, hlt⟩) (fun a => ?_)
      match a with
      | ⟨0, _⟩ => show c.val = 0 + c.val; omega
      | ⟨1, _⟩ => show s.val = s.val + 0; omega
      | ⟨2, _⟩ => show G.val * d + j.val = 0 + (G.val * d + j.val); omega

end Pieces

/-! ## A whole stage as terms -/

section StageTerm
variable {B K g d n S m : ℕ}

/-- The two rotated halves [B, K, g, 1, d] set side by side on the half axis and read as rows of length n. -/
def catTerm
    (e_cat : Shape.Concatenates [(⟨5, ![B, K, g, 1, d]⟩ : Shape), ⟨5, ![B, K, g, 1, d]⟩] ⟨5, ![B, K, g, 2, d]⟩ 3)
    (e_out : (⟨5, ![B, K, g, 2, d]⟩ : Shape).ShapeCasts ⟨3, ![B, K, n]⟩)
    (lo hi : (⟨5, ![B, K, g, 1, d]⟩ : Shape).Idx → EReal) : (⟨3, ![B, K, n]⟩ : Shape).Idx → EReal :=
  shapeCast ⟨3, ![B, K, n]⟩ (concatenate ⟨5, ![B, K, g, 2, d]⟩ 3 [⟨⟨5, ![B, K, g, 1, d]⟩, lo⟩, ⟨⟨5, ![B, K, g, 1, d]⟩, hi⟩] e_cat) e_out

/-- The low halves after stage number s: the rows T viewed [B, K, g, 2, d], row s of the angles viewed [B, g, d], its
    cosines and sines broadcast over K; cos · low − sin · high. -/
def loTerm (s : ℕ)
    (e_view : (⟨3, ![B, K, n]⟩ : Shape).ShapeCasts ⟨5, ![B, K, g, 2, d]⟩)
    (e_asl : (⟨3, ![B, S, m]⟩ : Shape).Slices ![0, s, 0] ⟨3, ![B, 1, m]⟩)
    (e_a1 : (⟨3, ![B, 1, m]⟩ : Shape).ShapeCasts ⟨2, ![B, m]⟩)
    (e_a2 : (⟨2, ![B, m]⟩ : Shape).ShapeCasts ⟨3, ![B, g, d]⟩)
    (e_h0 : (⟨5, ![B, K, g, 2, d]⟩ : Shape).Slices ![0, 0, 0, 0, 0] ⟨5, ![B, K, g, 1, d]⟩)
    (e_h1 : (⟨5, ![B, K, g, 2, d]⟩ : Shape).Slices ![0, 0, 0, 1, 0] ⟨5, ![B, K, g, 1, d]⟩)
    (e_hs : (⟨5, ![B, K, g, 1, d]⟩ : Shape).ShapeCasts ⟨4, ![B, K, g, d]⟩)
    (e_b1 : (⟨3, ![B, g, d]⟩ : Shape).BroadcastsInDim ⟨4, ![B, 1, g, d]⟩ ![0, 2, 3])
    (e_b2 : (⟨4, ![B, 1, g, d]⟩ : Shape).BroadcastsInDim ⟨4, ![B, K, g, d]⟩ ![0, 1, 2, 3])
    (e_b3 : (⟨4, ![B, K, g, d]⟩ : Shape).BroadcastsInDim ⟨5, ![B, K, g, 1, d]⟩ ![0, 1, 2, 4])
    (A3 : (⟨3, ![B, S, m]⟩ : Shape).Idx → EReal) (T : (⟨3, ![B, K, n]⟩ : Shape).Idx → EReal) :
    (⟨5, ![B, K, g, 1, d]⟩ : Shape).Idx → EReal :=
  broadcastInDim ⟨5, ![B, K, g, 1, d]⟩ ![0, 1, 2, 4] e_b3
    (subf (F := Ideal) (φ := .f32)
      (mulf (F := Ideal) (φ := .f32)
        (broadcastInDim ⟨4, ![B, K, g, d]⟩ ![0, 1, 2, 3] e_b2 (broadcastInDim ⟨4, ![B, 1, g, d]⟩ ![0, 2, 3] e_b1
            (Host.cos (F := Ideal) (φ := .f32) (shapeCast ⟨3, ![B, g, d]⟩ (shapeCast ⟨2, ![B, m]⟩ (extractStridedSlice ⟨3, ![B, 1, m]⟩ ![0, s, 0] A3 e_asl) e_a1) e_a2))))
        (shapeCast ⟨4, ![B, K, g, d]⟩ (extractStridedSlice ⟨5, ![B, K, g, 1, d]⟩ ![0, 0, 0, 0, 0] (shapeCast ⟨5, ![B, K, g, 2, d]⟩ T e_view) e_h0) e_hs))
      (mulf (F := Ideal) (φ := .f32)
        (broadcastInDim ⟨4, ![B, K, g, d]⟩ ![0, 1, 2, 3] e_b2 (broadcastInDim ⟨4, ![B, 1, g, d]⟩ ![0, 2, 3] e_b1
            (Host.sin (F := Ideal) (φ := .f32) (shapeCast ⟨3, ![B, g, d]⟩ (shapeCast ⟨2, ![B, m]⟩ (extractStridedSlice ⟨3, ![B, 1, m]⟩ ![0, s, 0] A3 e_asl) e_a1) e_a2))))
        (shapeCast ⟨4, ![B, K, g, d]⟩ (extractStridedSlice ⟨5, ![B, K, g, 1, d]⟩ ![0, 0, 0, 1, 0] (shapeCast ⟨5, ![B, K, g, 2, d]⟩ T e_view) e_h1) e_hs)))

/-- The high halves after stage number s: sin · low + cos · high. -/
def hiTerm (s : ℕ)
    (e_view : (⟨3, ![B, K, n]⟩ : Shape).ShapeCasts ⟨5, ![B, K, g, 2, d]⟩)
    (e_asl : (⟨3, ![B, S, m]⟩ : Shape).Slices ![0, s, 0] ⟨3, ![B, 1, m]⟩)
    (e_a1 : (⟨3, ![B, 1, m]⟩ : Shape).ShapeCasts ⟨2, ![B, m]⟩)
    (e_a2 : (⟨2, ![B, m]⟩ : Shape).ShapeCasts ⟨3, ![B, g, d]⟩)
    (e_h0 : (⟨5, ![B, K, g, 2, d]⟩ : Shape).Slices ![0, 0, 0, 0, 0] ⟨5, ![B, K, g, 1, d]⟩)
    (e_h1 : (⟨5, ![B, K, g, 2, d]⟩ : Shape).Slices ![0, 0, 0, 1, 0] ⟨5, ![B, K, g, 1, d]⟩)
    (e_hs : (⟨5, ![B, K, g, 1, d]⟩ : Shape).ShapeCasts ⟨4, ![B, K, g, d]⟩)
    (e_b1 : (⟨3, ![B, g, d]⟩ : Shape).BroadcastsInDim ⟨4, ![B, 1, g, d]⟩ ![0, 2, 3])
    (e_b2 : (⟨4, ![B, 1, g, d]⟩ : Shape).BroadcastsInDim ⟨4, ![B, K, g, d]⟩ ![0, 1, 2, 3])
    (e_b3 : (⟨4, ![B, K, g, d]⟩ : Shape).BroadcastsInDim ⟨5, ![B, K, g, 1, d]⟩ ![0, 1, 2, 4])
    (A3 : (⟨3, ![B, S, m]⟩ : Shape).Idx → EReal) (T : (⟨3, ![B, K, n]⟩ : Shape).Idx → EReal) :
    (⟨5, ![B, K, g, 1, d]⟩ : Shape).Idx → EReal :=
  broadcastInDim ⟨5, ![B, K, g, 1, d]⟩ ![0, 1, 2, 4] e_b3
    (addf (F := Ideal) (φ := .f32)
      (mulf (F := Ideal) (φ := .f32)
        (broadcastInDim ⟨4, ![B, K, g, d]⟩ ![0, 1, 2, 3] e_b2 (broadcastInDim ⟨4, ![B, 1, g, d]⟩ ![0, 2, 3] e_b1
            (Host.sin (F := Ideal) (φ := .f32) (shapeCast ⟨3, ![B, g, d]⟩ (shapeCast ⟨2, ![B, m]⟩ (extractStridedSlice ⟨3, ![B, 1, m]⟩ ![0, s, 0] A3 e_asl) e_a1) e_a2))))
        (shapeCast ⟨4, ![B, K, g, d]⟩ (extractStridedSlice ⟨5, ![B, K, g, 1, d]⟩ ![0, 0, 0, 0, 0] (shapeCast ⟨5, ![B, K, g, 2, d]⟩ T e_view) e_h0) e_hs))
      (mulf (F := Ideal) (φ := .f32)
        (broadcastInDim ⟨4, ![B, K, g, d]⟩ ![0, 1, 2, 3] e_b2 (broadcastInDim ⟨4, ![B, 1, g, d]⟩ ![0, 2, 3] e_b1
            (Host.cos (F := Ideal) (φ := .f32) (shapeCast ⟨3, ![B, g, d]⟩ (shapeCast ⟨2, ![B, m]⟩ (extractStridedSlice ⟨3, ![B, 1, m]⟩ ![0, s, 0] A3 e_asl) e_a1) e_a2))))
        (shapeCast ⟨4, ![B, K, g, d]⟩ (extractStridedSlice ⟨5, ![B, K, g, 1, d]⟩ ![0, 0, 0, 1, 0] (shapeCast ⟨5, ![B, K, g, 2, d]⟩ T e_view) e_h1) e_hs)))

/-- If the rows T are v and row s of the angles is θ (for block c, row k), the stage's rows are stage d θ v. -/
theorem stageTerm_apply (hd : 0 < d) (hn : n = g * (2 * d)) (hm : m = g * d) (s : Fin S)
    (e_view : (⟨3, ![B, K, n]⟩ : Shape).ShapeCasts ⟨5, ![B, K, g, 2, d]⟩)
    (e_asl : (⟨3, ![B, S, m]⟩ : Shape).Slices ![0, s.val, 0] ⟨3, ![B, 1, m]⟩)
    (e_a1 : (⟨3, ![B, 1, m]⟩ : Shape).ShapeCasts ⟨2, ![B, m]⟩)
    (e_a2 : (⟨2, ![B, m]⟩ : Shape).ShapeCasts ⟨3, ![B, g, d]⟩)
    (e_h0 : (⟨5, ![B, K, g, 2, d]⟩ : Shape).Slices ![0, 0, 0, 0, 0] ⟨5, ![B, K, g, 1, d]⟩)
    (e_h1 : (⟨5, ![B, K, g, 2, d]⟩ : Shape).Slices ![0, 0, 0, 1, 0] ⟨5, ![B, K, g, 1, d]⟩)
    (e_hs : (⟨5, ![B, K, g, 1, d]⟩ : Shape).ShapeCasts ⟨4, ![B, K, g, d]⟩)
    (e_b1 : (⟨3, ![B, g, d]⟩ : Shape).BroadcastsInDim ⟨4, ![B, 1, g, d]⟩ ![0, 2, 3])
    (e_b2 : (⟨4, ![B, 1, g, d]⟩ : Shape).BroadcastsInDim ⟨4, ![B, K, g, d]⟩ ![0, 1, 2, 3])
    (e_b3 : (⟨4, ![B, K, g, d]⟩ : Shape).BroadcastsInDim ⟨5, ![B, K, g, 1, d]⟩ ![0, 1, 2, 4])
    (e_cat : Shape.Concatenates [(⟨5, ![B, K, g, 1, d]⟩ : Shape), ⟨5, ![B, K, g, 1, d]⟩] ⟨5, ![B, K, g, 2, d]⟩ 3)
    (e_out : (⟨5, ![B, K, g, 2, d]⟩ : Shape).ShapeCasts ⟨3, ![B, K, n]⟩)
    (A3 : (⟨3, ![B, S, m]⟩ : Shape).Idx → EReal) (T : (⟨3, ![B, K, n]⟩ : Shape).Idx → EReal)
    (θ v : ℕ → EReal) (c : Fin B) (k : Fin K)
    (hA : ∀ p : Fin m, A3 (ix3 c s p) = θ p.val) (hT : ∀ i : Fin n, T (ix3 c k i) = v i.val) (i : Fin n) :
    catTerm e_cat e_out (loTerm s.val e_view e_asl e_a1 e_a2 e_h0 e_h1 e_hs e_b1 e_b2 e_b3 A3 T)
      (hiTerm s.val e_view e_asl e_a1 e_a2 e_h0 e_h1 e_hs e_b1 e_b2 e_b3 A3 T) (ix3 c k i) = stage d θ v i.val := by
  have hang : ∀ (G : Fin g) (j : Fin d),
      shapeCast ⟨3, ![B, g, d]⟩ (shapeCast ⟨2, ![B, m]⟩ (extractStridedSlice ⟨3, ![B, 1, m]⟩ ![0, s.val, 0] A3 e_asl) e_a1) e_a2 (ix3 c G j)
        = θ (G.val * d + j.val) := fun G j => by
    have hlt : G.val * d + j.val < m := by
      have hG := G.isLt
      have hj := j.isLt
      rw [hm]
      calc G.val * d + j.val < G.val * d + d := by omega
        _ = (G.val + 1) * d := by ring
        _ ≤ g * d := Nat.mul_le_mul_right _ hG
    rw [angView_apply hm A3 s _ rfl e_asl e_a1 e_a2 c G j hlt, hA]
  have hhalf : ∀ (h : Fin 2) (off : Fin 5 → ℕ) (hoff : off = ![0, 0, 0, h.val, 0])
      (e_h : (⟨5, ![B, K, g, 2, d]⟩ : Shape).Slices off ⟨5, ![B, K, g, 1, d]⟩) (G : Fin g) (j : Fin d),
      shapeCast ⟨4, ![B, K, g, d]⟩ (extractStridedSlice ⟨5, ![B, K, g, 1, d]⟩ off (shapeCast ⟨5, ![B, K, g, 2, d]⟩ T e_view) e_h) e_hs (ix4 c k G j)
        = v (G.val * (2 * d) + h.val * d + j.val) := fun h off hoff e_h G j => by
    have hlt : G.val * (2 * d) + h.val * d + j.val < n := hn ▸ view_pos_lt G h j
    rw [half_apply _ h off hoff e_h e_hs c k G j, view5_apply hn T e_view c k G h j hlt, hT]
  unfold catTerm loTerm hiTerm
  refine stage_result_apply hd hn _ _ _ _ θ v c k (fun G j => ?_) (fun G j => ?_) (fun G j => ?_) (fun G j => ?_) e_b3 e_cat e_out i
  · refine (bcastK_apply _ e_b1 e_b2 c k G j).trans ?_
    show Ideal.cos _ = _
    rw [hang]
  · refine (bcastK_apply _ e_b1 e_b2 c k G j).trans ?_
    show Ideal.sin _ = _
    rw [hang]
  · refine (hhalf 0 ![0, 0, 0, 0, 0] rfl e_h0 G j).trans ?_
    show v (G.val * (2 * d) + 0 * d + j.val) = _
    rw [Nat.zero_mul, Nat.add_zero]
  · refine (hhalf 1 ![0, 0, 0, 1, 0] rfl e_h1 G j).trans ?_
    show v (G.val * (2 * d) + 1 * d + j.val) = _
    rw [Nat.one_mul]; congr 1; omega

end StageTerm

/-! ## The first stage: the rows are not yet batched -/

section Stage0
variable {B K g d n S m : ℕ}

/-- Rows of length n viewed as [K, g, 2, d] with n = g · 2d. -/
theorem view4_apply (hn : n = g * (2 * d)) (I : (⟨2, ![K, n]⟩ : Shape).Idx → EReal)
    (hsc : (⟨2, ![K, n]⟩ : Shape).ShapeCasts ⟨4, ![K, g, 2, d]⟩)
    (k : Fin K) (G : Fin g) (h : Fin 2) (j : Fin d) (hlt : G.val * (2 * d) + h.val * d + j.val < n) :
    shapeCast ⟨4, ![K, g, 2, d]⟩ I hsc (ix4 k G h j) = I (ix2 k ⟨G.val * (2 * d) + h.val * d + j.val, hlt⟩) := by
  subst hn
  refine shapeCast_apply _ hsc _ _ ?_
  rw [Shape.rowMajor_val_four, Shape.rowMajor_val_two]
  show k.val * (g * (2 * d)) + (G.val * (2 * d) + h.val * d + j.val) = (((k.val * g + G.val) * 2 + h.val) * d + j.val)
  ring

/-- The low halves after the first stage: the K rows I (shared by all B blocks) viewed [K, g, 2, d], each half
    broadcast over the blocks; the angles as in the later stages. -/
def lo0Term (s : ℕ)
    (e_view : (⟨2, ![K, n]⟩ : Shape).ShapeCasts ⟨4, ![K, g, 2, d]⟩)
    (e_asl : (⟨3, ![B, S, m]⟩ : Shape).Slices ![0, s, 0] ⟨3, ![B, 1, m]⟩)
    (e_a1 : (⟨3, ![B, 1, m]⟩ : Shape).ShapeCasts ⟨2, ![B, m]⟩)
    (e_a2 : (⟨2, ![B, m]⟩ : Shape).ShapeCasts ⟨3, ![B, g, d]⟩)
    (e_h0 : (⟨4, ![K, g, 2, d]⟩ : Shape).Slices ![0, 0, 0, 0] ⟨4, ![K, g, 1, d]⟩)
    (e_h1 : (⟨4, ![K, g, 2, d]⟩ : Shape).Slices ![0, 0, 1, 0] ⟨4, ![K, g, 1, d]⟩)
    (e_hs : (⟨4, ![K, g, 1, d]⟩ : Shape).ShapeCasts ⟨3, ![K, g, d]⟩)
    (e_b1 : (⟨3, ![B, g, d]⟩ : Shape).BroadcastsInDim ⟨4, ![B, 1, g, d]⟩ ![0, 2, 3])
    (e_b2 : (⟨4, ![B, 1, g, d]⟩ : Shape).BroadcastsInDim ⟨4, ![B, K, g, d]⟩ ![0, 1, 2, 3])
    (e_c1 : (⟨3, ![K, g, d]⟩ : Shape).BroadcastsInDim ⟨4, ![1, K, g, d]⟩ ![1, 2, 3])
    (e_c2 : (⟨4, ![1, K, g, d]⟩ : Shape).BroadcastsInDim ⟨4, ![B, K, g, d]⟩ ![0, 1, 2, 3])
    (e_b3 : (⟨4, ![B, K, g, d]⟩ : Shape).BroadcastsInDim ⟨5, ![B, K, g, 1, d]⟩ ![0, 1, 2, 4])
    (A3 : (⟨3, ![B, S, m]⟩ : Shape).Idx → EReal) (I : (⟨2, ![K, n]⟩ : Shape).Idx → EReal) :
    (⟨5, ![B, K, g, 1, d]⟩ : Shape).Idx → EReal :=
  broadcastInDim ⟨5, ![B, K, g, 1, d]⟩ ![0, 1, 2, 4] e_b3
    (subf (F := Ideal) (φ := .f32)
      (mulf (F := Ideal) (φ := .f32)
        (broadcastInDim ⟨4, ![B, K, g, d]⟩ ![0, 1, 2, 3] e_b2 (broadcastInDim ⟨4, ![B, 1, g, d]⟩ ![0, 2, 3] e_b1
            (Host.cos (F := Ideal) (φ := .f32) (shapeCast ⟨3, ![B, g, d]⟩ (shapeCast ⟨2, ![B, m]⟩ (extractStridedSlice ⟨3, ![B, 1, m]⟩ ![0, s, 0] A3 e_asl) e_a1) e_a2))))
        (broadcastInDim ⟨4, ![B, K, g, d]⟩ ![0, 1, 2, 3] e_c2 (broadcastInDim ⟨4, ![1, K, g, d]⟩ ![1, 2, 3] e_c1
            (shapeCast ⟨3, ![K, g, d]⟩ (extractStridedSlice ⟨4, ![K, g, 1, d]⟩ ![0, 0, 0, 0] (shapeCast ⟨4, ![K, g, 2, d]⟩ I e_view) e_h0) e_hs))))
      (mulf (F := Ideal) (φ := .f32)
        (broadcastInDim ⟨4, ![B, K, g, d]⟩ ![0, 1, 2, 3] e_b2 (broadcastInDim ⟨4, ![B, 1, g, d]⟩ ![0, 2, 3] e_b1
            (Host.sin (F := Ideal) (φ := .f32) (shapeCast ⟨3, ![B, g, d]⟩ (shapeCast ⟨2, ![B, m]⟩ (extractStridedSlice ⟨3, ![B, 1, m]⟩ ![0, s, 0] A3 e_asl) e_a1) e_a2))))
        (broadcastInDim ⟨4, ![B, K, g, d]⟩ ![0, 1, 2, 3] e_c2 (broadcastInDim ⟨4, ![1, K, g, d]⟩ ![1, 2, 3] e_c1
            (shapeCast ⟨3, ![K, g, d]⟩ (extractStridedSlice ⟨4, ![K, g, 1, d]⟩ ![0, 0, 1, 0] (shapeCast ⟨4, ![K, g, 2, d]⟩ I e_view) e_h1) e_hs)))))

/-- The high halves after the first stage. -/
def hi0Term (s : ℕ)
    (e_view : (⟨2, ![K, n]⟩ : Shape).ShapeCasts ⟨4, ![K, g, 2, d]⟩)
    (e_asl : (⟨3, ![B, S, m]⟩ : Shape).Slices ![0, s, 0] ⟨3, ![B, 1, m]⟩)
    (e_a1 : (⟨3, ![B, 1, m]⟩ : Shape).ShapeCasts ⟨2, ![B, m]⟩)
    (e_a2 : (⟨2, ![B, m]⟩ : Shape).ShapeCasts ⟨3, ![B, g, d]⟩)
    (e_h0 : (⟨4, ![K, g, 2, d]⟩ : Shape).Slices ![0, 0, 0, 0] ⟨4, ![K, g, 1, d]⟩)
    (e_h1 : (⟨4, ![K, g, 2, d]⟩ : Shape).Slices ![0, 0, 1, 0] ⟨4, ![K, g, 1, d]⟩)
    (e_hs : (⟨4, ![K, g, 1, d]⟩ : Shape).ShapeCasts ⟨3, ![K, g, d]⟩)
    (e_b1 : (⟨3, ![B, g, d]⟩ : Shape).BroadcastsInDim ⟨4, ![B, 1, g, d]⟩ ![0, 2, 3])
    (e_b2 : (⟨4, ![B, 1, g, d]⟩ : Shape).BroadcastsInDim ⟨4, ![B, K, g, d]⟩ ![0, 1, 2, 3])
    (e_c1 : (⟨3, ![K, g, d]⟩ : Shape).BroadcastsInDim ⟨4, ![1, K, g, d]⟩ ![1, 2, 3])
    (e_c2 : (⟨4, ![1, K, g, d]⟩ : Shape).BroadcastsInDim ⟨4, ![B, K, g, d]⟩ ![0, 1, 2, 3])
    (e_b3 : (⟨4, ![B, K, g, d]⟩ : Shape).BroadcastsInDim ⟨5, ![B, K, g, 1, d]⟩ ![0, 1, 2, 4])
    (A3 : (⟨3, ![B, S, m]⟩ : Shape).Idx → EReal) (I : (⟨2, ![K, n]⟩ : Shape).Idx → EReal) :
    (⟨5, ![B, K, g, 1, d]⟩ : Shape).Idx → EReal :=
  broadcastInDim ⟨5, ![B, K, g, 1, d]⟩ ![0, 1, 2, 4] e_b3
    (addf (F := Ideal) (φ := .f32)
      (mulf (F := Ideal) (φ := .f32)
        (broadcastInDim ⟨4, ![B, K, g, d]⟩ ![0, 1, 2, 3] e_b2 (broadcastInDim ⟨4, ![B, 1, g, d]⟩ ![0, 2, 3] e_b1
            (Host.sin (F := Ideal) (φ := .f32) (shapeCast ⟨3, ![B, g, d]⟩ (shapeCast ⟨2, ![B, m]⟩ (extractStridedSlice ⟨3, ![B, 1, m]⟩ ![0, s, 0] A3 e_asl) e_a1) e_a2))))
        (broadcastInDim ⟨4, ![B, K, g, d]⟩ ![0, 1, 2, 3] e_c2 (broadcastInDim ⟨4, ![1, K, g, d]⟩ ![1, 2, 3] e_c1
            (shapeCast ⟨3, ![K, g, d]⟩ (extractStridedSlice ⟨4, ![K, g, 1, d]⟩ ![0, 0, 0, 0] (shapeCast ⟨4, ![K, g, 2, d]⟩ I e_view) e_h0) e_hs))))
      (mulf (F := Ideal) (φ := .f32)
        (broadcastInDim ⟨4, ![B, K, g, d]⟩ ![0, 1, 2, 3] e_b2 (broadcastInDim ⟨4, ![B, 1, g, d]⟩ ![0, 2, 3] e_b1
            (Host.cos (F := Ideal) (φ := .f32) (shapeCast ⟨3, ![B, g, d]⟩ (shapeCast ⟨2, ![B, m]⟩ (extractStridedSlice ⟨3, ![B, 1, m]⟩ ![0, s, 0] A3 e_asl) e_a1) e_a2))))
        (broadcastInDim ⟨4, ![B, K, g, d]⟩ ![0, 1, 2, 3] e_c2 (broadcastInDim ⟨4, ![1, K, g, d]⟩ ![1, 2, 3] e_c1
            (shapeCast ⟨3, ![K, g, d]⟩ (extractStridedSlice ⟨4, ![K, g, 1, d]⟩ ![0, 0, 1, 0] (shapeCast ⟨4, ![K, g, 2, d]⟩ I e_view) e_h1) e_hs)))))

/-- If row k of I is v and row s of the angles of block c is θ, the first stage's row (c, k) is stage d θ v. -/
theorem stage0Term_apply (hd : 0 < d) (hn : n = g * (2 * d)) (hm : m = g * d) (s : Fin S)
    (e_view : (⟨2, ![K, n]⟩ : Shape).ShapeCasts ⟨4, ![K, g, 2, d]⟩)
    (e_asl : (⟨3, ![B, S, m]⟩ : Shape).Slices ![0, s.val, 0] ⟨3, ![B, 1, m]⟩)
    (e_a1 : (⟨3, ![B, 1, m]⟩ : Shape).ShapeCasts ⟨2, ![B, m]⟩)
    (e_a2 : (⟨2, ![B, m]⟩ : Shape).ShapeCasts ⟨3, ![B, g, d]⟩)
    (e_h0 : (⟨4, ![K, g, 2, d]⟩ : Shape).Slices ![0, 0, 0, 0] ⟨4, ![K, g, 1, d]⟩)
    (e_h1 : (⟨4, ![K, g, 2, d]⟩ : Shape).Slices ![0, 0, 1, 0] ⟨4, ![K, g, 1, d]⟩)
    (e_hs : (⟨4, ![K, g, 1, d]⟩ : Shape).ShapeCasts ⟨3, ![K, g, d]⟩)
    (e_b1 : (⟨3, ![B, g, d]⟩ : Shape).BroadcastsInDim ⟨4, ![B, 1, g, d]⟩ ![0, 2, 3])
    (e_b2 : (⟨4, ![B, 1, g, d]⟩ : Shape).BroadcastsInDim ⟨4, ![B, K, g, d]⟩ ![0, 1, 2, 3])
    (e_c1 : (⟨3, ![K, g, d]⟩ : Shape).BroadcastsInDim ⟨4, ![1, K, g, d]⟩ ![1, 2, 3])
    (e_c2 : (⟨4, ![1, K, g, d]⟩ : Shape).BroadcastsInDim ⟨4, ![B, K, g, d]⟩ ![0, 1, 2, 3])
    (e_b3 : (⟨4, ![B, K, g, d]⟩ : Shape).BroadcastsInDim ⟨5, ![B, K, g, 1, d]⟩ ![0, 1, 2, 4])
    (e_cat : Shape.Concatenates [(⟨5, ![B, K, g, 1, d]⟩ : Shape), ⟨5, ![B, K, g, 1, d]⟩] ⟨5, ![B, K, g, 2, d]⟩ 3)
    (e_out : (⟨5, ![B, K, g, 2, d]⟩ : Shape).ShapeCasts ⟨3, ![B, K, n]⟩)
    (A3 : (⟨3, ![B, S, m]⟩ : Shape).Idx → EReal) (I : (⟨2, ![K, n]⟩ : Shape).Idx → EReal)
    (θ v : ℕ → EReal) (c : Fin B) (k : Fin K)
    (hA : ∀ p : Fin m, A3 (ix3 c s p) = θ p.val) (hI : ∀ i : Fin n, I (ix2 k i) = v i.val) (i : Fin n) :
    catTerm e_cat e_out (lo0Term s.val e_view e_asl e_a1 e_a2 e_h0 e_h1 e_hs e_b1 e_b2 e_c1 e_c2 e_b3 A3 I)
      (hi0Term s.val e_view e_asl e_a1 e_a2 e_h0 e_h1 e_hs e_b1 e_b2 e_c1 e_c2 e_b3 A3 I) (ix3 c k i) = stage d θ v i.val := by
  have hang : ∀ (G : Fin g) (j : Fin d),
      shapeCast ⟨3, ![B, g, d]⟩ (shapeCast ⟨2, ![B, m]⟩ (extractStridedSlice ⟨3, ![B, 1, m]⟩ ![0, s.val, 0] A3 e_asl) e_a1) e_a2 (ix3 c G j)
        = θ (G.val * d + j.val) := fun G j => by
    have hlt : G.val * d + j.val < m := by
      have hG := G.isLt
      have hj := j.isLt
      rw [hm]
      calc G.val * d + j.val < G.val * d + d := by omega
        _ = (G.val + 1) * d := by ring
        _ ≤ g * d := Nat.mul_le_mul_right _ hG
    rw [angView_apply hm A3 s _ rfl e_asl e_a1 e_a2 c G j hlt, hA]
  have hhalf : ∀ (h : Fin 2) (off : Fin 4 → ℕ) (hoff : off = ![0, 0, h.val, 0])
      (e_h : (⟨4, ![K, g, 2, d]⟩ : Shape).Slices off ⟨4, ![K, g, 1, d]⟩) (G : Fin g) (j : Fin d),
      broadcastInDim ⟨4, ![B, K, g, d]⟩ ![0, 1, 2, 3] e_c2 (broadcastInDim ⟨4, ![1, K, g, d]⟩ ![1, 2, 3] e_c1
        (shapeCast ⟨3, ![K, g, d]⟩ (extractStridedSlice ⟨4, ![K, g, 1, d]⟩ off (shapeCast ⟨4, ![K, g, 2, d]⟩ I e_view) e_h) e_hs)) (ix4 c k G j)
        = v (G.val * (2 * d) + h.val * d + j.val) := fun h off hoff e_h G j => by
    have hlt : G.val * (2 * d) + h.val * d + j.val < n := hn ▸ view_pos_lt G h j
    rw [bcastB_apply _ e_c1 e_c2 c k G j, half4_apply _ h off hoff e_h e_hs k G j, view4_apply hn I e_view k G h j hlt, hI]
  unfold catTerm lo0Term hi0Term
  refine stage_result_apply hd hn _ _ _ _ θ v c k (fun G j => ?_) (fun G j => ?_) (fun G j => ?_) (fun G j => ?_) e_b3 e_cat e_out i
  · refine (bcastK_apply _ e_b1 e_b2 c k G j).trans ?_
    show Ideal.cos _ = _
    rw [hang]
  · refine (bcastK_apply _ e_b1 e_b2 c k G j).trans ?_
    show Ideal.sin _ = _
    rw [hang]
  · refine (hhalf 0 ![0, 0, 0, 0] rfl e_h0 G j).trans ?_
    show v (G.val * (2 * d) + 0 * d + j.val) = _
    rw [Nat.zero_mul, Nat.add_zero]
  · refine (hhalf 1 ![0, 0, 1, 0] rfl e_h1 G j).trans ?_
    show v (G.val * (2 * d) + 1 * d + j.val) = _
    rw [Nat.one_mul]; congr 1; omega

end Stage0

/-! ## The identity and the angles' table -/

section Tables

/-- Comparing the row word with the column word and converting the bit gives the identity. -/
theorem ident_apply {N : ℕ} (hN : N ≤ 2 ^ 32)
    (e_b : (⟨0, ![]⟩ : Shape).BroadcastsInDim ⟨2, ![N, N]⟩ ![]) (k i : Fin N) :
    uitofp (F := Ideal) .f32
        (cmpi .eq (addi (iotaInDim ⟨2, ![N, N]⟩ 32 0) (broadcastInDim ⟨2, ![N, N]⟩ ![] e_b (constantI ⟨0, ![]⟩ 32 0#32)))
          (iotaInDim ⟨2, ![N, N]⟩ 32 1)) (ix2 k i)
      = unitVec k.val i.val := by
  have hk := k.isLt
  have hi := i.isLt
  show (((IntOp.cmpi .eq (IntOp.addi (BitVec.ofNat 32 k.val) 0#32) (BitVec.ofNat 32 i.val)).toNat : ℝ) : EReal) = _
  have hadd : IntOp.addi (BitVec.ofNat 32 k.val) 0#32 = BitVec.ofNat 32 k.val := by
    show BitVec.ofNat 32 k.val + 0#32 = _
    exact BitVec.add_zero _
  rw [hadd]
  unfold unitVec
  by_cases hki : k.val = i.val
  · rw [if_pos hki, hki, (StableHlo.Predicate.cmpi_eq_iff).2 rfl]
    simp
  · rw [if_neg hki]
    have hne : BitVec.ofNat 32 k.val ≠ BitVec.ofNat 32 i.val := by
      intro h
      apply hki
      have h2 := congrArg BitVec.toNat h
      rw [BitVec.toNat_ofNat, BitVec.toNat_ofNat, Nat.mod_eq_of_lt (by omega), Nat.mod_eq_of_lt (by omega)] at h2
      exact h2
    have h0 : IntOp.cmpi .eq (BitVec.ofNat 32 k.val) (BitVec.ofNat 32 i.val) = 0#1 :=
      eq_zero_of_ne_one (fun h => hne ((StableHlo.Predicate.cmpi_eq_iff).1 h))
    rw [h0]
    simp

/-- The angles' table [32, 7, 64]: entry (c, s, p) is pair 64 c + p of row s. -/
theorem angTable_apply (A : (⟨2, ![12, 2048]⟩ : Shape).Idx → EReal)
    (e_sl : (⟨2, ![12, 2048]⟩ : Shape).Slices ![0, 0] ⟨2, ![7, 2048]⟩)
    (e_sc : (⟨2, ![7, 2048]⟩ : Shape).ShapeCasts ⟨3, ![7, 32, 64]⟩)
    (e_tr : (⟨3, ![7, 32, 64]⟩ : Shape).Transposes [1, 0, 2] ⟨3, ![32, 7, 64]⟩)
    (c : Fin 32) (s : Fin 7) (p : Fin 64) :
    transpose ⟨3, ![32, 7, 64]⟩ [1, 0, 2] (shapeCast ⟨3, ![7, 32, 64]⟩ (extractStridedSlice ⟨2, ![7, 2048]⟩ ![0, 0] A e_sl) e_sc) e_tr (ix3 c s p)
      = angLoc (at2 A) c.val s.val p.val := by
  have hs := s.isLt
  have hc := c.isLt
  have hp := p.isLt
  have h1 : s.val < 12 ∧ 64 * c.val + p.val < 2048 := ⟨by omega, by omega⟩
  unfold angLoc at2
  rw [dif_pos h1]
  refine (transpose_apply _ _ e_tr _ (ix3 s c p) (fun b => ?_)).trans ?_
  · match b with
    | ⟨0, _⟩ => rfl
    | ⟨1, _⟩ => rfl
    | ⟨2, _⟩ => rfl
  · refine (shapeCast_apply _ e_sc _ (ix2 s ⟨64 * c.val + p.val, h1.2⟩) ?_).trans ?_
    · rw [Shape.rowMajor_val_two, Shape.rowMajor_val_three]
      show s.val * 2048 + (64 * c.val + p.val) = (s.val * 32 + c.val) * 64 + p.val
      omega
    · refine extractStridedSlice_apply _ A e_sl _ (ix2 ⟨s.val, h1.1⟩ ⟨64 * c.val + p.val, h1.2⟩) (fun a => ?_)
      match a with
      | ⟨0, _⟩ => show s.val = 0 + s.val; omega
      | ⟨1, _⟩ => show 64 * c.val + p.val = 0 + (64 * c.val + p.val); omega

end Tables

/-! ## The host operations, cut into stretches

The 215 operations are cut after the identity, and then after each stage's two rotated halves (before they are set
side by side), so that every stretch reads its inputs at buffers the stretch does not write. -/

section Chain

open Cert.KernelIdeal Cert.KernelIdeal.Gen Idealize.ShloMosaic.TcCoe Idealize.SL.Sem Idealize.ShloMosaic.StableHlo

/-- The host operations at the ideal numbers. -/
abbrev hops : List (HloOp τ sig (Elt Ideal)) := hostOps0 (F := Ideal)

/-- Running a list from position a is running b operations and then the list from position a + b. -/
theorem after_cut (l : List (HloOp τ sig (Elt Ideal))) (a b c : ℕ) (hc : c = a + b) (V : Valuation τ sig (Elt Ideal)) :
    after (l.drop a) V = after (l.drop c) (after ((l.drop a).take b) V) := by
  subst hc
  have h : l.drop (a + b) = (l.drop a).drop b := by rw [List.drop_drop]
  rw [h, ← StableHlo.after_append, List.take_append_drop]

/-- The angles' table [32, 7, 64] as a term of the argument. -/
def rAng (V0 : Valuation τ sig (Elt Ideal)) : S32x7x64.Idx → EReal :=
  transpose S32x7x64 [1, 0, 2] (shapeCast S7x32x64 (extractStridedSlice S7x2048 ![0, 0] (V0 (Proc.devRef .tc main_arg1)) slices_S12x2048_S7x2048_0_0) shapeCasts_S7x2048_S7x32x64) transposes_S7x32x64_S32x7x64_1_0_2

/-- The 128 × 128 identity as the program builds it. -/
def rId : S128x128.Idx → EReal :=
  uitofp (F := Ideal) .f32 (cmpi .eq (addi (iotaInDim S128x128 32 0) (broadcastInDim S128x128 ![] bcast_S_S128x128 (constantI S_ 32 0#32))) (iotaInDim S128x128 32 1))

/-! ### What each stretch leaves, from any contents W -/

set_option maxRecDepth 16384 in
set_option maxHeartbeats 8000000 in
theorem P_v3 (W : Valuation τ sig (Elt Ideal)) :
    (after ((hops.drop 0).take 11) W (Proc.devRef .tc main_v3) : S32x7x64.Idx → EReal) = rAng W := by
  simp only [hops, hostOps0, List.drop_succ_cons, List.drop_zero, List.take_succ_cons, List.take_zero]
  after_results_simp
  rfl

set_option maxRecDepth 16384 in
set_option maxHeartbeats 8000000 in
theorem P_v9 (W : Valuation τ sig (Elt Ideal)) :
    (after ((hops.drop 0).take 11) W (Proc.devRef .tc main_v9) : S128x128.Idx → EReal) = rId := by
  simp only [hops, hostOps0, List.drop_succ_cons, List.drop_zero, List.take_succ_cons, List.take_zero]
  after_results_simp
  rfl

set_option maxRecDepth 16384 in
set_option maxHeartbeats 8000000 in
theorem Q0_lo (W : Valuation τ sig (Elt Ideal)) :
    (after ((hops.drop 11).take 34) W (Proc.devRef .tc main_v42) : S32x128x64x1x1.Idx → EReal)
      = lo0Term (B := 32) (K := 128) (g := 64) (d := 1) (n := 128) (S := 7) (m := 64) 0 shapeCasts_S128x128_S128x64x2x1 slices_S32x7x64_S32x1x64_0_0_0 shapeCasts_S32x1x64_S32x64 shapeCasts_S32x64_S32x64x1 slices_S128x64x2x1_S128x64x1x1_0_0_0_0 slices_S128x64x2x1_S128x64x1x1_0_0_1_0 shapeCasts_S128x64x1x1_S128x64x1 bcast_S32x64x1_S32x1x64x1_0_2_3 bcast_S32x1x64x1_S32x128x64x1_0_1_2_3 bcast_S128x64x1_S1x128x64x1_1_2_3 bcast_S1x128x64x1_S32x128x64x1_0_1_2_3 bcast_S32x128x64x1_S32x128x64x1x1_0_1_2_4 (W (Proc.devRef .tc main_v3)) (W (Proc.devRef .tc main_v9)) := by
  simp only [hops, hostOps0, List.drop_succ_cons, List.drop_zero, List.take_succ_cons, List.take_zero]
  after_results_simp
  rfl

set_option maxRecDepth 16384 in
set_option maxHeartbeats 8000000 in
theorem Q0_hi (W : Valuation τ sig (Elt Ideal)) :
    (after ((hops.drop 11).take 34) W (Proc.devRef .tc main_v43) : S32x128x64x1x1.Idx → EReal)
      = hi0Term (B := 32) (K := 128) (g := 64) (d := 1) (n := 128) (S := 7) (m := 64) 0 shapeCasts_S128x128_S128x64x2x1 slices_S32x7x64_S32x1x64_0_0_0 shapeCasts_S32x1x64_S32x64 shapeCasts_S32x64_S32x64x1 slices_S128x64x2x1_S128x64x1x1_0_0_0_0 slices_S128x64x2x1_S128x64x1x1_0_0_1_0 shapeCasts_S128x64x1x1_S128x64x1 bcast_S32x64x1_S32x1x64x1_0_2_3 bcast_S32x1x64x1_S32x128x64x1_0_1_2_3 bcast_S128x64x1_S1x128x64x1_1_2_3 bcast_S1x128x64x1_S32x128x64x1_0_1_2_3 bcast_S32x128x64x1_S32x128x64x1x1_0_1_2_4 (W (Proc.devRef .tc main_v3)) (W (Proc.devRef .tc main_v9)) := by
  simp only [hops, hostOps0, List.drop_succ_cons, List.drop_zero, List.take_succ_cons, List.take_zero]
  after_results_simp
  rfl

set_option maxRecDepth 16384 in
set_option maxHeartbeats 8000000 in
theorem Q0_v3 (W : Valuation τ sig (Elt Ideal)) :
    after ((hops.drop 11).take 34) W (Proc.devRef .tc main_v3) = W (Proc.devRef .tc main_v3) := by
  simp only [hops, hostOps0, List.drop_succ_cons, List.drop_zero, List.take_succ_cons, List.take_zero]
  after_results_simp

set_option maxRecDepth 16384 in
set_option maxHeartbeats 8000000 in
theorem Q1_lo (W : Valuation τ sig (Elt Ideal)) :
    (after ((hops.drop 45).take 28) W (Proc.devRef .tc main_v70) : S32x128x32x1x2.Idx → EReal)
      = loTerm (B := 32) (K := 128) (g := 32) (d := 2) (n := 128) (S := 7) (m := 64) 1 shapeCasts_S32x128x128_S32x128x32x2x2 slices_S32x7x64_S32x1x64_0_1_0 shapeCasts_S32x1x64_S32x64 shapeCasts_S32x64_S32x32x2 slices_S32x128x32x2x2_S32x128x32x1x2_0_0_0_0_0 slices_S32x128x32x2x2_S32x128x32x1x2_0_0_0_1_0 shapeCasts_S32x128x32x1x2_S32x128x32x2 bcast_S32x32x2_S32x1x32x2_0_2_3 bcast_S32x1x32x2_S32x128x32x2_0_1_2_3 bcast_S32x128x32x2_S32x128x32x1x2_0_1_2_4 (W (Proc.devRef .tc main_v3))
          (catTerm (B := 32) (K := 128) (g := 64) (d := 1) (n := 128) concatenates_S32x128x64x1x1_S32x128x64x1x1_S32x128x64x2x1_d3 shapeCasts_S32x128x64x2x1_S32x128x128 (W (Proc.devRef .tc main_v42)) (W (Proc.devRef .tc main_v43))) := by
  simp only [hops, hostOps0, List.drop_succ_cons, List.drop_zero, List.take_succ_cons, List.take_zero]
  after_results_simp
  rfl

set_option maxRecDepth 16384 in
set_option maxHeartbeats 8000000 in
theorem Q1_hi (W : Valuation τ sig (Elt Ideal)) :
    (after ((hops.drop 45).take 28) W (Proc.devRef .tc main_v71) : S32x128x32x1x2.Idx → EReal)
      = hiTerm (B := 32) (K := 128) (g := 32) (d := 2) (n := 128) (S := 7) (m := 64) 1 shapeCasts_S32x128x128_S32x128x32x2x2 slices_S32x7x64_S32x1x64_0_1_0 shapeCasts_S32x1x64_S32x64 shapeCasts_S32x64_S32x32x2 slices_S32x128x32x2x2_S32x128x32x1x2_0_0_0_0_0 slices_S32x128x32x2x2_S32x128x32x1x2_0_0_0_1_0 shapeCasts_S32x128x32x1x2_S32x128x32x2 bcast_S32x32x2_S32x1x32x2_0_2_3 bcast_S32x1x32x2_S32x128x32x2_0_1_2_3 bcast_S32x128x32x2_S32x128x32x1x2_0_1_2_4 (W (Proc.devRef .tc main_v3))
          (catTerm (B := 32) (K := 128) (g := 64) (d := 1) (n := 128) concatenates_S32x128x64x1x1_S32x128x64x1x1_S32x128x64x2x1_d3 shapeCasts_S32x128x64x2x1_S32x128x128 (W (Proc.devRef .tc main_v42)) (W (Proc.devRef .tc main_v43))) := by
  simp only [hops, hostOps0, List.drop_succ_cons, List.drop_zero, List.take_succ_cons, List.take_zero]
  after_results_simp
  rfl

set_option maxRecDepth 16384 in
set_option maxHeartbeats 8000000 in
theorem Q1_v3 (W : Valuation τ sig (Elt Ideal)) :
    after ((hops.drop 45).take 28) W (Proc.devRef .tc main_v3) = W (Proc.devRef .tc main_v3) := by
  simp only [hops, hostOps0, List.drop_succ_cons, List.drop_zero, List.take_succ_cons, List.take_zero]
  after_results_simp

set_option maxRecDepth 16384 in
set_option maxHeartbeats 8000000 in
theorem Q2_lo (W : Valuation τ sig (Elt Ideal)) :
    (after ((hops.drop 73).take 28) W (Proc.devRef .tc main_v98) : S32x128x16x1x4.Idx → EReal)
      = loTerm (B := 32) (K := 128) (g := 16) (d := 4) (n := 128) (S := 7) (m := 64) 2 shapeCasts_S32x128x128_S32x128x16x2x4 slices_S32x7x64_S32x1x64_0_2_0 shapeCasts_S32x1x64_S32x64 shapeCasts_S32x64_S32x16x4 slices_S32x128x16x2x4_S32x128x16x1x4_0_0_0_0_0 slices_S32x128x16x2x4_S32x128x16x1x4_0_0_0_1_0 shapeCasts_S32x128x16x1x4_S32x128x16x4 bcast_S32x16x4_S32x1x16x4_0_2_3 bcast_S32x1x16x4_S32x128x16x4_0_1_2_3 bcast_S32x128x16x4_S32x128x16x1x4_0_1_2_4 (W (Proc.devRef .tc main_v3))
          (catTerm (B := 32) (K := 128) (g := 32) (d := 2) (n := 128) concatenates_S32x128x32x1x2_S32x128x32x1x2_S32x128x32x2x2_d3 shapeCasts_S32x128x32x2x2_S32x128x128 (W (Proc.devRef .tc main_v70)) (W (Proc.devRef .tc main_v71))) := by
  simp only [hops, hostOps0, List.drop_succ_cons, List.drop_zero, List.take_succ_cons, List.take_zero]
  after_results_simp
  rfl

set_option maxRecDepth 16384 in
set_option maxHeartbeats 8000000 in
theorem Q2_hi (W : Valuation τ sig (Elt Ideal)) :
    (after ((hops.drop 73).take 28) W (Proc.devRef .tc main_v99) : S32x128x16x1x4.Idx → EReal)
      = hiTerm (B := 32) (K := 128) (g := 16) (d := 4) (n := 128) (S := 7) (m := 64) 2 shapeCasts_S32x128x128_S32x128x16x2x4 slices_S32x7x64_S32x1x64_0_2_0 shapeCasts_S32x1x64_S32x64 shapeCasts_S32x64_S32x16x4 slices_S32x128x16x2x4_S32x128x16x1x4_0_0_0_0_0 slices_S32x128x16x2x4_S32x128x16x1x4_0_0_0_1_0 shapeCasts_S32x128x16x1x4_S32x128x16x4 bcast_S32x16x4_S32x1x16x4_0_2_3 bcast_S32x1x16x4_S32x128x16x4_0_1_2_3 bcast_S32x128x16x4_S32x128x16x1x4_0_1_2_4 (W (Proc.devRef .tc main_v3))
          (catTerm (B := 32) (K := 128) (g := 32) (d := 2) (n := 128) concatenates_S32x128x32x1x2_S32x128x32x1x2_S32x128x32x2x2_d3 shapeCasts_S32x128x32x2x2_S32x128x128 (W (Proc.devRef .tc main_v70)) (W (Proc.devRef .tc main_v71))) := by
  simp only [hops, hostOps0, List.drop_succ_cons, List.drop_zero, List.take_succ_cons, List.take_zero]
  after_results_simp
  rfl

set_option maxRecDepth 16384 in
set_option maxHeartbeats 8000000 in
theorem Q2_v3 (W : Valuation τ sig (Elt Ideal)) :
    after ((hops.drop 73).take 28) W (Proc.devRef .tc main_v3) = W (Proc.devRef .tc main_v3) := by
  simp only [hops, hostOps0, List.drop_succ_cons, List.drop_zero, List.take_succ_cons, List.take_zero]
  after_results_simp

set_option maxRecDepth 16384 in
set_option maxHeartbeats 8000000 in
theorem Q3_lo (W : Valuation τ sig (Elt Ideal)) :
    (after ((hops.drop 101).take 28) W (Proc.devRef .tc main_v126) : S32x128x8x1x8.Idx → EReal)
      = loTerm (B := 32) (K := 128) (g := 8) (d := 8) (n := 128) (S := 7) (m := 64) 3 shapeCasts_S32x128x128_S32x128x8x2x8 slices_S32x7x64_S32x1x64_0_3_0 shapeCasts_S32x1x64_S32x64 shapeCasts_S32x64_S32x8x8 slices_S32x128x8x2x8_S32x128x8x1x8_0_0_0_0_0 slices_S32x128x8x2x8_S32x128x8x1x8_0_0_0_1_0 shapeCasts_S32x128x8x1x8_S32x128x8x8 bcast_S32x8x8_S32x1x8x8_0_2_3 bcast_S32x1x8x8_S32x128x8x8_0_1_2_3 bcast_S32x128x8x8_S32x128x8x1x8_0_1_2_4 (W (Proc.devRef .tc main_v3))
          (catTerm (B := 32) (K := 128) (g := 16) (d := 4) (n := 128) concatenates_S32x128x16x1x4_S32x128x16x1x4_S32x128x16x2x4_d3 shapeCasts_S32x128x16x2x4_S32x128x128 (W (Proc.devRef .tc main_v98)) (W (Proc.devRef .tc main_v99))) := by
  simp only [hops, hostOps0, List.drop_succ_cons, List.drop_zero, List.take_succ_cons, List.take_zero]
  after_results_simp
  rfl

set_option maxRecDepth 16384 in
set_option maxHeartbeats 8000000 in
theorem Q3_hi (W : Valuation τ sig (Elt Ideal)) :
    (after ((hops.drop 101).take 28) W (Proc.devRef .tc main_v127) : S32x128x8x1x8.Idx → EReal)
      = hiTerm (B := 32) (K := 128) (g := 8) (d := 8) (n := 128) (S := 7) (m := 64) 3 shapeCasts_S32x128x128_S32x128x8x2x8 slices_S32x7x64_S32x1x64_0_3_0 shapeCasts_S32x1x64_S32x64 shapeCasts_S32x64_S32x8x8 slices_S32x128x8x2x8_S32x128x8x1x8_0_0_0_0_0 slices_S32x128x8x2x8_S32x128x8x1x8_0_0_0_1_0 shapeCasts_S32x128x8x1x8_S32x128x8x8 bcast_S32x8x8_S32x1x8x8_0_2_3 bcast_S32x1x8x8_S32x128x8x8_0_1_2_3 bcast_S32x128x8x8_S32x128x8x1x8_0_1_2_4 (W (Proc.devRef .tc main_v3))
          (catTerm (B := 32) (K := 128) (g := 16) (d := 4) (n := 128) concatenates_S32x128x16x1x4_S32x128x16x1x4_S32x128x16x2x4_d3 shapeCasts_S32x128x16x2x4_S32x128x128 (W (Proc.devRef .tc main_v98)) (W (Proc.devRef .tc main_v99))) := by
  simp only [hops, hostOps0, List.drop_succ_cons, List.drop_zero, List.take_succ_cons, List.take_zero]
  after_results_simp
  rfl

set_option maxRecDepth 16384 in
set_option maxHeartbeats 8000000 in
theorem Q3_v3 (W : Valuation τ sig (Elt Ideal)) :
    after ((hops.drop 101).take 28) W (Proc.devRef .tc main_v3) = W (Proc.devRef .tc main_v3) := by
  simp only [hops, hostOps0, List.drop_succ_cons, List.drop_zero, List.take_succ_cons, List.take_zero]
  after_results_simp

set_option maxRecDepth 16384 in
set_option maxHeartbeats 8000000 in
theorem Q4_lo (W : Valuation τ sig (Elt Ideal)) :
    (after ((hops.drop 129).take 28) W (Proc.devRef .tc main_v154) : S32x128x4x1x16.Idx → EReal)
      = loTerm (B := 32) (K := 128) (g := 4) (d := 16) (n := 128) (S := 7) (m := 64) 4 shapeCasts_S32x128x128_S32x128x4x2x16 slices_S32x7x64_S32x1x64_0_4_0 shapeCasts_S32x1x64_S32x64 shapeCasts_S32x64_S32x4x16 slices_S32x128x4x2x16_S32x128x4x1x16_0_0_0_0_0 slices_S32x128x4x2x16_S32x128x4x1x16_0_0_0_1_0 shapeCasts_S32x128x4x1x16_S32x128x4x16 bcast_S32x4x16_S32x1x4x16_0_2_3 bcast_S32x1x4x16_S32x128x4x16_0_1_2_3 bcast_S32x128x4x16_S32x128x4x1x16_0_1_2_4 (W (Proc.devRef .tc main_v3))
          (catTerm (B := 32) (K := 128) (g := 8) (d := 8) (n := 128) concatenates_S32x128x8x1x8_S32x128x8x1x8_S32x128x8x2x8_d3 shapeCasts_S32x128x8x2x8_S32x128x128 (W (Proc.devRef .tc main_v126)) (W (Proc.devRef .tc main_v127))) := by
  simp only [hops, hostOps0, List.drop_succ_cons, List.drop_zero, List.take_succ_cons, List.take_zero]
  after_results_simp
  rfl

set_option maxRecDepth 16384 in
set_option maxHeartbeats 8000000 in
theorem Q4_hi (W : Valuation τ sig (Elt Ideal)) :
    (after ((hops.drop 129).take 28) W (Proc.devRef .tc main_v155) : S32x128x4x1x16.Idx → EReal)
      = hiTerm (B := 32) (K := 128) (g := 4) (d := 16) (n := 128) (S := 7) (m := 64) 4 shapeCasts_S32x128x128_S32x128x4x2x16 slices_S32x7x64_S32x1x64_0_4_0 shapeCasts_S32x1x64_S32x64 shapeCasts_S32x64_S32x4x16 slices_S32x128x4x2x16_S32x128x4x1x16_0_0_0_0_0 slices_S32x128x4x2x16_S32x128x4x1x16_0_0_0_1_0 shapeCasts_S32x128x4x1x16_S32x128x4x16 bcast_S32x4x16_S32x1x4x16_0_2_3 bcast_S32x1x4x16_S32x128x4x16_0_1_2_3 bcast_S32x128x4x16_S32x128x4x1x16_0_1_2_4 (W (Proc.devRef .tc main_v3))
          (catTerm (B := 32) (K := 128) (g := 8) (d := 8) (n := 128) concatenates_S32x128x8x1x8_S32x128x8x1x8_S32x128x8x2x8_d3 shapeCasts_S32x128x8x2x8_S32x128x128 (W (Proc.devRef .tc main_v126)) (W (Proc.devRef .tc main_v127))) := by
  simp only [hops, hostOps0, List.drop_succ_cons, List.drop_zero, List.take_succ_cons, List.take_zero]
  after_results_simp
  rfl

set_option maxRecDepth 16384 in
set_option maxHeartbeats 8000000 in
theorem Q4_v3 (W : Valuation τ sig (Elt Ideal)) :
    after ((hops.drop 129).take 28) W (Proc.devRef .tc main_v3) = W (Proc.devRef .tc main_v3) := by
  simp only [hops, hostOps0, List.drop_succ_cons, List.drop_zero, List.take_succ_cons, List.take_zero]
  after_results_simp

set_option maxRecDepth 16384 in
set_option maxHeartbeats 8000000 in
theorem Q5_lo (W : Valuation τ sig (Elt Ideal)) :
    (after ((hops.drop 157).take 28) W (Proc.devRef .tc main_v182) : S32x128x2x1x32.Idx → EReal)
      = loTerm (B := 32) (K := 128) (g := 2) (d := 32) (n := 128) (S := 7) (m := 64) 5 shapeCasts_S32x128x128_S32x128x2x2x32 slices_S32x7x64_S32x1x64_0_5_0 shapeCasts_S32x1x64_S32x64 shapeCasts_S32x64_S32x2x32 slices_S32x128x2x2x32_S32x128x2x1x32_0_0_0_0_0 slices_S32x128x2x2x32_S32x128x2x1x32_0_0_0_1_0 shapeCasts_S32x128x2x1x32_S32x128x2x32 bcast_S32x2x32_S32x1x2x32_0_2_3 bcast_S32x1x2x32_S32x128x2x32_0_1_2_3 bcast_S32x128x2x32_S32x128x2x1x32_0_1_2_4 (W (Proc.devRef .tc main_v3))
          (catTerm (B := 32) (K := 128) (g := 4) (d := 16) (n := 128) concatenates_S32x128x4x1x16_S32x128x4x1x16_S32x128x4x2x16_d3 shapeCasts_S32x128x4x2x16_S32x128x128 (W (Proc.devRef .tc main_v154)) (W (Proc.devRef .tc main_v155))) := by
  simp only [hops, hostOps0, List.drop_succ_cons, List.drop_zero, List.take_succ_cons, List.take_zero]
  after_results_simp
  rfl

set_option maxRecDepth 16384 in
set_option maxHeartbeats 8000000 in
theorem Q5_hi (W : Valuation τ sig (Elt Ideal)) :
    (after ((hops.drop 157).take 28) W (Proc.devRef .tc main_v183) : S32x128x2x1x32.Idx → EReal)
      = hiTerm (B := 32) (K := 128) (g := 2) (d := 32) (n := 128) (S := 7) (m := 64) 5 shapeCasts_S32x128x128_S32x128x2x2x32 slices_S32x7x64_S32x1x64_0_5_0 shapeCasts_S32x1x64_S32x64 shapeCasts_S32x64_S32x2x32 slices_S32x128x2x2x32_S32x128x2x1x32_0_0_0_0_0 slices_S32x128x2x2x32_S32x128x2x1x32_0_0_0_1_0 shapeCasts_S32x128x2x1x32_S32x128x2x32 bcast_S32x2x32_S32x1x2x32_0_2_3 bcast_S32x1x2x32_S32x128x2x32_0_1_2_3 bcast_S32x128x2x32_S32x128x2x1x32_0_1_2_4 (W (Proc.devRef .tc main_v3))
          (catTerm (B := 32) (K := 128) (g := 4) (d := 16) (n := 128) concatenates_S32x128x4x1x16_S32x128x4x1x16_S32x128x4x2x16_d3 shapeCasts_S32x128x4x2x16_S32x128x128 (W (Proc.devRef .tc main_v154)) (W (Proc.devRef .tc main_v155))) := by
  simp only [hops, hostOps0, List.drop_succ_cons, List.drop_zero, List.take_succ_cons, List.take_zero]
  after_results_simp
  rfl

set_option maxRecDepth 16384 in
set_option maxHeartbeats 8000000 in
theorem Q5_v3 (W : Valuation τ sig (Elt Ideal)) :
    after ((hops.drop 157).take 28) W (Proc.devRef .tc main_v3) = W (Proc.devRef .tc main_v3) := by
  simp only [hops, hostOps0, List.drop_succ_cons, List.drop_zero, List.take_succ_cons, List.take_zero]
  after_results_simp

set_option maxRecDepth 16384 in
set_option maxHeartbeats 8000000 in
theorem Q6_lo (W : Valuation τ sig (Elt Ideal)) :
    (after ((hops.drop 185).take 28) W (Proc.devRef .tc main_v210) : S32x128x1x1x64.Idx → EReal)
      = loTerm (B := 32) (K := 128) (g := 1) (d := 64) (n := 128) (S := 7) (m := 64) 6 shapeCasts_S32x128x128_S32x128x1x2x64 slices_S32x7x64_S32x1x64_0_6_0 shapeCasts_S32x1x64_S32x64 shapeCasts_S32x64_S32x1x64 slices_S32x128x1x2x64_S32x128x1x1x64_0_0_0_0_0 slices_S32x128x1x2x64_S32x128x1x1x64_0_0_0_1_0 shapeCasts_S32x128x1x1x64_S32x128x1x64 bcast_S32x1x64_S32x1x1x64_0_2_3 bcast_S32x1x1x64_S32x128x1x64_0_1_2_3 bcast_S32x128x1x64_S32x128x1x1x64_0_1_2_4 (W (Proc.devRef .tc main_v3))
          (catTerm (B := 32) (K := 128) (g := 2) (d := 32) (n := 128) concatenates_S32x128x2x1x32_S32x128x2x1x32_S32x128x2x2x32_d3 shapeCasts_S32x128x2x2x32_S32x128x128 (W (Proc.devRef .tc main_v182)) (W (Proc.devRef .tc main_v183))) := by
  simp only [hops, hostOps0, List.drop_succ_cons, List.drop_zero, List.take_succ_cons, List.take_zero]
  after_results_simp
  rfl

set_option maxRecDepth 16384 in
set_option maxHeartbeats 8000000 in
theorem Q6_hi (W : Valuation τ sig (Elt Ideal)) :
    (after ((hops.drop 185).take 28) W (Proc.devRef .tc main_v211) : S32x128x1x1x64.Idx → EReal)
      = hiTerm (B := 32) (K := 128) (g := 1) (d := 64) (n := 128) (S := 7) (m := 64) 6 shapeCasts_S32x128x128_S32x128x1x2x64 slices_S32x7x64_S32x1x64_0_6_0 shapeCasts_S32x1x64_S32x64 shapeCasts_S32x64_S32x1x64 slices_S32x128x1x2x64_S32x128x1x1x64_0_0_0_0_0 slices_S32x128x1x2x64_S32x128x1x1x64_0_0_0_1_0 shapeCasts_S32x128x1x1x64_S32x128x1x64 bcast_S32x1x64_S32x1x1x64_0_2_3 bcast_S32x1x1x64_S32x128x1x64_0_1_2_3 bcast_S32x128x1x64_S32x128x1x1x64_0_1_2_4 (W (Proc.devRef .tc main_v3))
          (catTerm (B := 32) (K := 128) (g := 2) (d := 32) (n := 128) concatenates_S32x128x2x1x32_S32x128x2x1x32_S32x128x2x2x32_d3 shapeCasts_S32x128x2x2x32_S32x128x128 (W (Proc.devRef .tc main_v182)) (W (Proc.devRef .tc main_v183))) := by
  simp only [hops, hostOps0, List.drop_succ_cons, List.drop_zero, List.take_succ_cons, List.take_zero]
  after_results_simp
  rfl

set_option maxRecDepth 16384 in
set_option maxHeartbeats 8000000 in
theorem Q6_v3 (W : Valuation τ sig (Elt Ideal)) :
    after ((hops.drop 185).take 28) W (Proc.devRef .tc main_v3) = W (Proc.devRef .tc main_v3) := by
  simp only [hops, hostOps0, List.drop_succ_cons, List.drop_zero, List.take_succ_cons, List.take_zero]
  after_results_simp

set_option maxRecDepth 16384 in
set_option maxHeartbeats 8000000 in
theorem Z_out (W : Valuation τ sig (Elt Ideal)) :
    (after (hops.drop 213) W (Proc.devRef .tc main_v213) : S32x128x128.Idx → EReal)
      = catTerm (B := 32) (K := 128) (g := 1) (d := 64) (n := 128) concatenates_S32x128x1x1x64_S32x128x1x1x64_S32x128x1x2x64_d3 shapeCasts_S32x128x1x2x64_S32x128x128 (W (Proc.devRef .tc main_v210)) (W (Proc.devRef .tc main_v211)) := by
  simp only [hops, hostOps0, List.drop_succ_cons, List.drop_zero]
  after_results_simp
  rfl

/-! ### The contents after each stretch, and the named rows -/

/-- The rows after stage 0: the first stage applied to the identity. -/
def T0 (V0 : Valuation τ sig (Elt Ideal)) : S32x128x128.Idx → EReal :=
  catTerm (B := 32) (K := 128) (g := 64) (d := 1) (n := 128) concatenates_S32x128x64x1x1_S32x128x64x1x1_S32x128x64x2x1_d3 shapeCasts_S32x128x64x2x1_S32x128x128
    (lo0Term (B := 32) (K := 128) (g := 64) (d := 1) (n := 128) (S := 7) (m := 64) 0 shapeCasts_S128x128_S128x64x2x1 slices_S32x7x64_S32x1x64_0_0_0 shapeCasts_S32x1x64_S32x64 shapeCasts_S32x64_S32x64x1 slices_S128x64x2x1_S128x64x1x1_0_0_0_0 slices_S128x64x2x1_S128x64x1x1_0_0_1_0 shapeCasts_S128x64x1x1_S128x64x1 bcast_S32x64x1_S32x1x64x1_0_2_3 bcast_S32x1x64x1_S32x128x64x1_0_1_2_3 bcast_S128x64x1_S1x128x64x1_1_2_3 bcast_S1x128x64x1_S32x128x64x1_0_1_2_3 bcast_S32x128x64x1_S32x128x64x1x1_0_1_2_4 (rAng V0) rId)
    (hi0Term (B := 32) (K := 128) (g := 64) (d := 1) (n := 128) (S := 7) (m := 64) 0 shapeCasts_S128x128_S128x64x2x1 slices_S32x7x64_S32x1x64_0_0_0 shapeCasts_S32x1x64_S32x64 shapeCasts_S32x64_S32x64x1 slices_S128x64x2x1_S128x64x1x1_0_0_0_0 slices_S128x64x2x1_S128x64x1x1_0_0_1_0 shapeCasts_S128x64x1x1_S128x64x1 bcast_S32x64x1_S32x1x64x1_0_2_3 bcast_S32x1x64x1_S32x128x64x1_0_1_2_3 bcast_S128x64x1_S1x128x64x1_1_2_3 bcast_S1x128x64x1_S32x128x64x1_0_1_2_3 bcast_S32x128x64x1_S32x128x64x1x1_0_1_2_4 (rAng V0) rId)

/-- The rows after stage 1. -/
def T1 (V0 : Valuation τ sig (Elt Ideal)) : S32x128x128.Idx → EReal :=
  catTerm (B := 32) (K := 128) (g := 32) (d := 2) (n := 128) concatenates_S32x128x32x1x2_S32x128x32x1x2_S32x128x32x2x2_d3 shapeCasts_S32x128x32x2x2_S32x128x128
    (loTerm (B := 32) (K := 128) (g := 32) (d := 2) (n := 128) (S := 7) (m := 64) 1 shapeCasts_S32x128x128_S32x128x32x2x2 slices_S32x7x64_S32x1x64_0_1_0 shapeCasts_S32x1x64_S32x64 shapeCasts_S32x64_S32x32x2 slices_S32x128x32x2x2_S32x128x32x1x2_0_0_0_0_0 slices_S32x128x32x2x2_S32x128x32x1x2_0_0_0_1_0 shapeCasts_S32x128x32x1x2_S32x128x32x2 bcast_S32x32x2_S32x1x32x2_0_2_3 bcast_S32x1x32x2_S32x128x32x2_0_1_2_3 bcast_S32x128x32x2_S32x128x32x1x2_0_1_2_4 (rAng V0) (T0 V0))
    (hiTerm (B := 32) (K := 128) (g := 32) (d := 2) (n := 128) (S := 7) (m := 64) 1 shapeCasts_S32x128x128_S32x128x32x2x2 slices_S32x7x64_S32x1x64_0_1_0 shapeCasts_S32x1x64_S32x64 shapeCasts_S32x64_S32x32x2 slices_S32x128x32x2x2_S32x128x32x1x2_0_0_0_0_0 slices_S32x128x32x2x2_S32x128x32x1x2_0_0_0_1_0 shapeCasts_S32x128x32x1x2_S32x128x32x2 bcast_S32x32x2_S32x1x32x2_0_2_3 bcast_S32x1x32x2_S32x128x32x2_0_1_2_3 bcast_S32x128x32x2_S32x128x32x1x2_0_1_2_4 (rAng V0) (T0 V0))

/-- The rows after stage 2. -/
def T2 (V0 : Valuation τ sig (Elt Ideal)) : S32x128x128.Idx → EReal :=
  catTerm (B := 32) (K := 128) (g := 16) (d := 4) (n := 128) concatenates_S32x128x16x1x4_S32x128x16x1x4_S32x128x16x2x4_d3 shapeCasts_S32x128x16x2x4_S32x128x128
    (loTerm (B := 32) (K := 128) (g := 16) (d := 4) (n := 128) (S := 7) (m := 64) 2 shapeCasts_S32x128x128_S32x128x16x2x4 slices_S32x7x64_S32x1x64_0_2_0 shapeCasts_S32x1x64_S32x64 shapeCasts_S32x64_S32x16x4 slices_S32x128x16x2x4_S32x128x16x1x4_0_0_0_0_0 slices_S32x128x16x2x4_S32x128x16x1x4_0_0_0_1_0 shapeCasts_S32x128x16x1x4_S32x128x16x4 bcast_S32x16x4_S32x1x16x4_0_2_3 bcast_S32x1x16x4_S32x128x16x4_0_1_2_3 bcast_S32x128x16x4_S32x128x16x1x4_0_1_2_4 (rAng V0) (T1 V0))
    (hiTerm (B := 32) (K := 128) (g := 16) (d := 4) (n := 128) (S := 7) (m := 64) 2 shapeCasts_S32x128x128_S32x128x16x2x4 slices_S32x7x64_S32x1x64_0_2_0 shapeCasts_S32x1x64_S32x64 shapeCasts_S32x64_S32x16x4 slices_S32x128x16x2x4_S32x128x16x1x4_0_0_0_0_0 slices_S32x128x16x2x4_S32x128x16x1x4_0_0_0_1_0 shapeCasts_S32x128x16x1x4_S32x128x16x4 bcast_S32x16x4_S32x1x16x4_0_2_3 bcast_S32x1x16x4_S32x128x16x4_0_1_2_3 bcast_S32x128x16x4_S32x128x16x1x4_0_1_2_4 (rAng V0) (T1 V0))

/-- The rows after stage 3. -/
def T3 (V0 : Valuation τ sig (Elt Ideal)) : S32x128x128.Idx → EReal :=
  catTerm (B := 32) (K := 128) (g := 8) (d := 8) (n := 128) concatenates_S32x128x8x1x8_S32x128x8x1x8_S32x128x8x2x8_d3 shapeCasts_S32x128x8x2x8_S32x128x128
    (loTerm (B := 32) (K := 128) (g := 8) (d := 8) (n := 128) (S := 7) (m := 64) 3 shapeCasts_S32x128x128_S32x128x8x2x8 slices_S32x7x64_S32x1x64_0_3_0 shapeCasts_S32x1x64_S32x64 shapeCasts_S32x64_S32x8x8 slices_S32x128x8x2x8_S32x128x8x1x8_0_0_0_0_0 slices_S32x128x8x2x8_S32x128x8x1x8_0_0_0_1_0 shapeCasts_S32x128x8x1x8_S32x128x8x8 bcast_S32x8x8_S32x1x8x8_0_2_3 bcast_S32x1x8x8_S32x128x8x8_0_1_2_3 bcast_S32x128x8x8_S32x128x8x1x8_0_1_2_4 (rAng V0) (T2 V0))
    (hiTerm (B := 32) (K := 128) (g := 8) (d := 8) (n := 128) (S := 7) (m := 64) 3 shapeCasts_S32x128x128_S32x128x8x2x8 slices_S32x7x64_S32x1x64_0_3_0 shapeCasts_S32x1x64_S32x64 shapeCasts_S32x64_S32x8x8 slices_S32x128x8x2x8_S32x128x8x1x8_0_0_0_0_0 slices_S32x128x8x2x8_S32x128x8x1x8_0_0_0_1_0 shapeCasts_S32x128x8x1x8_S32x128x8x8 bcast_S32x8x8_S32x1x8x8_0_2_3 bcast_S32x1x8x8_S32x128x8x8_0_1_2_3 bcast_S32x128x8x8_S32x128x8x1x8_0_1_2_4 (rAng V0) (T2 V0))

/-- The rows after stage 4. -/
def T4 (V0 : Valuation τ sig (Elt Ideal)) : S32x128x128.Idx → EReal :=
  catTerm (B := 32) (K := 128) (g := 4) (d := 16) (n := 128) concatenates_S32x128x4x1x16_S32x128x4x1x16_S32x128x4x2x16_d3 shapeCasts_S32x128x4x2x16_S32x128x128
    (loTerm (B := 32) (K := 128) (g := 4) (d := 16) (n := 128) (S := 7) (m := 64) 4 shapeCasts_S32x128x128_S32x128x4x2x16 slices_S32x7x64_S32x1x64_0_4_0 shapeCasts_S32x1x64_S32x64 shapeCasts_S32x64_S32x4x16 slices_S32x128x4x2x16_S32x128x4x1x16_0_0_0_0_0 slices_S32x128x4x2x16_S32x128x4x1x16_0_0_0_1_0 shapeCasts_S32x128x4x1x16_S32x128x4x16 bcast_S32x4x16_S32x1x4x16_0_2_3 bcast_S32x1x4x16_S32x128x4x16_0_1_2_3 bcast_S32x128x4x16_S32x128x4x1x16_0_1_2_4 (rAng V0) (T3 V0))
    (hiTerm (B := 32) (K := 128) (g := 4) (d := 16) (n := 128) (S := 7) (m := 64) 4 shapeCasts_S32x128x128_S32x128x4x2x16 slices_S32x7x64_S32x1x64_0_4_0 shapeCasts_S32x1x64_S32x64 shapeCasts_S32x64_S32x4x16 slices_S32x128x4x2x16_S32x128x4x1x16_0_0_0_0_0 slices_S32x128x4x2x16_S32x128x4x1x16_0_0_0_1_0 shapeCasts_S32x128x4x1x16_S32x128x4x16 bcast_S32x4x16_S32x1x4x16_0_2_3 bcast_S32x1x4x16_S32x128x4x16_0_1_2_3 bcast_S32x128x4x16_S32x128x4x1x16_0_1_2_4 (rAng V0) (T3 V0))

/-- The rows after stage 5. -/
def T5 (V0 : Valuation τ sig (Elt Ideal)) : S32x128x128.Idx → EReal :=
  catTerm (B := 32) (K := 128) (g := 2) (d := 32) (n := 128) concatenates_S32x128x2x1x32_S32x128x2x1x32_S32x128x2x2x32_d3 shapeCasts_S32x128x2x2x32_S32x128x128
    (loTerm (B := 32) (K := 128) (g := 2) (d := 32) (n := 128) (S := 7) (m := 64) 5 shapeCasts_S32x128x128_S32x128x2x2x32 slices_S32x7x64_S32x1x64_0_5_0 shapeCasts_S32x1x64_S32x64 shapeCasts_S32x64_S32x2x32 slices_S32x128x2x2x32_S32x128x2x1x32_0_0_0_0_0 slices_S32x128x2x2x32_S32x128x2x1x32_0_0_0_1_0 shapeCasts_S32x128x2x1x32_S32x128x2x32 bcast_S32x2x32_S32x1x2x32_0_2_3 bcast_S32x1x2x32_S32x128x2x32_0_1_2_3 bcast_S32x128x2x32_S32x128x2x1x32_0_1_2_4 (rAng V0) (T4 V0))
    (hiTerm (B := 32) (K := 128) (g := 2) (d := 32) (n := 128) (S := 7) (m := 64) 5 shapeCasts_S32x128x128_S32x128x2x2x32 slices_S32x7x64_S32x1x64_0_5_0 shapeCasts_S32x1x64_S32x64 shapeCasts_S32x64_S32x2x32 slices_S32x128x2x2x32_S32x128x2x1x32_0_0_0_0_0 slices_S32x128x2x2x32_S32x128x2x1x32_0_0_0_1_0 shapeCasts_S32x128x2x1x32_S32x128x2x32 bcast_S32x2x32_S32x1x2x32_0_2_3 bcast_S32x1x2x32_S32x128x2x32_0_1_2_3 bcast_S32x128x2x32_S32x128x2x1x32_0_1_2_4 (rAng V0) (T4 V0))

/-- The rows after stage 6. -/
def T6 (V0 : Valuation τ sig (Elt Ideal)) : S32x128x128.Idx → EReal :=
  catTerm (B := 32) (K := 128) (g := 1) (d := 64) (n := 128) concatenates_S32x128x1x1x64_S32x128x1x1x64_S32x128x1x2x64_d3 shapeCasts_S32x128x1x2x64_S32x128x128
    (loTerm (B := 32) (K := 128) (g := 1) (d := 64) (n := 128) (S := 7) (m := 64) 6 shapeCasts_S32x128x128_S32x128x1x2x64 slices_S32x7x64_S32x1x64_0_6_0 shapeCasts_S32x1x64_S32x64 shapeCasts_S32x64_S32x1x64 slices_S32x128x1x2x64_S32x128x1x1x64_0_0_0_0_0 slices_S32x128x1x2x64_S32x128x1x1x64_0_0_0_1_0 shapeCasts_S32x128x1x1x64_S32x128x1x64 bcast_S32x1x64_S32x1x1x64_0_2_3 bcast_S32x1x1x64_S32x128x1x64_0_1_2_3 bcast_S32x128x1x64_S32x128x1x1x64_0_1_2_4 (rAng V0) (T5 V0))
    (hiTerm (B := 32) (K := 128) (g := 1) (d := 64) (n := 128) (S := 7) (m := 64) 6 shapeCasts_S32x128x128_S32x128x1x2x64 slices_S32x7x64_S32x1x64_0_6_0 shapeCasts_S32x1x64_S32x64 shapeCasts_S32x64_S32x1x64 slices_S32x128x1x2x64_S32x128x1x1x64_0_0_0_0_0 slices_S32x128x1x2x64_S32x128x1x1x64_0_0_0_1_0 shapeCasts_S32x128x1x1x64_S32x128x1x64 bcast_S32x1x64_S32x1x1x64_0_2_3 bcast_S32x1x1x64_S32x128x1x64_0_1_2_3 bcast_S32x128x1x64_S32x128x1x1x64_0_1_2_4 (rAng V0) (T5 V0))

/-- The contents after the stretch that builds the angles' table and the identity. -/
def V1 (V0 : Valuation τ sig (Elt Ideal)) : Valuation τ sig (Elt Ideal) := after ((hops.drop 0).take 11) V0
/-- The contents after stage 0's halves. -/
def V2 (V0 : Valuation τ sig (Elt Ideal)) : Valuation τ sig (Elt Ideal) := after ((hops.drop 11).take 34) (V1 V0)
/-- The contents after stage 1's halves. -/
def V3 (V0 : Valuation τ sig (Elt Ideal)) : Valuation τ sig (Elt Ideal) := after ((hops.drop 45).take 28) (V2 V0)
/-- The contents after stage 2's halves. -/
def V4 (V0 : Valuation τ sig (Elt Ideal)) : Valuation τ sig (Elt Ideal) := after ((hops.drop 73).take 28) (V3 V0)
/-- The contents after stage 3's halves. -/
def V5 (V0 : Valuation τ sig (Elt Ideal)) : Valuation τ sig (Elt Ideal) := after ((hops.drop 101).take 28) (V4 V0)
/-- The contents after stage 4's halves. -/
def V6 (V0 : Valuation τ sig (Elt Ideal)) : Valuation τ sig (Elt Ideal) := after ((hops.drop 129).take 28) (V5 V0)
/-- The contents after stage 5's halves. -/
def V7 (V0 : Valuation τ sig (Elt Ideal)) : Valuation τ sig (Elt Ideal) := after ((hops.drop 157).take 28) (V6 V0)
/-- The contents after stage 6's halves. -/
def V8 (V0 : Valuation τ sig (Elt Ideal)) : Valuation τ sig (Elt Ideal) := after ((hops.drop 185).take 28) (V7 V0)

theorem after_hops (V0 : Valuation τ sig (Elt Ideal)) : after hops V0 = after (hops.drop 213) (V8 V0) := by
  unfold V8 V7 V6 V5 V4 V3 V2 V1
  rw [show after hops V0 = after (hops.drop 0) V0 from rfl,
    after_cut hops 0 11 11 rfl, after_cut hops 11 34 45 rfl, after_cut hops 45 28 73 rfl, after_cut hops 73 28 101 rfl,
    after_cut hops 101 28 129 rfl, after_cut hops 129 28 157 rfl, after_cut hops 157 28 185 rfl, after_cut hops 185 28 213 rfl]

theorem V1_v3 (V0 : Valuation τ sig (Elt Ideal)) : (V1 V0 (Proc.devRef .tc main_v3) : S32x7x64.Idx → EReal) = rAng V0 := P_v3 V0
theorem V1_v9 (V0 : Valuation τ sig (Elt Ideal)) : (V1 V0 (Proc.devRef .tc main_v9) : S128x128.Idx → EReal) = rId := P_v9 V0

theorem V2_v3 (V0 : Valuation τ sig (Elt Ideal)) : (V2 V0 (Proc.devRef .tc main_v3) : S32x7x64.Idx → EReal) = rAng V0 := by
  unfold V2; rw [Q0_v3]; exact V1_v3 V0
theorem V2_lo (V0 : Valuation τ sig (Elt Ideal)) : (V2 V0 (Proc.devRef .tc main_v42) : S32x128x64x1x1.Idx → EReal)
    = lo0Term (B := 32) (K := 128) (g := 64) (d := 1) (n := 128) (S := 7) (m := 64) 0 shapeCasts_S128x128_S128x64x2x1 slices_S32x7x64_S32x1x64_0_0_0 shapeCasts_S32x1x64_S32x64 shapeCasts_S32x64_S32x64x1 slices_S128x64x2x1_S128x64x1x1_0_0_0_0 slices_S128x64x2x1_S128x64x1x1_0_0_1_0 shapeCasts_S128x64x1x1_S128x64x1 bcast_S32x64x1_S32x1x64x1_0_2_3 bcast_S32x1x64x1_S32x128x64x1_0_1_2_3 bcast_S128x64x1_S1x128x64x1_1_2_3 bcast_S1x128x64x1_S32x128x64x1_0_1_2_3 bcast_S32x128x64x1_S32x128x64x1x1_0_1_2_4 (rAng V0) rId := by
  unfold V2; rw [Q0_lo, V1_v3, V1_v9]
theorem V2_hi (V0 : Valuation τ sig (Elt Ideal)) : (V2 V0 (Proc.devRef .tc main_v43) : S32x128x64x1x1.Idx → EReal)
    = hi0Term (B := 32) (K := 128) (g := 64) (d := 1) (n := 128) (S := 7) (m := 64) 0 shapeCasts_S128x128_S128x64x2x1 slices_S32x7x64_S32x1x64_0_0_0 shapeCasts_S32x1x64_S32x64 shapeCasts_S32x64_S32x64x1 slices_S128x64x2x1_S128x64x1x1_0_0_0_0 slices_S128x64x2x1_S128x64x1x1_0_0_1_0 shapeCasts_S128x64x1x1_S128x64x1 bcast_S32x64x1_S32x1x64x1_0_2_3 bcast_S32x1x64x1_S32x128x64x1_0_1_2_3 bcast_S128x64x1_S1x128x64x1_1_2_3 bcast_S1x128x64x1_S32x128x64x1_0_1_2_3 bcast_S32x128x64x1_S32x128x64x1x1_0_1_2_4 (rAng V0) rId := by
  unfold V2; rw [Q0_hi, V1_v3, V1_v9]

theorem V3_v3 (V0 : Valuation τ sig (Elt Ideal)) : (V3 V0 (Proc.devRef .tc main_v3) : S32x7x64.Idx → EReal) = rAng V0 := by
  unfold V3; rw [Q1_v3]; exact V2_v3 V0
theorem V3_lo (V0 : Valuation τ sig (Elt Ideal)) : (V3 V0 (Proc.devRef .tc main_v70) : S32x128x32x1x2.Idx → EReal)
    = loTerm (B := 32) (K := 128) (g := 32) (d := 2) (n := 128) (S := 7) (m := 64) 1 shapeCasts_S32x128x128_S32x128x32x2x2 slices_S32x7x64_S32x1x64_0_1_0 shapeCasts_S32x1x64_S32x64 shapeCasts_S32x64_S32x32x2 slices_S32x128x32x2x2_S32x128x32x1x2_0_0_0_0_0 slices_S32x128x32x2x2_S32x128x32x1x2_0_0_0_1_0 shapeCasts_S32x128x32x1x2_S32x128x32x2 bcast_S32x32x2_S32x1x32x2_0_2_3 bcast_S32x1x32x2_S32x128x32x2_0_1_2_3 bcast_S32x128x32x2_S32x128x32x1x2_0_1_2_4 (rAng V0) (T0 V0) := by
  unfold V3; rw [Q1_lo, V2_v3, V2_lo, V2_hi]; rfl
theorem V3_hi (V0 : Valuation τ sig (Elt Ideal)) : (V3 V0 (Proc.devRef .tc main_v71) : S32x128x32x1x2.Idx → EReal)
    = hiTerm (B := 32) (K := 128) (g := 32) (d := 2) (n := 128) (S := 7) (m := 64) 1 shapeCasts_S32x128x128_S32x128x32x2x2 slices_S32x7x64_S32x1x64_0_1_0 shapeCasts_S32x1x64_S32x64 shapeCasts_S32x64_S32x32x2 slices_S32x128x32x2x2_S32x128x32x1x2_0_0_0_0_0 slices_S32x128x32x2x2_S32x128x32x1x2_0_0_0_1_0 shapeCasts_S32x128x32x1x2_S32x128x32x2 bcast_S32x32x2_S32x1x32x2_0_2_3 bcast_S32x1x32x2_S32x128x32x2_0_1_2_3 bcast_S32x128x32x2_S32x128x32x1x2_0_1_2_4 (rAng V0) (T0 V0) := by
  unfold V3; rw [Q1_hi, V2_v3, V2_lo, V2_hi]; rfl

theorem V4_v3 (V0 : Valuation τ sig (Elt Ideal)) : (V4 V0 (Proc.devRef .tc main_v3) : S32x7x64.Idx → EReal) = rAng V0 := by
  unfold V4; rw [Q2_v3]; exact V3_v3 V0
theorem V4_lo (V0 : Valuation τ sig (Elt Ideal)) : (V4 V0 (Proc.devRef .tc main_v98) : S32x128x16x1x4.Idx → EReal)
    = loTerm (B := 32) (K := 128) (g := 16) (d := 4) (n := 128) (S := 7) (m := 64) 2 shapeCasts_S32x128x128_S32x128x16x2x4 slices_S32x7x64_S32x1x64_0_2_0 shapeCasts_S32x1x64_S32x64 shapeCasts_S32x64_S32x16x4 slices_S32x128x16x2x4_S32x128x16x1x4_0_0_0_0_0 slices_S32x128x16x2x4_S32x128x16x1x4_0_0_0_1_0 shapeCasts_S32x128x16x1x4_S32x128x16x4 bcast_S32x16x4_S32x1x16x4_0_2_3 bcast_S32x1x16x4_S32x128x16x4_0_1_2_3 bcast_S32x128x16x4_S32x128x16x1x4_0_1_2_4 (rAng V0) (T1 V0) := by
  unfold V4; rw [Q2_lo, V3_v3, V3_lo, V3_hi]; rfl
theorem V4_hi (V0 : Valuation τ sig (Elt Ideal)) : (V4 V0 (Proc.devRef .tc main_v99) : S32x128x16x1x4.Idx → EReal)
    = hiTerm (B := 32) (K := 128) (g := 16) (d := 4) (n := 128) (S := 7) (m := 64) 2 shapeCasts_S32x128x128_S32x128x16x2x4 slices_S32x7x64_S32x1x64_0_2_0 shapeCasts_S32x1x64_S32x64 shapeCasts_S32x64_S32x16x4 slices_S32x128x16x2x4_S32x128x16x1x4_0_0_0_0_0 slices_S32x128x16x2x4_S32x128x16x1x4_0_0_0_1_0 shapeCasts_S32x128x16x1x4_S32x128x16x4 bcast_S32x16x4_S32x1x16x4_0_2_3 bcast_S32x1x16x4_S32x128x16x4_0_1_2_3 bcast_S32x128x16x4_S32x128x16x1x4_0_1_2_4 (rAng V0) (T1 V0) := by
  unfold V4; rw [Q2_hi, V3_v3, V3_lo, V3_hi]; rfl

theorem V5_v3 (V0 : Valuation τ sig (Elt Ideal)) : (V5 V0 (Proc.devRef .tc main_v3) : S32x7x64.Idx → EReal) = rAng V0 := by
  unfold V5; rw [Q3_v3]; exact V4_v3 V0
theorem V5_lo (V0 : Valuation τ sig (Elt Ideal)) : (V5 V0 (Proc.devRef .tc main_v126) : S32x128x8x1x8.Idx → EReal)
    = loTerm (B := 32) (K := 128) (g := 8) (d := 8) (n := 128) (S := 7) (m := 64) 3 shapeCasts_S32x128x128_S32x128x8x2x8 slices_S32x7x64_S32x1x64_0_3_0 shapeCasts_S32x1x64_S32x64 shapeCasts_S32x64_S32x8x8 slices_S32x128x8x2x8_S32x128x8x1x8_0_0_0_0_0 slices_S32x128x8x2x8_S32x128x8x1x8_0_0_0_1_0 shapeCasts_S32x128x8x1x8_S32x128x8x8 bcast_S32x8x8_S32x1x8x8_0_2_3 bcast_S32x1x8x8_S32x128x8x8_0_1_2_3 bcast_S32x128x8x8_S32x128x8x1x8_0_1_2_4 (rAng V0) (T2 V0) := by
  unfold V5; rw [Q3_lo, V4_v3, V4_lo, V4_hi]; rfl
theorem V5_hi (V0 : Valuation τ sig (Elt Ideal)) : (V5 V0 (Proc.devRef .tc main_v127) : S32x128x8x1x8.Idx → EReal)
    = hiTerm (B := 32) (K := 128) (g := 8) (d := 8) (n := 128) (S := 7) (m := 64) 3 shapeCasts_S32x128x128_S32x128x8x2x8 slices_S32x7x64_S32x1x64_0_3_0 shapeCasts_S32x1x64_S32x64 shapeCasts_S32x64_S32x8x8 slices_S32x128x8x2x8_S32x128x8x1x8_0_0_0_0_0 slices_S32x128x8x2x8_S32x128x8x1x8_0_0_0_1_0 shapeCasts_S32x128x8x1x8_S32x128x8x8 bcast_S32x8x8_S32x1x8x8_0_2_3 bcast_S32x1x8x8_S32x128x8x8_0_1_2_3 bcast_S32x128x8x8_S32x128x8x1x8_0_1_2_4 (rAng V0) (T2 V0) := by
  unfold V5; rw [Q3_hi, V4_v3, V4_lo, V4_hi]; rfl

theorem V6_v3 (V0 : Valuation τ sig (Elt Ideal)) : (V6 V0 (Proc.devRef .tc main_v3) : S32x7x64.Idx → EReal) = rAng V0 := by
  unfold V6; rw [Q4_v3]; exact V5_v3 V0
theorem V6_lo (V0 : Valuation τ sig (Elt Ideal)) : (V6 V0 (Proc.devRef .tc main_v154) : S32x128x4x1x16.Idx → EReal)
    = loTerm (B := 32) (K := 128) (g := 4) (d := 16) (n := 128) (S := 7) (m := 64) 4 shapeCasts_S32x128x128_S32x128x4x2x16 slices_S32x7x64_S32x1x64_0_4_0 shapeCasts_S32x1x64_S32x64 shapeCasts_S32x64_S32x4x16 slices_S32x128x4x2x16_S32x128x4x1x16_0_0_0_0_0 slices_S32x128x4x2x16_S32x128x4x1x16_0_0_0_1_0 shapeCasts_S32x128x4x1x16_S32x128x4x16 bcast_S32x4x16_S32x1x4x16_0_2_3 bcast_S32x1x4x16_S32x128x4x16_0_1_2_3 bcast_S32x128x4x16_S32x128x4x1x16_0_1_2_4 (rAng V0) (T3 V0) := by
  unfold V6; rw [Q4_lo, V5_v3, V5_lo, V5_hi]; rfl
theorem V6_hi (V0 : Valuation τ sig (Elt Ideal)) : (V6 V0 (Proc.devRef .tc main_v155) : S32x128x4x1x16.Idx → EReal)
    = hiTerm (B := 32) (K := 128) (g := 4) (d := 16) (n := 128) (S := 7) (m := 64) 4 shapeCasts_S32x128x128_S32x128x4x2x16 slices_S32x7x64_S32x1x64_0_4_0 shapeCasts_S32x1x64_S32x64 shapeCasts_S32x64_S32x4x16 slices_S32x128x4x2x16_S32x128x4x1x16_0_0_0_0_0 slices_S32x128x4x2x16_S32x128x4x1x16_0_0_0_1_0 shapeCasts_S32x128x4x1x16_S32x128x4x16 bcast_S32x4x16_S32x1x4x16_0_2_3 bcast_S32x1x4x16_S32x128x4x16_0_1_2_3 bcast_S32x128x4x16_S32x128x4x1x16_0_1_2_4 (rAng V0) (T3 V0) := by
  unfold V6; rw [Q4_hi, V5_v3, V5_lo, V5_hi]; rfl

theorem V7_v3 (V0 : Valuation τ sig (Elt Ideal)) : (V7 V0 (Proc.devRef .tc main_v3) : S32x7x64.Idx → EReal) = rAng V0 := by
  unfold V7; rw [Q5_v3]; exact V6_v3 V0
theorem V7_lo (V0 : Valuation τ sig (Elt Ideal)) : (V7 V0 (Proc.devRef .tc main_v182) : S32x128x2x1x32.Idx → EReal)
    = loTerm (B := 32) (K := 128) (g := 2) (d := 32) (n := 128) (S := 7) (m := 64) 5 shapeCasts_S32x128x128_S32x128x2x2x32 slices_S32x7x64_S32x1x64_0_5_0 shapeCasts_S32x1x64_S32x64 shapeCasts_S32x64_S32x2x32 slices_S32x128x2x2x32_S32x128x2x1x32_0_0_0_0_0 slices_S32x128x2x2x32_S32x128x2x1x32_0_0_0_1_0 shapeCasts_S32x128x2x1x32_S32x128x2x32 bcast_S32x2x32_S32x1x2x32_0_2_3 bcast_S32x1x2x32_S32x128x2x32_0_1_2_3 bcast_S32x128x2x32_S32x128x2x1x32_0_1_2_4 (rAng V0) (T4 V0) := by
  unfold V7; rw [Q5_lo, V6_v3, V6_lo, V6_hi]; rfl
theorem V7_hi (V0 : Valuation τ sig (Elt Ideal)) : (V7 V0 (Proc.devRef .tc main_v183) : S32x128x2x1x32.Idx → EReal)
    = hiTerm (B := 32) (K := 128) (g := 2) (d := 32) (n := 128) (S := 7) (m := 64) 5 shapeCasts_S32x128x128_S32x128x2x2x32 slices_S32x7x64_S32x1x64_0_5_0 shapeCasts_S32x1x64_S32x64 shapeCasts_S32x64_S32x2x32 slices_S32x128x2x2x32_S32x128x2x1x32_0_0_0_0_0 slices_S32x128x2x2x32_S32x128x2x1x32_0_0_0_1_0 shapeCasts_S32x128x2x1x32_S32x128x2x32 bcast_S32x2x32_S32x1x2x32_0_2_3 bcast_S32x1x2x32_S32x128x2x32_0_1_2_3 bcast_S32x128x2x32_S32x128x2x1x32_0_1_2_4 (rAng V0) (T4 V0) := by
  unfold V7; rw [Q5_hi, V6_v3, V6_lo, V6_hi]; rfl

theorem V8_v3 (V0 : Valuation τ sig (Elt Ideal)) : (V8 V0 (Proc.devRef .tc main_v3) : S32x7x64.Idx → EReal) = rAng V0 := by
  unfold V8; rw [Q6_v3]; exact V7_v3 V0
theorem V8_lo (V0 : Valuation τ sig (Elt Ideal)) : (V8 V0 (Proc.devRef .tc main_v210) : S32x128x1x1x64.Idx → EReal)
    = loTerm (B := 32) (K := 128) (g := 1) (d := 64) (n := 128) (S := 7) (m := 64) 6 shapeCasts_S32x128x128_S32x128x1x2x64 slices_S32x7x64_S32x1x64_0_6_0 shapeCasts_S32x1x64_S32x64 shapeCasts_S32x64_S32x1x64 slices_S32x128x1x2x64_S32x128x1x1x64_0_0_0_0_0 slices_S32x128x1x2x64_S32x128x1x1x64_0_0_0_1_0 shapeCasts_S32x128x1x1x64_S32x128x1x64 bcast_S32x1x64_S32x1x1x64_0_2_3 bcast_S32x1x1x64_S32x128x1x64_0_1_2_3 bcast_S32x128x1x64_S32x128x1x1x64_0_1_2_4 (rAng V0) (T5 V0) := by
  unfold V8; rw [Q6_lo, V7_v3, V7_lo, V7_hi]; rfl
theorem V8_hi (V0 : Valuation τ sig (Elt Ideal)) : (V8 V0 (Proc.devRef .tc main_v211) : S32x128x1x1x64.Idx → EReal)
    = hiTerm (B := 32) (K := 128) (g := 1) (d := 64) (n := 128) (S := 7) (m := 64) 6 shapeCasts_S32x128x128_S32x128x1x2x64 slices_S32x7x64_S32x1x64_0_6_0 shapeCasts_S32x1x64_S32x64 shapeCasts_S32x64_S32x1x64 slices_S32x128x1x2x64_S32x128x1x1x64_0_0_0_0_0 slices_S32x128x1x2x64_S32x128x1x1x64_0_0_0_1_0 shapeCasts_S32x128x1x1x64_S32x128x1x64 bcast_S32x1x64_S32x1x1x64_0_2_3 bcast_S32x1x1x64_S32x128x1x64_0_1_2_3 bcast_S32x128x1x64_S32x128x1x1x64_0_1_2_4 (rAng V0) (T5 V0) := by
  unfold V8; rw [Q6_hi, V7_v3, V7_lo, V7_hi]; rfl

/-- The block matrices the host operations leave are the rows after stage 6. -/
theorem after_hops_v213 (V0 : Valuation τ sig (Elt Ideal)) :
    (after hops V0 (Proc.devRef .tc main_v213) : S32x128x128.Idx → EReal) = T6 V0 := by
  rw [after_hops, Z_out, V8_lo, V8_hi]; rfl

/-! ### The values -/

theorem rAng_apply (V0 : Valuation τ sig (Elt Ideal)) (c : Fin 32) (s : Fin 7) (p : Fin 64) :
    rAng V0 (ix3 c s p) = angLoc (at2 (V0 (Proc.devRef .tc main_arg1) : S12x2048.Idx → EReal)) c.val s.val p.val :=
  angTable_apply _ _ _ _ c s p

theorem rId_apply (k i : Fin 128) : rId (ix2 k i) = unitVec k.val i.val :=
  ident_apply (N := 128) (by norm_num) _ k i

theorem T0_apply (V0 : Valuation τ sig (Elt Ideal)) (c : Fin 32) (k i : Fin 128) :
    T0 V0 (ix3 c k i) = stages (angLoc (at2 (V0 (Proc.devRef .tc main_arg1) : S12x2048.Idx → EReal)) c.val) 0 1 (unitVec k.val) i.val := by
  unfold T0
  exact stage0Term_apply (B := 32) (K := 128) (g := 64) (d := 1) (n := 128) (S := 7) (m := 64) (by norm_num) (by norm_num) (by norm_num) (0 : Fin 7)
    shapeCasts_S128x128_S128x64x2x1 slices_S32x7x64_S32x1x64_0_0_0 shapeCasts_S32x1x64_S32x64 shapeCasts_S32x64_S32x64x1 slices_S128x64x2x1_S128x64x1x1_0_0_0_0 slices_S128x64x2x1_S128x64x1x1_0_0_1_0 shapeCasts_S128x64x1x1_S128x64x1 bcast_S32x64x1_S32x1x64x1_0_2_3 bcast_S32x1x64x1_S32x128x64x1_0_1_2_3 bcast_S128x64x1_S1x128x64x1_1_2_3 bcast_S1x128x64x1_S32x128x64x1_0_1_2_3 bcast_S32x128x64x1_S32x128x64x1x1_0_1_2_4
    concatenates_S32x128x64x1x1_S32x128x64x1x1_S32x128x64x2x1_d3 shapeCasts_S32x128x64x2x1_S32x128x128
    (rAng V0) rId (angLoc (at2 (V0 (Proc.devRef .tc main_arg1) : S12x2048.Idx → EReal)) c.val 0) (unitVec k.val) c k
    (fun p => rAng_apply V0 c 0 p) (fun i => rId_apply k i) i

theorem T1_apply (V0 : Valuation τ sig (Elt Ideal)) (c : Fin 32) (k i : Fin 128) :
    T1 V0 (ix3 c k i) = stages (angLoc (at2 (V0 (Proc.devRef .tc main_arg1) : S12x2048.Idx → EReal)) c.val) 0 2 (unitVec k.val) i.val := by
  unfold T1
  exact stageTerm_apply (B := 32) (K := 128) (g := 32) (d := 2) (n := 128) (S := 7) (m := 64) (by norm_num) (by norm_num) (by norm_num) (1 : Fin 7)
    shapeCasts_S32x128x128_S32x128x32x2x2 slices_S32x7x64_S32x1x64_0_1_0 shapeCasts_S32x1x64_S32x64 shapeCasts_S32x64_S32x32x2 slices_S32x128x32x2x2_S32x128x32x1x2_0_0_0_0_0 slices_S32x128x32x2x2_S32x128x32x1x2_0_0_0_1_0 shapeCasts_S32x128x32x1x2_S32x128x32x2 bcast_S32x32x2_S32x1x32x2_0_2_3 bcast_S32x1x32x2_S32x128x32x2_0_1_2_3 bcast_S32x128x32x2_S32x128x32x1x2_0_1_2_4
    concatenates_S32x128x32x1x2_S32x128x32x1x2_S32x128x32x2x2_d3 shapeCasts_S32x128x32x2x2_S32x128x128
    (rAng V0) (T0 V0) (angLoc (at2 (V0 (Proc.devRef .tc main_arg1) : S12x2048.Idx → EReal)) c.val 1) (stages (angLoc (at2 (V0 (Proc.devRef .tc main_arg1) : S12x2048.Idx → EReal)) c.val) 0 1 (unitVec k.val)) c k
    (fun p => rAng_apply V0 c 1 p) (fun i => T0_apply V0 c k i) i

theorem T2_apply (V0 : Valuation τ sig (Elt Ideal)) (c : Fin 32) (k i : Fin 128) :
    T2 V0 (ix3 c k i) = stages (angLoc (at2 (V0 (Proc.devRef .tc main_arg1) : S12x2048.Idx → EReal)) c.val) 0 3 (unitVec k.val) i.val := by
  unfold T2
  exact stageTerm_apply (B := 32) (K := 128) (g := 16) (d := 4) (n := 128) (S := 7) (m := 64) (by norm_num) (by norm_num) (by norm_num) (2 : Fin 7)
    shapeCasts_S32x128x128_S32x128x16x2x4 slices_S32x7x64_S32x1x64_0_2_0 shapeCasts_S32x1x64_S32x64 shapeCasts_S32x64_S32x16x4 slices_S32x128x16x2x4_S32x128x16x1x4_0_0_0_0_0 slices_S32x128x16x2x4_S32x128x16x1x4_0_0_0_1_0 shapeCasts_S32x128x16x1x4_S32x128x16x4 bcast_S32x16x4_S32x1x16x4_0_2_3 bcast_S32x1x16x4_S32x128x16x4_0_1_2_3 bcast_S32x128x16x4_S32x128x16x1x4_0_1_2_4
    concatenates_S32x128x16x1x4_S32x128x16x1x4_S32x128x16x2x4_d3 shapeCasts_S32x128x16x2x4_S32x128x128
    (rAng V0) (T1 V0) (angLoc (at2 (V0 (Proc.devRef .tc main_arg1) : S12x2048.Idx → EReal)) c.val 2) (stages (angLoc (at2 (V0 (Proc.devRef .tc main_arg1) : S12x2048.Idx → EReal)) c.val) 0 2 (unitVec k.val)) c k
    (fun p => rAng_apply V0 c 2 p) (fun i => T1_apply V0 c k i) i

theorem T3_apply (V0 : Valuation τ sig (Elt Ideal)) (c : Fin 32) (k i : Fin 128) :
    T3 V0 (ix3 c k i) = stages (angLoc (at2 (V0 (Proc.devRef .tc main_arg1) : S12x2048.Idx → EReal)) c.val) 0 4 (unitVec k.val) i.val := by
  unfold T3
  exact stageTerm_apply (B := 32) (K := 128) (g := 8) (d := 8) (n := 128) (S := 7) (m := 64) (by norm_num) (by norm_num) (by norm_num) (3 : Fin 7)
    shapeCasts_S32x128x128_S32x128x8x2x8 slices_S32x7x64_S32x1x64_0_3_0 shapeCasts_S32x1x64_S32x64 shapeCasts_S32x64_S32x8x8 slices_S32x128x8x2x8_S32x128x8x1x8_0_0_0_0_0 slices_S32x128x8x2x8_S32x128x8x1x8_0_0_0_1_0 shapeCasts_S32x128x8x1x8_S32x128x8x8 bcast_S32x8x8_S32x1x8x8_0_2_3 bcast_S32x1x8x8_S32x128x8x8_0_1_2_3 bcast_S32x128x8x8_S32x128x8x1x8_0_1_2_4
    concatenates_S32x128x8x1x8_S32x128x8x1x8_S32x128x8x2x8_d3 shapeCasts_S32x128x8x2x8_S32x128x128
    (rAng V0) (T2 V0) (angLoc (at2 (V0 (Proc.devRef .tc main_arg1) : S12x2048.Idx → EReal)) c.val 3) (stages (angLoc (at2 (V0 (Proc.devRef .tc main_arg1) : S12x2048.Idx → EReal)) c.val) 0 3 (unitVec k.val)) c k
    (fun p => rAng_apply V0 c 3 p) (fun i => T2_apply V0 c k i) i

theorem T4_apply (V0 : Valuation τ sig (Elt Ideal)) (c : Fin 32) (k i : Fin 128) :
    T4 V0 (ix3 c k i) = stages (angLoc (at2 (V0 (Proc.devRef .tc main_arg1) : S12x2048.Idx → EReal)) c.val) 0 5 (unitVec k.val) i.val := by
  unfold T4
  exact stageTerm_apply (B := 32) (K := 128) (g := 4) (d := 16) (n := 128) (S := 7) (m := 64) (by norm_num) (by norm_num) (by norm_num) (4 : Fin 7)
    shapeCasts_S32x128x128_S32x128x4x2x16 slices_S32x7x64_S32x1x64_0_4_0 shapeCasts_S32x1x64_S32x64 shapeCasts_S32x64_S32x4x16 slices_S32x128x4x2x16_S32x128x4x1x16_0_0_0_0_0 slices_S32x128x4x2x16_S32x128x4x1x16_0_0_0_1_0 shapeCasts_S32x128x4x1x16_S32x128x4x16 bcast_S32x4x16_S32x1x4x16_0_2_3 bcast_S32x1x4x16_S32x128x4x16_0_1_2_3 bcast_S32x128x4x16_S32x128x4x1x16_0_1_2_4
    concatenates_S32x128x4x1x16_S32x128x4x1x16_S32x128x4x2x16_d3 shapeCasts_S32x128x4x2x16_S32x128x128
    (rAng V0) (T3 V0) (angLoc (at2 (V0 (Proc.devRef .tc main_arg1) : S12x2048.Idx → EReal)) c.val 4) (stages (angLoc (at2 (V0 (Proc.devRef .tc main_arg1) : S12x2048.Idx → EReal)) c.val) 0 4 (unitVec k.val)) c k
    (fun p => rAng_apply V0 c 4 p) (fun i => T3_apply V0 c k i) i

theorem T5_apply (V0 : Valuation τ sig (Elt Ideal)) (c : Fin 32) (k i : Fin 128) :
    T5 V0 (ix3 c k i) = stages (angLoc (at2 (V0 (Proc.devRef .tc main_arg1) : S12x2048.Idx → EReal)) c.val) 0 6 (unitVec k.val) i.val := by
  unfold T5
  exact stageTerm_apply (B := 32) (K := 128) (g := 2) (d := 32) (n := 128) (S := 7) (m := 64) (by norm_num) (by norm_num) (by norm_num) (5 : Fin 7)
    shapeCasts_S32x128x128_S32x128x2x2x32 slices_S32x7x64_S32x1x64_0_5_0 shapeCasts_S32x1x64_S32x64 shapeCasts_S32x64_S32x2x32 slices_S32x128x2x2x32_S32x128x2x1x32_0_0_0_0_0 slices_S32x128x2x2x32_S32x128x2x1x32_0_0_0_1_0 shapeCasts_S32x128x2x1x32_S32x128x2x32 bcast_S32x2x32_S32x1x2x32_0_2_3 bcast_S32x1x2x32_S32x128x2x32_0_1_2_3 bcast_S32x128x2x32_S32x128x2x1x32_0_1_2_4
    concatenates_S32x128x2x1x32_S32x128x2x1x32_S32x128x2x2x32_d3 shapeCasts_S32x128x2x2x32_S32x128x128
    (rAng V0) (T4 V0) (angLoc (at2 (V0 (Proc.devRef .tc main_arg1) : S12x2048.Idx → EReal)) c.val 5) (stages (angLoc (at2 (V0 (Proc.devRef .tc main_arg1) : S12x2048.Idx → EReal)) c.val) 0 5 (unitVec k.val)) c k
    (fun p => rAng_apply V0 c 5 p) (fun i => T4_apply V0 c k i) i

theorem T6_apply (V0 : Valuation τ sig (Elt Ideal)) (c : Fin 32) (k i : Fin 128) :
    T6 V0 (ix3 c k i) = stages (angLoc (at2 (V0 (Proc.devRef .tc main_arg1) : S12x2048.Idx → EReal)) c.val) 0 7 (unitVec k.val) i.val := by
  unfold T6
  exact stageTerm_apply (B := 32) (K := 128) (g := 1) (d := 64) (n := 128) (S := 7) (m := 64) (by norm_num) (by norm_num) (by norm_num) (6 : Fin 7)
    shapeCasts_S32x128x128_S32x128x1x2x64 slices_S32x7x64_S32x1x64_0_6_0 shapeCasts_S32x1x64_S32x64 shapeCasts_S32x64_S32x1x64 slices_S32x128x1x2x64_S32x128x1x1x64_0_0_0_0_0 slices_S32x128x1x2x64_S32x128x1x1x64_0_0_0_1_0 shapeCasts_S32x128x1x1x64_S32x128x1x64 bcast_S32x1x64_S32x1x1x64_0_2_3 bcast_S32x1x1x64_S32x128x1x64_0_1_2_3 bcast_S32x128x1x64_S32x128x1x1x64_0_1_2_4
    concatenates_S32x128x1x1x64_S32x128x1x1x64_S32x128x1x2x64_d3 shapeCasts_S32x128x1x2x64_S32x128x128
    (rAng V0) (T5 V0) (angLoc (at2 (V0 (Proc.devRef .tc main_arg1) : S12x2048.Idx → EReal)) c.val 6) (stages (angLoc (at2 (V0 (Proc.devRef .tc main_arg1) : S12x2048.Idx → EReal)) c.val) 0 6 (unitVec k.val)) c k
    (fun p => rAng_apply V0 c 6 p) (fun i => T5_apply V0 c k i) i

end Chain

open Cert.KernelIdeal Cert.KernelIdeal.Gen Idealize.ShloMosaic.TcCoe Idealize.SL.Sem

/-- Entry (k, j) of block c's matrix is the first seven stages, with block c's angles, applied to row k of the identity, at position j. -/
theorem hostM_apply (V0 : Valuation τ sig (Elt Ideal)) (cc : Fin 32) (k j : Fin 128) :
    (StableHlo.after (hostOps0 (F := Ideal)) V0 (Proc.devRef .tc main_v213) : S32x128x128.Idx → EReal) (ix3 cc k j)
      = chunkM (at2 (V0 (Proc.devRef .tc main_arg1) : S12x2048.Idx → EReal)) cc.val k.val j.val := by
  have h : (StableHlo.after (hostOps0 (F := Ideal)) V0 (Proc.devRef .tc main_v213) : S32x128x128.Idx → EReal) = T6 V0 :=
    after_hops_v213 V0
  rw [h]
  exact T6_apply V0 cc k j

set_option maxRecDepth 16384 in
set_option maxHeartbeats 8000000 in
/-- The kernel's five rows of angles are rows 7 … 11 of the argument. -/
theorem hostAng_apply (V0 : Valuation τ sig (Elt Ideal)) (ss : Fin 5) (p : Fin 2048) :
    (StableHlo.after (hostOps0 (F := Ideal)) V0 (Proc.devRef .tc main_v1) : S5x2048.Idx → EReal) (ix2 ss p)
      = (V0 (Proc.devRef .tc main_arg1) : S12x2048.Idx → EReal) (ix2 ⟨7 + ss.val, by omega⟩ p) := by
  have h : (StableHlo.after (hostOps0 (F := Ideal)) V0 (Proc.devRef .tc main_v1) : S5x2048.Idx → EReal)
      = extractStridedSlice S5x2048 ![7, 0] (V0 (Proc.devRef .tc main_arg1)) slices_S12x2048_S5x2048_7_0 := by
    simp only [hostOps0]
    after_results_simp
  rw [h]
  refine extractStridedSlice_apply _ _ _ _ _ (fun a => ?_)
  match a with
  | ⟨0, _⟩ => rfl
  | ⟨1, _⟩ => show p.val = 0 + p.val; omega

end Cert.KernelIdeal.HostValue

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.BodyMM.lean ====
/-
  The first part of the kernel's body: the 32 block products and their concatenation.

  The block of rows x (256 × 4096) is cut into 32 blocks of 128 columns; block c is multiplied by matrix c of the
  stack M (32 × 128 × 128) into a zero accumulator, and the 32 products are laid side by side.  Entry (r, i) of the
  result is therefore Σ over k < 128 of x(r, 128 (i / 128) + k) · M(i / 128, k, i % 128): row r of x times the block
  matrices.  The roundings of the operands to bf16 are the identity at the ideal values.
-/
import proofs.«124778_j35845797052976_1_alg».proof.Proof.Gen.KernelIdeal.Skeleton
import Idealize.ShloMosaic.Lib.ValueIdx
import Idealize.ShloMosaic.Lib.Pipeline.Value
import Idealize.ShloMosaic.PureOps.Ideal
import Idealize.ShloMosaic.PureOps.Ideal.Laws
import proofs.«124778_j35845797052976_1_alg».proof.Proof.Spec
import proofs.«124778_j35845797052976_1_alg».proof.Proof.LibOuterDot

noncomputable section

open scoped BigOperators

namespace Cert.KernelIdeal.BodyValue.MM

open Cert.KernelIdeal Cert.KernelIdeal.Gen Cert.Bfly Idealize.ShloMosaic Idealize.ShloMosaic.ValueIdx

/-- Block c of a row of x times block c's matrix, entry by entry. -/
def blockProd (a0 : Vec Ideal S256x4096 .f32) (a1 : Vec Ideal S32x128x128 .f32) (c : ℕ) (hc : c < 32) :
    FVec Ideal S256x128 .f32 :=
  fun j => ∑ k : Fin 128, a0 (ix2 (j 0) ⟨128 * c + k.val, by have := k.isLt; omega⟩) * a1 (ix3 ⟨c, hc⟩ k (j 1))

/-- One block product of the kernel: columns 128 c … 128 c + 127 of x (rounded to bf16, the identity at the ideal
    values) times matrix c of the stack of block matrices, into a zero accumulator. -/
theorem matmul_block (a0 : Vec Ideal S256x4096 .f32) (a1 : Vec Ideal S32x128x128 .f32) (c : ℕ) (hc : c < 32)
    (off : Fin 2 → ℕ) (off' : Fin 3 → ℕ) (h : S256x4096.Slices off S256x128) (h' : S32x128x128.Slices off' S1x128x128)
    (ho0 : off 0 = 0) (ho1 : off 1 = 128 * c) (ho'0 : off' 0 = c) (ho'1 : off' 1 = 0) (ho'2 : off' 2 = 0)
    (hb : FTy.bits .bf16 < FTy.bits .f32) (hs : S1x128x128.ShapeCasts S128x128) :
    matmul (F := Ideal) dot_S256x128_S128x128_S256x128_1_0_0_1_n_n none
        (truncf .bf16 (extractStridedSlice S256x128 off a0 h) hb)
        (shapeCast S128x128 (extractStridedSlice S1x128x128 off' (k0_pay2 a1) h') hs)
        (constant S256x128 .f32 0x00000000#32)
      = blockProd a0 a1 c hc := by
  have e2 : (k0_pay2 a1 : FVec Ideal S32x128x128 .bf16) = a1 := by
    unfold k0_pay2
    funext i
    rw [truncf_apply, shapeCast_self]
  rw [e2]
  funext j
  rw [eq_ix2 j]
  refine (Cert.LibOuterDot.matmul_zero_ix2 dot_S256x128_S128x128_S256x128_1_0_0_1_n_n rfl rfl rfl rfl rfl rfl rfl rfl
    none _ _ (j 0) (j 1)).trans ?_
  show (∑ k : Fin 128, _) = ∑ k : Fin 128, a0 (ix2 (j 0) ⟨128 * c + k.val, _⟩) * a1 (ix3 ⟨c, hc⟩ k (j 1))
  refine Finset.sum_congr rfl fun k _ => ?_
  congr 1
  · rw [truncf_apply]
    refine extractStridedSlice_apply off a0 h _ _ fun a => ?_
    match a with
    | ⟨0, _⟩ =>
      show (j 0).val = off 0 + (j 0).val
      rw [ho0, Nat.zero_add]
    | ⟨1, _⟩ =>
      show 128 * c + k.val = off 1 + k.val
      rw [ho1]
  · refine (shapeCast_apply _ hs (ix2 k (j 1)) (ix3 (0 : Fin 1) k (j 1)) ?_).trans ?_
    · rw [Shape.rowMajor_val_three, Shape.rowMajor_val_two]
      show (0 * 128 + k.val) * 128 + (j 1).val = k.val * 128 + (j 1).val
      rw [Nat.zero_mul, Nat.zero_add]
    · refine extractStridedSlice_apply (s := S32x128x128) (t := S1x128x128) off' a1 h' _ _ fun a => ?_
      match a with
      | ⟨0, _⟩ =>
        show c = off' 0 + 0
        rw [ho'0, Nat.add_zero]
      | ⟨1, _⟩ =>
        show k.val = off' 1 + k.val
        rw [ho'1, Nat.zero_add]
      | ⟨2, _⟩ =>
        show (j 1).val = off' 2 + (j 1).val
        rw [ho'2, Nat.zero_add]

/-- Thirty-two blocks of 128 columns laid side by side, read at column i: block i / 128 at its column i % 128. -/
theorem concat32_apply (p : (c : ℕ) → c < 32 → FVec Ideal S256x128 .f32)
    (h : Shape.Concatenates (List.replicate 32 S256x128) S256x4096 1) (j : S256x4096.Idx)
    (hq : (j 1).val / 128 < 32) (hm : (j 1).val % 128 < 128) :
    concatenate S256x4096 1
        [⟨S256x128, p 0 (by decide)⟩, ⟨S256x128, p 1 (by decide)⟩, ⟨S256x128, p 2 (by decide)⟩,
         ⟨S256x128, p 3 (by decide)⟩, ⟨S256x128, p 4 (by decide)⟩, ⟨S256x128, p 5 (by decide)⟩,
         ⟨S256x128, p 6 (by decide)⟩, ⟨S256x128, p 7 (by decide)⟩, ⟨S256x128, p 8 (by decide)⟩,
         ⟨S256x128, p 9 (by decide)⟩, ⟨S256x128, p 10 (by decide)⟩, ⟨S256x128, p 11 (by decide)⟩,
         ⟨S256x128, p 12 (by decide)⟩, ⟨S256x128, p 13 (by decide)⟩, ⟨S256x128, p 14 (by decide)⟩,
         ⟨S256x128, p 15 (by decide)⟩, ⟨S256x128, p 16 (by decide)⟩, ⟨S256x128, p 17 (by decide)⟩,
         ⟨S256x128, p 18 (by decide)⟩, ⟨S256x128, p 19 (by decide)⟩, ⟨S256x128, p 20 (by decide)⟩,
         ⟨S256x128, p 21 (by decide)⟩, ⟨S256x128, p 22 (by decide)⟩, ⟨S256x128, p 23 (by decide)⟩,
         ⟨S256x128, p 24 (by decide)⟩, ⟨S256x128, p 25 (by decide)⟩, ⟨S256x128, p 26 (by decide)⟩,
         ⟨S256x128, p 27 (by decide)⟩, ⟨S256x128, p 28 (by decide)⟩, ⟨S256x128, p 29 (by decide)⟩,
         ⟨S256x128, p 30 (by decide)⟩, ⟨S256x128, p 31 (by decide)⟩] h j
      = p ((j 1).val / 128) hq (ix2 (j 0) ⟨(j 1).val % 128, hm⟩) := by
  refine concatenate_ofFn_apply (t := S256x4096) (s₁ := S256x128) 1 (N := 32) (fun n => p n.val n.isLt) h rfl 128 rfl j
    ⟨(j 1).val / 128, hq⟩ rfl (ix2 (j 0) ⟨(j 1).val % 128, hm⟩) rfl fun b hb => ?_
  match b with
  | ⟨0, _⟩ => rfl
  | ⟨1, _⟩ => exact absurd rfl hb

/-- The concatenation of the 32 block products is every row of the block times the block matrices. -/
theorem node37_eq (a0 : Vec Ideal S256x4096 .f32) (a1 : Vec Ideal S32x128x128 .f32) :
    k0_pay34 a0 (k0_pay2 a1) (k0_pay3 a0 a1) (k0_pay4 a0 a1) (k0_pay5 a0 a1) (k0_pay6 a0 a1) (k0_pay7 a0 a1) (k0_pay8 a0 a1) (k0_pay9 a0 a1) (k0_pay10 a0 a1) (k0_pay12 (k0_pay2 a1) (k0_pay11 a0)) (k0_pay13 a0 (k0_pay2 a1)) (k0_pay14 a0 (k0_pay2 a1)) (k0_pay15 a0 (k0_pay2 a1)) (k0_pay16 a0 (k0_pay2 a1)) (k0_pay17 a0 (k0_pay2 a1)) (k0_pay18 a0 (k0_pay2 a1)) (k0_pay19 a0 (k0_pay2 a1)) (k0_pay20 a0 (k0_pay2 a1)) (k0_pay21 a0 (k0_pay2 a1)) (k0_pay23 (k0_pay2 a1) (k0_pay22 a0)) (k0_pay24 a0 (k0_pay2 a1)) (k0_pay25 a0 (k0_pay2 a1)) (k0_pay26 a0 (k0_pay2 a1)) (k0_pay27 a0 (k0_pay2 a1)) (k0_pay28 a0 (k0_pay2 a1)) (k0_pay29 a0 (k0_pay2 a1)) (k0_pay30 a0 (k0_pay2 a1)) (k0_pay31 a0 (k0_pay2 a1)) (k0_pay32 a0 (k0_pay2 a1)) (k0_pay33 a0)
      = mmArr a0 a1 := by
  -- each of the first 28 block products, as a function of its block's number
  have e0 : k0_pay3 a0 a1 = blockProd a0 a1 0 (by decide) := by
    unfold k0_pay3; exact matmul_block a0 a1 0 _ _ _ _ _ rfl rfl rfl rfl rfl _ _
  have e1 : k0_pay4 a0 a1 = blockProd a0 a1 1 (by decide) := by
    unfold k0_pay4; exact matmul_block a0 a1 1 _ _ _ _ _ rfl rfl rfl rfl rfl _ _
  have e2 : k0_pay5 a0 a1 = blockProd a0 a1 2 (by decide) := by
    unfold k0_pay5; exact matmul_block a0 a1 2 _ _ _ _ _ rfl rfl rfl rfl rfl _ _
  have e3 : k0_pay6 a0 a1 = blockProd a0 a1 3 (by decide) := by
    unfold k0_pay6; exact matmul_block a0 a1 3 _ _ _ _ _ rfl rfl rfl rfl rfl _ _
  have e4 : k0_pay7 a0 a1 = blockProd a0 a1 4 (by decide) := by
    unfold k0_pay7; exact matmul_block a0 a1 4 _ _ _ _ _ rfl rfl rfl rfl rfl _ _
  have e5 : k0_pay8 a0 a1 = blockProd a0 a1 5 (by decide) := by
    unfold k0_pay8; exact matmul_block a0 a1 5 _ _ _ _ _ rfl rfl rfl rfl rfl _ _
  have e6 : k0_pay9 a0 a1 = blockProd a0 a1 6 (by decide) := by
    unfold k0_pay9; exact matmul_block a0 a1 6 _ _ _ _ _ rfl rfl rfl rfl rfl _ _
  have e7 : k0_pay10 a0 a1 = blockProd a0 a1 7 (by decide) := by
    unfold k0_pay10; exact matmul_block a0 a1 7 _ _ _ _ _ rfl rfl rfl rfl rfl _ _
  have e8 : k0_pay12 (k0_pay2 a1) (k0_pay11 a0) = blockProd a0 a1 8 (by decide) := by
    unfold k0_pay12 k0_pay11; exact matmul_block a0 a1 8 _ _ _ _ _ rfl rfl rfl rfl rfl _ _
  have e9 : k0_pay13 a0 (k0_pay2 a1) = blockProd a0 a1 9 (by decide) := by
    unfold k0_pay13; exact matmul_block a0 a1 9 _ _ _ _ _ rfl rfl rfl rfl rfl _ _
  have e10 : k0_pay14 a0 (k0_pay2 a1) = blockProd a0 a1 10 (by decide) := by
    unfold k0_pay14; exact matmul_block a0 a1 10 _ _ _ _ _ rfl rfl rfl rfl rfl _ _
  have e11 : k0_pay15 a0 (k0_pay2 a1) = blockProd a0 a1 11 (by decide) := by
    unfold k0_pay15; exact matmul_block a0 a1 11 _ _ _ _ _ rfl rfl rfl rfl rfl _ _
  have e12 : k0_pay16 a0 (k0_pay2 a1) = blockProd a0 a1 12 (by decide) := by
    unfold k0_pay16; exact matmul_block a0 a1 12 _ _ _ _ _ rfl rfl rfl rfl rfl _ _
  have e13 : k0_pay17 a0 (k0_pay2 a1) = blockProd a0 a1 13 (by decide) := by
    unfold k0_pay17; exact matmul_block a0 a1 13 _ _ _ _ _ rfl rfl rfl rfl rfl _ _
  have e14 : k0_pay18 a0 (k0_pay2 a1) = blockProd a0 a1 14 (by decide) := by
    unfold k0_pay18; exact matmul_block a0 a1 14 _ _ _ _ _ rfl rfl rfl rfl rfl _ _
  have e15 : k0_pay19 a0 (k0_pay2 a1) = blockProd a0 a1 15 (by decide) := by
    unfold k0_pay19; exact matmul_block a0 a1 15 _ _ _ _ _ rfl rfl rfl rfl rfl _ _
  have e16 : k0_pay20 a0 (k0_pay2 a1) = blockProd a0 a1 16 (by decide) := by
    unfold k0_pay20; exact matmul_block a0 a1 16 _ _ _ _ _ rfl rfl rfl rfl rfl _ _
  have e17 : k0_pay21 a0 (k0_pay2 a1) = blockProd a0 a1 17 (by decide) := by
    unfold k0_pay21; exact matmul_block a0 a1 17 _ _ _ _ _ rfl rfl rfl rfl rfl _ _
  have e18 : k0_pay23 (k0_pay2 a1) (k0_pay22 a0) = blockProd a0 a1 18 (by decide) := by
    unfold k0_pay23 k0_pay22; exact matmul_block a0 a1 18 _ _ _ _ _ rfl rfl rfl rfl rfl _ _
  have e19 : k0_pay24 a0 (k0_pay2 a1) = blockProd a0 a1 19 (by decide) := by
    unfold k0_pay24; exact matmul_block a0 a1 19 _ _ _ _ _ rfl rfl rfl rfl rfl _ _
  have e20 : k0_pay25 a0 (k0_pay2 a1) = blockProd a0 a1 20 (by decide) := by
    unfold k0_pay25; exact matmul_block a0 a1 20 _ _ _ _ _ rfl rfl rfl rfl rfl _ _
  have e21 : k0_pay26 a0 (k0_pay2 a1) = blockProd a0 a1 21 (by decide) := by
    unfold k0_pay26; exact matmul_block a0 a1 21 _ _ _ _ _ rfl rfl rfl rfl rfl _ _
  have e22 : k0_pay27 a0 (k0_pay2 a1) = blockProd a0 a1 22 (by decide) := by
    unfold k0_pay27; exact matmul_block a0 a1 22 _ _ _ _ _ rfl rfl rfl rfl rfl _ _
  have e23 : k0_pay28 a0 (k0_pay2 a1) = blockProd a0 a1 23 (by decide) := by
    unfold k0_pay28; exact matmul_block a0 a1 23 _ _ _ _ _ rfl rfl rfl rfl rfl _ _
  have e24 : k0_pay29 a0 (k0_pay2 a1) = blockProd a0 a1 24 (by decide) := by
    unfold k0_pay29; exact matmul_block a0 a1 24 _ _ _ _ _ rfl rfl rfl rfl rfl _ _
  have e25 : k0_pay30 a0 (k0_pay2 a1) = blockProd a0 a1 25 (by decide) := by
    unfold k0_pay30; exact matmul_block a0 a1 25 _ _ _ _ _ rfl rfl rfl rfl rfl _ _
  have e26 : k0_pay31 a0 (k0_pay2 a1) = blockProd a0 a1 26 (by decide) := by
    unfold k0_pay31; exact matmul_block a0 a1 26 _ _ _ _ _ rfl rfl rfl rfl rfl _ _
  have e27 : k0_pay32 a0 (k0_pay2 a1) = blockProd a0 a1 27 (by decide) := by
    unfold k0_pay32; exact matmul_block a0 a1 27 _ _ _ _ _ rfl rfl rfl rfl rfl _ _
  rw [e0, e1, e2, e3, e4, e5, e6, e7, e8, e9, e10, e11, e12, e13, e14, e15, e16, e17, e18, e19, e20, e21, e22, e23,
    e24, e25, e26, e27]
  -- the last four products are computed where the blocks are laid side by side
  unfold k0_pay34 k0_pay33
  dsimp only
  rw [matmul_block a0 a1 28 (by decide) ![0, 3584] ![28, 0, 0] _ _ rfl rfl rfl rfl rfl,
    matmul_block a0 a1 29 (by decide) ![0, 3712] ![29, 0, 0] _ _ rfl rfl rfl rfl rfl,
    matmul_block a0 a1 30 (by decide) ![0, 3840] ![30, 0, 0] _ _ rfl rfl rfl rfl rfl,
    matmul_block a0 a1 31 (by decide) ![0, 3968] ![31, 0, 0] _ _ rfl rfl rfl rfl rfl]
  -- column i of the result is column i % 128 of block i / 128
  funext j
  have hj0 : (j 0).val < 256 := (j 0).isLt
  have hj1 : (j 1).val < 4096 := (j 1).isLt
  have hq : (j 1).val / 128 < 32 := by omega
  have hm : (j 1).val % 128 < 128 := Nat.mod_lt _ (by decide)
  refine (concat32_apply (fun c hc => blockProd a0 a1 c hc) _ j hq hm).trans ?_
  show (∑ k : Fin 128, a0 (ix2 (j 0) ⟨128 * ((j 1).val / 128) + k.val, _⟩)
        * a1 (ix3 ⟨(j 1).val / 128, hq⟩ k ⟨(j 1).val % 128, hm⟩))
      = ∑ k : Fin 128, at2 a0 (j 0).val (128 * ((j 1).val / 128) + k.val)
        * at3 a1 ((j 1).val / 128) k.val ((j 1).val % 128)
  refine Finset.sum_congr rfl fun k _ => ?_
  have hk : k.val < 128 := k.isLt
  unfold at2 at3
  rw [dif_pos ⟨hj0, by omega⟩, dif_pos ⟨hq, hk, hm⟩]
  rfl

end Cert.KernelIdeal.BodyValue.MM

end
-- ==== Proof.BodyS7.lean ====
import proofs.«124778_j35845797052976_1_alg».proof.Proof.Gen.KernelIdeal.Skeleton
import Idealize.ShloMosaic.Lib.ValueIdx
import Idealize.ShloMosaic.PureOps.Ideal
import Idealize.ShloMosaic.Lib.Pipeline.Value
import proofs.«124778_j35845797052976_1_alg».proof.Proof.Spec
import proofs.«124778_j35845797052976_1_alg».proof.Proof.SpecLemmas

/-
  Stage 7 (distance 128) as the body computes it: the row is cut into its 32 blocks of 128 columns; blocks 2G and
  2G + 1 are the low and the high half of group G.  The low half becomes cos θ · low − sin θ · high and the high half
  sin θ · low + cos θ · high, with θ row G of the 16 × 128 table of angles, which is the loaded row of 2048 angles
  cut into rows of 128.  The 32 results are laid end to end.
-/

noncomputable section

namespace Cert.KernelIdeal.BodyValue.S7

open Cert.KernelIdeal Cert.KernelIdeal.Gen Cert.Bfly Idealize.ShloMosaic Idealize.ShloMosaic.ValueIdx

/-- Inside its extents a two-axis array read at natural coordinates is the array at that index. -/
theorem at2_eq {B n : ℕ} (X : (⟨2, ![B, n]⟩ : Shape).Idx → EReal) (b i : ℕ) (hb : b < B) (hi : i < n) :
    at2 X b i = X (ix2 ⟨b, hb⟩ ⟨i, hi⟩) := dif_pos ⟨hb, hi⟩

/-- A block of 128 columns starting at column o, read at (r, l): the array at row r, column o + l. -/
theorem slice_at2 (Y : FVec Ideal S256x4096 .f32) (o : ℕ) (hs : S256x4096.Slices ![0, o] S256x128)
    (r : Fin 256) (l : Fin 128) (p : ℕ) (hp : p = o + l.val) :
    extractStridedSlice S256x128 ![0, o] Y hs (ix2 r l) = at2 Y r.val p := by
  have ho : o + 128 ≤ 4096 := hs.2 1
  have hlt : p < 4096 := by have := l.isLt; omega
  rw [at2_eq Y r.val p r.isLt hlt]
  exact extractStridedSlice_apply _ _ hs _ _ fun a =>
    match a with
    | ⟨0, _⟩ => by show r.val = 0 + r.val; omega
    | ⟨1, _⟩ => by show p = o + l.val; exact hp

/-- Row g of a 16 × 128 table, cut out, flattened, given a unit leading axis and repeated over 256 rows, read at
    (r, l): the table at (g, l). -/
theorem row_bcast (T : FVec Ideal S16x128 .f32) (g : ℕ) (hg : g < 16) (hs : S16x128.Slices ![g, 0] S1x128)
    (h1 : S1x128.ShapeCasts S128) (h2 : S128.ShapeCasts S1x128) (hb : S1x128.Broadcasts S256x128)
    (r : Fin 256) (l : Fin 128) :
    broadcastTo S256x128 (shapeCast S1x128 (shapeCast S128 (extractStridedSlice S1x128 ![g, 0] T hs) h1) h2) hb (ix2 r l)
      = T (ix2 ⟨g, hg⟩ l) := by
  refine (broadcastTo_apply _ hb (ix2 r l) (ix2 0 l) fun a => ?_).trans ?_
  · match a with
    | ⟨0, _⟩ => rfl
    | ⟨1, _⟩ => rfl
  refine (shapeCast_apply _ h2 (ix2 0 l) (ix1 l) ?_).trans ?_
  · rw [Shape.rowMajor_val_one, Shape.rowMajor_val_two]; show l.val = 0 * 128 + l.val; omega
  refine (shapeCast_apply _ h1 (ix1 l) (ix2 0 l) ?_).trans ?_
  · rw [Shape.rowMajor_val_one, Shape.rowMajor_val_two]; show 0 * 128 + l.val = l.val; omega
  exact extractStridedSlice_apply _ _ hs (ix2 0 l) (ix2 ⟨g, hg⟩ l) fun a =>
    match a with
    | ⟨0, _⟩ => by show g = g + 0; omega
    | ⟨1, _⟩ => by show l.val = 0 + l.val; omega

/-- The row of 2048 angles cut into 16 rows of 128, read at (g, l): angle 128 g + l. -/
theorem tab_apply (a2 : Vec Ideal S1x2048 .f32) (g : Fin 16) (l : Fin 128) :
    k0_pay35 a2 (ix2 g l) = rowAng a2 (g.val * 128 + l.val) := by
  have hlt : g.val * 128 + l.val < 2048 := by have := g.isLt; have := l.isLt; omega
  rw [rowAng, at2_eq a2 0 _ (by omega) hlt]
  unfold k0_pay35
  refine (shapeCast_apply _ _ (ix2 g l) (ix1 ⟨g.val * 128 + l.val, hlt⟩) ?_).trans ?_
  · rw [Shape.rowMajor_val_one, Shape.rowMajor_val_two]; rfl
  exact shapeCast_apply _ _ _ (ix2 ⟨0, by omega⟩ ⟨_, hlt⟩)
    (by rw [Shape.rowMajor_val_one, Shape.rowMajor_val_two]; show 0 * 2048 + (g.val * 128 + l.val) = g.val * 128 + l.val; omega)

/-- The table of cosines at (g, l). -/
theorem cosTab_apply (a2 : Vec Ideal S1x2048 .f32) (g : Fin 16) (l : Fin 128) :
    k0_pay36 a2 (ix2 g l) = Ideal.cos (rowAng a2 (g.val * 128 + l.val)) := by
  rw [← tab_apply]; rfl

/-- The table of sines at (g, l). -/
theorem sinTab_apply (a2 : Vec Ideal S1x2048 .f32) (g : Fin 16) (l : Fin 128) :
    k0_pay37 a2 (ix2 g l) = Ideal.sin (rowAng a2 (g.val * 128 + l.val)) := by
  rw [← tab_apply]; rfl

/-- The low half of group g as the body computes it, read at (r, l) where column g · 256 + l of the row is the
    position: the stage at that position. -/
theorem piece_lo_eq (Y : FVec Ideal S256x4096 .f32) (a2 : Vec Ideal S1x2048 .f32) (g : ℕ) (hg : g < 16) (o1 o2 : ℕ)
    (hs : S16x128.Slices ![g, 0] S1x128) (h1 : S1x128.ShapeCasts S128) (h2 : S128.ShapeCasts S1x128)
    (hb : S1x128.Broadcasts S256x128) (hs1 : S256x4096.Slices ![0, o1] S256x128) (hs2 : S256x4096.Slices ![0, o2] S256x128)
    (j : S256x4096.Idx) (r : Fin 256) (l : Fin 128) (hr : r.val = (j 0).val) (ho1 : o1 = g * (2 * 128)) (ho2 : o2 = g * (2 * 128) + 128)
    (hj : (j 1).val = g * (2 * 128) + l.val) :
    subf (mulf (broadcastTo S256x128 (shapeCast S1x128 (shapeCast S128 (extractStridedSlice S1x128 ![g, 0] (k0_pay36 a2) hs) h1) h2) hb)
               (extractStridedSlice S256x128 ![0, o1] Y hs1))
         (mulf (broadcastTo S256x128 (shapeCast S1x128 (shapeCast S128 (extractStridedSlice S1x128 ![g, 0] (k0_pay37 a2) hs) h1) h2) hb)
               (extractStridedSlice S256x128 ![0, o2] Y hs2)) (ix2 r l)
      = stageArr 128 (rowAng a2) Y j := by
  subst ho1 ho2
  rw [subf_apply, mulf_apply, mulf_apply, row_bcast _ g hg, row_bcast _ g hg, cosTab_apply, sinTab_apply,
    slice_at2 Y _ hs1 r l (g * (2 * 128) + l.val) rfl,
    slice_at2 Y _ hs2 r l (g * (2 * 128) + l.val + 128) (by omega)]
  show _ = stage 128 (rowAng a2) (at2 Y (j 0).val) (j 1).val
  rw [← hr, hj, stage_lo 128 _ _ g l.val l.isLt]

/-- The high half of group g as the body computes it, read at (r, l) where column g · 256 + 128 + l of the row is the
    position: the stage at that position. -/
theorem piece_hi_eq (Y : FVec Ideal S256x4096 .f32) (a2 : Vec Ideal S1x2048 .f32) (g : ℕ) (hg : g < 16) (o1 o2 : ℕ)
    (hs : S16x128.Slices ![g, 0] S1x128) (h1 : S1x128.ShapeCasts S128) (h2 : S128.ShapeCasts S1x128)
    (hb : S1x128.Broadcasts S256x128) (hs1 : S256x4096.Slices ![0, o1] S256x128) (hs2 : S256x4096.Slices ![0, o2] S256x128)
    (j : S256x4096.Idx) (r : Fin 256) (l : Fin 128) (hr : r.val = (j 0).val) (ho1 : o1 = g * (2 * 128)) (ho2 : o2 = g * (2 * 128) + 128)
    (hj : (j 1).val = g * (2 * 128) + 128 + l.val) :
    addf (mulf (broadcastTo S256x128 (shapeCast S1x128 (shapeCast S128 (extractStridedSlice S1x128 ![g, 0] (k0_pay37 a2) hs) h1) h2) hb)
               (extractStridedSlice S256x128 ![0, o1] Y hs1))
         (mulf (broadcastTo S256x128 (shapeCast S1x128 (shapeCast S128 (extractStridedSlice S1x128 ![g, 0] (k0_pay36 a2) hs) h1) h2) hb)
               (extractStridedSlice S256x128 ![0, o2] Y hs2)) (ix2 r l)
      = stageArr 128 (rowAng a2) Y j := by
  subst ho1 ho2
  rw [addf_apply, mulf_apply, mulf_apply, row_bcast _ g hg, row_bcast _ g hg, cosTab_apply, sinTab_apply,
    slice_at2 Y _ hs1 r l (g * (2 * 128) + l.val) rfl,
    slice_at2 Y _ hs2 r l (g * (2 * 128) + l.val + 128) (by omega)]
  show _ = stage 128 (rowAng a2) (at2 Y (j 0).val) (j 1).val
  rw [← hr, hj, stage_hi 128 _ _ g l.val l.isLt]

/-- Pieces of 128 columns laid end to end, read at a column of piece k: piece k at the column less 128 k. -/
theorem concat_piece {α : Type} (xs : List ((s : Shape) × (s.Idx → α))) (h : Shape.Concatenates (xs.map (·.1)) S256x4096 1)
    (j : S256x4096.Idx) (k : ℕ) (hk : k < xs.length) (x₁ : S256x128.Idx → α) (hxk : xs[k] = ⟨S256x128, x₁⟩)
    (hpre : (((xs.take k).map (·.1)).map fun s =>
      if h : s.rank = S256x4096.rank then s.size ((1 : Fin S256x4096.rank).cast h.symm) else 0).sum = 128 * k)
    (r : Fin 256) (l : Fin 128) (hr : r.val = (j 0).val) (hl : 128 * k + l.val = (j 1).val) :
    concatenate S256x4096 1 xs h j = x₁ (ix2 r l) :=
  concatenate_apply_piece 1 xs h j k hk S256x128 x₁ hxk rfl (128 * k) hpre (ix2 r l)
    (fun b => match b with
      | ⟨0, _⟩ => fun _ => hr
      | ⟨1, _⟩ => fun hb => absurd rfl hb) hl

/-- Thirty-two blocks of 256 × 128 laid side by side make a 256 × 4096 block. -/
theorem cat32 : Shape.Concatenates (List.replicate 32 S256x128) S256x4096 1 := by decide

/-- Thirty-two pieces of 128 columns laid end to end, read at a column: piece (column / 128) at (column % 128). -/
theorem concat32 {α : Type} {p0 p1 p2 p3 p4 p5 p6 p7 p8 p9 p10 p11 p12 p13 p14 p15 p16 p17 p18 p19 p20 p21 p22 p23 p24 p25 p26 p27 p28 p29 p30 p31 : S256x128.Idx → α}
    (j : S256x4096.Idx) (k : Fin 32) (hk : (j 1).val / 128 = k.val) (r : Fin 256) (l : Fin 128)
    (hr : r.val = (j 0).val) (hl : l.val = (j 1).val % 128) :
    concatenate S256x4096 1 [⟨S256x128, p0⟩, ⟨S256x128, p1⟩, ⟨S256x128, p2⟩, ⟨S256x128, p3⟩, ⟨S256x128, p4⟩, ⟨S256x128, p5⟩, ⟨S256x128, p6⟩, ⟨S256x128, p7⟩, ⟨S256x128, p8⟩, ⟨S256x128, p9⟩, ⟨S256x128, p10⟩, ⟨S256x128, p11⟩, ⟨S256x128, p12⟩, ⟨S256x128, p13⟩, ⟨S256x128, p14⟩, ⟨S256x128, p15⟩, ⟨S256x128, p16⟩, ⟨S256x128, p17⟩, ⟨S256x128, p18⟩, ⟨S256x128, p19⟩, ⟨S256x128, p20⟩, ⟨S256x128, p21⟩, ⟨S256x128, p22⟩, ⟨S256x128, p23⟩, ⟨S256x128, p24⟩, ⟨S256x128, p25⟩, ⟨S256x128, p26⟩, ⟨S256x128, p27⟩, ⟨S256x128, p28⟩, ⟨S256x128, p29⟩, ⟨S256x128, p30⟩, ⟨S256x128, p31⟩] cat32 j = ![p0, p1, p2, p3, p4, p5, p6, p7, p8, p9, p10, p11, p12, p13, p14, p15, p16, p17, p18, p19, p20, p21, p22, p23, p24, p25, p26, p27, p28, p29, p30, p31] k (ix2 r l) :=
  concatenate_ofFn_apply (t := S256x4096) (s₁ := S256x128) 1 ![p0, p1, p2, p3, p4, p5, p6, p7, p8, p9, p10, p11, p12, p13, p14, p15, p16, p17, p18, p19, p20, p21, p22, p23, p24, p25, p26, p27, p28, p29, p30, p31] cat32 rfl 128 rfl j k hk (ix2 r l) hl
    (fun b => match b with
      | ⟨0, _⟩ => fun _ => hr
      | ⟨1, _⟩ => fun hb => absurd rfl hb)

set_option maxHeartbeats 400000 in
/-- Stage 7 on the concatenated block products. -/
theorem node87_eq (m0 : Vec Ideal S256x4096 .f32) (m1 : FVec Ideal S32x128x128 .bf16) (m2 : FVec Ideal S256x128 .f32) (m3 : FVec Ideal S256x128 .f32) (m4 : FVec Ideal S256x128 .f32) (m5 : FVec Ideal S256x128 .f32) (m6 : FVec Ideal S256x128 .f32) (m7 : FVec Ideal S256x128 .f32) (m8 : FVec Ideal S256x128 .f32) (m9 : FVec Ideal S256x128 .f32) (m10 : FVec Ideal S256x128 .f32) (m11 : FVec Ideal S256x128 .f32) (m12 : FVec Ideal S256x128 .f32) (m13 : FVec Ideal S256x128 .f32) (m14 : FVec Ideal S256x128 .f32) (m15 : FVec Ideal S256x128 .f32) (m16 : FVec Ideal S256x128 .f32) (m17 : FVec Ideal S256x128 .f32) (m18 : FVec Ideal S256x128 .f32) (m19 : FVec Ideal S256x128 .f32) (m20 : FVec Ideal S256x128 .f32) (m21 : FVec Ideal S256x128 .f32) (m22 : FVec Ideal S256x128 .f32) (m23 : FVec Ideal S256x128 .f32) (m24 : FVec Ideal S256x128 .f32) (m25 : FVec Ideal S256x128 .f32) (m26 : FVec Ideal S256x128 .f32) (m27 : FVec Ideal S256x128 .f32) (m28 : FVec Ideal S256x128 .f32) (m29 : FVec Ideal S256x128 .f32) (m30 : FVec Ideal S256x128 .bf16) (a2 : Vec Ideal S1x2048 .f32) :
    k0_pay133 (k0_pay34 m0 m1 m2 m3 m4 m5 m6 m7 m8 m9 m10 m11 m12 m13 m14 m15 m16 m17 m18 m19 m20 m21 m22 m23 m24 m25 m26 m27 m28 m29 m30) (k0_pay36 a2) (k0_pay37 a2) (k0_pay42 m0 m1 m2 m3 m4 m5 m6 m7 m8 m9 m10 m11 m12 m13 m14 m15 m16 m17 m18 m19 m20 m21 m22 m23 m24 m25 m26 m27 m28 m29 m30 a2) (k0_pay43 m0 m1 m2 m3 m4 m5 m6 m7 m8 m9 m10 m11 m12 m13 m14 m15 m16 m17 m18 m19 m20 m21 m22 m23 m24 m25 m26 m27 m28 m29 m30 a2) (k0_pay50 (k0_pay48 m0 m1 m2 m3 m4 m5 m6 m7 m8 m9 m10 m11 m12 m13 m14 m15 m16 m17 m18 m19 m20 m21 m22 m23 m24 m25 m26 m27 m28 m29 m30 a2) (k0_pay49 m0 m1 m2 m3 m4 m5 m6 m7 m8 m9 m10 m11 m12 m13 m14 m15 m16 m17 m18 m19 m20 m21 m22 m23 m24 m25 m26 m27 m28 m29 m30 a2)) (k0_pay51 (k0_pay44 m0 m1 m2 m3 m4 m5 m6 m7 m8 m9 m10 m11 m12 m13 m14 m15 m16 m17 m18 m19 m20 m21 m22 m23 m24 m25 m26 m27 m28 m29 m30) (k0_pay45 m0 m1 m2 m3 m4 m5 m6 m7 m8 m9 m10 m11 m12 m13 m14 m15 m16 m17 m18 m19 m20 m21 m22 m23 m24 m25 m26 m27 m28 m29 m30) (k0_pay46 a2) (k0_pay47 a2)) (k0_pay56 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay57 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay62 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay63 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay68 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay69 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay74 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay75 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay80 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay81 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay86 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay87 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay93 (k0_pay88 (k0_pay34 m0 m1 m2 m3 m4 m5 m6 m7 m8 m9 m10 m11 m12 m13 m14 m15 m16 m17 m18 m19 m20 m21 m22 m23 m24 m25 m26 m27 m28 m29 m30)) (k0_pay89 (k0_pay34 m0 m1 m2 m3 m4 m5 m6 m7 m8 m9 m10 m11 m12 m13 m14 m15 m16 m17 m18 m19 m20 m21 m22 m23 m24 m25 m26 m27 m28 m29 m30)) (k0_pay90 (k0_pay36 a2)) (k0_pay91 (k0_pay37 a2))) (k0_pay94 (k0_pay88 (k0_pay34 m0 m1 m2 m3 m4 m5 m6 m7 m8 m9 m10 m11 m12 m13 m14 m15 m16 m17 m18 m19 m20 m21 m22 m23 m24 m25 m26 m27 m28 m29 m30)) (k0_pay89 (k0_pay34 m0 m1 m2 m3 m4 m5 m6 m7 m8 m9 m10 m11 m12 m13 m14 m15 m16 m17 m18 m19 m20 m21 m22 m23 m24 m25 m26 m27 m28 m29 m30)) (k0_pay90 (k0_pay36 a2)) (k0_pay91 (k0_pay37 a2))) (k0_pay99 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay100 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay105 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay106 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay113 (k0_pay111 (k0_pay34 m0 m1 m2 m3 m4 m5 m6 m7 m8 m9 m10 m11 m12 m13 m14 m15 m16 m17 m18 m19 m20 m21 m22 m23 m24 m25 m26 m27 m28 m29 m30) (k0_pay36 a2)) (k0_pay112 (k0_pay34 m0 m1 m2 m3 m4 m5 m6 m7 m8 m9 m10 m11 m12 m13 m14 m15 m16 m17 m18 m19 m20 m21 m22 m23 m24 m25 m26 m27 m28 m29 m30) (k0_pay37 a2))) (k0_pay114 (k0_pay107 (k0_pay34 m0 m1 m2 m3 m4 m5 m6 m7 m8 m9 m10 m11 m12 m13 m14 m15 m16 m17 m18 m19 m20 m21 m22 m23 m24 m25 m26 m27 m28 m29 m30)) (k0_pay108 (k0_pay34 m0 m1 m2 m3 m4 m5 m6 m7 m8 m9 m10 m11 m12 m13 m14 m15 m16 m17 m18 m19 m20 m21 m22 m23 m24 m25 m26 m27 m28 m29 m30)) (k0_pay109 (k0_pay36 a2)) (k0_pay110 (k0_pay37 a2))) (k0_pay119 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay120 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay125 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay126 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay131 (k0_pay34 m0 m1 m2 m3 m4 m5 m6 m7 m8 m9 m10 m11 m12 m13 m14 m15 m16 m17 m18 m19 m20 m21 m22 m23 m24 m25 m26 m27 m28 m29 m30) (k0_pay36 a2) (k0_pay37 a2)) (k0_pay132 (k0_pay34 m0 m1 m2 m3 m4 m5 m6 m7 m8 m9 m10 m11 m12 m13 m14 m15 m16 m17 m18 m19 m20 m21 m22 m23 m24 m25 m26 m27 m28 m29 m30) (k0_pay36 a2) (k0_pay37 a2))
      = stageArr 128 (rowAng a2) (k0_pay34 m0 m1 m2 m3 m4 m5 m6 m7 m8 m9 m10 m11 m12 m13 m14 m15 m16 m17 m18 m19 m20 m21 m22 m23 m24 m25 m26 m27 m28 m29 m30) := by
  funext j
  have hc : (j 1).val < 4096 := (j 1).isLt
  have hr0 : (j 0).val < 256 := (j 0).isLt
  set Y := k0_pay34 m0 m1 m2 m3 m4 m5 m6 m7 m8 m9 m10 m11 m12 m13 m14 m15 m16 m17 m18 m19 m20 m21 m22 m23 m24 m25 m26 m27 m28 m29 m30
  obtain ⟨q, hq⟩ : ∃ q, q = (j 1).val / 128 := ⟨_, rfl⟩
  have hq32 : q < 32 := by omega
  interval_cases q
  · refine (concat32 j ⟨0, by omega⟩ hq.symm ⟨(j 0).val, hr0⟩ ⟨(j 1).val % 128, Nat.mod_lt _ (by omega)⟩ rfl rfl).trans ?_
    exact piece_lo_eq Y a2 0 (by omega) 0 128 (by decide) (by decide) (by decide) (by decide) (by decide) (by decide) j _ _ rfl rfl rfl
      (by show (j 1).val = 0 * (2 * 128) + (j 1).val % 128; omega)
  · refine (concat32 j ⟨1, by omega⟩ hq.symm ⟨(j 0).val, hr0⟩ ⟨(j 1).val % 128, Nat.mod_lt _ (by omega)⟩ rfl rfl).trans ?_
    exact piece_hi_eq Y a2 0 (by omega) 0 128 (by decide) (by decide) (by decide) (by decide) (by decide) (by decide) j _ _ rfl rfl rfl
      (by show (j 1).val = 0 * (2 * 128) + 128 + (j 1).val % 128; omega)
  · refine (concat32 j ⟨2, by omega⟩ hq.symm ⟨(j 0).val, hr0⟩ ⟨(j 1).val % 128, Nat.mod_lt _ (by omega)⟩ rfl rfl).trans ?_
    exact piece_lo_eq Y a2 1 (by omega) 256 384 (by decide) (by decide) (by decide) (by decide) (by decide) (by decide) j _ _ rfl rfl rfl
      (by show (j 1).val = 1 * (2 * 128) + (j 1).val % 128; omega)
  · refine (concat32 j ⟨3, by omega⟩ hq.symm ⟨(j 0).val, hr0⟩ ⟨(j 1).val % 128, Nat.mod_lt _ (by omega)⟩ rfl rfl).trans ?_
    exact piece_hi_eq Y a2 1 (by omega) 256 384 (by decide) (by decide) (by decide) (by decide) (by decide) (by decide) j _ _ rfl rfl rfl
      (by show (j 1).val = 1 * (2 * 128) + 128 + (j 1).val % 128; omega)
  · refine (concat32 j ⟨4, by omega⟩ hq.symm ⟨(j 0).val, hr0⟩ ⟨(j 1).val % 128, Nat.mod_lt _ (by omega)⟩ rfl rfl).trans ?_
    exact piece_lo_eq Y a2 2 (by omega) 512 640 (by decide) (by decide) (by decide) (by decide) (by decide) (by decide) j _ _ rfl rfl rfl
      (by show (j 1).val = 2 * (2 * 128) + (j 1).val % 128; omega)
  · refine (concat32 j ⟨5, by omega⟩ hq.symm ⟨(j 0).val, hr0⟩ ⟨(j 1).val % 128, Nat.mod_lt _ (by omega)⟩ rfl rfl).trans ?_
    exact piece_hi_eq Y a2 2 (by omega) 512 640 (by decide) (by decide) (by decide) (by decide) (by decide) (by decide) j _ _ rfl rfl rfl
      (by show (j 1).val = 2 * (2 * 128) + 128 + (j 1).val % 128; omega)
  · refine (concat32 j ⟨6, by omega⟩ hq.symm ⟨(j 0).val, hr0⟩ ⟨(j 1).val % 128, Nat.mod_lt _ (by omega)⟩ rfl rfl).trans ?_
    exact piece_lo_eq Y a2 3 (by omega) 768 896 (by decide) (by decide) (by decide) (by decide) (by decide) (by decide) j _ _ rfl rfl rfl
      (by show (j 1).val = 3 * (2 * 128) + (j 1).val % 128; omega)
  · refine (concat32 j ⟨7, by omega⟩ hq.symm ⟨(j 0).val, hr0⟩ ⟨(j 1).val % 128, Nat.mod_lt _ (by omega)⟩ rfl rfl).trans ?_
    exact piece_hi_eq Y a2 3 (by omega) 768 896 (by decide) (by decide) (by decide) (by decide) (by decide) (by decide) j _ _ rfl rfl rfl
      (by show (j 1).val = 3 * (2 * 128) + 128 + (j 1).val % 128; omega)
  · refine (concat32 j ⟨8, by omega⟩ hq.symm ⟨(j 0).val, hr0⟩ ⟨(j 1).val % 128, Nat.mod_lt _ (by omega)⟩ rfl rfl).trans ?_
    exact piece_lo_eq Y a2 4 (by omega) 1024 1152 (by decide) (by decide) (by decide) (by decide) (by decide) (by decide) j _ _ rfl rfl rfl
      (by show (j 1).val = 4 * (2 * 128) + (j 1).val % 128; omega)
  · refine (concat32 j ⟨9, by omega⟩ hq.symm ⟨(j 0).val, hr0⟩ ⟨(j 1).val % 128, Nat.mod_lt _ (by omega)⟩ rfl rfl).trans ?_
    exact piece_hi_eq Y a2 4 (by omega) 1024 1152 (by decide) (by decide) (by decide) (by decide) (by decide) (by decide) j _ _ rfl rfl rfl
      (by show (j 1).val = 4 * (2 * 128) + 128 + (j 1).val % 128; omega)
  · refine (concat32 j ⟨10, by omega⟩ hq.symm ⟨(j 0).val, hr0⟩ ⟨(j 1).val % 128, Nat.mod_lt _ (by omega)⟩ rfl rfl).trans ?_
    exact piece_lo_eq Y a2 5 (by omega) 1280 1408 (by decide) (by decide) (by decide) (by decide) (by decide) (by decide) j _ _ rfl rfl rfl
      (by show (j 1).val = 5 * (2 * 128) + (j 1).val % 128; omega)
  · refine (concat32 j ⟨11, by omega⟩ hq.symm ⟨(j 0).val, hr0⟩ ⟨(j 1).val % 128, Nat.mod_lt _ (by omega)⟩ rfl rfl).trans ?_
    exact piece_hi_eq Y a2 5 (by omega) 1280 1408 (by decide) (by decide) (by decide) (by decide) (by decide) (by decide) j _ _ rfl rfl rfl
      (by show (j 1).val = 5 * (2 * 128) + 128 + (j 1).val % 128; omega)
  · refine (concat32 j ⟨12, by omega⟩ hq.symm ⟨(j 0).val, hr0⟩ ⟨(j 1).val % 128, Nat.mod_lt _ (by omega)⟩ rfl rfl).trans ?_
    exact piece_lo_eq Y a2 6 (by omega) 1536 1664 (by decide) (by decide) (by decide) (by decide) (by decide) (by decide) j _ _ rfl rfl rfl
      (by show (j 1).val = 6 * (2 * 128) + (j 1).val % 128; omega)
  · refine (concat32 j ⟨13, by omega⟩ hq.symm ⟨(j 0).val, hr0⟩ ⟨(j 1).val % 128, Nat.mod_lt _ (by omega)⟩ rfl rfl).trans ?_
    exact piece_hi_eq Y a2 6 (by omega) 1536 1664 (by decide) (by decide) (by decide) (by decide) (by decide) (by decide) j _ _ rfl rfl rfl
      (by show (j 1).val = 6 * (2 * 128) + 128 + (j 1).val % 128; omega)
  · refine (concat32 j ⟨14, by omega⟩ hq.symm ⟨(j 0).val, hr0⟩ ⟨(j 1).val % 128, Nat.mod_lt _ (by omega)⟩ rfl rfl).trans ?_
    exact piece_lo_eq Y a2 7 (by omega) 1792 1920 (by decide) (by decide) (by decide) (by decide) (by decide) (by decide) j _ _ rfl rfl rfl
      (by show (j 1).val = 7 * (2 * 128) + (j 1).val % 128; omega)
  · refine (concat32 j ⟨15, by omega⟩ hq.symm ⟨(j 0).val, hr0⟩ ⟨(j 1).val % 128, Nat.mod_lt _ (by omega)⟩ rfl rfl).trans ?_
    exact piece_hi_eq Y a2 7 (by omega) 1792 1920 (by decide) (by decide) (by decide) (by decide) (by decide) (by decide) j _ _ rfl rfl rfl
      (by show (j 1).val = 7 * (2 * 128) + 128 + (j 1).val % 128; omega)
  · refine (concat32 j ⟨16, by omega⟩ hq.symm ⟨(j 0).val, hr0⟩ ⟨(j 1).val % 128, Nat.mod_lt _ (by omega)⟩ rfl rfl).trans ?_
    exact piece_lo_eq Y a2 8 (by omega) 2048 2176 (by decide) (by decide) (by decide) (by decide) (by decide) (by decide) j _ _ rfl rfl rfl
      (by show (j 1).val = 8 * (2 * 128) + (j 1).val % 128; omega)
  · refine (concat32 j ⟨17, by omega⟩ hq.symm ⟨(j 0).val, hr0⟩ ⟨(j 1).val % 128, Nat.mod_lt _ (by omega)⟩ rfl rfl).trans ?_
    exact piece_hi_eq Y a2 8 (by omega) 2048 2176 (by decide) (by decide) (by decide) (by decide) (by decide) (by decide) j _ _ rfl rfl rfl
      (by show (j 1).val = 8 * (2 * 128) + 128 + (j 1).val % 128; omega)
  · refine (concat32 j ⟨18, by omega⟩ hq.symm ⟨(j 0).val, hr0⟩ ⟨(j 1).val % 128, Nat.mod_lt _ (by omega)⟩ rfl rfl).trans ?_
    exact piece_lo_eq Y a2 9 (by omega) 2304 2432 (by decide) (by decide) (by decide) (by decide) (by decide) (by decide) j _ _ rfl rfl rfl
      (by show (j 1).val = 9 * (2 * 128) + (j 1).val % 128; omega)
  · refine (concat32 j ⟨19, by omega⟩ hq.symm ⟨(j 0).val, hr0⟩ ⟨(j 1).val % 128, Nat.mod_lt _ (by omega)⟩ rfl rfl).trans ?_
    exact piece_hi_eq Y a2 9 (by omega) 2304 2432 (by decide) (by decide) (by decide) (by decide) (by decide) (by decide) j _ _ rfl rfl rfl
      (by show (j 1).val = 9 * (2 * 128) + 128 + (j 1).val % 128; omega)
  · refine (concat32 j ⟨20, by omega⟩ hq.symm ⟨(j 0).val, hr0⟩ ⟨(j 1).val % 128, Nat.mod_lt _ (by omega)⟩ rfl rfl).trans ?_
    exact piece_lo_eq Y a2 10 (by omega) 2560 2688 (by decide) (by decide) (by decide) (by decide) (by decide) (by decide) j _ _ rfl rfl rfl
      (by show (j 1).val = 10 * (2 * 128) + (j 1).val % 128; omega)
  · refine (concat32 j ⟨21, by omega⟩ hq.symm ⟨(j 0).val, hr0⟩ ⟨(j 1).val % 128, Nat.mod_lt _ (by omega)⟩ rfl rfl).trans ?_
    exact piece_hi_eq Y a2 10 (by omega) 2560 2688 (by decide) (by decide) (by decide) (by decide) (by decide) (by decide) j _ _ rfl rfl rfl
      (by show (j 1).val = 10 * (2 * 128) + 128 + (j 1).val % 128; omega)
  · refine (concat32 j ⟨22, by omega⟩ hq.symm ⟨(j 0).val, hr0⟩ ⟨(j 1).val % 128, Nat.mod_lt _ (by omega)⟩ rfl rfl).trans ?_
    exact piece_lo_eq Y a2 11 (by omega) 2816 2944 (by decide) (by decide) (by decide) (by decide) (by decide) (by decide) j _ _ rfl rfl rfl
      (by show (j 1).val = 11 * (2 * 128) + (j 1).val % 128; omega)
  · refine (concat32 j ⟨23, by omega⟩ hq.symm ⟨(j 0).val, hr0⟩ ⟨(j 1).val % 128, Nat.mod_lt _ (by omega)⟩ rfl rfl).trans ?_
    exact piece_hi_eq Y a2 11 (by omega) 2816 2944 (by decide) (by decide) (by decide) (by decide) (by decide) (by decide) j _ _ rfl rfl rfl
      (by show (j 1).val = 11 * (2 * 128) + 128 + (j 1).val % 128; omega)
  · refine (concat32 j ⟨24, by omega⟩ hq.symm ⟨(j 0).val, hr0⟩ ⟨(j 1).val % 128, Nat.mod_lt _ (by omega)⟩ rfl rfl).trans ?_
    exact piece_lo_eq Y a2 12 (by omega) 3072 3200 (by decide) (by decide) (by decide) (by decide) (by decide) (by decide) j _ _ rfl rfl rfl
      (by show (j 1).val = 12 * (2 * 128) + (j 1).val % 128; omega)
  · refine (concat32 j ⟨25, by omega⟩ hq.symm ⟨(j 0).val, hr0⟩ ⟨(j 1).val % 128, Nat.mod_lt _ (by omega)⟩ rfl rfl).trans ?_
    exact piece_hi_eq Y a2 12 (by omega) 3072 3200 (by decide) (by decide) (by decide) (by decide) (by decide) (by decide) j _ _ rfl rfl rfl
      (by show (j 1).val = 12 * (2 * 128) + 128 + (j 1).val % 128; omega)
  · refine (concat32 j ⟨26, by omega⟩ hq.symm ⟨(j 0).val, hr0⟩ ⟨(j 1).val % 128, Nat.mod_lt _ (by omega)⟩ rfl rfl).trans ?_
    exact piece_lo_eq Y a2 13 (by omega) 3328 3456 (by decide) (by decide) (by decide) (by decide) (by decide) (by decide) j _ _ rfl rfl rfl
      (by show (j 1).val = 13 * (2 * 128) + (j 1).val % 128; omega)
  · refine (concat32 j ⟨27, by omega⟩ hq.symm ⟨(j 0).val, hr0⟩ ⟨(j 1).val % 128, Nat.mod_lt _ (by omega)⟩ rfl rfl).trans ?_
    exact piece_hi_eq Y a2 13 (by omega) 3328 3456 (by decide) (by decide) (by decide) (by decide) (by decide) (by decide) j _ _ rfl rfl rfl
      (by show (j 1).val = 13 * (2 * 128) + 128 + (j 1).val % 128; omega)
  · refine (concat32 j ⟨28, by omega⟩ hq.symm ⟨(j 0).val, hr0⟩ ⟨(j 1).val % 128, Nat.mod_lt _ (by omega)⟩ rfl rfl).trans ?_
    exact piece_lo_eq Y a2 14 (by omega) 3584 3712 (by decide) (by decide) (by decide) (by decide) (by decide) (by decide) j _ _ rfl rfl rfl
      (by show (j 1).val = 14 * (2 * 128) + (j 1).val % 128; omega)
  · refine (concat32 j ⟨29, by omega⟩ hq.symm ⟨(j 0).val, hr0⟩ ⟨(j 1).val % 128, Nat.mod_lt _ (by omega)⟩ rfl rfl).trans ?_
    exact piece_hi_eq Y a2 14 (by omega) 3584 3712 (by decide) (by decide) (by decide) (by decide) (by decide) (by decide) j _ _ rfl rfl rfl
      (by show (j 1).val = 14 * (2 * 128) + 128 + (j 1).val % 128; omega)
  · refine (concat32 j ⟨30, by omega⟩ hq.symm ⟨(j 0).val, hr0⟩ ⟨(j 1).val % 128, Nat.mod_lt _ (by omega)⟩ rfl rfl).trans ?_
    exact piece_lo_eq Y a2 15 (by omega) 3840 3968 (by decide) (by decide) (by decide) (by decide) (by decide) (by decide) j _ _ rfl rfl rfl
      (by show (j 1).val = 15 * (2 * 128) + (j 1).val % 128; omega)
  · refine (concat32 j ⟨31, by omega⟩ hq.symm ⟨(j 0).val, hr0⟩ ⟨(j 1).val % 128, Nat.mod_lt _ (by omega)⟩ rfl rfl).trans ?_
    exact piece_hi_eq Y a2 15 (by omega) 3840 3968 (by decide) (by decide) (by decide) (by decide) (by decide) (by decide) j _ _ rfl rfl rfl
      (by show (j 1).val = 15 * (2 * 128) + 128 + (j 1).val % 128; omega)

end Cert.KernelIdeal.BodyValue.S7

end
-- ==== Proof.BodyS8.lean ====
import proofs.«124778_j35845797052976_1_alg».proof.Proof.Gen.KernelIdeal.Skeleton
import Idealize.ShloMosaic.Lib.ValueIdx
import Idealize.ShloMosaic.PureOps.Ideal
import Idealize.ShloMosaic.Lib.Pipeline.Value
import proofs.«124778_j35845797052976_1_alg».proof.Proof.Spec
import proofs.«124778_j35845797052976_1_alg».proof.Proof.SpecLemmas

/-
  Stage 8 of the butterfly (distance 256) as the kernel computes it.

  The row of 2048 angles is cut into 8 rows of 256 (one row per group of 512 columns) and its cosines and sines are
  taken.  For group G the two blocks of 256 columns at 512 G and 512 G + 256 of the array stage 7 left are combined:
      low  = cos[G] · v0 − sin[G] · v1,      high = sin[G] · v0 + cos[G] · v1,
  and the sixteen blocks are put side by side.  Read at (r, c), c = 256 k + l, this is block k at (r, l), which is the
  stage's value at position 512 (k / 2) + l (k even) or 512 (k / 2) + 256 + l (k odd) of row r.
-/

noncomputable section

namespace Cert.KernelIdeal.BodyValue.S8

open Cert.KernelIdeal Cert.KernelIdeal.Gen Cert.Bfly Idealize.ShloMosaic Idealize.ShloMosaic.ValueIdx

/-- A two-axis array read inside its extents. -/
theorem at2_of_lt {B n : ℕ} (X : (⟨2, ![B, n]⟩ : Shape).Idx → EReal) (b i : ℕ) (hb : b < B) (hi : i < n) :
    at2 X b i = X (ix2 ⟨b, hb⟩ ⟨i, hi⟩) := dif_pos ⟨hb, hi⟩

/-- A block of 256 columns cut out at column o, read at (r, l): the array at (r, o + l). -/
theorem colSlice_apply (Y : FVec Ideal S256x4096 .f32) (o : ℕ) (ho : o + 256 ≤ 4096)
    (h : S256x4096.Slices ![0, o] S256x256) (r l : Fin 256) :
    extractStridedSlice S256x256 ![0, o] Y h (ix2 r l) = at2 Y r.val (o + l.val) := by
  rw [at2_of_lt Y r.val (o + l.val) r.isLt (by have := l.isLt; omega)]
  refine extractStridedSlice_apply _ Y h (ix2 r l) _ fun a => ?_
  match a with
  | ⟨0, _⟩ => show r.val = 0 + r.val; omega
  | ⟨1, _⟩ => rfl

/-- Row g of an 8 × 256 table, flattened, restored and spread over 256 rows, read at (r, l): the table at (g, l). -/
theorem rowBcast_apply (C : FVec Ideal S8x256 .f32) (g : ℕ) (hg : g < 8)
    (h1 : S8x256.Slices ![g, 0] S1x256) (h2 : S1x256.ShapeCasts S256) (h3 : S256.ShapeCasts S1x256)
    (h4 : S1x256.Broadcasts S256x256) (r l : Fin 256) :
    broadcastTo S256x256 (shapeCast S1x256 (shapeCast S256 (extractStridedSlice S1x256 ![g, 0] C h1) h2) h3) h4 (ix2 r l)
      = C (ix2 ⟨g, hg⟩ l) := by
  refine (broadcastTo_apply _ h4 (ix2 r l) (ix2 0 l) fun a => ?_).trans ?_
  · match a with
    | ⟨0, _⟩ => rfl
    | ⟨1, _⟩ => rfl
  refine (shapeCast_apply _ h3 (ix2 0 l) (ix1 l) ?_).trans ?_
  · rw [Shape.rowMajor_val_one, Shape.rowMajor_val_two]
    show l.val = 0 * 256 + l.val
    omega
  refine (shapeCast_apply _ h2 (ix1 l) (ix2 0 l) ?_).trans ?_
  · rw [Shape.rowMajor_val_one, Shape.rowMajor_val_two]
    show 0 * 256 + l.val = l.val
    omega
  refine extractStridedSlice_apply _ C h1 (ix2 0 l) (ix2 ⟨g, hg⟩ l) fun a => ?_
  match a with
  | ⟨0, _⟩ => rfl
  | ⟨1, _⟩ => show l.val = 0 + l.val; omega

/-- The row of 2048 angles cut into 8 rows of 256, read at (g, l): angle 256 g + l. -/
theorem angTab_apply (a3 : Vec Ideal S1x2048 .f32) (g : ℕ) (hg : g < 8) (l : Fin 256) :
    k0_pay134 (F := Ideal) a3 (ix2 ⟨g, hg⟩ l) = rowAng a3 (g * 256 + l.val) := by
  have hl := l.isLt
  unfold rowAng
  rw [at2_of_lt a3 0 (g * 256 + l.val) (by omega) (by omega)]
  unfold k0_pay134
  refine (shapeCast_apply _ _ (ix2 ⟨g, hg⟩ l) (ix1 ⟨g * 256 + l.val, by omega⟩) ?_).trans ?_
  · rw [Shape.rowMajor_val_one, Shape.rowMajor_val_two]
    show g * 256 + l.val = g * 256 + l.val
    rfl
  refine shapeCast_apply _ _ _ (ix2 ⟨0, by omega⟩ ⟨g * 256 + l.val, by omega⟩) ?_
  rw [Shape.rowMajor_val_one, Shape.rowMajor_val_two]
  show 0 * 2048 + (g * 256 + l.val) = g * 256 + l.val
  omega

/-- The cosines of the angles cut into 8 rows of 256, read at (g, l). -/
theorem cosTab_apply (a3 : Vec Ideal S1x2048 .f32) (g : ℕ) (hg : g < 8) (l : Fin 256) :
    k0_pay135 (F := Ideal) a3 (ix2 ⟨g, hg⟩ l) = Ideal.cos (rowAng a3 (g * 256 + l.val)) := by
  rw [← angTab_apply a3 g hg l]
  rfl

/-- The sines of the angles cut into 8 rows of 256, read at (g, l). -/
theorem sinTab_apply (a3 : Vec Ideal S1x2048 .f32) (g : ℕ) (hg : g < 8) (l : Fin 256) :
    k0_pay136 (F := Ideal) a3 (ix2 ⟨g, hg⟩ l) = Ideal.sin (rowAng a3 (g * 256 + l.val)) := by
  rw [← angTab_apply a3 g hg l]
  rfl

/-- The low half of group G, as the kernel computes it, is the stage at position 512 G + l. -/
theorem piece_lo (a3 : Vec Ideal S1x2048 .f32) (Y : FVec Ideal S256x4096 .f32) (G o1 o2 : ℕ) (hG : G < 8)
    (e1 : o1 = G * 512) (e2 : o2 = G * 512 + 256)
    (h1 h1' : S8x256.Slices ![G, 0] S1x256) (h2 h2' : S1x256.ShapeCasts S256) (h3 h3' : S256.ShapeCasts S1x256)
    (h4 h4' : S1x256.Broadcasts S256x256)
    (hy1 : S256x4096.Slices ![0, o1] S256x256) (hy2 : S256x4096.Slices ![0, o2] S256x256)
    (r l : Fin 256) (c : ℕ) (hc : c = o1 + l.val) :
    subf
      (mulf (broadcastTo S256x256 (shapeCast S1x256 (shapeCast S256 (extractStridedSlice S1x256 ![G, 0] (k0_pay135 (F := Ideal) a3) h1) h2) h3) h4)
        (extractStridedSlice S256x256 ![0, o1] Y hy1))
      (mulf (broadcastTo S256x256 (shapeCast S1x256 (shapeCast S256 (extractStridedSlice S1x256 ![G, 0] (k0_pay136 (F := Ideal) a3) h1') h2') h3') h4')
        (extractStridedSlice S256x256 ![0, o2] Y hy2)) (ix2 r l)
      = stage 256 (rowAng a3) (at2 Y r.val) c := by
  have hl := l.isLt
  have hc' : c = G * (2 * 256) + l.val := by omega
  rw [hc', stage_lo 256 _ _ G l.val hl, subf_apply, mulf_apply, mulf_apply, rowBcast_apply _ G hG, rowBcast_apply _ G hG,
    colSlice_apply Y o1 (by omega), colSlice_apply Y o2 (by omega), cosTab_apply, sinTab_apply]
  have p1 : o1 + l.val = G * (2 * 256) + l.val := by omega
  have p2 : o2 + l.val = G * (2 * 256) + l.val + 256 := by omega
  rw [p1, p2]

/-- The high half of group G, as the kernel computes it, is the stage at position 512 G + 256 + l. -/
theorem piece_hi (a3 : Vec Ideal S1x2048 .f32) (Y : FVec Ideal S256x4096 .f32) (G o1 o2 : ℕ) (hG : G < 8)
    (e1 : o1 = G * 512) (e2 : o2 = G * 512 + 256)
    (h1 h1' : S8x256.Slices ![G, 0] S1x256) (h2 h2' : S1x256.ShapeCasts S256) (h3 h3' : S256.ShapeCasts S1x256)
    (h4 h4' : S1x256.Broadcasts S256x256)
    (hy1 : S256x4096.Slices ![0, o1] S256x256) (hy2 : S256x4096.Slices ![0, o2] S256x256)
    (r l : Fin 256) (c : ℕ) (hc : c = o2 + l.val) :
    addf
      (mulf (broadcastTo S256x256 (shapeCast S1x256 (shapeCast S256 (extractStridedSlice S1x256 ![G, 0] (k0_pay136 (F := Ideal) a3) h1) h2) h3) h4)
        (extractStridedSlice S256x256 ![0, o1] Y hy1))
      (mulf (broadcastTo S256x256 (shapeCast S1x256 (shapeCast S256 (extractStridedSlice S1x256 ![G, 0] (k0_pay135 (F := Ideal) a3) h1') h2') h3') h4')
        (extractStridedSlice S256x256 ![0, o2] Y hy2)) (ix2 r l)
      = stage 256 (rowAng a3) (at2 Y r.val) c := by
  have hl := l.isLt
  have hc' : c = G * (2 * 256) + 256 + l.val := by omega
  rw [hc', stage_hi 256 _ _ G l.val hl, addf_apply, mulf_apply, mulf_apply, rowBcast_apply _ G hG, rowBcast_apply _ G hG,
    colSlice_apply Y o1 (by omega), colSlice_apply Y o2 (by omega), cosTab_apply, sinTab_apply]
  have p1 : o1 + l.val = G * (2 * 256) + l.val := by omega
  have p2 : o2 + l.val = G * (2 * 256) + l.val + 256 := by omega
  rw [p1, p2]

/-- A concatenation along the columns into a 256 × 4096 array, read at (r, c): the piece of width 256 that holds column c. -/
theorem concat_read (xs : List ((s : Shape) × (s.Idx → EReal))) (h : Shape.Concatenates (xs.map (·.1)) S256x4096 1)
    (r : Fin 256) (c : Fin 4096) (k : ℕ) (x : S256x256.Idx → EReal) (hxk : xs[k]? = some ⟨S256x256, x⟩)
    (pre : ℕ)
    (hpre : (((xs.take k).map (·.1)).map fun s => if h : s.rank = S256x4096.rank then s.size ((1 : Fin S256x4096.rank).cast h.symm) else 0).sum = pre)
    (l : Fin 256) (hc : pre + l.val = c.val) :
    concatenate S256x4096 1 xs h (ix2 r c) = x (ix2 r l) := by
  obtain ⟨hk, hx⟩ := List.getElem?_eq_some_iff.1 hxk
  refine concatenate_apply_piece 1 xs h (ix2 r c) k hk S256x256 x hx rfl pre hpre (ix2 r l) (fun b hb => ?_) hc
  match b with
  | ⟨0, _⟩ => rfl
  | ⟨1, _⟩ => exact absurd rfl hb

/-- Sixteen pieces of width 256 side by side, read at (r, c) with c = 256 k + l: piece k at (r, l). -/
theorem concat16_read (q0 q1 q2 q3 q4 q5 q6 q7 q8 q9 q10 q11 q12 q13 q14 q15 : S256x256.Idx → EReal)
    (h : Shape.Concatenates [S256x256, S256x256, S256x256, S256x256, S256x256, S256x256, S256x256, S256x256, S256x256, S256x256, S256x256, S256x256, S256x256, S256x256, S256x256, S256x256] S256x4096 1)
    (r : Fin 256) (c : Fin 4096) (l : Fin 256) (k : ℕ) (hc : 256 * k + l.val = c.val) (v : EReal)
    (H0 : k = 0 → q0 (ix2 r l) = v)
    (H1 : k = 1 → q1 (ix2 r l) = v)
    (H2 : k = 2 → q2 (ix2 r l) = v)
    (H3 : k = 3 → q3 (ix2 r l) = v)
    (H4 : k = 4 → q4 (ix2 r l) = v)
    (H5 : k = 5 → q5 (ix2 r l) = v)
    (H6 : k = 6 → q6 (ix2 r l) = v)
    (H7 : k = 7 → q7 (ix2 r l) = v)
    (H8 : k = 8 → q8 (ix2 r l) = v)
    (H9 : k = 9 → q9 (ix2 r l) = v)
    (H10 : k = 10 → q10 (ix2 r l) = v)
    (H11 : k = 11 → q11 (ix2 r l) = v)
    (H12 : k = 12 → q12 (ix2 r l) = v)
    (H13 : k = 13 → q13 (ix2 r l) = v)
    (H14 : k = 14 → q14 (ix2 r l) = v)
    (H15 : k = 15 → q15 (ix2 r l) = v) :
    concatenate S256x4096 1 [⟨S256x256, q0⟩, ⟨S256x256, q1⟩, ⟨S256x256, q2⟩, ⟨S256x256, q3⟩, ⟨S256x256, q4⟩, ⟨S256x256, q5⟩, ⟨S256x256, q6⟩, ⟨S256x256, q7⟩, ⟨S256x256, q8⟩, ⟨S256x256, q9⟩, ⟨S256x256, q10⟩, ⟨S256x256, q11⟩, ⟨S256x256, q12⟩, ⟨S256x256, q13⟩, ⟨S256x256, q14⟩, ⟨S256x256, q15⟩] h (ix2 r c) = v := by
  have hl := l.isLt
  have hcc := c.isLt
  have hk : k < 16 := by omega
  have R := concat_read [⟨S256x256, q0⟩, ⟨S256x256, q1⟩, ⟨S256x256, q2⟩, ⟨S256x256, q3⟩, ⟨S256x256, q4⟩, ⟨S256x256, q5⟩, ⟨S256x256, q6⟩, ⟨S256x256, q7⟩, ⟨S256x256, q8⟩, ⟨S256x256, q9⟩, ⟨S256x256, q10⟩, ⟨S256x256, q11⟩, ⟨S256x256, q12⟩, ⟨S256x256, q13⟩, ⟨S256x256, q14⟩, ⟨S256x256, q15⟩] h r c
  interval_cases k
  · exact (R 0 q0 rfl 0 (by simp) l (by omega)).trans (H0 rfl)
  · exact (R 1 q1 rfl 256 (by simp) l (by omega)).trans (H1 rfl)
  · exact (R 2 q2 rfl 512 (by simp) l (by omega)).trans (H2 rfl)
  · exact (R 3 q3 rfl 768 (by simp) l (by omega)).trans (H3 rfl)
  · exact (R 4 q4 rfl 1024 (by simp) l (by omega)).trans (H4 rfl)
  · exact (R 5 q5 rfl 1280 (by simp) l (by omega)).trans (H5 rfl)
  · exact (R 6 q6 rfl 1536 (by simp) l (by omega)).trans (H6 rfl)
  · exact (R 7 q7 rfl 1792 (by simp) l (by omega)).trans (H7 rfl)
  · exact (R 8 q8 rfl 2048 (by simp) l (by omega)).trans (H8 rfl)
  · exact (R 9 q9 rfl 2304 (by simp) l (by omega)).trans (H9 rfl)
  · exact (R 10 q10 rfl 2560 (by simp) l (by omega)).trans (H10 rfl)
  · exact (R 11 q11 rfl 2816 (by simp) l (by omega)).trans (H11 rfl)
  · exact (R 12 q12 rfl 3072 (by simp) l (by omega)).trans (H12 rfl)
  · exact (R 13 q13 rfl 3328 (by simp) l (by omega)).trans (H13 rfl)
  · exact (R 14 q14 rfl 3584 (by simp) l (by omega)).trans (H14 rfl)
  · exact (R 15 q15 rfl 3840 (by simp) l (by omega)).trans (H15 rfl)

/-- Stage 8 on the array stage 7 left. -/
theorem node111_eq (p0 : FVec Ideal S256x4096 .f32) (p1 : FVec Ideal S16x128 .f32) (p2 : FVec Ideal S16x128 .f32) (p3 : FVec Ideal S256x128 .f32) (p4 : FVec Ideal S256x128 .f32) (p5 : FVec Ideal S256x128 .f32) (p6 : FVec Ideal S256x128 .f32) (p7 : FVec Ideal S256x128 .f32) (p8 : FVec Ideal S256x128 .f32) (p9 : FVec Ideal S256x128 .f32) (p10 : FVec Ideal S256x128 .f32) (p11 : FVec Ideal S256x128 .f32) (p12 : FVec Ideal S256x128 .f32) (p13 : FVec Ideal S256x128 .f32) (p14 : FVec Ideal S256x128 .f32) (p15 : FVec Ideal S256x128 .f32) (p16 : FVec Ideal S256x128 .f32) (p17 : FVec Ideal S256x128 .f32) (p18 : FVec Ideal S256x128 .f32) (p19 : FVec Ideal S256x128 .f32) (p20 : FVec Ideal S256x128 .f32) (p21 : FVec Ideal S256x128 .f32) (p22 : FVec Ideal S256x128 .f32) (p23 : FVec Ideal S256x128 .f32) (p24 : FVec Ideal S256x128 .f32) (p25 : FVec Ideal S256x128 .f32) (p26 : FVec Ideal S256x128 .f32) (p27 : FVec Ideal S256x128 .f32) (p28 : FVec Ideal S256x128 .f32) (p29 : FVec Ideal S256x128 .f32) (p30 : FVec Ideal S256x128 .f32) (p31 : FVec Ideal S256x128 .f32) (p32 : FVec Ideal S256x128 .f32) (a3 : Vec Ideal S1x2048 .f32) :
    k0_pay172 (k0_pay133 p0 p1 p2 p3 p4 p5 p6 p7 p8 p9 p10 p11 p12 p13 p14 p15 p16 p17 p18 p19 p20 p21 p22 p23 p24 p25 p26 p27 p28 p29 p30 p31 p32) (k0_pay135 a3) (k0_pay136 a3) (k0_pay141 p0 p1 p2 p3 p4 p5 p6 p7 p8 p9 p10 p11 p12 p13 p14 p15 p16 p17 p18 p19 p20 p21 p22 p23 p24 p25 p26 p27 p28 p29 p30 p31 p32 a3) (k0_pay142 p0 p1 p2 p3 p4 p5 p6 p7 p8 p9 p10 p11 p12 p13 p14 p15 p16 p17 p18 p19 p20 p21 p22 p23 p24 p25 p26 p27 p28 p29 p30 p31 p32 a3) (k0_pay147 p0 p1 p2 p3 p4 p5 p6 p7 p8 p9 p10 p11 p12 p13 p14 p15 p16 p17 p18 p19 p20 p21 p22 p23 p24 p25 p26 p27 p28 p29 p30 p31 p32 a3) (k0_pay150 (k0_pay144 p0 p1 p2 p3 p4 p5 p6 p7 p8 p9 p10 p11 p12 p13 p14 p15 p16 p17 p18 p19 p20 p21 p22 p23 p24 p25 p26 p27 p28 p29 p30 p31 p32) (k0_pay148 p0 p1 p2 p3 p4 p5 p6 p7 p8 p9 p10 p11 p12 p13 p14 p15 p16 p17 p18 p19 p20 p21 p22 p23 p24 p25 p26 p27 p28 p29 p30 p31 p32 a3) (k0_pay149 a3)) (k0_pay155 (k0_pay133 p0 p1 p2 p3 p4 p5 p6 p7 p8 p9 p10 p11 p12 p13 p14 p15 p16 p17 p18 p19 p20 p21 p22 p23 p24 p25 p26 p27 p28 p29 p30 p31 p32) (k0_pay135 a3) (k0_pay136 a3)) (k0_pay156 (k0_pay133 p0 p1 p2 p3 p4 p5 p6 p7 p8 p9 p10 p11 p12 p13 p14 p15 p16 p17 p18 p19 p20 p21 p22 p23 p24 p25 p26 p27 p28 p29 p30 p31 p32) (k0_pay135 a3) (k0_pay136 a3)) (k0_pay161 (k0_pay133 p0 p1 p2 p3 p4 p5 p6 p7 p8 p9 p10 p11 p12 p13 p14 p15 p16 p17 p18 p19 p20 p21 p22 p23 p24 p25 p26 p27 p28 p29 p30 p31 p32) (k0_pay135 a3) (k0_pay136 a3)) (k0_pay162 (k0_pay133 p0 p1 p2 p3 p4 p5 p6 p7 p8 p9 p10 p11 p12 p13 p14 p15 p16 p17 p18 p19 p20 p21 p22 p23 p24 p25 p26 p27 p28 p29 p30 p31 p32) (k0_pay135 a3) (k0_pay136 a3)) (k0_pay167 (k0_pay133 p0 p1 p2 p3 p4 p5 p6 p7 p8 p9 p10 p11 p12 p13 p14 p15 p16 p17 p18 p19 p20 p21 p22 p23 p24 p25 p26 p27 p28 p29 p30 p31 p32) (k0_pay135 a3) (k0_pay136 a3)) (k0_pay168 (k0_pay133 p0 p1 p2 p3 p4 p5 p6 p7 p8 p9 p10 p11 p12 p13 p14 p15 p16 p17 p18 p19 p20 p21 p22 p23 p24 p25 p26 p27 p28 p29 p30 p31 p32) (k0_pay135 a3) (k0_pay136 a3)) (k0_pay169 (k0_pay133 p0 p1 p2 p3 p4 p5 p6 p7 p8 p9 p10 p11 p12 p13 p14 p15 p16 p17 p18 p19 p20 p21 p22 p23 p24 p25 p26 p27 p28 p29 p30 p31 p32)) (k0_pay170 (k0_pay133 p0 p1 p2 p3 p4 p5 p6 p7 p8 p9 p10 p11 p12 p13 p14 p15 p16 p17 p18 p19 p20 p21 p22 p23 p24 p25 p26 p27 p28 p29 p30 p31 p32)) (k0_pay171 (k0_pay135 a3))
      = stageArr 256 (rowAng a3) (k0_pay133 p0 p1 p2 p3 p4 p5 p6 p7 p8 p9 p10 p11 p12 p13 p14 p15 p16 p17 p18 p19 p20 p21 p22 p23 p24 p25 p26 p27 p28 p29 p30 p31 p32) := by
  simp only [k0_pay141, k0_pay142, k0_pay147, k0_pay144, k0_pay148, k0_pay137, k0_pay138, k0_pay143]
  generalize k0_pay133 p0 p1 p2 p3 p4 p5 p6 p7 p8 p9 p10 p11 p12 p13 p14 p15 p16 p17 p18 p19 p20 p21 p22 p23 p24 p25 p26 p27 p28 p29 p30 p31 p32 = Y
  funext j
  obtain ⟨r, c, rfl⟩ : ∃ r c, j = ix2 r c := ⟨j 0, j 1, eq_ix2 j⟩
  show _ = stage 256 (rowAng a3) (at2 Y r.val) c.val
  simp only [k0_pay172, k0_pay139, k0_pay140, k0_pay145, k0_pay146, k0_pay149, k0_pay150, k0_pay151, k0_pay152, k0_pay153,
    k0_pay154, k0_pay155, k0_pay156, k0_pay157, k0_pay158, k0_pay159, k0_pay160, k0_pay161, k0_pay162, k0_pay163, k0_pay164,
    k0_pay165, k0_pay166, k0_pay167, k0_pay168, k0_pay169, k0_pay170, k0_pay171]
  have hc := c.isLt
  obtain ⟨l, hl⟩ : ∃ l : Fin 256, l.val = c.val % 256 := ⟨⟨c.val % 256, Nat.mod_lt _ (by norm_num)⟩, rfl⟩
  refine concat16_read _ _ _ _ _ _ _ _ _ _ _ _ _ _ _ _ _ r c l (c.val / 256) (by omega) _
    ?_ ?_ ?_ ?_ ?_ ?_ ?_ ?_ ?_ ?_ ?_ ?_ ?_ ?_ ?_ ?_
  · intro hk
    exact piece_lo a3 Y 0 0 256 (by norm_num) rfl rfl _ _ _ _ _ _ _ _ _ _ r l c.val (by omega)
  · intro hk
    exact piece_hi a3 Y 0 0 256 (by norm_num) rfl rfl _ _ _ _ _ _ _ _ _ _ r l c.val (by omega)
  · intro hk
    exact piece_lo a3 Y 1 512 768 (by norm_num) rfl rfl _ _ _ _ _ _ _ _ _ _ r l c.val (by omega)
  · intro hk
    exact piece_hi a3 Y 1 512 768 (by norm_num) rfl rfl _ _ _ _ _ _ _ _ _ _ r l c.val (by omega)
  · intro hk
    exact piece_lo a3 Y 2 1024 1280 (by norm_num) rfl rfl _ _ _ _ _ _ _ _ _ _ r l c.val (by omega)
  · intro hk
    exact piece_hi a3 Y 2 1024 1280 (by norm_num) rfl rfl _ _ _ _ _ _ _ _ _ _ r l c.val (by omega)
  · intro hk
    exact piece_lo a3 Y 3 1536 1792 (by norm_num) rfl rfl _ _ _ _ _ _ _ _ _ _ r l c.val (by omega)
  · intro hk
    exact piece_hi a3 Y 3 1536 1792 (by norm_num) rfl rfl _ _ _ _ _ _ _ _ _ _ r l c.val (by omega)
  · intro hk
    exact piece_lo a3 Y 4 2048 2304 (by norm_num) rfl rfl _ _ _ _ _ _ _ _ _ _ r l c.val (by omega)
  · intro hk
    exact piece_hi a3 Y 4 2048 2304 (by norm_num) rfl rfl _ _ _ _ _ _ _ _ _ _ r l c.val (by omega)
  · intro hk
    exact piece_lo a3 Y 5 2560 2816 (by norm_num) rfl rfl _ _ _ _ _ _ _ _ _ _ r l c.val (by omega)
  · intro hk
    exact piece_hi a3 Y 5 2560 2816 (by norm_num) rfl rfl _ _ _ _ _ _ _ _ _ _ r l c.val (by omega)
  · intro hk
    exact piece_lo a3 Y 6 3072 3328 (by norm_num) rfl rfl _ _ _ _ _ _ _ _ _ _ r l c.val (by omega)
  · intro hk
    exact piece_hi a3 Y 6 3072 3328 (by norm_num) rfl rfl _ _ _ _ _ _ _ _ _ _ r l c.val (by omega)
  · intro hk
    exact piece_lo a3 Y 7 3584 3840 (by norm_num) rfl rfl _ _ _ _ _ _ _ _ _ _ r l c.val (by omega)
  · intro hk
    exact piece_hi a3 Y 7 3584 3840 (by norm_num) rfl rfl _ _ _ _ _ _ _ _ _ _ r l c.val (by omega)

end Cert.KernelIdeal.BodyValue.S8

end
-- ==== Proof.BodyS9.lean ====
import proofs.«124778_j35845797052976_1_alg».proof.Proof.Gen.KernelIdeal.Skeleton
import Idealize.ShloMosaic.Lib.ValueIdx
import Idealize.ShloMosaic.PureOps.Ideal
import Idealize.ShloMosaic.Lib.Pipeline.Value
import proofs.«124778_j35845797052976_1_alg».proof.Proof.Spec
import proofs.«124778_j35845797052976_1_alg».proof.Proof.SpecLemmas

/-!
  The last three stages of the kernel's body, read index by index.

  Each of the stages of distance d = 512, 1024, 2048 is computed group by group: the row of 2048 angles is cut into
  4096 / (2d) rows of d; group G's two blocks of d columns are multiplied by the cosines and sines of row G of the angles;
  and the outputs (low, high, low, high, …) are laid side by side. Column G · 2d + c of the result is therefore the
  stage's low formula at pair G · d + c, column G · 2d + d + c its high formula: the array is the stage applied to every
  row. Stage 9's last group and stage 10 are computed by one payload; stage 11 has a single group and reads its row of
  angles without cutting it.
-/

noncomputable section

namespace Cert.KernelIdeal.BodyValue.S9

open Cert.KernelIdeal Cert.KernelIdeal.Gen Cert.Bfly Idealize.ShloMosaic Idealize.ShloMosaic.ValueIdx

/-! ## Reading a row of angles through its reshapes -/

/-- A one-row array flattened and restored is itself. -/
theorem rowcast_self {n : ℕ} {α : Type} (x : (⟨2, ![1, n]⟩ : Shape).Idx → α)
    (h1 : (⟨2, ![1, n]⟩ : Shape).ShapeCasts ⟨1, ![n]⟩) (h2 : (⟨1, ![n]⟩ : Shape).ShapeCasts ⟨2, ![1, n]⟩) :
    shapeCast (⟨2, ![1, n]⟩ : Shape) (shapeCast (⟨1, ![n]⟩ : Shape) x h1) h2 = x := by
  funext j
  have hj0 : (j 0).val = 0 := by have := idx2_lt0 j; omega
  refine (shapeCast_apply _ h2 j (ix1 (j 1)) ?_).trans ?_
  · rw [Shape.rowMajor_val_one, Shape.rowMajor_val_two]
    show (j 1).val = (j 0).val * n + (j 1).val
    rw [hj0]; omega
  · refine shapeCast_apply _ h1 (ix1 (j 1)) j ?_
    rw [Shape.rowMajor_val_one, Shape.rowMajor_val_two]
    show (j 0).val * n + (j 1).val = (j 1).val
    rw [hj0]; omega

/-- A row of g·d angles cut into g rows of d: row G, column c holds angle G·d + c. -/
theorem angles_reshape {g d n : ℕ} {α : Type} (a : (⟨2, ![1, n]⟩ : Shape).Idx → α)
    (h1 : (⟨2, ![1, n]⟩ : Shape).ShapeCasts ⟨1, ![n]⟩) (h2 : (⟨1, ![n]⟩ : Shape).ShapeCasts ⟨2, ![g, d]⟩)
    (j : (⟨2, ![g, d]⟩ : Shape).Idx) (k : (⟨2, ![1, n]⟩ : Shape).Idx) (hk : (k 1).val = (j 0).val * d + (j 1).val) :
    shapeCast (⟨2, ![g, d]⟩ : Shape) (shapeCast (⟨1, ![n]⟩ : Shape) a h1) h2 j = a k := by
  have hk0 : (k 0).val = 0 := by have := idx2_lt0 k; omega
  refine (shapeCast_apply _ h2 j (ix1 (k 1)) ?_).trans ?_
  · rw [Shape.rowMajor_val_one, Shape.rowMajor_val_two]
    show (k 1).val = (j 0).val * d + (j 1).val
    exact hk
  · refine shapeCast_apply _ h1 (ix1 (k 1)) k ?_
    rw [Shape.rowMajor_val_one, Shape.rowMajor_val_two]
    show (k 0).val * n + (k 1).val = (k 1).val
    rw [hk0]; omega

/-- Row G of a g × d table, taken out as a one-row array. -/
theorem row_slice {g d : ℕ} {α : Type} (x : (⟨2, ![g, d]⟩ : Shape).Idx → α) (G : ℕ)
    (hs : (⟨2, ![g, d]⟩ : Shape).Slices ![G, 0] ⟨2, ![1, d]⟩)
    (h1 : (⟨2, ![1, d]⟩ : Shape).ShapeCasts ⟨1, ![d]⟩) (h2 : (⟨1, ![d]⟩ : Shape).ShapeCasts ⟨2, ![1, d]⟩)
    (i : (⟨2, ![1, d]⟩ : Shape).Idx) (k : (⟨2, ![g, d]⟩ : Shape).Idx) (hk0 : (k 0).val = G) (hk1 : (k 1).val = (i 1).val) :
    shapeCast (⟨2, ![1, d]⟩ : Shape) (shapeCast (⟨1, ![d]⟩ : Shape)
      (extractStridedSlice (⟨2, ![1, d]⟩ : Shape) ![G, 0] x hs) h1) h2 i = x k := by
  rw [rowcast_self]
  have hi0 : (i 0).val = 0 := by have := idx2_lt0 i; omega
  refine extractStridedSlice_apply _ x hs i k ?_
  intro a
  match a with
  | ⟨0, _⟩ => show (k 0).val = G + (i 0).val; omega
  | ⟨1, _⟩ => show (k 1).val = 0 + (i 1).val; omega

/-- An entry of an array read at natural coordinates that are an index's coordinates. -/
theorem at2_eq {B n : ℕ} (X : (⟨2, ![B, n]⟩ : Shape).Idx → EReal) (k : (⟨2, ![B, n]⟩ : Shape).Idx) (b i : ℕ)
    (h0 : (k 0).val = b) (h1 : (k 1).val = i) : at2 X b i = X k := by
  subst h0; subst h1
  unfold at2
  rw [dif_pos ⟨(k 0).isLt, (k 1).isLt⟩]
  exact congrArg X (eq_ix2 k).symm

/-! ## One group of a stage at an index -/

/-- Row-times-block minus row-times-block, read at an index. -/
theorem lo_apply {d : ℕ} (Y : FVec Ideal S256x4096 .f32) (C S : FVec Ideal (⟨2, ![1, d]⟩ : Shape) .f32) (o0 o1 : ℕ)
    (h0 : S256x4096.Slices ![0, o0] ⟨2, ![256, d]⟩) (h1 : S256x4096.Slices ![0, o1] ⟨2, ![256, d]⟩)
    (hb : (⟨2, ![1, d]⟩ : Shape).Broadcasts ⟨2, ![256, d]⟩) (i : (⟨2, ![256, d]⟩ : Shape).Idx)
    (k0 k1 : S256x4096.Idx) (hk00 : (k0 0).val = (i 0).val) (hk01 : (k0 1).val = o0 + (i 1).val)
    (hk10 : (k1 0).val = (i 0).val) (hk11 : (k1 1).val = o1 + (i 1).val) :
    subf (mulf (broadcastTo (⟨2, ![256, d]⟩ : Shape) C hb) (extractStridedSlice (⟨2, ![256, d]⟩ : Shape) ![0, o0] Y h0))
         (mulf (broadcastTo (⟨2, ![256, d]⟩ : Shape) S hb) (extractStridedSlice (⟨2, ![256, d]⟩ : Shape) ![0, o1] Y h1)) i
      = C (ix2 0 (i 1)) * Y k0 - S (ix2 0 (i 1)) * Y k1 := by
  have hbc : ∀ a : Fin 2, ((ix2 0 (i 1) : (⟨2, ![1, d]⟩ : Shape).Idx) a).val
      = if (⟨2, ![1, d]⟩ : Shape).size a = 1 then 0 else (i ⟨a.val + (2 - 2), by have := a.isLt; omega⟩).val := by
    intro a
    match a with
    | ⟨0, _⟩ => rfl
    | ⟨1, _⟩ =>
      show (i 1).val = if d = 1 then 0 else (i 1).val
      split
      · next h => have := idx2_lt1 i; omega
      · rfl
  rw [subf_apply, mulf_apply, mulf_apply, broadcastTo_apply C hb i (ix2 0 (i 1)) hbc,
    broadcastTo_apply S hb i (ix2 0 (i 1)) hbc,
    extractStridedSlice_apply _ Y h0 i k0 (by
      intro a
      match a with
      | ⟨0, _⟩ => show (k0 0).val = 0 + (i 0).val; omega
      | ⟨1, _⟩ => show (k0 1).val = o0 + (i 1).val; omega),
    extractStridedSlice_apply _ Y h1 i k1 (by
      intro a
      match a with
      | ⟨0, _⟩ => show (k1 0).val = 0 + (i 0).val; omega
      | ⟨1, _⟩ => show (k1 1).val = o1 + (i 1).val; omega)]

/-- Row-times-block plus row-times-block, read at an index. -/
theorem hi_apply {d : ℕ} (Y : FVec Ideal S256x4096 .f32) (C S : FVec Ideal (⟨2, ![1, d]⟩ : Shape) .f32) (o0 o1 : ℕ)
    (h0 : S256x4096.Slices ![0, o0] ⟨2, ![256, d]⟩) (h1 : S256x4096.Slices ![0, o1] ⟨2, ![256, d]⟩)
    (hb : (⟨2, ![1, d]⟩ : Shape).Broadcasts ⟨2, ![256, d]⟩) (i : (⟨2, ![256, d]⟩ : Shape).Idx)
    (k0 k1 : S256x4096.Idx) (hk00 : (k0 0).val = (i 0).val) (hk01 : (k0 1).val = o0 + (i 1).val)
    (hk10 : (k1 0).val = (i 0).val) (hk11 : (k1 1).val = o1 + (i 1).val) :
    addf (mulf (broadcastTo (⟨2, ![256, d]⟩ : Shape) S hb) (extractStridedSlice (⟨2, ![256, d]⟩ : Shape) ![0, o0] Y h0))
         (mulf (broadcastTo (⟨2, ![256, d]⟩ : Shape) C hb) (extractStridedSlice (⟨2, ![256, d]⟩ : Shape) ![0, o1] Y h1)) i
      = S (ix2 0 (i 1)) * Y k0 + C (ix2 0 (i 1)) * Y k1 := by
  have hbc : ∀ a : Fin 2, ((ix2 0 (i 1) : (⟨2, ![1, d]⟩ : Shape).Idx) a).val
      = if (⟨2, ![1, d]⟩ : Shape).size a = 1 then 0 else (i ⟨a.val + (2 - 2), by have := a.isLt; omega⟩).val := by
    intro a
    match a with
    | ⟨0, _⟩ => rfl
    | ⟨1, _⟩ =>
      show (i 1).val = if d = 1 then 0 else (i 1).val
      split
      · next h => have := idx2_lt1 i; omega
      · rfl
  rw [addf_apply, mulf_apply, mulf_apply, broadcastTo_apply S hb i (ix2 0 (i 1)) hbc,
    broadcastTo_apply C hb i (ix2 0 (i 1)) hbc,
    extractStridedSlice_apply _ Y h0 i k0 (by
      intro a
      match a with
      | ⟨0, _⟩ => show (k0 0).val = 0 + (i 0).val; omega
      | ⟨1, _⟩ => show (k0 1).val = o0 + (i 1).val; omega),
    extractStridedSlice_apply _ Y h1 i k1 (by
      intro a
      match a with
      | ⟨0, _⟩ => show (k1 0).val = 0 + (i 0).val; omega
      | ⟨1, _⟩ => show (k1 1).val = o1 + (i 1).val; omega)]

/-- A stage at a position in the low half of group G, on an array's row. -/
theorem stageArr_lo (d G : ℕ) (a : Vec Ideal S1x2048 .f32) (Y : FVec Ideal S256x4096 .f32) (c : ℕ) (hc : c < d)
    (k k1 : S256x4096.Idx) (ka : S1x2048.Idx) (hk : (k 1).val = G * (2 * d) + c)
    (hk10 : (k1 0).val = (k 0).val) (hk11 : (k1 1).val = G * (2 * d) + c + d) (hka : (ka 1).val = G * d + c) :
    stageArr d (rowAng a) Y k = Ideal.cos (a ka) * Y k - Ideal.sin (a ka) * Y k1 := by
  have hka0 : (ka 0).val = 0 := by have := idx2_lt0 ka; omega
  unfold stageArr
  show stage d (rowAng a) (at2 Y (k 0).val) (k 1).val = _
  rw [hk, stage_lo d _ _ G c hc]
  unfold rowAng
  rw [at2_eq a ka 0 (G * d + c) hka0 hka, at2_eq Y k (k 0).val (G * (2 * d) + c) rfl hk,
    at2_eq Y k1 (k 0).val (G * (2 * d) + c + d) hk10 hk11]

/-- A stage at a position in the high half of group G, on an array's row. -/
theorem stageArr_hi (d G : ℕ) (a : Vec Ideal S1x2048 .f32) (Y : FVec Ideal S256x4096 .f32) (c : ℕ) (hc : c < d)
    (k k0 : S256x4096.Idx) (ka : S1x2048.Idx) (hk : (k 1).val = G * (2 * d) + d + c)
    (hk00 : (k0 0).val = (k 0).val) (hk01 : (k0 1).val = G * (2 * d) + c) (hka : (ka 1).val = G * d + c) :
    stageArr d (rowAng a) Y k = Ideal.sin (a ka) * Y k0 + Ideal.cos (a ka) * Y k := by
  have hka0 : (ka 0).val = 0 := by have := idx2_lt0 ka; omega
  unfold stageArr
  show stage d (rowAng a) (at2 Y (k 0).val) (k 1).val = _
  rw [hk, stage_hi d _ _ G c hc]
  unfold rowAng
  rw [at2_eq a ka 0 (G * d + c) hka0 hka, at2_eq Y k0 (k 0).val (G * (2 * d) + c) hk00 hk01,
    at2_eq Y k (k 0).val (G * (2 * d) + c + d) rfl (by omega)]

/-- The low output of group G of a stage of distance d, as it is computed from the g × d table of angles and two blocks
    of columns, is the stage at the position it is stored at. -/
theorem group_lo {g d : ℕ} (Y : FVec Ideal S256x4096 .f32) (a : Vec Ideal S1x2048 .f32) (G o0 o1 : ℕ)
    (hA1 : S1x2048.ShapeCasts S2048) (hA2 : S2048.ShapeCasts ⟨2, ![g, d]⟩)
    (hs : (⟨2, ![g, d]⟩ : Shape).Slices ![G, 0] ⟨2, ![1, d]⟩)
    (hc1 : (⟨2, ![1, d]⟩ : Shape).ShapeCasts ⟨1, ![d]⟩) (hc2 : (⟨1, ![d]⟩ : Shape).ShapeCasts ⟨2, ![1, d]⟩)
    (hb : (⟨2, ![1, d]⟩ : Shape).Broadcasts ⟨2, ![256, d]⟩)
    (h0 : S256x4096.Slices ![0, o0] ⟨2, ![256, d]⟩) (h1 : S256x4096.Slices ![0, o1] ⟨2, ![256, d]⟩)
    (ho0 : o0 = G * (2 * d)) (ho1 : o1 = G * (2 * d) + d) (hG : G < g) (hA : G * d + d ≤ 2048)
    (hY : G * (2 * d) + 2 * d ≤ 4096)
    (i : (⟨2, ![256, d]⟩ : Shape).Idx) (k : S256x4096.Idx) (hk0 : (k 0).val = (i 0).val)
    (hk1 : (k 1).val = o0 + (i 1).val) :
    subf (mulf (broadcastTo (⟨2, ![256, d]⟩ : Shape)
            (shapeCast (⟨2, ![1, d]⟩ : Shape) (shapeCast (⟨1, ![d]⟩ : Shape)
              (extractStridedSlice (⟨2, ![1, d]⟩ : Shape) ![G, 0]
                (cos (shapeCast (⟨2, ![g, d]⟩ : Shape) (shapeCast S2048 a hA1) hA2)) hs) hc1) hc2) hb)
            (extractStridedSlice (⟨2, ![256, d]⟩ : Shape) ![0, o0] Y h0))
         (mulf (broadcastTo (⟨2, ![256, d]⟩ : Shape)
            (shapeCast (⟨2, ![1, d]⟩ : Shape) (shapeCast (⟨1, ![d]⟩ : Shape)
              (extractStridedSlice (⟨2, ![1, d]⟩ : Shape) ![G, 0]
                (sin (shapeCast (⟨2, ![g, d]⟩ : Shape) (shapeCast S2048 a hA1) hA2)) hs) hc1) hc2) hb)
            (extractStridedSlice (⟨2, ![256, d]⟩ : Shape) ![0, o1] Y h1)) i
      = stageArr d (rowAng a) Y k := by
  subst ho0; subst ho1
  have hc : (i 1).val < d := idx2_lt1 i
  have hkk := idx2_lt0 k
  let k1 : S256x4096.Idx := ix2 (k 0) ⟨G * (2 * d) + (i 1).val + d, by omega⟩
  let ka : S1x2048.Idx := ix2 0 ⟨G * d + (i 1).val, by omega⟩
  let kg : (⟨2, ![g, d]⟩ : Shape).Idx := ix2 ⟨G, hG⟩ (i 1)
  rw [stageArr_lo d G a Y (i 1).val hc k k1 ka hk1 rfl rfl rfl,
    lo_apply Y _ _ _ _ h0 h1 hb i k k1 hk0 hk1 hk0
      (by show G * (2 * d) + (i 1).val + d = G * (2 * d) + d + (i 1).val; omega),
    row_slice _ G hs hc1 hc2 (ix2 0 (i 1)) kg rfl rfl, row_slice _ G hs hc1 hc2 (ix2 0 (i 1)) kg rfl rfl]
  show Ideal.cos (shapeCast _ (shapeCast S2048 a hA1) hA2 kg) * Y k
      - Ideal.sin (shapeCast _ (shapeCast S2048 a hA1) hA2 kg) * Y k1 = _
  rw [angles_reshape a hA1 hA2 kg ka rfl]

/-- The high output of group G likewise. -/
theorem group_hi {g d : ℕ} (Y : FVec Ideal S256x4096 .f32) (a : Vec Ideal S1x2048 .f32) (G o0 o1 : ℕ)
    (hA1 : S1x2048.ShapeCasts S2048) (hA2 : S2048.ShapeCasts ⟨2, ![g, d]⟩)
    (hs : (⟨2, ![g, d]⟩ : Shape).Slices ![G, 0] ⟨2, ![1, d]⟩)
    (hc1 : (⟨2, ![1, d]⟩ : Shape).ShapeCasts ⟨1, ![d]⟩) (hc2 : (⟨1, ![d]⟩ : Shape).ShapeCasts ⟨2, ![1, d]⟩)
    (hb : (⟨2, ![1, d]⟩ : Shape).Broadcasts ⟨2, ![256, d]⟩)
    (h0 : S256x4096.Slices ![0, o0] ⟨2, ![256, d]⟩) (h1 : S256x4096.Slices ![0, o1] ⟨2, ![256, d]⟩)
    (ho0 : o0 = G * (2 * d)) (ho1 : o1 = G * (2 * d) + d) (hG : G < g) (hA : G * d + d ≤ 2048)
    (hY : G * (2 * d) + 2 * d ≤ 4096)
    (i : (⟨2, ![256, d]⟩ : Shape).Idx) (k : S256x4096.Idx) (hk0 : (k 0).val = (i 0).val)
    (hk1 : (k 1).val = o1 + (i 1).val) :
    addf (mulf (broadcastTo (⟨2, ![256, d]⟩ : Shape)
            (shapeCast (⟨2, ![1, d]⟩ : Shape) (shapeCast (⟨1, ![d]⟩ : Shape)
              (extractStridedSlice (⟨2, ![1, d]⟩ : Shape) ![G, 0]
                (sin (shapeCast (⟨2, ![g, d]⟩ : Shape) (shapeCast S2048 a hA1) hA2)) hs) hc1) hc2) hb)
            (extractStridedSlice (⟨2, ![256, d]⟩ : Shape) ![0, o0] Y h0))
         (mulf (broadcastTo (⟨2, ![256, d]⟩ : Shape)
            (shapeCast (⟨2, ![1, d]⟩ : Shape) (shapeCast (⟨1, ![d]⟩ : Shape)
              (extractStridedSlice (⟨2, ![1, d]⟩ : Shape) ![G, 0]
                (cos (shapeCast (⟨2, ![g, d]⟩ : Shape) (shapeCast S2048 a hA1) hA2)) hs) hc1) hc2) hb)
            (extractStridedSlice (⟨2, ![256, d]⟩ : Shape) ![0, o1] Y h1)) i
      = stageArr d (rowAng a) Y k := by
  subst ho0; subst ho1
  have hc : (i 1).val < d := idx2_lt1 i
  have hkk := idx2_lt0 k
  let k0 : S256x4096.Idx := ix2 (k 0) ⟨G * (2 * d) + (i 1).val, by omega⟩
  let ka : S1x2048.Idx := ix2 0 ⟨G * d + (i 1).val, by omega⟩
  let kg : (⟨2, ![g, d]⟩ : Shape).Idx := ix2 ⟨G, hG⟩ (i 1)
  rw [stageArr_hi d G a Y (i 1).val hc k k0 ka hk1 rfl rfl rfl,
    hi_apply Y _ _ _ _ h0 h1 hb i k0 k hk0 rfl hk0 hk1,
    row_slice _ G hs hc1 hc2 (ix2 0 (i 1)) kg rfl rfl, row_slice _ G hs hc1 hc2 (ix2 0 (i 1)) kg rfl rfl]
  show Ideal.sin (shapeCast _ (shapeCast S2048 a hA1) hA2 kg) * Y k0
      + Ideal.cos (shapeCast _ (shapeCast S2048 a hA1) hA2 kg) * Y k = _
  rw [angles_reshape a hA1 hA2 kg ka rfl]

/-! ## A concatenation along the columns, piece by piece -/

/-- If the piece that holds column (j 1) agrees with an array Z at every index it is stored at, the concatenation is Z
    at j. -/
theorem concat_piece {w : ℕ} (xs : List ((s : Shape) × (s.Idx → EReal)))
    (h : Shape.Concatenates (xs.map (·.1)) S256x4096 1) (j : S256x4096.Idx) (n : ℕ) (hn : n < xs.length)
    (p : (⟨2, ![256, w]⟩ : Shape).Idx → EReal) (hx : xs[n] = ⟨⟨2, ![256, w]⟩, p⟩) (pre : ℕ)
    (hpre : (((xs.take n).map (·.1)).map fun s =>
      if h : s.rank = S256x4096.rank then s.size ((1 : Fin S256x4096.rank).cast h.symm) else 0).sum = pre)
    (hlo : pre ≤ (j 1).val) (hhi : (j 1).val < pre + w) (Z : S256x4096.Idx → EReal)
    (hp : ∀ (i : (⟨2, ![256, w]⟩ : Shape).Idx) (k : S256x4096.Idx), (k 0).val = (i 0).val →
      (k 1).val = pre + (i 1).val → p i = Z k) :
    concatenate S256x4096 1 xs h j = Z j := by
  let i : (⟨2, ![256, w]⟩ : Shape).Idx := ix2 (j 0) ⟨(j 1).val - pre, by omega⟩
  refine (concatenate_apply_piece 1 xs h j n hn _ p hx rfl pre hpre i ?_ ?_).trans (hp i j rfl ?_)
  · intro b
    match b with
    | ⟨0, _⟩ => exact fun _ => rfl
    | ⟨1, _⟩ => exact fun hb => absurd rfl hb
  · show pre + ((j 1).val - pre) = (j 1).val
    omega
  · show (j 1).val = pre + ((j 1).val - pre)
    omega

/-! ## Stage 11 -/

/-- Stage 11. -/
theorem node124_eq (W : FVec Ideal S256x4096 .f32) (a6 : Vec Ideal S1x2048 .f32) :
    k0_pay1 W (k0_pay199 a6) = stageArr 2048 (rowAng a6) W := by
  funext j
  have hj1 := idx2_lt1 j
  have hj0 := idx2_lt0 j
  simp only [k0_pay1, k0_pay199]
  by_cases hlt : (j 1).val < 2048
  · refine concat_piece (w := 2048) _ _ j 0 (by simp) _ rfl 0 rfl (by omega) (by omega) _ ?_
    intro i k hk0 hk1
    have hc : (i 1).val < 2048 := idx2_lt1 i
    let k1 : S256x4096.Idx := ix2 (k 0) ⟨0 * (2 * 2048) + (i 1).val + 2048, by omega⟩
    let ka : S1x2048.Idx := ix2 0 (i 1)
    rw [stageArr_lo 2048 0 a6 W (i 1).val hc k k1 ka (by omega) rfl rfl (by show (i 1).val = _; omega),
      lo_apply W _ _ _ _ _ _ _ i k k1 hk0 hk1 hk0 (by show 0 * (2 * 2048) + (i 1).val + 2048 = _; omega),
      rowcast_self, rowcast_self, rowcast_self]
    rfl
  · refine concat_piece (w := 2048) _ _ j 1 (by simp) _ rfl 2048 rfl (by omega) (by omega) _ ?_
    intro i k hk0 hk1
    have hc : (i 1).val < 2048 := idx2_lt1 i
    let k0 : S256x4096.Idx := ix2 (k 0) ⟨0 * (2 * 2048) + (i 1).val, by omega⟩
    let ka : S1x2048.Idx := ix2 0 (i 1)
    rw [stageArr_hi 2048 0 a6 W (i 1).val hc k k0 ka (by omega) rfl rfl (by show (i 1).val = _; omega),
      hi_apply W _ _ _ _ _ _ _ i k0 k hk0 (by show 0 * (2 * 2048) + (i 1).val = _; omega) hk0 hk1,
      rowcast_self, rowcast_self, rowcast_self]
    rfl

/-! ## Stages 9 and 10 -/

/-- Stage 9's output as it is assembled: the outputs of groups 0, 1, 2 given, those of group 3 computed from its two
    blocks of columns and its rows of cosines and sines. -/
def cat9 (p0 p1 p2 p3 p4 p5 b0 b1 : FVec Ideal S256x512 .f32) (c s : FVec Ideal S1x512 .f32) :
    FVec Ideal S256x4096 .f32 :=
  concatenate S256x4096 1 [⟨S256x512, p0⟩, ⟨S256x512, p1⟩, ⟨S256x512, p2⟩, ⟨S256x512, p3⟩, ⟨S256x512, p4⟩,
    ⟨S256x512, p5⟩,
    ⟨S256x512, subf (mulf (broadcastTo S256x512 c broadcasts_S1x512_S256x512) b0)
      (mulf (broadcastTo S256x512 s broadcasts_S1x512_S256x512) b1)⟩,
    ⟨S256x512, addf (mulf (broadcastTo S256x512 s broadcasts_S1x512_S256x512) b0)
      (mulf (broadcastTo S256x512 c broadcasts_S1x512_S256x512) b1)⟩]
    concatenates_S256x512_S256x512_S256x512_S256x512_S256x512_S256x512_S256x512_S256x512_S256x4096_d1

/-- The assembled output, named. -/
theorem cat9_def (p0 p1 p2 p3 p4 p5 b0 b1 : FVec Ideal S256x512 .f32) (c s : FVec Ideal S1x512 .f32) :
    concatenate S256x4096 1 [⟨S256x512, p0⟩, ⟨S256x512, p1⟩, ⟨S256x512, p2⟩, ⟨S256x512, p3⟩, ⟨S256x512, p4⟩,
      ⟨S256x512, p5⟩,
      ⟨S256x512, subf (mulf (broadcastTo S256x512 c broadcasts_S1x512_S256x512) b0)
        (mulf (broadcastTo S256x512 s broadcasts_S1x512_S256x512) b1)⟩,
      ⟨S256x512, addf (mulf (broadcastTo S256x512 s broadcasts_S1x512_S256x512) b0)
        (mulf (broadcastTo S256x512 c broadcasts_S1x512_S256x512) b1)⟩]
      concatenates_S256x512_S256x512_S256x512_S256x512_S256x512_S256x512_S256x512_S256x512_S256x4096_d1
      = cat9 p0 p1 p2 p3 p4 p5 b0 b1 c s := rfl

/-- Stage 10 on stage 9's assembled output. -/
theorem pay198_eq (p0 p1 p2 p3 p4 p5 b0 b1 : FVec Ideal S256x512 .f32) (c s : FVec Ideal S1x512 .f32)
    (a5 : Vec Ideal S1x2048 .f32) :
    k0_pay198 p0 p1 p2 p3 p4 p5 b0 b1 c s a5 = stageArr 1024 (rowAng a5) (cat9 p0 p1 p2 p3 p4 p5 b0 b1 c s) := by
  funext j
  simp only [k0_pay198]
  rw [cat9_def]
  generalize cat9 p0 p1 p2 p3 p4 p5 b0 b1 c s = V
  have hj1 := idx2_lt1 j
  by_cases c0 : (j 1).val < 1024
  · refine concat_piece (w := 1024) _ _ j 0 (by simp) _ rfl 0 rfl (by omega) (by omega) _ ?_
    intro i k hk0 hk1
    exact group_lo (g := 2) (d := 1024) V a5 0 0 1024 _ _ _ _ _ _ _ _ (by omega) (by omega) (by omega) (by omega)
      (by omega) i k hk0 hk1
  by_cases c1 : (j 1).val < 2048
  · refine concat_piece (w := 1024) _ _ j 1 (by simp) _ rfl 1024 rfl (by omega) (by omega) _ ?_
    intro i k hk0 hk1
    exact group_hi (g := 2) (d := 1024) V a5 0 0 1024 _ _ _ _ _ _ _ _ (by omega) (by omega) (by omega) (by omega)
      (by omega) i k hk0 hk1
  by_cases c2 : (j 1).val < 3072
  · refine concat_piece (w := 1024) _ _ j 2 (by simp) _ rfl 2048 rfl (by omega) (by omega) _ ?_
    intro i k hk0 hk1
    exact group_lo (g := 2) (d := 1024) V a5 1 2048 3072 _ _ _ _ _ _ _ _ (by omega) (by omega) (by omega) (by omega)
      (by omega) i k hk0 hk1
  refine concat_piece (w := 1024) _ _ j 3 (by simp) _ rfl 3072 rfl (by omega) (by omega) _ ?_
  intro i k hk0 hk1
  exact group_hi (g := 2) (d := 1024) V a5 1 2048 3072 _ _ _ _ _ _ _ _ (by omega) (by omega) (by omega) (by omega)
    (by omega) i k hk0 hk1

/-- Stage 9: the assembled output is the stage on the array stage 8 left. -/
theorem cat9_eq (Y : FVec Ideal S256x4096 .f32) (a4 : Vec Ideal S1x2048 .f32) :
    cat9 (k0_pay180 (k0_pay174 a4) (k0_pay175 a4)
          (extractStridedSlice S256x512 ![0, 0] Y slices_S256x4096_o0_0_S256x512)
          (extractStridedSlice S256x512 ![0, 512] Y slices_S256x4096_o0_512_S256x512))
        (k0_pay181 (k0_pay174 a4) (k0_pay175 a4)
          (extractStridedSlice S256x512 ![0, 0] Y slices_S256x4096_o0_0_S256x512)
          (extractStridedSlice S256x512 ![0, 512] Y slices_S256x4096_o0_512_S256x512))
        (k0_pay186 Y (k0_pay174 a4) (k0_pay175 a4)) (k0_pay187 Y (k0_pay174 a4) (k0_pay175 a4))
        (k0_pay192 Y (k0_pay174 a4) (k0_pay175 a4)) (k0_pay193 Y (k0_pay174 a4) (k0_pay175 a4))
        (k0_pay194 Y) (k0_pay195 Y) (k0_pay196 (k0_pay174 a4)) (k0_pay197 (k0_pay175 a4))
      = stageArr 512 (rowAng a4) Y := by
  funext j
  simp only [cat9, k0_pay180, k0_pay181, k0_pay186, k0_pay187, k0_pay192, k0_pay193, k0_pay194, k0_pay195, k0_pay196,
    k0_pay197, k0_pay174, k0_pay175, k0_pay173, k0_pay178, k0_pay179, k0_pay182, k0_pay183, k0_pay184, k0_pay185,
    k0_pay188, k0_pay189, k0_pay190, k0_pay191]
  have hj1 := idx2_lt1 j
  by_cases c0 : (j 1).val < 512
  · refine concat_piece (w := 512) _ _ j 0 (by simp) _ rfl 0 rfl (by omega) (by omega) _ ?_
    intro i k hk0 hk1
    exact group_lo (g := 4) (d := 512) Y a4 0 0 512 _ _ _ _ _ _ _ _ (by omega) (by omega) (by omega) (by omega)
      (by omega) i k hk0 hk1
  by_cases c1 : (j 1).val < 1024
  · refine concat_piece (w := 512) _ _ j 1 (by simp) _ rfl 512 rfl (by omega) (by omega) _ ?_
    intro i k hk0 hk1
    exact group_hi (g := 4) (d := 512) Y a4 0 0 512 _ _ _ _ _ _ _ _ (by omega) (by omega) (by omega) (by omega)
      (by omega) i k hk0 hk1
  by_cases c2 : (j 1).val < 1536
  · refine concat_piece (w := 512) _ _ j 2 (by simp) _ rfl 1024 rfl (by omega) (by omega) _ ?_
    intro i k hk0 hk1
    exact group_lo (g := 4) (d := 512) Y a4 1 1024 1536 _ _ _ _ _ _ _ _ (by omega) (by omega) (by omega) (by omega)
      (by omega) i k hk0 hk1
  by_cases c3 : (j 1).val < 2048
  · refine concat_piece (w := 512) _ _ j 3 (by simp) _ rfl 1536 rfl (by omega) (by omega) _ ?_
    intro i k hk0 hk1
    exact group_hi (g := 4) (d := 512) Y a4 1 1024 1536 _ _ _ _ _ _ _ _ (by omega) (by omega) (by omega) (by omega)
      (by omega) i k hk0 hk1
  by_cases c4 : (j 1).val < 2560
  · refine concat_piece (w := 512) _ _ j 4 (by simp) _ rfl 2048 rfl (by omega) (by omega) _ ?_
    intro i k hk0 hk1
    exact group_lo (g := 4) (d := 512) Y a4 2 2048 2560 _ _ _ _ _ _ _ _ (by omega) (by omega) (by omega) (by omega)
      (by omega) i k hk0 hk1
  by_cases c5 : (j 1).val < 3072
  · refine concat_piece (w := 512) _ _ j 5 (by simp) _ rfl 2560 rfl (by omega) (by omega) _ ?_
    intro i k hk0 hk1
    exact group_hi (g := 4) (d := 512) Y a4 2 2048 2560 _ _ _ _ _ _ _ _ (by omega) (by omega) (by omega) (by omega)
      (by omega) i k hk0 hk1
  by_cases c6 : (j 1).val < 3584
  · refine concat_piece (w := 512) _ _ j 6 (by simp) _ rfl 3072 rfl (by omega) (by omega) _ ?_
    intro i k hk0 hk1
    exact group_lo (g := 4) (d := 512) Y a4 3 3072 3584 _ _ _ _ _ _ _ _ (by omega) (by omega) (by omega) (by omega)
      (by omega) i k hk0 hk1
  refine concat_piece (w := 512) _ _ j 7 (by simp) _ rfl 3584 rfl (by omega) (by omega) _ ?_
  intro i k hk0 hk1
  exact group_hi (g := 4) (d := 512) Y a4 3 3072 3584 _ _ _ _ _ _ _ _ (by omega) (by omega) (by omega) (by omega)
    (by omega) i k hk0 hk1

/-- Stages 9 and 10 on the array stage 8 left. -/
theorem node121_eq (q0 : FVec Ideal S256x4096 .f32) (q1 : FVec Ideal S8x256 .f32) (q2 : FVec Ideal S8x256 .f32) (q3 : FVec Ideal S256x256 .f32) (q4 : FVec Ideal S256x256 .f32) (q5 : FVec Ideal S256x256 .f32) (q6 : FVec Ideal S256x256 .f32) (q7 : FVec Ideal S256x256 .f32) (q8 : FVec Ideal S256x256 .f32) (q9 : FVec Ideal S256x256 .f32) (q10 : FVec Ideal S256x256 .f32) (q11 : FVec Ideal S256x256 .f32) (q12 : FVec Ideal S256x256 .f32) (q13 : FVec Ideal S256x256 .f32) (q14 : FVec Ideal S256x256 .f32) (q15 : FVec Ideal S256 .f32) (a4 a5 : Vec Ideal S1x2048 .f32) :
    k0_pay198 (k0_pay180 (k0_pay174 a4) (k0_pay175 a4) (k0_pay176 q0 q1 q2 q3 q4 q5 q6 q7 q8 q9 q10 q11 q12 q13 q14 q15) (k0_pay177 q0 q1 q2 q3 q4 q5 q6 q7 q8 q9 q10 q11 q12 q13 q14 q15)) (k0_pay181 (k0_pay174 a4) (k0_pay175 a4) (k0_pay176 q0 q1 q2 q3 q4 q5 q6 q7 q8 q9 q10 q11 q12 q13 q14 q15) (k0_pay177 q0 q1 q2 q3 q4 q5 q6 q7 q8 q9 q10 q11 q12 q13 q14 q15)) (k0_pay186 (k0_pay172 q0 q1 q2 q3 q4 q5 q6 q7 q8 q9 q10 q11 q12 q13 q14 q15) (k0_pay174 a4) (k0_pay175 a4)) (k0_pay187 (k0_pay172 q0 q1 q2 q3 q4 q5 q6 q7 q8 q9 q10 q11 q12 q13 q14 q15) (k0_pay174 a4) (k0_pay175 a4)) (k0_pay192 (k0_pay172 q0 q1 q2 q3 q4 q5 q6 q7 q8 q9 q10 q11 q12 q13 q14 q15) (k0_pay174 a4) (k0_pay175 a4)) (k0_pay193 (k0_pay172 q0 q1 q2 q3 q4 q5 q6 q7 q8 q9 q10 q11 q12 q13 q14 q15) (k0_pay174 a4) (k0_pay175 a4)) (k0_pay194 (k0_pay172 q0 q1 q2 q3 q4 q5 q6 q7 q8 q9 q10 q11 q12 q13 q14 q15)) (k0_pay195 (k0_pay172 q0 q1 q2 q3 q4 q5 q6 q7 q8 q9 q10 q11 q12 q13 q14 q15)) (k0_pay196 (k0_pay174 a4)) (k0_pay197 (k0_pay175 a4)) a5
      = stageArr 1024 (rowAng a5) (stageArr 512 (rowAng a4) (k0_pay172 q0 q1 q2 q3 q4 q5 q6 q7 q8 q9 q10 q11 q12 q13 q14 q15)) := by
  rw [pay198_eq]
  exact congrArg (stageArr 1024 (rowAng a5)) (cat9_eq (k0_pay172 q0 q1 q2 q3 q4 q5 q6 q7 q8 q9 q10 q11 q12 q13 q14 q15) a4)

end Cert.KernelIdeal.BodyValue.S9

end
-- ==== Proof.Body.lean ====
/-
  What the kernel's body leaves in the output block, read at an index.

  The body's stored value is the composition of its named pieces; rewritten from the outside in it is stage 11 of
  stage 10 of stage 9 of stage 8 of stage 7 of the block products, each stage with its own loaded row of angles.
  Read at row r and column i this is the kernel's row formula: the five stages applied to the row of block products.
-/
import proofs.«124778_j35845797052976_1_alg».proof.Proof.KernelIdealFrame
import proofs.«124778_j35845797052976_1_alg».proof.Proof.Spec
import proofs.«124778_j35845797052976_1_alg».proof.Proof.SpecLemmas
import proofs.«124778_j35845797052976_1_alg».proof.Proof.BodyMM
import proofs.«124778_j35845797052976_1_alg».proof.Proof.BodyS7
import proofs.«124778_j35845797052976_1_alg».proof.Proof.BodyS8
import proofs.«124778_j35845797052976_1_alg».proof.Proof.BodyS9
import Idealize.ShloMosaic.Lib.Pipeline.Value

noncomputable section

namespace Cert.KernelIdeal.BodyValue

open Cert.KernelIdeal Cert.KernelIdeal.Gen Cert.KernelIdeal.GenP Cert.Bfly Idealize.ShloMosaic Idealize.ShloMosaic.ValueIdx

theorem zero2 : (![0, 0] : Fin 2 → ℕ) = fun _ => 0 := by
  funext a; match a with | ⟨0, _⟩ => rfl | ⟨1, _⟩ => rfl

theorem zero3 : (![0, 0, 0] : Fin 3 → ℕ) = fun _ => 0 := by
  funext a; match a with | ⟨0, _⟩ => rfl | ⟨1, _⟩ => rfl | ⟨2, _⟩ => rfl

/-- The stored block is the five stages, outermost last, of the block products. -/
theorem out0_3_eq (x0 : Vec Ideal S256x4096 .f32) (x1 : Vec Ideal S32x128x128 .f32) (x2 : Vec Ideal S5x2048 .f32) :
    out0_3 (F := Ideal) x0 x1 x2
      = stageArr 2048 (rowAng (View.ld x2 r0_6)) (stageArr 1024 (rowAng (View.ld x2 r0_5))
          (stageArr 512 (rowAng (View.ld x2 r0_4)) (stageArr 256 (rowAng (View.ld x2 r0_3))
            (stageArr 128 (rowAng (View.ld x2 r0_2)) (mmArr x0 x1))))) := by
  unfold out0_3
  dsimp only
  rw [View.canon_unit_zero zero2]
  rw [S9.node124_eq, S9.node121_eq, S8.node111_eq, S7.node87_eq, MM.node37_eq]
  rw [View.ld_unit_zero zero2, View.ld_unit_zero zero3]

/-- Row o of the five rows of angles, loaded as a 1 × 2048 block. -/
theorem rowAng_ld (x2 : Vec Ideal S5x2048 .f32) (o : ℕ) (ho : o < 5)
    (inb : ∀ a, (![o, 0] : Fin 2 → ℕ) a + S1x2048.size a ≤ S5x2048.size a) (p : ℕ) :
    rowAng (View.ld x2 (Rect.unit (s := S5x2048) ![o, 0] S1x2048.size inb)) p = at2 x2 o p := by
  unfold rowAng at2
  by_cases hp : p < 2048
  · rw [dif_pos ⟨by norm_num, hp⟩, dif_pos ⟨ho, hp⟩]
    show x2 _ = x2 _
    refine congrArg x2 (funext fun a => Fin.ext ?_)
    match a with
    | ⟨0, _⟩ => show o + 1 * 0 = o; omega
    | ⟨1, _⟩ => show 0 + 1 * p = p; omega
  · rw [dif_neg (fun h => hp h.2), dif_neg (fun h => hp h.2)]

/-- A stage applied to every row, read on one row. -/
theorem at2_stageArr (d : ℕ) (θ : ℕ → EReal) (Y : (⟨2, ![256, 4096]⟩ : Shape).Idx → EReal) (r i : ℕ)
    (hr : r < 256) (hi : i < 4096) : at2 (stageArr d θ Y) r i = stage d θ (at2 Y r) i := by
  unfold at2
  rw [dif_pos ⟨hr, hi⟩]
  rfl

/-- The block products read on one row. -/
theorem at2_mmArr (x0 : (⟨2, ![256, 4096]⟩ : Shape).Idx → EReal) (x1 : (⟨3, ![32, 128, 128]⟩ : Shape).Idx → EReal)
    (r i : ℕ) (hr : r < 256) (hi : i < 4096) : at2 (mmArr x0 x1) r i = mmRow (at2 x0 r) (at3 x1) i := by
  unfold at2
  rw [dif_pos ⟨hr, hi⟩]
  rfl

/-- The five stages over arrays, read on a row, are the five stages on the row. -/
theorem chain_apply (θ2 θ3 θ4 θ5 θ6 : ℕ → EReal) (θ : ℕ → ℕ → EReal)
    (h2 : ∀ p, p < 2048 → θ2 p = θ 7 p) (h3 : ∀ p, p < 2048 → θ3 p = θ 8 p) (h4 : ∀ p, p < 2048 → θ4 p = θ 9 p)
    (h5 : ∀ p, p < 2048 → θ5 p = θ 10 p) (h6 : ∀ p, p < 2048 → θ6 p = θ 11 p)
    (Y : (⟨2, ![256, 4096]⟩ : Shape).Idx → EReal) (v : ℕ → EReal) (r : ℕ) (hr : r < 256)
    (hY : ∀ i, i < 4096 → at2 Y r i = v i) (i : ℕ) (hi : i < 4096) :
    at2 (stageArr 2048 θ6 (stageArr 1024 θ5 (stageArr 512 θ4 (stageArr 256 θ3 (stageArr 128 θ2 Y))))) r i
      = stages θ 7 5 v i := by
  have e1 : ∀ i, i < 4096 → at2 (stageArr 128 θ2 Y) r i = stages θ 7 1 v i := fun i hi => by
    rw [at2_stageArr _ _ _ _ _ hr hi]
    exact stage_congr 128 4096 (by norm_num) (by norm_num) _ _ _ _ h2 hY i hi
  have e2 : ∀ i, i < 4096 → at2 (stageArr 256 θ3 (stageArr 128 θ2 Y)) r i = stages θ 7 2 v i := fun i hi => by
    rw [at2_stageArr _ _ _ _ _ hr hi]
    exact stage_congr 256 4096 (by norm_num) (by norm_num) _ _ _ _ h3 e1 i hi
  have e3 : ∀ i, i < 4096 → at2 (stageArr 512 θ4 (stageArr 256 θ3 (stageArr 128 θ2 Y))) r i = stages θ 7 3 v i :=
    fun i hi => by
      rw [at2_stageArr _ _ _ _ _ hr hi]
      exact stage_congr 512 4096 (by norm_num) (by norm_num) _ _ _ _ h4 e2 i hi
  have e4 : ∀ i, i < 4096 →
      at2 (stageArr 1024 θ5 (stageArr 512 θ4 (stageArr 256 θ3 (stageArr 128 θ2 Y)))) r i = stages θ 7 4 v i :=
    fun i hi => by
      rw [at2_stageArr _ _ _ _ _ hr hi]
      exact stage_congr 1024 4096 (by norm_num) (by norm_num) _ _ _ _ h5 e3 i hi
  rw [at2_stageArr _ _ _ _ _ hr hi]
  exact stage_congr 2048 4096 (by norm_num) (by norm_num) _ _ _ _ h6 e4 i hi

/-- The stored block at row r, column i: the kernel's row formula on row r of the loaded block. -/
theorem out0_3_apply (x0 : Vec Ideal S256x4096 .f32) (x1 : Vec Ideal S32x128x128 .f32) (x2 : Vec Ideal S5x2048 .f32)
    (r : Fin 256) (i : Fin 4096) :
    out0_3 (F := Ideal) x0 x1 x2 (ix2 r i) = kernelRow (hiAng x2) (at2 x0 r.val) (at3 x1) i.val := by
  have h := chain_apply (rowAng (View.ld x2 r0_2)) (rowAng (View.ld x2 r0_3)) (rowAng (View.ld x2 r0_4))
    (rowAng (View.ld x2 r0_5)) (rowAng (View.ld x2 r0_6)) (hiAng x2)
    (fun p _ => rowAng_ld x2 0 (by norm_num) _ p) (fun p _ => rowAng_ld x2 1 (by norm_num) _ p)
    (fun p _ => rowAng_ld x2 2 (by norm_num) _ p) (fun p _ => rowAng_ld x2 3 (by norm_num) _ p)
    (fun p _ => rowAng_ld x2 4 (by norm_num) _ p)
    (mmArr x0 x1) (mmRow (at2 x0 r.val) (at3 x1)) r.val r.isLt
    (fun i hi => at2_mmArr x0 x1 r.val i r.isLt hi) i.val i.isLt
  rw [out0_3_eq]
  unfold kernelRow
  rw [← h]
  unfold at2
  rw [dif_pos ⟨r.isLt, i.isLt⟩]

end Cert.KernelIdeal.BodyValue

end
-- ==== Proof.KerValue.lean ====
/-
  The kernel's whole result array after the run.  The grid has sixteen points; point t stages rows 256 b … 256 b + 255
  of x (b the block index of t), the whole array of block matrices and the whole array of the five rows of angles, and
  writes the body's result back to rows 256 b … 256 b + 255 of the result array.  The body's result at row r, column i
  of the block is the kernel's row formula on row r of the staged block of x; read through the blocks, that is the row
  formula on row 256 b + r of x.  The sixteen blocks of rows cover the result array, so after the run it holds the row
  formula at every index.
-/
import proofs.«124778_j35845797052976_1_alg».proof.Proof.KernelIdealFrame
import proofs.«124778_j35845797052976_1_alg».proof.Proof.Spec
import Idealize.ShloMosaic.Lib.Pipeline.Value
import Idealize.ShloMosaic.Lib.ValueIdx
import proofs.«124778_j35845797052976_1_alg».proof.Proof.Body

noncomputable section

namespace Cert.KernelIdeal.KerValue

open Cert.KernelIdeal Cert.KernelIdeal.Gen Cert.KernelIdeal.GenP Cert.Bfly Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The kernel's result, index by index: the kernel's row formula on row (j 0) of x, with the block matrices and the five rows of angles as the host operations left them. -/
def kerOut (c : Dev nD) : S4096x4096.Idx → EReal := fun j =>
  kernelRow (hiAng (V m c main_v1 : S5x2048.Idx → EReal)) (at2 (V m c main_arg0 : S4096x4096.Idx → EReal) (j 0).val) (at3 (V m c main_v213 : S32x128x128.Idx → EReal)) (j 1).val

/-! ## What each grid point writes back, and what the run leaves -/

/-- What point t writes back to the result array: the body's result on the three input blocks at t. -/
theorem flushed3 (c : Dev nD) (t : Fin cfg0.N) :
    (dats m 0 c).flushed 3 t
      = (cfg0.win 3).cut (grid0.coords t) (out0_3 (iblk m c 0 t) (iblk m c 1 t) (iblk m c 2 t)) := by
  show (cfg0.win 3).cut (grid0.coords t) ((dats m 0 c).after 3 t) = _
  rw [after0_3]

/-- After the run the result array holds the entry contents overwritten by the sixteen write-backs. -/
theorem post3 (r : PUnit × MemSt nD τ sig (Elt Ideal)) (h : Pipeline.FramePost cfgs (dats m) 0 (V m) r) (c : Dev nD) :
    r.2.mem ((c : Thread nD τ).loc main_v214) = (dats m 0 c).arrAt 3 cfg0.N :=
  (h c).1 3

/-- After the run x is as launched: it is only fetched, never written back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the run the angles are as launched: no window stages that array, and no host operation writes it. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-! ## The block indices over the sixteen points -/

/-- The block of x moves with the result's block along the rows; the block matrices and the angles are whole blocks at
    index zero; the result's block index on the rows is at most 15 and on the columns zero. -/
theorem idx_facts : ∀ t : Fin cfg0.N, win0_0.index t (0 : Fin 2) = win0_3.index t (0 : Fin 2)
    ∧ win0_0.index t (1 : Fin 2) = 0
    ∧ win0_3.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) ≤ 15 :=
  (by decide +kernel : ∀ t : Fin grid0.N, _)

/-- Every block of 256 rows is some point's. -/
theorem idx_onto : ∀ q : Fin 16, ∃ t : Fin cfg0.N, win0_3.index t (0 : Fin 2) = q.val :=
  (by decide +kernel : ∀ q : Fin 16, ∃ t : Fin grid0.N, win0_3.index t (0 : Fin 2) = q.val)

/-! ## The input blocks at a point, as parts of the arrays -/

/-- The block of x at point t. -/
abbrev xblk (c : Dev nD) (t : Fin cfg0.N) : Vec Ideal S256x4096 .f32 := iblk m c 0 t
/-- The block of the block matrices at point t. -/
abbrev mblk (c : Dev nD) (t : Fin cfg0.N) : Vec Ideal S32x128x128 .f32 := iblk m c 1 t
/-- The block of the angles at point t. -/
abbrev ablk (c : Dev nD) (t : Fin cfg0.N) : Vec Ideal S5x2048 .f32 := iblk m c 2 t

/-- Row r of the block of x at point t is row 256 b + r of x, b the result's block index at t. -/
theorem xblk_apply (c : Dev nD) (t : Fin cfg0.N) (r : Fin 256) (i : Fin 4096)
    (hr : win0_3.index t (0 : Fin 2) * 256 + r.val < 4096) :
    xblk m c t (ix2 r i)
      = (V m c main_arg0 : S4096x4096.Idx → EReal) (ix2 ⟨win0_3.index t (0 : Fin 2) * 256 + r.val, hr⟩ i) := by
  obtain ⟨e0, e1, -⟩ := idx_facts t
  show V m c main_arg0 (((cfg0.win 0).blk t).view.emb (ix2 r i)) = V m c main_arg0 _
  congr 1
  funext a
  apply Fin.ext
  match a with
  | ⟨0, _⟩ =>
    show win0_0.index t (0 : Fin 2) * 256 + 1 * r.val = win0_3.index t (0 : Fin 2) * 256 + r.val
    omega
  | ⟨1, _⟩ =>
    show win0_0.index t (1 : Fin 2) * 4096 + 1 * i.val = i.val
    omega

/-- The block of the block matrices is the whole array. -/
theorem mblk_eq (c : Dev nD) (t : Fin cfg0.N) :
    mblk m c t = (V m c main_v213 : S32x128x128.Idx → EReal) := by
  obtain ⟨-, -, -, e0, e1, e2, -⟩ := idx_facts t
  funext y
  show V m c main_v213 (((cfg0.win 1).blk t).view.emb y) = V m c main_v213 y
  congr 1
  funext a
  apply Fin.ext
  match a with
  | ⟨0, _⟩ => show win0_1.index t (0 : Fin 3) * 32 + 1 * (y 0).val = (y 0).val; omega
  | ⟨1, _⟩ => show win0_1.index t (1 : Fin 3) * 128 + 1 * (y 1).val = (y 1).val; omega
  | ⟨2, _⟩ => show win0_1.index t (2 : Fin 3) * 128 + 1 * (y 2).val = (y 2).val; omega

/-- The block of the angles is the whole array. -/
theorem ablk_eq (c : Dev nD) (t : Fin cfg0.N) :
    ablk m c t = (V m c main_v1 : S5x2048.Idx → EReal) := by
  obtain ⟨-, -, -, -, -, -, e0, e1, -⟩ := idx_facts t
  funext y
  show V m c main_v1 (((cfg0.win 2).blk t).view.emb y) = V m c main_v1 y
  congr 1
  funext a
  apply Fin.ext
  match a with
  | ⟨0, _⟩ => show win0_2.index t (0 : Fin 2) * 5 + 1 * (y 0).val = (y 0).val; omega
  | ⟨1, _⟩ => show win0_2.index t (1 : Fin 2) * 2048 + 1 * (y 1).val = (y 1).val; omega

/-- Row r of the block of x at point t, read at natural columns, is row 256 b + r of x read so. -/
theorem at2_xblk (c : Dev nD) (t : Fin cfg0.N) (r : Fin 256) :
    at2 (xblk m c t) r.val
      = at2 (V m c main_arg0 : S4096x4096.Idx → EReal) (win0_3.index t (0 : Fin 2) * 256 + r.val) := by
  have h15 : win0_3.index t (0 : Fin 2) ≤ 15 := (idx_facts t).2.2.2.2.2.2.2.2
  have hr : win0_3.index t (0 : Fin 2) * 256 + r.val < 4096 := by have := r.isLt; omega
  funext i
  unfold at2
  by_cases hi : i < 4096
  · rw [dif_pos ⟨r.isLt, hi⟩, dif_pos ⟨hr, hi⟩]
    exact xblk_apply m c t r ⟨i, hi⟩ hr
  · rw [dif_neg (fun h => hi h.2), dif_neg (fun h => hi h.2)]

/-! ## What a point writes back is its block of kerOut -/

/-- What point t writes back is block t of kerOut. -/
theorem flushed3_eq (c : Dev nD) (t : Fin cfg0.N) :
    (dats m 0 c).flushed 3 t = ((cfg0.win 3).blk t).view.read (Elt Ideal) (kerOut m c) := by
  rw [flushed3]
  funext j
  obtain ⟨r, i, rfl⟩ : ∃ (r : Fin 256) (i : Fin 4096), j = ix2 r i := ⟨j 0, j 1, eq_ix2 j⟩
  refine (Cert.KernelIdeal.BodyValue.out0_3_apply (xblk m c t) (mblk m c t) (ablk m c t) r i).trans ?_
  rw [mblk_eq, ablk_eq, at2_xblk]
  obtain ⟨-, -, e1, -⟩ := idx_facts t
  show _ = kerOut m c (((cfg0.win 3).blk t).view.emb (ix2 r i))
  have h0 : ((((cfg0.win 3).blk t).view.emb (ix2 r i)) 0).val = win0_3.index t (0 : Fin 2) * 256 + r.val := by
    show win0_3.index t (0 : Fin 2) * 256 + 1 * r.val = _
    omega
  have h1 : ((((cfg0.win 3).blk t).view.emb (ix2 r i)) 1).val = i.val := by
    show win0_3.index t (1 : Fin 2) * 4096 + 1 * i.val = _
    omega
  unfold kerOut
  rw [h0, h1]

/-! ## The blocks cover the result array -/

/-- An index is in point t's block iff each coordinate is in the block's range on its axis. -/
theorem mem_blk3 (t : Fin cfg0.N) (i : S4096x4096.Idx) :
    i ∈ ((cfg0.win 3).blk t).view.set
      ↔ ∀ a : Fin 2, win0_3.index t a * S256x4096.size a ≤ (i a).val
          ∧ (i a).val < win0_3.index t a * S256x4096.size a + S256x4096.size a := by
  show i ∈ ((View.whole main_v214).slice (win0_3.rect t)).set ↔ _
  rw [View.set_slice_whole, Rect.mem_set_unit]
  exact Iff.rfl

/-- Every index of the result array is in the block of the point whose block index is its row divided by 256. -/
theorem cover3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 256, by omega⟩
  have q0 : win0_3.index t (0 : Fin 2) = (i 0).val / 256 := ht
  obtain ⟨-, -, q1, -⟩ := idx_facts t
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- The result array after the run is kerOut. -/
theorem final3 (c : Dev nD) : (dats m 0 c).arrAt 3 cfg0.N = kerOut m c :=
  (dats m 0 c).arrAt_eq_of_cover 3 (kerOut m c) (fun t _ => flushed3_eq m c t) cover3

/-- Every execution ends with the result array at kerOut and the arguments unchanged. -/
theorem run_kerOut : θ_run defs (onTc (τ := τ) (main (F := Ideal))) ⟨m, fun _ => 0, ρ⟩ fun r => ∀ c : Dev nD,
      r.2.mem ((c : Thread nD τ).loc main_v214) = kerOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post3 m r h c).trans (final3 m c),
      kept_main_arg0 m r h c,
      kept_main_arg1 m r h c⟩)
    (run_main m ρ)

end Cert.KernelIdeal.KerValue

end
-- ==== Proof.lean ====
/-
  A twelve-stage butterfly of plane rotations on the rows of a 4096 × 4096 array: the reference applies the stages
  d = 1, 2, …, 2048 one after the other; the kernel folds the first seven — which act inside blocks of 128 columns —
  into 32 precomputed 128 × 128 matrices (the seven stages applied to the rows of the identity, on the host), multiplies
  each block of each row by its matrix, and applies the last five stages directly.

  Over the extended reals the two agree on finite inputs: a stage is linear in the row as long as every number is a
  real, the cosines and sines of real angles are real, and a block of a row is the sum of its entries times the rows
  of the identity.  The pieces: the reference's result index by index (RefSide), the host side of the kernel (HostSide),
  the kernel's body (Body) and its blocks laid out in the result array (KerValue), finiteness from the precondition
  (Finite), and the linearity argument (Algebra).
-/
import proofs.«124778_j35845797052976_1_alg».proof.Defs
import proofs.«124778_j35845797052976_1_alg».proof.Proof.Gen.Kernel
import proofs.«124778_j35845797052976_1_alg».proof.Proof.KernelFrame
import proofs.«124778_j35845797052976_1_alg».proof.Proof.Gen.KernelIdeal
import proofs.«124778_j35845797052976_1_alg».proof.Proof.KernelIdealFrame
import proofs.«124778_j35845797052976_1_alg».proof.Proof.Gen.ReferenceIdeal
import proofs.«124778_j35845797052976_1_alg».proof.Proof.Gen.ReferenceIdeal.Run
import proofs.«124778_j35845797052976_1_alg».proof.Proof.Gen.Pre_finite_inputs
import proofs.«124778_j35845797052976_1_alg».proof.Proof.Spec
import proofs.«124778_j35845797052976_1_alg».proof.Proof.SpecLemmas
import proofs.«124778_j35845797052976_1_alg».proof.Proof.Algebra
import proofs.«124778_j35845797052976_1_alg».proof.Proof.Finite
import proofs.«124778_j35845797052976_1_alg».proof.Proof.RefSide
import proofs.«124778_j35845797052976_1_alg».proof.Proof.HostSide
import proofs.«124778_j35845797052976_1_alg».proof.Proof.KerValue
import Idealize.ShloMosaic.Adequacy
import Idealize.ShloMosaic.Init

noncomputable section

namespace Cert.Proof

open Idealize.ShloMosaic Idealize.ShloMosaic.TcCoe Idealize.SL.Sem Idealize.ShloMosaic.ValueIdx Cert.Bfly

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- With the block matrices and the five rows of angles as the host operations leave them, the kernel's row formula
    is the one over the argument's own angles. -/
theorem kernelRow_host (A : (⟨2, ![5, 2048]⟩ : Shape).Idx → EReal) (Mx : (⟨3, ![32, 128, 128]⟩ : Shape).Idx → EReal)
    (ang : (⟨2, ![12, 2048]⟩ : Shape).Idx → EReal) (xrow : ℕ → EReal)
    (hA : ∀ (ss : Fin 5) (p : Fin 2048), A (ix2 ss p) = ang (ix2 ⟨7 + ss.val, by omega⟩ p))
    (hM : ∀ (cc : Fin 32) (k j : Fin 128), Mx (ix3 cc k j) = chunkM (at2 ang) cc.val k.val j.val)
    (i : ℕ) (hi : i < 4096) :
    kernelRow (hiAng A) xrow (at3 Mx) i = kernelRow (at2 ang) xrow (chunkM (at2 ang)) i := by
  unfold kernelRow
  refine stages_congr 4096 7 5 (by norm_num) _ _ _ _ ?_ ?_ i hi
  · intro s p hs1 hs2 hp
    have hp' : p < 2048 := by omega
    obtain ⟨ss, rfl⟩ : ∃ ss, s = 7 + ss := ⟨s - 7, by omega⟩
    have hss : ss < 5 := by omega
    unfold hiAng at2
    rw [show 7 + ss - 7 = ss by omega, dif_pos ⟨hss, hp'⟩, dif_pos ⟨by omega, hp'⟩]
    exact hA ⟨ss, hss⟩ ⟨p, hp'⟩
  · intro i' hi'
    unfold mmRow
    refine Finset.sum_congr rfl fun k _ => ?_
    have hc : i' / 128 < 32 := by omega
    have hj : i' % 128 < 128 := Nat.mod_lt _ (by norm_num)
    congr 1
    unfold at3
    rw [dif_pos ⟨hc, k.isLt, hj⟩]
    exact hM ⟨i' / 128, hc⟩ k ⟨i' % 128, hj⟩

theorem algebraic : Cert.algebraic_KernelIdeal_ReferenceIdeal := by
  intro m ρ m' ρ' hpre hagree
  refine ⟨fun c => Cert.KernelIdeal.KerValue.kerOut m c, Cert.KernelIdeal.KerValue.run_kerOut m ρ, ?_⟩
  refine (θ_run Cert.ReferenceIdeal.defs _ _).mono (fun _ h c => ⟨(h c).1.trans ?_, (h c).2⟩)
    (Cert.ReferenceIdeal.RefValue.run_refOut m' ρ')
  obtain ⟨hx, hang⟩ := Cert.Proof.Finite.finite_of_fn _ _ (hpre c)
  funext j
  obtain ⟨b, i, rfl⟩ : ∃ (b i : Fin 4096), j = ix2 b i := ⟨j 0, j 1, eq_ix2 j⟩
  rw [Cert.ReferenceIdeal.RefValue.refOut_apply]
  show refRow (at2 (m' ((c.tc : Thread Cert.ReferenceIdeal.nD Cert.ReferenceIdeal.τ).loc Cert.ReferenceIdeal.main_arg1)))
      (at2 (m' ((c.tc : Thread Cert.ReferenceIdeal.nD Cert.ReferenceIdeal.τ).loc Cert.ReferenceIdeal.main_arg0)) b.val) i.val = _
  rw [(hagree c).1, (hagree c).2]
  unfold Cert.KernelIdeal.KerValue.kerOut
  show _ = kernelRow _ (at2 (Cert.KernelIdeal.GenP.V m c Cert.KernelIdeal.main_arg0) b.val) _ i.val
  rw [Cert.KernelIdeal.GenP.V_main_arg0 m c]
  rw [kernelRow_host (Cert.KernelIdeal.GenP.V m c Cert.KernelIdeal.main_v1) (Cert.KernelIdeal.GenP.V m c Cert.KernelIdeal.main_v213)
    (m ((c.tc : Thread Cert.KernelIdeal.nD Cert.KernelIdeal.τ).loc Cert.KernelIdeal.main_arg1)) _
    (fun ss p => Cert.KernelIdeal.HostValue.hostAng_apply (fun b => m (c, b)) ss p)
    (fun cc k j => Cert.KernelIdeal.HostValue.hostM_apply (fun b => m (c, b)) cc k j) i.val i.isLt]
  refine (kernelRow_eq_refRow _ _ (fun s p hs hp => ?_) (fun i' hi' => ?_) i.val i.isLt).symm
  · unfold at2; rw [dif_pos ⟨by omega, hp⟩]; exact hang _
  · unfold at2; rw [dif_pos ⟨b.isLt, hi'⟩]; exact hx _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
